-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)) (v2 : (c : Dev Cert.KernelIdeal.nD) → Buf (Elt Ideal) ((c.tc : Thread Cert.KernelIdeal.nD Cert.KernelIdeal.τ).loc Cert.KernelIdeal.main_v77_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_v77_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S32x2 : Shape := ⟨2, ![32, 2]⟩
abbrev S2 : Shape := ⟨1, ![2]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x6 : S_.BroadcastsInDim S32x6 (![] : Fin 0 → Fin S32x6.rank)
  reducesTo_S32x6_S_d0_1 : S32x6.ReducesTo [0, 1] S_
  bcast_S_S6 : S_.BroadcastsInDim S6 (![] : Fin 0 → Fin S6.rank)
  reducesTo_S6_S_d0 : S6.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg30 : FVec F S16 .f32) (main_arg31 : FVec F S16x1 .f32) (main_arg32 : FVec F S1 .f32) (main_v133 : IVec S_ 1) (main_v136 : IVec S64x16 1) : IVec S_ 1 :=
  let main_c_53 : IVec S_ 1 := constantI S_ 1 1#1
  let main_v137 : IVec S_ 1 := (fun x v => Host.reduce IntOp.andi x v reducesTo_S64x16_S_d0_1 h_S_) main_v136 main_c_53
  let main_v138 : IVec S_ 1 := andi main_v133 main_v137
  let main_v139 : FVec F S16 .f32 := Host.absf main_arg30
  let main_cst_54 : FVec F S_ .f32 := constant S_ .f32 0x7F800000#32
  let main_v140 : FVec F S16 .f32 := broadcastInDim S16 ![] bcast_S_S16 main_cst_54
  let main_v141 : IVec S16 1 := cmpf .olt main_v139 main_v140
  let main_c_55 : IVec S_ 1 := constantI S_ 1 1#1
  let main_v142 : IVec S_ 1 := (fun x v => Host.reduce IntOp.andi x v reducesTo_S16_S_d0 h_S_) main_v141 main_c_55
  let main_v143 : IVec S_ 1 := andi main_v138 main_v142
  let main_v144 : FVec F S16x1 .f32 := Host.absf main_arg31
  let main_cst_56 : FVec F S_ .f32 := constant S_ .f32 0x7F800000#32
  let main_v145 : FVec F S16x1 .f32 := broadcastInDim S16x1 ![] bcast_S_S16x1 main_cst_56
  let main_v146 : IVec S16x1 1 := cmpf .olt main_v144 main_v145
  let main_c_57 : IVec S_ 1 := constantI S_ 1 1#1
  let main_v147 : IVec S_ 1 := (fun x v => Host.reduce IntOp.andi x v reducesTo_S16x1_S_d0_1 h_S_) main_v146 main_c_57
  let main_v148 : IVec S_ 1 := andi main_v143 main_v147
  let main_v149 : FVec F S1 .f32 := Host.absf main_arg32
  let main_cst_58 : FVec F S_ .f32 := constant S_ .f32 0x7F800000#32
  let main_v150 : FVec F S1 .f32 := broadcastInDim S1 ![] bcast_S_S1 main_cst_58
  let main_v151 : IVec S1 1 := cmpf .olt main_v149 main_v150
  let main_c_59 : IVec S_ 1 := constantI S_ 1 1#1
  let main_v152 : IVec S_ 1 := (fun x v => Host.reduce IntOp.andi x v reducesTo_S1_S_d0 h_S_) main_v151 main_c_59
  let main_v153 : IVec S_ 1 := andi main_v148 main_v152
  main_v153

def fn_part7 {F : FTy → Type} [FloatOps F] (main_arg27 : FVec F S32x2 .f32) (main_arg28 : FVec F S2 .f32) (main_arg29 : FVec F S64x16 .f32) (main_arg30 : FVec F S16 .f32) (main_arg31 : FVec F S16x1 .f32) (main_arg32 : FVec F S1 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x2 .f32 := Host.absf main_arg27
  let main_cst_48 : FVec F S_ .f32 := constant S_ .f32 0x7F800000#32
  let main_v125 : FVec F S32x2 .f32 := broadcastInDim S32x2 ![] bcast_S_S32x2 main_cst_48
  let main_v126 : IVec S32x2 1 := cmpf .olt main_v124 main_v125
  let main_c_49 : IVec S_ 1 := constantI S_ 1 1#1
  let main_v127 : IVec S_ 1 := (fun x v => Host.reduce IntOp.andi x v reducesTo_S32x2_S_d0_1 h_S_) main_v126 main_c_49
  let main_v128 : IVec S_ 1 := andi main_v123 main_v127
  let main_v129 : FVec F S2 .f32 := Host.absf main_arg28
  let main_cst_50 : FVec F S_ .f32 := constant S_ .f32 0x7F800000#32
  let main_v130 : FVec F S2 .f32 := broadcastInDim S2 ![] bcast_S_S2 main_cst_50
  let main_v131 : IVec S2 1 := cmpf .olt main_v129 main_v130
  let main_c_51 : IVec S_ 1 := constantI S_ 1 1#1
  let main_v132 : IVec S_ 1 := (fun x v => Host.reduce IntOp.andi x v reducesTo_S2_S_d0 h_S_) main_v131 main_c_51
  let main_v133 : IVec S_ 1 := andi main_v128 main_v132
  let main_v134 : FVec F S64x16 .f32 := Host.absf main_arg29
  let main_cst_52 : FVec F S_ .f32 := constant S_ .f32 0x7F800000#32
  let main_v135 : FVec F S64x16 .f32 := broadcastInDim S64x16 ![] bcast_S_S64x16 main_cst_52
  let main_v136 : IVec S64x16 1 := cmpf .olt main_v134 main_v135
  fn_part8 (F := F) main_arg30 main_arg31 main_arg32 main_v133 main_v136

def fn_part6 {F : FTy → Type} [FloatOps F] (main_arg23 : FVec F S32x6 .f32) (main_arg24 : FVec F S6 .f32) (main_arg25 : FVec F S64x32 .f32) (main_arg26 : FVec F S32 .f32) (main_arg27 : FVec F S32x2 .f32) (main_arg28 : FVec F S2 .f32) (main_arg29 : FVec F S64x16 .f32) (main_arg30 : FVec F S16 .f32) (main_arg31 : FVec F S16x1 .f32) (main_arg32 : FVec F S1 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x6 .f32 := Host.absf main_arg23
  let main_cst_40 : FVec F S_ .f32 := constant S_ .f32 0x7F800000#32
  let main_v105 : FVec F S32x6 .f32 := broadcastInDim S32x6 ![] bcast_S_S32x6 main_cst_40
  let main_v106 : IVec S32x6 1 := cmpf .olt main_v104 main_v105
  let main_c_41 : IVec S_ 1 := constantI S_ 1 1#1
  let main_v107 : IVec S_ 1 := (fun x v => Host.reduce IntOp.andi x v reducesTo_S32x6_S_d0_1 h_S_) main_v106 main_c_41
  let main_v108 : IVec S_ 1 := andi main_v103 main_v107
  let main_v109 : FVec F S6 .f32 := Host.absf main_arg24
  let main_cst_42 : FVec F S_ .f32 := constant S_ .f32 0x7F800000#32
  let main_v110 : FVec F S6 .f32 := broadcastInDim S6 ![] bcast_S_S6 main_cst_42
  let main_v111 : IVec S6 1 := cmpf .olt main_v109 main_v110
  let main_c_43 : IVec S_ 1 := constantI S_ 1 1#1
  let main_v112 : IVec S_ 1 := (fun x v => Host.reduce IntOp.andi x v reducesTo_S6_S_d0 h_S_) main_v111 main_c_43
  let main_v113 : IVec S_ 1 := andi main_v108 main_v112
  let main_v114 : FVec F S64x32 .f32 := Host.absf main_arg25
  let main_cst_44 : FVec F S_ .f32 := constant S_ .f32 0x7F800000#32
  let main_v115 : FVec F S64x32 .f32 := broadcastInDim S64x32 ![] bcast_S_S64x32 main_cst_44
  let main_v116 : IVec S64x32 1 := cmpf .olt main_v114 main_v115
  let main_c_45 : IVec S_ 1 := constantI S_ 1 1#1
  let main_v117 : IVec S_ 1 := (fun x v => Host.reduce IntOp.andi x v reducesTo_S64x32_S_d0_1 h_S_) main_v116 main_c_45
  let main_v118 : IVec S_ 1 := andi main_v113 main_v117
  let main_v119 : FVec F S32 .f32 := Host.absf main_arg26
  fn_part7 (F := F) main_arg27 main_arg28 main_arg29 main_arg30 main_arg31 main_arg32 main_v118 main_v119

def fn_part5 {F : FTy → Type} [FloatOps F] (main_arg20 : FVec F S64 .f32) (main_arg21 : FVec F S64x32 .f32) (main_arg22 : FVec F S32 .f32) (main_arg23 : FVec F S32x6 .f32) (main_arg24 : FVec F S6 .f32) (main_arg25 : FVec F S64x32 .f32) (main_arg26 : FVec F S32 .f32) (main_arg27 : FVec F S32x2 .f32) (main_arg28 : FVec F S2 .f32) (main_arg29 : FVec F S64x16 .f32) (main_arg30 : FVec F S16 .f32) (main_arg31 : FVec F S16x1 .f32) (main_arg32 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x32 .f32 := Host.absf main_arg21
  let main_cst_36 : FVec F S_ .f32 := constant S_ .f32 0x7F800000#32
  let main_v95 : FVec F S64x32 .f32 := broadcastInDim S64x32 ![] bcast_S_S64x32 main_cst_36
  let main_v96 : IVec S64x32 1 := cmpf .olt main_v94 main_v95
  let main_c_37 : IVec S_ 1 := constantI S_ 1 1#1
  let main_v97 : IVec S_ 1 := (fun x v => Host.reduce IntOp.andi x v reducesTo_S64x32_S_d0_1 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_v98 main_v101 main_c_39

def fn_part4 {F : FTy → Type} [FloatOps F] (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x6 .f32) (main_arg24 : FVec F S6 .f32) (main_arg25 : FVec F S64x32 .f32) (main_arg26 : FVec F S32 .f32) (main_arg27 : FVec F S32x2 .f32) (main_arg28 : FVec F S2 .f32) (main_arg29 : FVec F S64x16 .f32) (main_arg30 : FVec F S16 .f32) (main_arg31 : FVec F S16x1 .f32) (main_arg32 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x6 .f32) (main_arg24 : FVec F S6 .f32) (main_arg25 : FVec F S64x32 .f32) (main_arg26 : FVec F S32 .f32) (main_arg27 : FVec F S32x2 .f32) (main_arg28 : FVec F S2 .f32) (main_arg29 : FVec F S64x16 .f32) (main_arg30 : FVec F S16 .f32) (main_arg31 : FVec F S16x1 .f32) (main_arg32 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x6 .f32) (main_arg24 : FVec F S6 .f32) (main_arg25 : FVec F S64x32 .f32) (main_arg26 : FVec F S32 .f32) (main_arg27 : FVec F S32x2 .f32) (main_arg28 : FVec F S2 .f32) (main_arg29 : FVec F S64x16 .f32) (main_arg30 : FVec F S16 .f32) (main_arg31 : FVec F S16x1 .f32) (main_arg32 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x6 .f32) (main_arg24 : FVec F S6 .f32) (main_arg25 : FVec F S64x32 .f32) (main_arg26 : FVec F S32 .f32) (main_arg27 : FVec F S32x2 .f32) (main_arg28 : FVec F S2 .f32) (main_arg29 : FVec F S64x16 .f32) (main_arg30 : FVec F S16 .f32) (main_arg31 : FVec F S16x1 .f32) (main_arg32 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S50000x3 .f32) (main_arg1 : IVec S2x800000 32) (main_arg2 : IVec S50000 32) (main_arg3 : FVec F S3x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x6 .f32) (main_arg24 : FVec F S6 .f32) (main_arg25 : FVec F S64x32 .f32) (main_arg26 : FVec F S32 .f32) (main_arg27 : FVec F S32x2 .f32) (main_arg28 : FVec F S2 .f32) (main_arg29 : FVec F S64x16 .f32) (main_arg30 : FVec F S16 .f32) (main_arg31 : FVec F S16x1 .f32) (main_arg32 : FVec F S1 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S32x2 : Shape := ⟨2, ![32, 2]⟩
abbrev S2 : Shape := ⟨1, ![2]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S2000x3 : Shape := ⟨2, ![2000, 3]⟩
abbrev S2000x1 : Shape := ⟨2, ![2000, 1]⟩
abbrev S2000x64 : Shape := ⟨2, ![2000, 64]⟩
abbrev S800000x64 : Shape := ⟨2, ![800000, 64]⟩
abbrev S1x64 : Shape := ⟨2, ![1, 64]⟩
abbrev S64x1 : Shape := ⟨2, ![64, 1]⟩
abbrev S1x32 : Shape := ⟨2, ![1, 32]⟩
abbrev S1x6 : Shape := ⟨2, ![1, 6]⟩
abbrev S1x2 : Shape := ⟨2, ![1, 2]⟩
abbrev S1x16 : Shape := ⟨2, ![1, 16]⟩
abbrev S1x1 : Shape := ⟨2, ![1, 1]⟩
abbrev S64x6 : Shape := ⟨2, ![64, 6]⟩
abbrev S64x2 : Shape := ⟨2, ![64, 2]⟩

abbrev nBuf : Space → Nat
  | .hbm => 128
  | .vmem => 65
  | .smem => 0
  | _ => 0

abbrev bufTy : (tb : Table) → Fin (tcTables nBuf tb) → BufTy
  | .hbm, ⟨0, _⟩ => ⟨S50000x3, .f32⟩
  | .hbm, ⟨1, _⟩ => ⟨S2x800000, .i32⟩
  | .hbm, ⟨2, _⟩ => ⟨S50000, .i32⟩
  | .hbm, ⟨3, _⟩ => ⟨S3x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64x32, .f32⟩
  | .hbm, ⟨22, _⟩ => ⟨S32, .f32⟩
  | .hbm, ⟨23, _⟩ => ⟨S32x6, .f32⟩
  | .hbm, ⟨24, _⟩ => ⟨S6, .f32⟩
  | .hbm, ⟨25, _⟩ => ⟨S64x32, .f32⟩
  | .hbm, ⟨26, _⟩ => ⟨S32, .f32⟩
  | .hbm, ⟨27, _⟩ => ⟨S32x2, .f32⟩
  | .hbm, ⟨28, _⟩ => ⟨S2, .f32⟩
  | .hbm, ⟨29, _⟩ => ⟨S64x16, .f32⟩
  | .hbm, ⟨30, _⟩ => ⟨S16, .f32⟩
  | .hbm, ⟨31, _⟩ => ⟨S16x1, .f32⟩
  | .hbm, ⟨32, _⟩ => ⟨S1, .f32⟩
  | .hbm, ⟨33, _⟩ => ⟨S1x800000, .i32⟩
  | .hbm, ⟨34, _⟩ => ⟨S800000, .i32⟩
  | .hbm, ⟨35, _⟩ => ⟨S1x800000, .i32⟩
  | .hbm, ⟨36, _⟩ => ⟨S800000, .i32⟩
  | .hbm, ⟨37, _⟩ => ⟨S_, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x1, .i32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S50000x64, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x64, .f32⟩
  | .hbm, ⟨78, _⟩ => ⟨S_, .f32⟩
  | .hbm, ⟨79, _⟩ => ⟨S50000x64, .f32⟩
  | .hbm, ⟨80, _⟩ => ⟨S800000x1, .i32⟩
  | .hbm, ⟨81, _⟩ => ⟨S50000x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S50000x64, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x64, .f32⟩
  | .hbm, ⟨97, _⟩ => ⟨S_, .f32⟩
  | .hbm, ⟨98, _⟩ => ⟨S50000x64, .f32⟩
  | .hbm, ⟨99, _⟩ => ⟨S800000x1, .i32⟩
  | .hbm, ⟨100, _⟩ => ⟨S50000x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S64x64, .f32⟩
  | .hbm, ⟨107, _⟩ => ⟨S_, .f32⟩
  | .hbm, ⟨108, _⟩ => ⟨S50000, .f32⟩
  | .hbm, ⟨109, _⟩ => ⟨S_, .f32⟩
  | .hbm, ⟨110, _⟩ => ⟨S64, .f32⟩
  | .hbm, ⟨111, _⟩ => ⟨S50000x1, .i32⟩
  | .hbm, ⟨112, _⟩ => ⟨S64, .f32⟩
  | .hbm, ⟨113, _⟩ => ⟨S_, .f32⟩
  | .hbm, ⟨114, _⟩ => ⟨S64, .f32⟩
  | .hbm, ⟨115, _⟩ => ⟨S64, .f32⟩
  | .hbm, ⟨116, _⟩ => ⟨S64x1, .f32⟩
  | .hbm, ⟨117, _⟩ => ⟨S64x64, .f32⟩
  | .hbm, ⟨118, _⟩ => ⟨S64x64, .f32⟩
  | .hbm, ⟨119, _⟩ => ⟨S1x32, .f32⟩
  | .hbm, ⟨120, _⟩ => ⟨S1x6, .f32⟩
  | .hbm, ⟨121, _⟩ => ⟨S1x32, .f32⟩
  | .hbm, ⟨122, _⟩ => ⟨S1x2, .f32⟩
  | .hbm, ⟨123, _⟩ => ⟨S1x16, .f32⟩
  | .hbm, ⟨124, _⟩ => ⟨S1x1, .f32⟩
  | .hbm, ⟨125, _⟩ => ⟨S64x6, .f32⟩
  | .hbm, ⟨126, _⟩ => ⟨S64x2, .f32⟩
  | .hbm, ⟨127, _⟩ => ⟨S64x1, .f32⟩
  | .local _ .vmem, ⟨0, _⟩ => ⟨S2000x3, .f32⟩
  | .local _ .vmem, ⟨1, _⟩ => ⟨S2000x3, .f32⟩
  | .local _ .vmem, ⟨2, _⟩ => ⟨S3x64, .f32⟩
  | .local _ .vmem, ⟨3, _⟩ => ⟨S2000x1, .f32⟩
  | .local _ .vmem, ⟨4, _⟩ => ⟨S2000x1, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x1, .f32⟩
  | .local _ .vmem, ⟨12, _⟩ => ⟨S2000x1, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x1, .f32⟩
  | .local _ .vmem, ⟨26, _⟩ => ⟨S2000x1, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S64x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x1, .f32⟩
  | .local _ .vmem, ⟨40, _⟩ => ⟨S2000x1, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S2000x1, .i32⟩
  | .local _ .vmem, ⟨47, _⟩ => ⟨S2000x1, .i32⟩
  | .local _ .vmem, ⟨48, _⟩ => ⟨S64x64, .f32⟩
  | .local _ .vmem, ⟨49, _⟩ => ⟨S64x64, .f32⟩
  | .local _ .vmem, ⟨50, _⟩ => ⟨S64x32, .f32⟩
  | .local _ .vmem, ⟨51, _⟩ => ⟨S1x32, .f32⟩
  | .local _ .vmem, ⟨52, _⟩ => ⟨S32x6, .f32⟩
  | .local _ .vmem, ⟨53, _⟩ => ⟨S1x6, .f32⟩
  | .local _ .vmem, ⟨54, _⟩ => ⟨S64x32, .f32⟩
  | .local _ .vmem, ⟨55, _⟩ => ⟨S1x32, .f32⟩
  | .local _ .vmem, ⟨56, _⟩ => ⟨S32x2, .f32⟩
  | .local _ .vmem, ⟨57, _⟩ => ⟨S1x2, .f32⟩
  | .local _ .vmem, ⟨58, _⟩ => ⟨S64x16, .f32⟩
  | .local _ .vmem, ⟨59, _⟩ => ⟨S1x16, .f32⟩
  | .local _ .vmem, ⟨60, _⟩ => ⟨S16x1, .f32⟩
  | .local _ .vmem, ⟨61, _⟩ => ⟨S1x1, .f32⟩
  | .local _ .vmem, ⟨62, _⟩ => ⟨S64x6, .f32⟩
  | .local _ .vmem, ⟨63, _⟩ => ⟨S64x2, .f32⟩
  | .local _ .vmem, ⟨64, _⟩ => ⟨S64x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_cst_0 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_1 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_c : Ref sig .tc := ⟨.hbm, 50, rfl⟩
abbrev main_v14 : Ref sig .tc := ⟨.hbm, 51, rfl⟩
abbrev main_v15 : Ref sig .tc := ⟨.hbm, 52, rfl⟩
abbrev main_c_2 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_3 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_c_4 : Ref sig .tc := ⟨.hbm, 69, rfl⟩
abbrev main_v30 : Ref sig .tc := ⟨.hbm, 70, rfl⟩
abbrev main_v31 : Ref sig .tc := ⟨.hbm, 71, rfl⟩
abbrev main_c_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_6 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_7 : Ref sig .tc := ⟨.hbm, 88, rfl⟩
abbrev main_v46 : Ref sig .tc := ⟨.hbm, 89, rfl⟩
abbrev main_v47 : Ref sig .tc := ⟨.hbm, 90, rfl⟩
abbrev main_c_8 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_9 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_10 : Ref sig .tc := ⟨.hbm, 107, rfl⟩
abbrev main_v62 : Ref sig .tc := ⟨.hbm, 108, rfl⟩
abbrev main_cst_11 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_12 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77_0 : Ref sig .tc := ⟨.hbm, 125, rfl⟩
abbrev main_v77_1 : Ref sig .tc := ⟨.hbm, 126, rfl⟩
abbrev main_v77_2 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc3_stg9_0 : Ref sig .tc := ⟨.vmem, 48, rfl⟩
abbrev cc4_stg0_0 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg9_0 : Ref sig .tc := ⟨.vmem, 58, rfl⟩
abbrev cc4_stg10_0 : Ref sig .tc := ⟨.vmem, 59, rfl⟩
abbrev cc4_stg11_0 : Ref sig .tc := ⟨.vmem, 60, rfl⟩
abbrev cc4_stg12_0 : Ref sig .tc := ⟨.vmem, 61, rfl⟩
abbrev cc4_stg13_0 : Ref sig .tc := ⟨.vmem, 62, rfl⟩
abbrev cc4_stg14_0 : Ref sig .tc := ⟨.vmem, 63, rfl⟩
abbrev cc4_stg15_0 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem9_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47
abbrev cc3_sem9_0 : DmaSem sig := 48
abbrev cc4_sem0_0 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem9_0 : DmaSem sig := 58
abbrev cc4_sem10_0 : DmaSem sig := 59
abbrev cc4_sem11_0 : DmaSem sig := 60
abbrev cc4_sem12_0 : DmaSem sig := 61
abbrev cc4_sem13_0 : DmaSem sig := 62
abbrev cc4_sem14_0 : DmaSem sig := 63
abbrev cc4_sem15_0 : DmaSem sig := 64

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x1 .i32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S64x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x6 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x6 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S32x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x2 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x16 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x16 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S16x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x1 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S64x6 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S64x2 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S64x1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  iota_S2000x64_d1_w32 : S2000x64.Iotas .tc 32 [1]
  natLt_1_32 : 1 < 32
  shapeCasts_S64x64_S64x64 : S64x64.ShapeCasts S64x64
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S32_S1x32 : S32.ShapeCasts S1x32
  shapeCasts_S6_S1x6 : S6.ShapeCasts S1x6
  shapeCasts_S2_S1x2 : S2.ShapeCasts S1x2
  shapeCasts_S16_S1x16 : S16.ShapeCasts S1x16
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x6_S32x6_0_0 : ∀ a, (![0, 0] : Fin 2 → Nat) a + S32x6.size a ≤ S32x6.size a
  h_S32x6 : 0 < S32x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S64x6 : S1x6.Broadcasts S64x6
  inb_S64x6_S64x6_0_0 : ∀ a, (![0, 0] : Fin 2 → Nat) a + S64x6.size a ≤ S64x6.size a
  h_S64x6 : 0 < S64x6.numel
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  scatter_S50000_S800000x1_S800000_n_0_0_1_wf : ScatterDims.WF S50000 S800000x1 S800000 [] [0] [0] 1
  dot_S2000x3_S3x64_S2000x64_1_0_0_1_n_n_wf : DotDims.WF S2000x3 S3x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S2000x64_S64x64_0_0_1_1_n_n_wf : DotDims.WF S2000x64 S2000x64 S64x64 [0] [0] [1] [1] [] []
  scatter_S64_S50000x1_S50000_n_0_0_1_wf : ScatterDims.WF S64 S50000x1 S50000 [] [0] [0] 1
  dot_S64x64_S64x32_S64x32_1_0_0_1_n_n_wf : DotDims.WF S64x64 S64x32 S64x32 [1] [0] [0] [1] [] []
  dot_S64x32_S32x6_S64x6_1_0_0_1_n_n_wf : DotDims.WF S64x32 S32x6 S64x6 [1] [0] [0] [1] [] []
  dot_S64x32_S32x2_S64x2_1_0_0_1_n_n_wf : DotDims.WF S64x32 S32x2 S64x2 [1] [0] [0] [1] [] []
  dot_S64x64_S64x16_S64x16_1_0_0_1_n_n_wf : DotDims.WF S64x64 S64x16 S64x16 [1] [0] [0] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S50000x3.size a
  hwx0_0 : ∀ i : grid0.Coords, EltTy.bits .f32 = 32 ∨ (Rect.block (s := S50000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S50000x64.size a
  hwx1_9 : ∀ i : grid1.Coords, EltTy.bits .f32 = 32 ∨ (Rect.block (s := S50000x64) S2000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x64.size a ≤ S50000x64.size a
  hwx2_9 : ∀ i : grid2.Coords, EltTy.bits .f32 = 32 ∨ (Rect.block (s := S50000x64) S2000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x1.size a ≤ S50000x1.size a
  hwx3_8 : ∀ i : grid3.Coords, EltTy.bits .i32 = 32 ∨ (Rect.block (s := S50000x1) S2000x1.size (cc3_transform_8 i) (hinb3_8 i)).WholeWords (EltTy.packing .i32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x64.size a ≤ S64x64.size a
  hwx3_9 : ∀ i : grid3.Coords, EltTy.bits .f32 = 32 ∨ (Rect.block (s := S64x64) S64x64.size (cc3_transform_9 i) (hinb3_9 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x6.size a ≤ S32x6.size a
  hwx4_3 : ∀ i : grid4.Coords, EltTy.bits .f32 = 32 ∨ (Rect.block (s := S32x6) S32x6.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x6.size a ≤ S1x6.size a
  hwx4_4 : ∀ i : grid4.Coords, EltTy.bits .f32 = 32 ∨ (Rect.block (s := S1x6) S1x6.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x32.size a ≤ S64x32.size a
  hwx4_5 : ∀ i : grid4.Coords, EltTy.bits .f32 = 32 ∨ (Rect.block (s := S64x32) S64x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S32x2.size a ≤ S32x2.size a
  hwx4_7 : ∀ i : grid4.Coords, EltTy.bits .f32 = 32 ∨ (Rect.block (s := S32x2) S32x2.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x2.size a ≤ S1x2.size a
  hwx4_8 : ∀ i : grid4.Coords, EltTy.bits .f32 = 32 ∨ (Rect.block (s := S1x2) S1x2.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x16.size a ≤ S64x16.size a
  hwx4_9 : ∀ i : grid4.Coords, EltTy.bits .f32 = 32 ∨ (Rect.block (s := S64x16) S64x16.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x16.size a ≤ S1x16.size a
  hwx4_10 : ∀ i : grid4.Coords, EltTy.bits .f32 = 32 ∨ (Rect.block (s := S1x16) S1x16.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S16x1.size a ≤ S16x1.size a
  hwx4_11 : ∀ i : grid4.Coords, EltTy.bits .f32 = 32 ∨ (Rect.block (s := S16x1) S16x1.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x1.size a ≤ S1x1.size a
  hwx4_12 : ∀ i : grid4.Coords, EltTy.bits .f32 = 32 ∨ (Rect.block (s := S1x1) S1x1.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S64x6.size a ≤ S64x6.size a
  hwx4_13 : ∀ i : grid4.Coords, EltTy.bits .f32 = 32 ∨ (Rect.block (s := S64x6) S64x6.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S64x2.size a ≤ S64x2.size a
  hwx4_14 : ∀ i : grid4.Coords, EltTy.bits .f32 = 32 ∨ (Rect.block (s := S64x2) S64x2.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S64x1.size a ≤ S64x1.size a
  hwx4_15 : ∀ i : grid4.Coords, EltTy.bits .f32 = 32 ∨ (Rect.block (s := S64x1) S64x1.size (cc4_transform_15 i) (hinb4_15 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x3_S3x64_S2000x64_1_0_0_1_n_n : DotDims S2000x3 S3x64 S2000x64 where
  lhsContracting := [1]
  rhsContracting := [0]
  lhsNonContracting := [0]
  rhsNonContracting := [1]
  lhsBatch := []
  rhsBatch := []
  wf := dot_S2000x3_S3x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x6_S64x6_1_0_0_1_n_n : DotDims S64x32 S32x6 S64x6 where
  lhsContracting := [1]
  rhsContracting := [0]
  lhsNonContracting := [0]
  rhsNonContracting := [1]
  lhsBatch := []
  rhsBatch := []
  wf := dot_S64x32_S32x6_S64x6_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg5) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S2000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v39) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg7) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v45) S2000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v55) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v60) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v12) S2000x1.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v61) S64x64.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v70) S64x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg21) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg23) S32x6.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x6.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg25) S64x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg27) S32x2.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v74) S1x2.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg29) S64x16.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v75) S1x16.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg31) S16x1.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v76) S1x1.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v77_0) S64x6.size cc4_transform_13 reads4_13 true true 1 stage4_13 sem4_13
    hrank4 hreads4_13 hinb4_13 nbuf4_13 (Memref.isWhole_whole _) hwx4_13 hstage4_13

abbrev win4_14 : Pipeline.Window sig grid4 :=
  Pipeline.Window.ofSpec (Memref.whole main_v77_1) S64x2.size cc4_transform_14 reads4_14 true true 1 stage4_14 sem4_14
    hrank4 hreads4_14 hinb4_14 nbuf4_14 (Memref.isWhole_whole _) hwx4_14 hstage4_14

abbrev win4_15 : Pipeline.Window sig grid4 :=
  Pipeline.Window.ofSpec (Memref.whole main_v77_2) S64x1.size cc4_transform_15 reads4_15 true true 1 stage4_15 sem4_15
    hrank4 hreads4_15 hinb4_15 nbuf4_15 (Memref.isWhole_whole _) hwx4_15 hstage4_15

abbrev win4 : Fin 16 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | ⟨_ + 16, h⟩ => absurd h (Nat.not_lt.2 (Nat.le_add_left _ _))
abbrev spec4 : Fin 16 → Pipeline.WinSpec sig grid4.rank := fun w => (win4 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x6 : Shape := ⟨2, ![32, 6]⟩
abbrev S6 : Shape := ⟨1, ![6]⟩
abbrev S32x2 : Shape := ⟨2, ![32, 2]⟩
abbrev S2 : Shape := ⟨1, ![2]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩
abbrev S64x1 : Shape := ⟨2, ![64, 1]⟩
abbrev S1x32 : Shape := ⟨2, ![1, 32]⟩
abbrev S64x6 : Shape := ⟨2, ![64, 6]⟩
abbrev S1x6 : Shape := ⟨2, ![1, 6]⟩
abbrev S64x2 : Shape := ⟨2, ![64, 2]⟩
abbrev S1x2 : Shape := ⟨2, ![1, 2]⟩
abbrev S1x16 : Shape := ⟨2, ![1, 16]⟩
abbrev S1x1 : Shape := ⟨2, ![1, 1]⟩

abbrev nBuf : Space → Nat
  | .hbm => 257
  | .vmem => 0
  | .smem => 0
  | _ => 0

abbrev hbmTy0_0 (i : Nat) : BufTy := match i % 128 with
  | 0 => ⟨S50000x3, .f32⟩
  | 1 => ⟨S2x800000, .i32⟩
  | 2 => ⟨S50000, .i32⟩
  | 3 => ⟨S3x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S64x32, .f32⟩
  | 22 => ⟨S32, .f32⟩
  | 23 => ⟨S32x6, .f32⟩
  | 24 => ⟨S6, .f32⟩
  | 25 => ⟨S64x32, .f32⟩
  | 26 => ⟨S32, .f32⟩
  | 27 => ⟨S32x2, .f32⟩
  | 28 => ⟨S2, .f32⟩
  | 29 => ⟨S64x16, .f32⟩
  | 30 => ⟨S16, .f32⟩
  | 31 => ⟨S16x1, .f32⟩
  | 32 => ⟨S1, .f32⟩
  | 33 => ⟨S1x800000, .i32⟩
  | 34 => ⟨S800000, .i32⟩
  | 35 => ⟨S1x800000, .i32⟩
  | 36 => ⟨S800000, .i32⟩
  | 37 => ⟨S_, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S50000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S800000, .f32⟩
  | 66 => ⟨S800000x1, .f32⟩
  | 67 => ⟨S50000, .f32⟩
  | 68 => ⟨S50000x1, .f32⟩
  | 69 => ⟨S50000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S800000x64, .f32⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S50000x64, .f32⟩
  | 86 => ⟨S50000x64, .f32⟩
  | 87 => ⟨S50000x64, .f32⟩
  | 88 => ⟨S1x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S_, .f32⟩
  | 95 => ⟨S64, .f32⟩
  | 96 => ⟨S64, .f32⟩
  | 97 => ⟨S64, .f32⟩
  | 98 => ⟨S1x64, .f32⟩
  | 99 => ⟨S50000x64, .f32⟩
  | 100 => ⟨S50000x64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x64, .f32⟩
  | 121 => ⟨S800000x64, .f32⟩
  | 122 => ⟨S_, .f32⟩
  | 123 => ⟨S50000x64, .f32⟩
  | 124 => ⟨S800000x1, .i32⟩
  | 125 => ⟨S50000x64, .f32⟩
  | 126 => ⟨S50000x64, .f32⟩
  | 127 => ⟨S50000x64, .f32⟩
  | _ => ⟨S50000x3, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S64, .f32⟩
  | 9 => ⟨S64, .f32⟩
  | 10 => ⟨S64, .f32⟩
  | 11 => ⟨S1x64, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S_, .f32⟩
  | 21 => ⟨S50000x64, .f32⟩
  | 22 => ⟨S50000x64, .f32⟩
  | 23 => ⟨S50000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x64, .f32⟩
  | 34 => ⟨S800000x64, .f32⟩
  | 35 => ⟨S_, .f32⟩
  | 36 => ⟨S50000x64, .f32⟩
  | 37 => ⟨S800000x1, .i32⟩
  | 38 => ⟨S50000x64, .f32⟩
  | 39 => ⟨S50000x64, .f32⟩
  | 40 => ⟨S50000x64, .f32⟩
  | 41 => ⟨S50000x64, .f32⟩
  | 42 => ⟨S1x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S_, .f32⟩
  | 49 => ⟨S64, .f32⟩
  | 50 => ⟨S64, .f32⟩
  | 51 => ⟨S64, .f32⟩
  | 52 => ⟨S1x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S1x64, .f32⟩
  | 59 => ⟨S50000x64, .f32⟩
  | 60 => ⟨S50000x64, .f32⟩
  | 61 => ⟨S_, .f32⟩
  | 62 => ⟨S50000x64, .f32⟩
  | 63 => ⟨S50000x64, .f32⟩
  | 64 => ⟨S_, .f32⟩
  | 65 => ⟨S50000, .f32⟩
  | 66 => ⟨S_, .f32⟩
  | 67 => ⟨S64, .f32⟩
  | 68 => ⟨S50000x1, .i32⟩
  | 69 => ⟨S64, .f32⟩
  | 70 => ⟨S_, .f32⟩
  | 71 => ⟨S64x64, .f32⟩
  | 72 => ⟨S50000x1, .i32⟩
  | 73 => ⟨S64x64, .f32⟩
  | 74 => ⟨S_, .f32⟩
  | 75 => ⟨S64, .f32⟩
  | 76 => ⟨S64, .f32⟩
  | 77 => ⟨S64x1, .f32⟩
  | 78 => ⟨S64x64, .f32⟩
  | 79 => ⟨S64x64, .f32⟩
  | 80 => ⟨S64x32, .f32⟩
  | 81 => ⟨S1x32, .f32⟩
  | 82 => ⟨S64x32, .f32⟩
  | 83 => ⟨S64x32, .f32⟩
  | 84 => ⟨S_, .f32⟩
  | 85 => ⟨S64x32, .f32⟩
  | 86 => ⟨S64x32, .f32⟩
  | 87 => ⟨S64x6, .f32⟩
  | 88 => ⟨S1x6, .f32⟩
  | 89 => ⟨S64x6, .f32⟩
  | 90 => ⟨S64x6, .f32⟩
  | 91 => ⟨S64x32, .f32⟩
  | 92 => ⟨S1x32, .f32⟩
  | 93 => ⟨S64x32, .f32⟩
  | 94 => ⟨S64x32, .f32⟩
  | 95 => ⟨S_, .f32⟩
  | 96 => ⟨S64x32, .f32⟩
  | 97 => ⟨S64x32, .f32⟩
  | 98 => ⟨S64x2, .f32⟩
  | 99 => ⟨S1x2, .f32⟩
  | 100 => ⟨S64x2, .f32⟩
  | 101 => ⟨S64x2, .f32⟩
  | 102 => ⟨S64x2, .f32⟩
  | 103 => ⟨S64x2, .f32⟩
  | 104 => ⟨S_, .f32⟩
  | 105 => ⟨S64x2, .f32⟩
  | 106 => ⟨S64x2, .f32⟩
  | 107 => ⟨S_, .f32⟩
  | 108 => ⟨S64x2, .f32⟩
  | 109 => ⟨S64x2, .f32⟩
  | 110 => ⟨S64x16, .f32⟩
  | 111 => ⟨S1x16, .f32⟩
  | 112 => ⟨S64x16, .f32⟩
  | 113 => ⟨S64x16, .f32⟩
  | 114 => ⟨S_, .f32⟩
  | 115 => ⟨S64x16, .f32⟩
  | 116 => ⟨S64x16, .f32⟩
  | 117 => ⟨S64x1, .f32⟩
  | 118 => ⟨S1x1, .f32⟩
  | 119 => ⟨S64x1, .f32⟩
  | 120 => ⟨S64x1, .f32⟩
  | 121 => ⟨S64x1, .f32⟩
  | 122 => ⟨S64x1, .f32⟩
  | 123 => ⟨S_, .f32⟩
  | 124 => ⟨S64x1, .f32⟩
  | 125 => ⟨S64x1, .f32⟩
  | 126 => ⟨S_, .f32⟩
  | 127 => ⟨S64x1, .f32⟩
  | _ => ⟨S50000x3, .f32⟩

abbrev hbmTy0_2 (i : Nat) : BufTy := match i % 128 with
  | 0 => ⟨S64x1, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_cst_0 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_1 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_c : Ref sig .tc := ⟨.hbm, 47, rfl⟩
abbrev main_v11 : Ref sig .tc := ⟨.hbm, 48, rfl⟩
abbrev main_v12 : Ref sig .tc := ⟨.hbm, 49, rfl⟩
abbrev main_c_2 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_c_3 : Ref sig .tc := ⟨.hbm, 56, rfl⟩
abbrev main_v18 : Ref sig .tc := ⟨.hbm, 57, rfl⟩
abbrev main_v19 : Ref sig .tc := ⟨.hbm, 58, rfl⟩
abbrev main_c_4 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_c_5 : Ref sig .tc := ⟨.hbm, 70, rfl⟩
abbrev main_v30 : Ref sig .tc := ⟨.hbm, 71, rfl⟩
abbrev main_v31 : Ref sig .tc := ⟨.hbm, 72, rfl⟩
abbrev main_c_6 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_7 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_8 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_call0_cst : Ref sig .tc := ⟨.hbm, 107, rfl⟩
abbrev main_call0_v0 : Ref sig .tc := ⟨.hbm, 108, rfl⟩
abbrev main_v63 : Ref sig .tc := ⟨.hbm, 109, rfl⟩
abbrev main_v64 : Ref sig .tc := ⟨.hbm, 110, rfl⟩
abbrev main_c_9 : Ref sig .tc := ⟨.hbm, 111, rfl⟩
abbrev main_v65 : Ref sig .tc := ⟨.hbm, 112, rfl⟩
abbrev main_v66 : Ref sig .tc := ⟨.hbm, 113, rfl⟩
abbrev main_c_10 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_11 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_12 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_call1_cst : Ref sig .tc := ⟨.hbm, 148, rfl⟩
abbrev main_call1_v0 : Ref sig .tc := ⟨.hbm, 149, rfl⟩
abbrev main_v98 : Ref sig .tc := ⟨.hbm, 150, rfl⟩
abbrev main_v99 : Ref sig .tc := ⟨.hbm, 151, rfl⟩
abbrev main_c_13 : Ref sig .tc := ⟨.hbm, 152, rfl⟩
abbrev main_v100 : Ref sig .tc := ⟨.hbm, 153, rfl⟩
abbrev main_v101 : Ref sig .tc := ⟨.hbm, 154, rfl⟩
abbrev main_c_14 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_15 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_16 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_call2_cst : Ref sig .tc := ⟨.hbm, 189, rfl⟩
abbrev main_call2_v0 : Ref sig .tc := ⟨.hbm, 190, rfl⟩
abbrev main_v133 : Ref sig .tc := ⟨.hbm, 191, rfl⟩
abbrev main_cst_17 : Ref sig .tc := ⟨.hbm, 192, rfl⟩
abbrev main_v134 : Ref sig .tc := ⟨.hbm, 193, rfl⟩
abbrev main_cst_18 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_19 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_cst_20 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_call3_cst : Ref sig .tc := ⟨.hbm, 212, rfl⟩
abbrev main_call3_v0 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_call4_cst : Ref sig .tc := ⟨.hbm, 223, rfl⟩
abbrev main_call4_v0 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_21 : Ref sig .tc := ⟨.hbm, 232, rfl⟩
abbrev main_v166 : Ref sig .tc := ⟨.hbm, 233, rfl⟩
abbrev main_v167 : Ref sig .tc := ⟨.hbm, 234, rfl⟩
abbrev main_cst_22 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_call5_cst : Ref sig .tc := ⟨.hbm, 242, rfl⟩
abbrev main_call5_v0 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_cst_23 : Ref sig .tc := ⟨.hbm, 251, rfl⟩
abbrev main_v181 : Ref sig .tc := ⟨.hbm, 252, rfl⟩
abbrev main_v182 : Ref sig .tc := ⟨.hbm, 253, rfl⟩
abbrev main_cst_24 : Ref sig .tc := ⟨.hbm, 254, rfl⟩
abbrev main_v183 : Ref sig .tc := ⟨.hbm, 255, rfl⟩
abbrev main_v184 : Ref sig .tc := ⟨.hbm, 256, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S6_S1x6_1 : S6.BroadcastsInDim S1x6 (![1] : Fin 1 → Fin S1x6.rank)
  bcast_S1x6_S64x6_0_1 : S1x6.BroadcastsInDim S64x6 (![0, 1] : Fin 2 → Fin S64x6.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  bcast_S_S64x2 : S_.BroadcastsInDim S64x2 (![] : Fin 0 → Fin S64x2.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x3_S3x64_S50000x64_1_0_0_1_n_n_wf : DotDims.WF S50000x3 S3x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x32_S64x32_1_0_0_1_n_n_wf : DotDims.WF S64x64 S64x32 S64x32 [1] [0] [0] [1] [] []
  dot_S64x32_S32x6_S64x6_1_0_0_1_n_n_wf : DotDims.WF S64x32 S32x6 S64x6 [1] [0] [0] [1] [] []
  dot_S64x32_S32x2_S64x2_1_0_0_1_n_n_wf : DotDims.WF S64x32 S32x2 S64x2 [1] [0] [0] [1] [] []
  dot_S64x64_S64x16_S64x16_1_0_0_1_n_n_wf : DotDims.WF S64x64 S64x16 S64x16 [1] [0] [0] [1] [] []
  dot_S64x16_S16x1_S64x1_1_0_0_1_n_n_wf : DotDims.WF S64x16 S16x1 S64x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x6_S64x6_1_0_0_1_n_n : DotDims S64x32 S32x6 S64x6 where
  lhsContracting := [1]
  rhsContracting := [0]
  lhsNonContracting := [0]
  rhsNonContracting := [1]
  lhsBatch := []
  rhsBatch := []
  wf := dot_S64x32_S32x6_S64x6_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf
def dot_S64x64_S64x16_S64x16_1_0_0_1_n_n : DotDims S64x64 S64x16 S64x16 where
  lhsContracting := [1]
  rhsContracting := [0]
  lhsNonContracting := [0]
  rhsNonContracting := [1]
  lhsBatch := []
  rhsBatch := []
  wf := dot_S64x64_S64x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.Spec.lean ====
/-
  The mathematics both programs compute, stated index by index over the extended reals.

  A graph on 50000 nodes has 800000 directed edges (a source word and a destination word each).  A node's degree is
  one plus the number of edges whose destination word IS that node (read signed; words outside the node range land
  nowhere), and `dis` is its inverse square root.  A message-passing layer takes the node features `m` (already
  multiplied by the layer's weights) to

      agg n c = (sum over the edges e landing at n of  m (row (src e)) c * (dis (row (src e)) * dis (row (dst e))))
                + m n c * (dis n * dis n)

  (`row` is the gathered row: a negative word wrapped once by the node count, then clamped into the node range), and
  follows it by bias, the affine normalisation with an inverse square root of the variance, and the positive part.
  The same layer can be computed by scaling first: with `ms n c = m n c * dis n`,

      agg n c = dis n * ((sum over the edges e landing at n of  ms (row (src e)) c) + ms n c),

  because `dis n` is a nonnegative real (multiplication by it distributes over every sum of extended reals) and an
  edge landing at `n` has `row (dst e) = n`.  The graph embedding is the per-graph sum of the last layer's features
  divided by the larger of the graph's node count and one; three small two-layer heads follow, two of them through
  the logistic function.
-/
import Idealize.ShloMosaic.PureOps.Ideal
import Idealize.ShloMosaic.Lib.ValueIdx

noncomputable section

namespace Cert.Spec

open Idealize.ShloMosaic Idealize.ShloMosaic.ValueIdx

/-- The three float words both programs spell: zero, one, and the variance offset. -/
abbrev zero : EReal := Ideal.ofBits .f32 0x00000000#32
abbrev one : EReal := Ideal.ofBits .f32 0x3F800000#32
abbrev eps : EReal := Ideal.ofBits .f32 0x3727C5AC#32

abbrev Arr2 (r c : Nat) := (⟨2, ![r, c]⟩ : Shape).Idx → EReal
abbrev Arr1 (n : Nat) := (⟨1, ![n]⟩ : Shape).Idx → EReal
/-- A matrix by its two coordinates. -/
abbrev Mat (r c : Nat) := Fin r → Fin c → EReal

/-! ## The graph -/

/-- The edge list: row 0 the source words, row 1 the destination words. -/
abbrev Edges := IVec ⟨2, ![2, 800000]⟩ 32

def srcW (ei : Edges) (e : Fin 800000) : BitVec 32 := ei (ix2 (0 : Fin 2) e)
def dstW (ei : Edges) (e : Fin 800000) : BitVec 32 := ei (ix2 (1 : Fin 2) e)

/-- A negative word is wrapped once by the node count (32-bit addition). -/
def wrap (w : BitVec 32) : BitVec 32 := if w.toInt < 0 then w + 50000#32 else w

/-- The row a word gathers: wrapped, read signed, clamped into the node range. -/
def row (w : BitVec 32) : Fin 50000 := ⟨min (wrap w).toInt.toNat 49999, by omega⟩

/-- The edges landing at node `n`: those whose destination word, read signed, is `n`. -/
def inE (ei : Edges) (n : Fin 50000) : Finset (Fin 800000) :=
  Finset.univ.filter fun e => (dstW ei e).toInt = (n.val : ℤ)

/-- One plus the number of edges landing at the node. -/
def deg (ei : Edges) (n : Fin 50000) : EReal := (zero + ∑ _e ∈ inE ei n, one) + one

def dis (ei : Edges) (n : Fin 50000) : EReal := Ideal.rsqrt (deg ei n)

/-! ## A layer -/

/-- Features times weights. -/
def mm {r k c : Nat} (h : Mat r k) (W : Arr2 k c) : Mat r c := fun n j => ∑ i : Fin k, h n i * W (ix2 i j)

/-- Bias, normalisation, positive part, at one entry `a` of column `c`. -/
def bn (b g be mu var : Fin 64 → EReal) (a : EReal) (c : Fin 64) : EReal :=
  max ((((a + b c) - mu c) * Ideal.rsqrt (var c + eps)) * g c + be c) zero

/-- The aggregation as the reference writes it: each gathered row scaled by the edge's two factors. -/
def aggR (ei : Edges) (m : Mat 50000 64) : Mat 50000 64 := fun n c =>
  (zero + ∑ e ∈ inE ei n, m (row (srcW ei e)) c * (dis ei (row (srcW ei e)) * dis ei (row (dstW ei e))))
    + m n c * (dis ei n * dis ei n)

def layerR (ei : Edges) (b g be mu var : Fin 64 → EReal) (m : Mat 50000 64) : Mat 50000 64 :=
  fun n c => bn b g be mu var (aggR ei m n c) c

/-- Scaling first: the features times the node's factor. -/
def scaled (d : Fin 50000 → EReal) (m : Mat 50000 64) : Mat 50000 64 := fun n c => m n c * d n

/-- The sum of the gathered rows over the edges landing at a node. -/
def gatherSum (ei : Edges) (ms : Mat 50000 64) : Mat 50000 64 := fun n c =>
  zero + ∑ e ∈ inE ei n, ms (row (srcW ei e)) c

/-- The layer as the kernel writes it, from the gathered sums `agg` and the scaled features `ms`. -/
def layerK (d : Fin 50000 → EReal) (b g be mu var : Fin 64 → EReal) (agg ms : Mat 50000 64) : Mat 50000 64 :=
  fun n c => bn b g be mu var (d n * (agg n c + ms n c)) c

/-! ## Pooling and the heads -/

/-- The nodes of graph `g`: those whose batch word, read signed, is `g`. -/
def inG (bw : Fin 50000 → BitVec 32) (g : Fin 64) : Finset (Fin 50000) :=
  Finset.univ.filter fun n => (bw n).toInt = (g.val : ℤ)

def pool (bw : Fin 50000 → BitVec 32) (h : Mat 50000 64) : Mat 64 64 := fun g c => zero + ∑ n ∈ inG bw g, h n c

def cnt (bw : Fin 50000 → BitVec 32) (g : Fin 64) : EReal := zero + ∑ _n ∈ inG bw g, one

def gemb (bw : Fin 50000 → BitVec 32) (psum : Mat 64 64) : Mat 64 64 := fun g c =>
  Ideal.div (psum g c) (max (cnt bw g) one)

/-- A two-layer head: weights, bias, positive part, weights, bias. -/
def head {k o : Nat} (G : Mat 64 64) (Wa : Arr2 64 k) (ba : Fin k → EReal) (Wb : Arr2 k o) (bb : Fin o → EReal) :
    Mat 64 o := fun r c => mm (fun r j => max (mm G Wa r j + ba j) zero) Wb r c + bb c

end Cert.Spec
-- ==== Proof.SpecLaws.lean ====
/-
  Laws of the index-by-index mathematics: the two float words zero and one as extended reals, the row a landing
  word gathers, the inverse square root of a degree as a nonnegative real, the equality of the two ways of writing a
  message-passing layer (scale each gathered row by the edge's two factors, or scale the features first and the sum
  afterwards), the sum over all nodes cut into 25 blocks of 2000, and the sum against a one-hot row as the sum over
  the graph's nodes.
-/
import Idealize.ShloMosaic.PureOps.Ideal.Laws
import Idealize.ShloMosaic.Lib.IdealHost
import Mathlib.Data.EReal.Operations
import Mathlib.Algebra.BigOperators.Fin
import Mathlib.Logic.Equiv.Fin.Basic
import proofs.«416533_j8950711845031_2_alg».proof.Proof.Spec

noncomputable section

namespace Cert.Spec

open Idealize.ShloMosaic Idealize.ShloMosaic.ValueIdx

/-! ## The float words -/

theorem zero_eq : zero = (0 : EReal) := Ideal.ofBits_zero_f32

theorem one_eq : one = (1 : EReal) := Ideal.ofBits_one_f32

/-! ## The gathered row of a landing word -/

/-- A word that reads, signed, as a node is not negative, so it is not wrapped, and the clamp leaves it alone. -/
theorem row_of_lands (w : BitVec 32) (n : Fin 50000) (h : w.toInt = (n.val : ℤ)) : row w = n := by
  have hn := n.isLt
  have hw : ¬ w.toInt < 0 := by omega
  have hwrap : wrap w = w := by unfold wrap; rw [if_neg hw]
  apply Fin.ext
  simp only [row, hwrap, h]
  omega

/-! ## Degrees and their inverse square roots -/

/-- The degree is the real number: the count of landing edges, plus one. -/
theorem deg_eq (ei : Edges) (n : Fin 50000) : deg ei n = ((((inE ei n).card : ℝ) + 1 : ℝ) : EReal) := by
  unfold deg
  rw [zero_eq, one_eq, Finset.sum_const, zero_add, ← EReal.coe_one, ← EReal.coe_nsmul, ← EReal.coe_add,
    nsmul_eq_mul, mul_one]

theorem dis_nonneg_real (ei : Edges) (n : Fin 50000) : ∃ r : ℝ, 0 ≤ r ∧ dis ei n = (r : EReal) := by
  have hpos : (0 : ℝ) < ((inE ei n).card : ℝ) + 1 := by positivity
  refine ⟨(Real.sqrt (((inE ei n).card : ℝ) + 1))⁻¹, by positivity, ?_⟩
  unfold dis
  rw [deg_eq, Ideal.rsqrt_coe, if_neg (not_lt.mpr hpos.le), if_neg hpos.ne']

/-! ## Scaling first -/

/-- Multiplication by a nonnegative real distributes over every finite sum of extended reals. -/
theorem coe_mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The aggregation, entry by entry: the node's factor is a nonnegative real, so it goes inside the sum, and an edge
    landing at the node has that node as the row of its destination word. -/
theorem scaled_agg (ei : Edges) (m : Mat 50000 64) (n : Fin 50000) (c : Fin 64) :
    dis ei n * (gatherSum ei (scaled (dis ei) m) n c + scaled (dis ei) m n c) = aggR ei m n c := by
  obtain ⟨r, hr, hd⟩ := dis_nonneg_real ei n
  have hrow : ∀ e ∈ inE ei n, row (dstW ei e) = n := fun e he =>
    row_of_lands _ _ (Finset.mem_filter.mp he).2
  unfold gatherSum scaled aggR
  rw [zero_eq, zero_add, zero_add, hd,
    EReal.left_distrib_of_nonneg_of_ne_top (EReal.coe_nonneg.mpr hr) (EReal.coe_ne_top r), coe_mul_sum r hr]
  have hs : ∀ e ∈ inE ei n, (r : EReal) * (m (row (srcW ei e)) c * dis ei (row (srcW ei e)))
      = m (row (srcW ei e)) c * (dis ei (row (srcW ei e)) * dis ei (row (dstW ei e))) := fun e he => by
    rw [hrow e he, hd, mul_comm (r : EReal), mul_assoc]
  rw [Finset.sum_congr rfl hs, mul_left_comm]

theorem layerK_eq_layerR (ei : Edges) (b g be mu var : Fin 64 → EReal) (m : Mat 50000 64) :
    layerK (dis ei) b g be mu var (gatherSum ei (scaled (dis ei) m)) (scaled (dis ei) m) = layerR ei b g be mu var m := by
  funext n c
  unfold layerK layerR
  rw [scaled_agg]

/-! ## Sums over the nodes -/

/-- The nodes, cut into 25 blocks of 2000. -/
theorem sum_blocks (f : Fin 50000 → EReal) :
    ∑ t : Fin 25, ∑ r : Fin 2000, f ⟨2000 * t.val + r.val, by omega⟩ = ∑ n : Fin 50000, f n := by
  rw [← Fintype.sum_prod_type' (f := fun (t : Fin 25) (r : Fin 2000) => f ⟨2000 * t.val + r.val, by omega⟩)]
  refine Fintype.sum_equiv (finProdFinEquiv (m := 25) (n := 2000)) _ _ fun x => ?_
  congr 1
  apply Fin.ext
  simp only [finProdFinEquiv, Equiv.coe_fn_mk]
  omega

/-- A sum against the one-hot row of a graph is the sum over the graph's nodes. -/
theorem sum_onehot (bw : Fin 50000 → BitVec 32) (g : Fin 64) (h : Fin 50000 → EReal) :
    ∑ n : Fin 50000, (if (bw n).toInt = (g.val : ℤ) then (1 : EReal) else 0) * h n = ∑ n ∈ inG bw g, h n := by
  unfold inG
  rw [Finset.sum_filter]
  refine Finset.sum_congr rfl fun n _ => ?_
  split_ifs <;> simp

end Cert.Spec
-- ==== Proof.Net.lean ====
/-
  The whole network as one function of the thirty-three argument arrays, in the two arrangements of a layer
  (scaling first, as the kernel does; the edge's two factors on each gathered row, as the reference does), and the
  proof that the two arrangements are one function: layer by layer, by the layer law of the specification.
-/
import proofs.«416533_j8950711845031_2_alg».proof.Proof.Spec
import proofs.«416533_j8950711845031_2_alg».proof.Proof.SpecLaws

noncomputable section

namespace Cert.Net

open Idealize.ShloMosaic Idealize.ShloMosaic.ValueIdx Cert.Spec

/-- The argument arrays, in the order of @main's parameters. -/
structure Args where
  x : Arr2 50000 3
  ei : Edges
  batch : IVec ⟨1, ![50000]⟩ 32
  W1 : Arr2 3 64
  b1 : Arr1 64
  W2 : Arr2 64 64
  b2 : Arr1 64
  W3 : Arr2 64 64
  b3 : Arr1 64
  g1 : Arr1 64
  be1 : Arr1 64
  mu1 : Arr1 64
  var1 : Arr1 64
  g2 : Arr1 64
  be2 : Arr1 64
  mu2 : Arr1 64
  var2 : Arr1 64
  g3 : Arr1 64
  be3 : Arr1 64
  mu3 : Arr1 64
  var3 : Arr1 64
  thW1 : Arr2 64 32
  thb1 : Arr1 32
  thW2 : Arr2 32 6
  thb2 : Arr1 6
  lhW1 : Arr2 64 32
  lhb1 : Arr1 32
  lhW2 : Arr2 32 2
  lhb2 : Arr1 2
  shW1 : Arr2 64 16
  shb1 : Arr1 16
  shW2 : Arr2 16 1
  shb2 : Arr1 1

/-- A vector by its coordinate. -/
def vec {n : Nat} (a : Arr1 n) : Fin n → EReal := fun k => a (ix1 k)

variable (A : Args)

def d : Fin 50000 → EReal := dis A.ei
def x0 : Mat 50000 3 := fun n i => A.x (ix2 n i)
def bw : Fin 50000 → BitVec 32 := fun n => A.batch (ix1 n)

/-! ## Scaling first -/

def ms1 : Mat 50000 64 := scaled (d A) (mm (x0 A) A.W1)
def h1K : Mat 50000 64 :=
  layerK (d A) (vec A.b1) (vec A.g1) (vec A.be1) (vec A.mu1) (vec A.var1) (gatherSum A.ei (ms1 A)) (ms1 A)
def ms2 : Mat 50000 64 := scaled (d A) (mm (h1K A) A.W2)
def h2K : Mat 50000 64 :=
  layerK (d A) (vec A.b2) (vec A.g2) (vec A.be2) (vec A.mu2) (vec A.var2) (gatherSum A.ei (ms2 A)) (ms2 A)
def ms3 : Mat 50000 64 := scaled (d A) (mm (h2K A) A.W3)
def h3K : Mat 50000 64 :=
  layerK (d A) (vec A.b3) (vec A.g3) (vec A.be3) (vec A.mu3) (vec A.var3) (gatherSum A.ei (ms3 A)) (ms3 A)

/-! ## The edge's two factors on each gathered row -/

def h1R : Mat 50000 64 := layerR A.ei (vec A.b1) (vec A.g1) (vec A.be1) (vec A.mu1) (vec A.var1) (mm (x0 A) A.W1)
def h2R : Mat 50000 64 := layerR A.ei (vec A.b2) (vec A.g2) (vec A.be2) (vec A.mu2) (vec A.var2) (mm (h1R A) A.W2)
def h3R : Mat 50000 64 := layerR A.ei (vec A.b3) (vec A.g3) (vec A.be3) (vec A.mu3) (vec A.var3) (mm (h2R A) A.W3)

theorem h1K_eq : h1K A = h1R A := layerK_eq_layerR A.ei _ _ _ _ _ _

theorem h2K_eq : h2K A = h2R A := by
  unfold h2K h2R ms2
  rw [h1K_eq]
  exact layerK_eq_layerR A.ei _ _ _ _ _ _

theorem h3K_eq : h3K A = h3R A := by
  unfold h3K h3R ms3
  rw [h2K_eq]
  exact layerK_eq_layerR A.ei _ _ _ _ _ _

/-! ## From the last layer to the three results -/

/-- The graph embedding from the last layer's features. -/
def emb (h : Mat 50000 64) : Mat 64 64 := gemb (bw A) (pool (bw A) h)

def out0 (h : Mat 50000 64) : Mat 64 6 := head (emb A h) A.thW1 (vec A.thb1) A.thW2 (vec A.thb2)
def out1 (h : Mat 50000 64) : Mat 64 2 :=
  fun r j => Ideal.logistic (head (emb A h) A.lhW1 (vec A.lhb1) A.lhW2 (vec A.lhb2) r j)
def out2 (h : Mat 50000 64) : Mat 64 1 :=
  fun r j => Ideal.logistic (head (emb A h) A.shW1 (vec A.shb1) A.shW2 (vec A.shb2) r j)

end Cert.Net
-- ==== Proof.KTrace.lean ====
import proofs.«416533_j8950711845031_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- Nothing between boundary 0 and boundary 1 of @main writes `main_arg0`. -/
theorem keep_W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Nothing between boundary 0 and boundary 1 of @main writes `main_arg3`. -/
theorem keep_W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Nothing between boundary 0 and boundary 2 of @main writes `main_arg4`. -/
theorem keep_W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Nothing between boundary 0 and boundary 2 of @main writes `main_arg9`. -/
theorem keep_W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Nothing between boundary 0 and boundary 2 of @main writes `main_arg10`. -/
theorem keep_W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Nothing between boundary 0 and boundary 2 of @main writes `main_arg11`. -/
theorem keep_W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-- Nothing between boundary 0 and boundary 2 of @main writes `main_arg12`. -/
theorem keep_W2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- Nothing between boundary 0 and boundary 3 of @main writes `main_arg5`. -/
theorem keep_W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Nothing between boundary 0 and boundary 4 of @main writes `main_arg6`. -/
theorem keep_W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- Nothing between boundary 0 and boundary 4 of @main writes `main_arg13`. -/
theorem keep_W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- Nothing between boundary 0 and boundary 4 of @main writes `main_arg14`. -/
theorem keep_W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-- Nothing between boundary 0 and boundary 4 of @main writes `main_arg15`. -/
theorem keep_W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-- Nothing between boundary 0 and boundary 4 of @main writes `main_arg16`. -/
theorem keep_W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

/-- Nothing between boundary 0 and boundary 5 of @main writes `main_arg7`. -/
theorem keep_W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- Nothing between boundary 0 and boundary 6 of @main writes `main_arg8`. -/
theorem keep_W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- Nothing between boundary 0 and boundary 6 of @main writes `main_arg17`. -/
theorem keep_W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-- Nothing between boundary 0 and boundary 6 of @main writes `main_arg18`. -/
theorem keep_W6_main_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

/-- Nothing between boundary 0 and boundary 6 of @main writes `main_arg19`. -/
theorem keep_W6_main_arg19 (c : Dev nD) : W6 m ρ c (Proc.devRef .tc main_arg19) = m ((c : Thread nD τ).loc main_arg19) :=
  calc W6 m ρ c (Proc.devRef .tc main_arg19)
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

/-- Nothing between boundary 0 and boundary 6 of @main writes `main_arg20`. -/
theorem keep_W6_main_arg20 (c : Dev nD) : W6 m ρ c (Proc.devRef .tc main_arg20) = m ((c : Thread nD τ).loc main_arg20) :=
  calc W6 m ρ c (Proc.devRef .tc main_arg20)
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

/-- Nothing between boundary 0 and boundary 8 of @main writes `main_arg2`. -/
theorem keep_W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Nothing between boundary 0 and boundary 8 of @main writes `main_arg22`. -/
theorem keep_W8_main_arg22 (c : Dev nD) : W8 m ρ c (Proc.devRef .tc main_arg22) = m ((c : Thread nD τ).loc main_arg22) :=
  calc W8 m ρ c (Proc.devRef .tc main_arg22)
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

/-- Nothing between boundary 0 and boundary 8 of @main writes `main_arg24`. -/
theorem keep_W8_main_arg24 (c : Dev nD) : W8 m ρ c (Proc.devRef .tc main_arg24) = m ((c : Thread nD τ).loc main_arg24) :=
  calc W8 m ρ c (Proc.devRef .tc main_arg24)
    _ = W7 m ρ c (Proc.devRef .tc main_arg24) := W8_of_ne m ρ c main_arg24 (by decide)
    _ = W6 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl

/-- Nothing between boundary 0 and boundary 8 of @main writes `main_arg26`. -/
theorem keep_W8_main_arg26 (c : Dev nD) : W8 m ρ c (Proc.devRef .tc main_arg26) = m ((c : Thread nD τ).loc main_arg26) :=
  calc W8 m ρ c (Proc.devRef .tc main_arg26)
    _ = W7 m ρ c (Proc.devRef .tc main_arg26) := W8_of_ne m ρ c main_arg26 (by decide)
    _ = W6 m ρ c (Proc.devRef .tc main_arg26) := StableHlo.after_of_forall_not_mem (b := Proc.devRef .tc main_arg26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg26) := W6_of_ne m ρ c main_arg26 (by decide)
    _ = W4 m ρ c (Proc.devRef .tc main_arg26) := StableHlo.after_of_forall_not_mem (b := Proc.devRef .tc main_arg26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg26) := rfl

/-- Nothing between boundary 0 and boundary 8 of @main writes `main_arg28`. -/
theorem keep_W8_main_arg28 (c : Dev nD) : W8 m ρ c (Proc.devRef .tc main_arg28) = m ((c : Thread nD τ).loc main_arg28) :=
  calc W8 m ρ c (Proc.devRef .tc main_arg28)
    _ = W7 m ρ c (Proc.devRef .tc main_arg28) := W8_of_ne m ρ c main_arg28 (by decide)
    _ = W6 m ρ c (Proc.devRef .tc main_arg28) := StableHlo.after_of_forall_not_mem (b := Proc.devRef .tc main_arg28) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg28) := W6_of_ne m ρ c main_arg28 (by decide)
    _ = W4 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := StableHlo.after_of_forall_not_mem (b := Proc.devRef .tc main_arg28) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg28) := rfl

/-- Nothing between boundary 0 and boundary 8 of @main writes `main_arg30`. -/
theorem keep_W8_main_arg30 (c : Dev nD) : W8 m ρ c (Proc.devRef .tc main_arg30) = m ((c : Thread nD τ).loc main_arg30) :=
  calc W8 m ρ c (Proc.devRef .tc main_arg30)
    _ = W7 m ρ c (Proc.devRef .tc main_arg30) := W8_of_ne m ρ c main_arg30 (by decide)
    _ = W6 m ρ c (Proc.devRef .tc main_arg30) := StableHlo.after_of_forall_not_mem (b := Proc.devRef .tc main_arg30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg30) := W6_of_ne m ρ c main_arg30 (by decide)
    _ = W4 m ρ c (Proc.devRef .tc main_arg30) := StableHlo.after_of_forall_not_mem (b := Proc.devRef .tc main_arg30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg30) := W4_of_ne m ρ c main_arg30 (by decide)
    _ = W2 m ρ c (Proc.devRef .tc main_arg30) := StableHlo.after_of_forall_not_mem (b := Proc.devRef .tc main_arg30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg30) := W2_of_ne m ρ c main_arg30 (by decide)
    _ = W0 m ρ c (Proc.devRef .tc main_arg30) := StableHlo.after_of_forall_not_mem (b := Proc.devRef .tc main_arg30) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg30) := rfl

/-- Nothing between boundary 0 and boundary 8 of @main writes `main_arg32`. -/
theorem keep_W8_main_arg32 (c : Dev nD) : W8 m ρ c (Proc.devRef .tc main_arg32) = m ((c : Thread nD τ).loc main_arg32) :=
  calc W8 m ρ c (Proc.devRef .tc main_arg32)
    _ = W7 m ρ c (Proc.devRef .tc main_arg32) := W8_of_ne m ρ c main_arg32 (by decide)
    _ = W6 m ρ c (Proc.devRef .tc main_arg32) := StableHlo.after_of_forall_not_mem (b := Proc.devRef .tc main_arg32) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg32) := W6_of_ne m ρ c main_arg32 (by decide)
    _ = W4 m ρ c (Proc.devRef .tc main_arg32) := StableHlo.after_of_forall_not_mem (b := Proc.devRef .tc main_arg32) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg32) := W4_of_ne m ρ c main_arg32 (by decide)
    _ = W2 m ρ c (Proc.devRef .tc main_arg32) := StableHlo.after_of_forall_not_mem (b := Proc.devRef .tc main_arg32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg32) := W2_of_ne m ρ c main_arg32 (by decide)
    _ = W0 m ρ c (Proc.devRef .tc main_arg32) := StableHlo.after_of_forall_not_mem (b := Proc.devRef .tc main_arg32) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg32) := rfl

/-- Nothing between boundary 0 and boundary 9 of @main writes `main_arg21`. -/
theorem keep_W9_main_arg21 (c : Dev nD) : W9 m ρ c (Proc.devRef .tc main_arg21) = m ((c : Thread nD τ).loc main_arg21) :=
  calc W9 m ρ c (Proc.devRef .tc main_arg21)
    _ = W8 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

/-- Nothing between boundary 0 and boundary 9 of @main writes `main_arg23`. -/
theorem keep_W9_main_arg23 (c : Dev nD) : W9 m ρ c (Proc.devRef .tc main_arg23) = m ((c : Thread nD τ).loc main_arg23) :=
  calc W9 m ρ c (Proc.devRef .tc main_arg23)
    _ = W8 m ρ c (Proc.devRef .tc main_arg23) := StableHlo.after_of_forall_not_mem (b := Proc.devRef .tc main_arg23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg23) := W8_of_ne m ρ c main_arg23 (by decide)
    _ = W6 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

/-- Nothing between boundary 0 and boundary 9 of @main writes `main_arg25`. -/
theorem keep_W9_main_arg25 (c : Dev nD) : W9 m ρ c (Proc.devRef .tc main_arg25) = m ((c : Thread nD τ).loc main_arg25) :=
  calc W9 m ρ c (Proc.devRef .tc main_arg25)
    _ = W8 m ρ c (Proc.devRef .tc main_arg25) := StableHlo.after_of_forall_not_mem (b := Proc.devRef .tc main_arg25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg25) := W8_of_ne m ρ c main_arg25 (by decide)
    _ = W6 m ρ c (Proc.devRef .tc main_arg25) := StableHlo.after_of_forall_not_mem (b := Proc.devRef .tc main_arg25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg25) := W6_of_ne m ρ c main_arg25 (by decide)
    _ = W4 m ρ c (Proc.devRef .tc main_arg25) := StableHlo.after_of_forall_not_mem (b := Proc.devRef .tc main_arg25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg25) := rfl

/-- Nothing between boundary 0 and boundary 9 of @main writes `main_arg27`. -/
theorem keep_W9_main_arg27 (c : Dev nD) : W9 m ρ c (Proc.devRef .tc main_arg27) = m ((c : Thread nD τ).loc main_arg27) :=
  calc W9 m ρ c (Proc.devRef .tc main_arg27)
    _ = W8 m ρ c (Proc.devRef .tc main_arg27) := StableHlo.after_of_forall_not_mem (b := Proc.devRef .tc main_arg27) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg27) := W8_of_ne m ρ c main_arg27 (by decide)
    _ = W6 m ρ c (Proc.devRef .tc main_arg27) := StableHlo.after_of_forall_not_mem (b := Proc.devRef .tc main_arg27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg27) := W6_of_ne m ρ c main_arg27 (by decide)
    _ = W4 m ρ c (Proc.devRef .tc main_arg27) := StableHlo.after_of_forall_not_mem (b := Proc.devRef .tc main_arg27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg27) := rfl

/-- Nothing between boundary 0 and boundary 9 of @main writes `main_arg29`. -/
theorem keep_W9_main_arg29 (c : Dev nD) : W9 m ρ c (Proc.devRef .tc main_arg29) = m ((c : Thread nD τ).loc main_arg29) :=
  calc W9 m ρ c (Proc.devRef .tc main_arg29)
    _ = W8 m ρ c (Proc.devRef .tc main_arg29) := StableHlo.after_of_forall_not_mem (b := Proc.devRef .tc main_arg29) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg29) := W8_of_ne m ρ c main_arg29 (by decide)
    _ = W6 m ρ c (Proc.devRef .tc main_arg29) := StableHlo.after_of_forall_not_mem (b := Proc.devRef .tc main_arg29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg29) := W6_of_ne m ρ c main_arg29 (by decide)
    _ = W4 m ρ c (Proc.devRef .tc main_arg29) := StableHlo.after_of_forall_not_mem (b := Proc.devRef .tc main_arg29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg29) := W4_of_ne m ρ c main_arg29 (by decide)
    _ = W2 m ρ c (Proc.devRef .tc main_arg29) := StableHlo.after_of_forall_not_mem (b := Proc.devRef .tc main_arg29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg29) := W2_of_ne m ρ c main_arg29 (by decide)
    _ = W0 m ρ c (Proc.devRef .tc main_arg29) := StableHlo.after_of_forall_not_mem (b := Proc.devRef .tc main_arg29) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg29) := rfl

/-- Nothing between boundary 0 and boundary 9 of @main writes `main_arg31`. -/
theorem keep_W9_main_arg31 (c : Dev nD) : W9 m ρ c (Proc.devRef .tc main_arg31) = m ((c : Thread nD τ).loc main_arg31) :=
  calc W9 m ρ c (Proc.devRef .tc main_arg31)
    _ = W8 m ρ c (Proc.devRef .tc main_arg31) := StableHlo.after_of_forall_not_mem (b := Proc.devRef .tc main_arg31) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg31) := W8_of_ne m ρ c main_arg31 (by decide)
    _ = W6 m ρ c (Proc.devRef .tc main_arg31) := StableHlo.after_of_forall_not_mem (b := Proc.devRef .tc main_arg31) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg31) := W6_of_ne m ρ c main_arg31 (by decide)
    _ = W4 m ρ c (Proc.devRef .tc main_arg31) := StableHlo.after_of_forall_not_mem (b := Proc.devRef .tc main_arg31) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg31) := W4_of_ne m ρ c main_arg31 (by decide)
    _ = W2 m ρ c (Proc.devRef .tc main_arg31) := StableHlo.after_of_forall_not_mem (b := Proc.devRef .tc main_arg31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg31) := W2_of_ne m ρ c main_arg31 (by decide)
    _ = W0 m ρ c (Proc.devRef .tc main_arg31) := StableHlo.after_of_forall_not_mem (b := Proc.devRef .tc main_arg31) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg31) := rfl

/-- Nothing between boundary 1 and boundary 2 of @main writes `main_v1`. -/
theorem keep_W2_main_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- Nothing between boundary 1 and boundary 2 of @main writes `main_v3`. -/
theorem keep_W2_main_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- Nothing between boundary 1 and boundary 4 of @main writes `main_v1`. -/
theorem keep_W4_main_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Nothing between boundary 1 and boundary 4 of @main writes `main_v3`. -/
theorem keep_W4_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Nothing between boundary 1 and boundary 6 of @main writes `main_v1`. -/
theorem keep_W6_main_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Nothing between boundary 1 and boundary 6 of @main writes `main_v3`. -/
theorem keep_W6_main_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Nothing between boundary 1 and boundary 3 of @main writes `main_v11`. -/
theorem keep_W3_main_v11 (c : Dev nD) : W3 m ρ c (Proc.devRef .tc main_v11) = W1 m ρ c (Proc.devRef .tc main_v11) :=
  calc W3 m ρ c (Proc.devRef .tc main_v11)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

/-- Nothing between boundary 1 and boundary 5 of @main writes `main_v11`. -/
theorem keep_W5_main_v11 (c : Dev nD) : W5 m ρ c (Proc.devRef .tc main_v11) = W1 m ρ c (Proc.devRef .tc main_v11) :=
  calc W5 m ρ c (Proc.devRef .tc main_v11)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

/-- Nothing between boundary 1 and boundary 7 of @main writes `main_v11`. -/
theorem keep_W7_main_v11 (c : Dev nD) : W7 m ρ c (Proc.devRef .tc main_v11) = W1 m ρ c (Proc.devRef .tc main_v11) :=
  calc W7 m ρ c (Proc.devRef .tc main_v11)
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := (W6_arr m ρ c 2).trans (((dat2 (V5 m ρ) c).arrAt_in 2 rfl _).trans (A_eq2 (V5 m ρ) c 2))
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

/-- Nothing between boundary 1 and boundary 7 of @main writes `main_v12`. -/
theorem keep_W7_main_v12 (c : Dev nD) : W7 m ρ c (Proc.devRef .tc main_v12) = W1 m ρ c (Proc.devRef .tc main_v12) :=
  calc W7 m ρ c (Proc.devRef .tc main_v12)
    _ = W6 m ρ c (Proc.devRef .tc main_v12) := StableHlo.after_of_forall_not_mem (b := Proc.devRef .tc main_v12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v12) := W6_of_ne m ρ c main_v12 (by decide)
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := W2_of_ne m ρ c main_v12 (by decide)

/-- Nothing between boundary 2 and boundary 3 of @main writes `main_v13`. -/
theorem keep_W3_main_v13 (c : Dev nD) : W3 m ρ c (Proc.devRef .tc main_v13) = W2 m ρ c (Proc.devRef .tc main_v13) :=
  calc W3 m ρ c (Proc.devRef .tc main_v13)
    _ = W2 m ρ c (Proc.devRef .tc main_v13) := StableHlo.after_of_forall_not_mem (b := Proc.devRef .tc main_v13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 4 and boundary 5 of @main writes `main_v29`. -/
theorem keep_W5_main_v29 (c : Dev nD) : W5 m ρ c (Proc.devRef .tc main_v29) = W4 m ρ c (Proc.devRef .tc main_v29) :=
  calc W5 m ρ c (Proc.devRef .tc main_v29)
    _ = W4 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 6 and boundary 7 of @main writes `main_v45`. -/
theorem keep_W7_main_v45 (c : Dev nD) : W7 m ρ c (Proc.devRef .tc main_v45) = W6 m ρ c (Proc.devRef .tc main_v45) :=
  calc W7 m ρ c (Proc.devRef .tc main_v45)
    _ = W6 m ρ c (Proc.devRef .tc main_v45) := StableHlo.after_of_forall_not_mem (b := Proc.devRef .tc main_v45) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.LibScatter.lean ====
/-
  The accumulating scatter read at one index, for the two shapes jax.ops.segment_sum prints: the scatter indices
  are an [R, 1] column of words (the index vector on axis 1, its one component naming operand axis 0, which is the
  inserted window axis), and the updates are

  * an [R, C] array of rows (update window axis 1): update entry (e, k) lands at operand entry (word e, k);
  * an [R] array of scalars (no window axis): update entry e lands at operand entry (word e).

  The word is read SIGNED and is NOT clamped: an entry whose word is negative or past the operand's rows lands
  nowhere and is dropped. So the scatter-add at operand index i is the operand's entry plus the sum, over the
  positions e whose word IS i's row, of the update entries of those positions.
-/
import Idealize.ShloMosaic.PureOps
import Idealize.ShloMosaic.PureOps.Ideal
import Idealize.ShloMosaic.Lib.ValueIdx

namespace Cert.LibScatter

open Idealize.ShloMosaic Idealize.ShloMosaic.ValueIdx

/-- An update index lands at operand index `i` exactly when, on every operand axis, the window's start (read signed,
    not clamped) plus the window coordinate is `i`'s coordinate: the bounds test of the landing index is then
    `i`'s own range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hb
      intro a
      have hi := congrFun (Option.some.inj h) a
      have hv := congrArg Fin.val hi
      simp only at hv
      have := hb a
      omega
    · exact absurd h (by simp)
  · intro h
    have hb : ∀ a, 0 ≤ d.start j idx a + (d.window j a : ℤ) ∧ d.start j idx a + (d.window j a : ℤ) < s.size a := by
      intro a
      have := (i a).isLt
      rw [h a]
      omega
    rw [dif_pos hb]
    congr 1
    funext a
    refine Fin.ext ?_
    show (d.start j idx a + (d.window j a : ℤ)).toNat = (i a).val
    rw [h a]
    exact Int.toNat_natCast _

/-- THE LANDING INDEX, rows: update entry (e, k) of an [R, C] array of rows lands at operand index `i` of the
    [N, C] operand exactly when the word at (e, 0), read signed, is `i`'s row and `k` is `i`'s column. The
    hypotheses are the printed dimension numbers (update window axis 1, operand axis 0 inserted and named by the
    scatter-dims-to-operand-dims map, the index vector on axis 1). On operand axis 0 the start is the word and the
    window coordinate zero; on operand axis 1 the start is zero and the window coordinate is `k`. A word that is
    negative or at least `N` is the row of no `i`: the entry is dropped. -/
theorem resultIdx?_rows_col_iff {N C R w : Nat}
    (d : ScatterDims ⟨2, ![N, C]⟩ ⟨2, ![R, 1]⟩ ⟨2, ![R, C]⟩)
    (hwin : d.updateWindowDims = [1]) (hins : d.insertedWindowDims = [0])
    (hsd : d.scatterDimsToOperandDims = [0]) (hivd : d.indexVectorDim = 1)
    (idx : IVec ⟨2, ![R, 1]⟩ w) (e : Fin R) (k : Fin C) (i : (⟨2, ![N, C]⟩ : Shape).Idx) :
    d.resultIdx? (ix2 e k) idx = some i ↔ ((idx (ix2 e (0 : Fin 1))).toInt = ((i 0).val : ℤ) ∧ i 1 = k) := by
  rw [resultIdx?_eq_some_iff]
  obtain ⟨uw, iw, sd, iv, wf⟩ := d
  simp only at hwin hins hsd hivd
  subst hwin hins hsd hivd
  have hs0 : ScatterDims.start ⟨[1], [0], [0], 1, wf⟩ (ix2 e k) idx 0 = (idx (ix2 e (0 : Fin 1))).toInt := by
    unfold ScatterDims.start
    rw [dif_pos (List.mem_singleton.mpr rfl)]
    refine congrArg (fun p => (idx p).toInt) ?_
    funext b
    refine Fin.ext ?_
    match b with
    | ⟨0, _⟩ => rfl
    | ⟨1, _⟩ => rfl
  have hs1 : ScatterDims.start ⟨[1], [0], [0], 1, wf⟩ (ix2 e k) idx 1 = 0 := by
    unfold ScatterDims.start
    rw [dif_neg (show (1 : Fin 2) ∉ [0] from by decide)]
  have hw0 : ScatterDims.window ⟨[1], [0], [0], 1, wf⟩ (ix2 e k) 0 = 0 := by
    unfold ScatterDims.window
    exact dif_neg (show (0 : Fin 2) ∉ (List.finRange 2).filter (· ∉ [(0 : Fin 2)]) from by decide)
  have hw1 : ScatterDims.window ⟨[1], [0], [0], 1, wf⟩ (ix2 e k) 1 = k.val := by
    unfold ScatterDims.window
    refine (dif_pos (show (1 : Fin 2) ∈ (List.finRange 2).filter (· ∉ [(0 : Fin 2)]) from by decide)).trans ?_
    rfl
  constructor
  · intro h
    have h0 := h 0
    have h1 := h 1
    rw [hs0, hw0] at h0
    rw [hs1, hw1] at h1
    refine ⟨by simpa using h0, Fin.ext ?_⟩
    have : ((k.val : ℕ) : ℤ) = ((i 1).val : ℤ) := by simpa using h1
    exact (Int.ofNat_inj.mp this).symm
  · rintro ⟨h0, h1⟩ a
    match a with
    | ⟨0, _⟩ =>
      show ScatterDims.start _ (ix2 e k) idx 0 + (ScatterDims.window _ (ix2 e k) 0 : ℤ) = ((i 0).val : ℤ)
      rw [hs0, hw0, h0]; simp
    | ⟨1, _⟩ =>
      show ScatterDims.start _ (ix2 e k) idx 1 + (ScatterDims.window _ (ix2 e k) 1 : ℤ) = ((i 1).val : ℤ)
      rw [hs1, hw1, h1]; simp

/-- THE LANDING INDEX, scalars: update entry `e` of an [R] array of scalars lands at operand index `i` of the
    [N] operand exactly when the word at (e, 0), read signed, is `i`'s coordinate (no update window axis; operand
    axis 0 inserted and named by the scatter-dims-to-operand-dims map, the index vector on axis 1). -/
theorem resultIdx?_col_iff {N R w : Nat}
    (d : ScatterDims ⟨1, ![N]⟩ ⟨2, ![R, 1]⟩ ⟨1, ![R]⟩)
    (hwin : d.updateWindowDims = []) (hins : d.insertedWindowDims = [0])
    (hsd : d.scatterDimsToOperandDims = [0]) (hivd : d.indexVectorDim = 1)
    (idx : IVec ⟨2, ![R, 1]⟩ w) (e : Fin R) (i : (⟨1, ![N]⟩ : Shape).Idx) :
    d.resultIdx? (ix1 e) idx = some i ↔ (idx (ix2 e (0 : Fin 1))).toInt = ((i 0).val : ℤ) := by
  rw [resultIdx?_eq_some_iff]
  obtain ⟨uw, iw, sd, iv, wf⟩ := d
  simp only at hwin hins hsd hivd
  subst hwin hins hsd hivd
  have hs0 : ScatterDims.start ⟨[], [0], [0], 1, wf⟩ (ix1 e) idx 0 = (idx (ix2 e (0 : Fin 1))).toInt := by
    unfold ScatterDims.start
    rw [dif_pos (List.mem_singleton.mpr rfl)]
    refine congrArg (fun p => (idx p).toInt) ?_
    funext b
    refine Fin.ext ?_
    match b with
    | ⟨0, _⟩ => rfl
    | ⟨1, _⟩ => rfl
  have hw0 : ScatterDims.window ⟨[], [0], [0], 1, wf⟩ (ix1 e) 0 = 0 := by
    unfold ScatterDims.window
    exact dif_neg (show (0 : Fin 1) ∉ (List.finRange 1).filter (· ∉ [(0 : Fin 1)]) from by decide)
  constructor
  · intro h
    have h0 := h 0
    rw [hs0, hw0] at h0
    simpa using h0
  · intro h0 a
    match a with
    | ⟨0, _⟩ =>
      show ScatterDims.start _ (ix1 e) idx 0 + (ScatterDims.window _ (ix1 e) 0 : ℤ) = ((i 0).val : ℤ)
      rw [hs0, hw0, h0]; simp

/-- THE SCATTER-ADD OF ROWS at an index: the operand's entry plus the sum, over the positions `e` whose word is
    the index's row, of the update entry of `e` in the index's column. The update indices landing at `i` are
    re-indexed by their first coordinate: (e, k) lands at `i` only for k = i's column. -/
theorem hostScatterAdd_rows_col_apply {N C R w : Nat}
    (d : ScatterDims ⟨2, ![N, C]⟩ ⟨2, ![R, 1]⟩ ⟨2, ![R, C]⟩)
    (hwin : d.updateWindowDims = [1]) (hins : d.insertedWindowDims = [0])
    (hsd : d.scatterDimsToOperandDims = [0]) (hivd : d.indexVectorDim = 1)
    (x : (⟨2, ![N, C]⟩ : Shape).Idx → EReal) (idx : IVec ⟨2, ![R, 1]⟩ w)
    (upd : (⟨2, ![R, C]⟩ : Shape).Idx → EReal) (i : (⟨2, ![N, C]⟩ : Shape).Idx) :
    Ideal.hostScatterAdd d x idx upd i
      = x i + ∑ e ∈ Finset.univ.filter (fun e : Fin R => (idx (ix2 e (0 : Fin 1))).toInt = ((i 0).val : ℤ)),
          upd (ix2 e (i 1)) := by
  unfold Ideal.hostScatterAdd
  congr 1
  have hmem : ∀ j : (⟨2, ![R, C]⟩ : Shape).Idx, d.resultIdx? j idx = some i ↔
      ((idx (ix2 (j 0) (0 : Fin 1))).toInt = ((i 0).val : ℤ) ∧ i 1 = j 1) := by
    intro j
    exact (iff_of_eq (congrArg (fun q => d.resultIdx? q idx = some i) (eq_ix2 j))).trans
      (resultIdx?_rows_col_iff d hwin hins hsd hivd idx (j 0) (j 1) i)
  refine Finset.sum_bij' (fun j _ => (j 0 : Fin R)) (fun e _ => ix2 e (i 1)) ?_ ?_ ?_ ?_ ?_
  · intro j hj
    exact Finset.mem_filter.mpr ⟨Finset.mem_univ _, ((hmem j).mp (Finset.mem_filter.mp hj).2).1⟩
  · intro e he
    exact Finset.mem_filter.mpr ⟨Finset.mem_univ _, (hmem _).mpr ⟨(Finset.mem_filter.mp he).2, rfl⟩⟩
  · intro j hj
    have h1 := ((hmem j).mp (Finset.mem_filter.mp hj).2).2
    exact (congrArg (ix2 (j 0)) h1).trans (eq_ix2 j).symm
  · intro e _
    rfl
  · intro j hj
    have h1 := ((hmem j).mp (Finset.mem_filter.mp hj).2).2
    exact congrArg upd ((eq_ix2 j).trans (congrArg (ix2 (j 0)) h1).symm)

/-- THE SCATTER-ADD OF SCALARS at an index: the operand's entry plus the sum, over the positions `e` whose word is
    the index's coordinate, of the update entry of `e`. -/
theorem hostScatterAdd_col_apply {N R w : Nat}
    (d : ScatterDims ⟨1, ![N]⟩ ⟨2, ![R, 1]⟩ ⟨1, ![R]⟩)
    (hwin : d.updateWindowDims = []) (hins : d.insertedWindowDims = [0])
    (hsd : d.scatterDimsToOperandDims = [0]) (hivd : d.indexVectorDim = 1)
    (x : (⟨1, ![N]⟩ : Shape).Idx → EReal) (idx : IVec ⟨2, ![R, 1]⟩ w)
    (upd : (⟨1, ![R]⟩ : Shape).Idx → EReal) (i : (⟨1, ![N]⟩ : Shape).Idx) :
    Ideal.hostScatterAdd d x idx upd i
      = x i + ∑ e ∈ Finset.univ.filter (fun e : Fin R => (idx (ix2 e (0 : Fin 1))).toInt = ((i 0).val : ℤ)),
          upd (ix1 e) := by
  unfold Ideal.hostScatterAdd
  congr 1
  have hmem : ∀ j : (⟨1, ![R]⟩ : Shape).Idx, d.resultIdx? j idx = some i ↔
      (idx (ix2 (j 0) (0 : Fin 1))).toInt = ((i 0).val : ℤ) := by
    intro j
    exact (iff_of_eq (congrArg (fun q => d.resultIdx? q idx = some i) (eq_ix1 j))).trans
      (resultIdx?_col_iff d hwin hins hsd hivd idx (j 0) i)
  refine Finset.sum_bij' (fun j _ => (j 0 : Fin R)) (fun e _ => ix1 e) ?_ ?_ ?_ ?_ ?_
  · intro j hj
    exact Finset.mem_filter.mpr ⟨Finset.mem_univ _, (hmem j).mp (Finset.mem_filter.mp hj).2⟩
  · intro e he
    exact Finset.mem_filter.mpr ⟨Finset.mem_univ _, (hmem _).mpr (Finset.mem_filter.mp he).2⟩
  · intro j _
    exact (eq_ix1 j).symm
  · intro e _
    rfl
  · intro j _
    exact congrArg upd (eq_ix1 j)

end Cert.LibScatter
-- ==== Proof.LibGather.lean ====
/-
  The gather read at one index, for the two shapes x[idx] prints when idx is an [R, 1] column of words: the index
  vector is on axis 1, its one component names operand axis 0, which is collapsed (slice size 1), and the operand is

  * an [N, C] array of rows (offset axis 1 of the result, slice sizes [1, C]): result entry (e, k) is the operand's
    entry (row of word e, k);
  * an [N] array of scalars (no offset axis, slice sizes [1]): result entry e is the operand's entry (word e).

  The word is read SIGNED and CLAMPED into [0, N - 1], so that the one-row slice fits: a negative word reads row 0
  (its toNat is 0), a word past the last row reads row N - 1.
-/
import Idealize.ShloMosaic.PureOps
import Idealize.ShloMosaic.Lib.ValueIdx

namespace Cert.LibGather

open Idealize.ShloMosaic Idealize.ShloMosaic.ValueIdx

/-- The dimension numbers of a gather of rows: operand `[N, C]`, start indices `[R, 1]`, result `[R, C]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of a gather of scalars: operand `[N]`, start indices `[R, 1]`, result `[R]`. -/
abbrev colDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER OF ROWS at (e, k): the operand at row `min (word e, signed, as a natural) (N - 1)` and column `k`.
    On operand axis 0 the start is the clamped word, and the batching and offset coordinates are zero (no batching
    axis; axis 0 is collapsed); on operand axis 1 the start is zero (the start index map does not name it) and the
    offset coordinate is the result's coordinate on its one offset axis, `k`. -/
theorem gather_rows_apply {α : Type} {N C R w : Nat} (hN : 0 < N) (d : GatherDims ⟨2, ![N, C]⟩ ⟨2, ![R, 1]⟩ ⟨2, ![R, C]⟩)
    (hoff : d.offsetDims = [1]) (hcol : d.collapsedSliceDims = [0]) (hob : d.operandBatchingDims = [])
    (hsb : d.startIndicesBatchingDims = [])
    (hsim : d.startIndexMap = [0]) (hivd : d.indexVectorDim = 1) (hss : d.sliceSizes = ![1, C])
    (x : (⟨2, ![N, C]⟩ : Shape).Idx → α) (idx : IVec ⟨2, ![R, 1]⟩ w) (e : Fin R) (k : Fin C) :
    Host.gather d x idx (ix2 e k)
      = x (ix2 (⟨min (idx (ix2 e (0 : Fin 1))).toInt.toNat (N - 1), by omega⟩ : Fin N) k) := by
  obtain ⟨od, cs, ob, sb, sim, ivd, ss, wf⟩ := d
  simp only at hoff hcol hob hsb hsim hivd hss
  subst hoff hcol hob hsb hsim hivd hss
  unfold Host.gather
  congr 1
  funext a
  refine Fin.ext ?_
  match a with
  | ⟨0, _⟩ =>
    show GatherDims.start (rowsDims N C R wf) (ix2 e k) idx 0
        + GatherDims.batchCoord (rowsDims N C R wf) (ix2 e k) 0
        + GatherDims.offCoord (rowsDims N C R wf) (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : GatherDims.siIdx (rowsDims N C R wf) (ix2 e k)
        ⟨List.idxOf (0 : Fin 2) [(0 : Fin 2)], List.idxOf_lt_length_iff.2 (List.mem_singleton.mpr rfl)⟩
          = ix2 e (0 : Fin 1) := by
      funext b
      refine Fin.ext ?_
      match b with
      | ⟨0, _⟩ => rfl
      | ⟨1, _⟩ => rfl
    rw [hsi]
    rfl
  | ⟨1, _⟩ =>
    show GatherDims.start (rowsDims N C R wf) (ix2 e k) idx 1
        + GatherDims.batchCoord (rowsDims N C R wf) (ix2 e k) 1
        + GatherDims.offCoord (rowsDims N C R wf) (ix2 e k) 1 = k.val
    rw [GatherDims.batchCoord_eq_zero _ _ _ List.not_mem_nil]
    have hs : GatherDims.start (rowsDims N C R wf) (ix2 e k) idx 1 = 0 := by
      unfold GatherDims.start
      rw [dif_neg (show (1 : Fin 2) ∉ [(0 : Fin 2)] from by decide)]
    have ho : GatherDims.offCoord (rowsDims N C R wf) (ix2 e k) 1 = k.val := by
      unfold GatherDims.offCoord
      refine (dif_pos (show (1 : Fin 2) ∈ (List.finRange 2).filter (· ∉ [(0 : Fin 2)] ++ []) from by decide)).trans ?_
      rfl
    rw [hs, ho]
    omega

/-- THE GATHER OF SCALARS at e: the operand at `min (word e, signed, as a natural) (N - 1)`. The operand's one axis is
    collapsed and named by the start index map: its start is the clamped word, and the batching and offset
    coordinates are zero. -/
theorem gather_col_apply {α : Type} {N R w : Nat} (hN : 0 < N) (d : GatherDims ⟨1, ![N]⟩ ⟨2, ![R, 1]⟩ ⟨1, ![R]⟩)
    (hoff : d.offsetDims = []) (hcol : d.collapsedSliceDims = [0]) (hob : d.operandBatchingDims = [])
    (hsb : d.startIndicesBatchingDims = [])
    (hsim : d.startIndexMap = [0]) (hivd : d.indexVectorDim = 1) (hss : d.sliceSizes = ![1])
    (x : (⟨1, ![N]⟩ : Shape).Idx → α) (idx : IVec ⟨2, ![R, 1]⟩ w) (e : Fin R) :
    Host.gather d x idx (ix1 e)
      = x (ix1 (⟨min (idx (ix2 e (0 : Fin 1))).toInt.toNat (N - 1), by omega⟩ : Fin N)) := by
  obtain ⟨od, cs, ob, sb, sim, ivd, ss, wf⟩ := d
  simp only at hoff hcol hob hsb hsim hivd hss
  subst hoff hcol hob hsb hsim hivd hss
  unfold Host.gather
  congr 1
  funext a
  obtain rfl : a = 0 := Subsingleton.elim _ _
  refine Fin.ext ?_
  show GatherDims.start (colDims N R wf) (ix1 e) idx 0
      + GatherDims.batchCoord (colDims N R wf) (ix1 e) 0
      + GatherDims.offCoord (colDims N R wf) (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ [(0 : Fin 1)] from List.mem_singleton.mpr rfl)]
  have hsi : GatherDims.siIdx (colDims N R wf) (ix1 e)
      ⟨List.idxOf (0 : Fin 1) [(0 : Fin 1)], List.idxOf_lt_length_iff.2 (List.mem_singleton.mpr rfl)⟩
        = ix2 e (0 : Fin 1) := by
    funext b
    refine Fin.ext ?_
    match b with
    | ⟨0, _⟩ => rfl
    | ⟨1, _⟩ => rfl
  rw [hsi]
  rfl

end Cert.LibGather
-- ==== Proof.KHostLib.lean ====
/-
  What the host operations between the kernel regions compute, read at one index over the extended reals: the small
  reads every stretch shares.

  * layout: a scalar broadcast reads the scalar; an [n] array spread to an [n, 1] column, or cast to [n, 1] or to
    [1, n], reads the array at the one free coordinate; an [n, 1] column broadcast over m columns reads the column;
  * the host's inverse square root, quotient and accumulating scatter at the ideal instance;
  * the wrap of a negative word (compare with zero, add the node count, select) is Spec.wrap;
  * the aggregation stretch as a whole: wrap, gather of rows, scatter-add at the destination words into zeros is
    Spec.gatherSum of the operand.
-/
import proofs.«416533_j8950711845031_2_alg».proof.Proof.Gen.KernelIdeal.Launch
import proofs.«416533_j8950711845031_2_alg».proof.Proof.Spec
import proofs.«416533_j8950711845031_2_alg».proof.Proof.LibScatter
import proofs.«416533_j8950711845031_2_alg».proof.Proof.LibGather
import Idealize.ShloMosaic.Lib.ValueLayout
import Idealize.ShloMosaic.Lib.StableHlo.Run

noncomputable section
namespace Cert.KernelIdeal.Gen
open Idealize.ShloMosaic Idealize.ShloMosaic.TcCoe Idealize.ShloMosaic.ValueIdx

section Reads
variable {α : Type}

/-- A scalar broadcast to any shape reads, at every index, the scalar. -/
theorem bcast_scalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- An `[n]` array broadcast to an `[n, 1]` column reads, at `(e, u)`, the operand at `e`. -/
theorem bcast_col_apply {n : Nat} (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) := by
  refine broadcastInDim_apply _ h x _ (ix1 e) fun a => ?_
  obtain rfl : a = 0 := Subsingleton.elim _ _
  show e.val = if n = 1 then 0 else e.val
  split
  · have := e.isLt; omega
  · rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Reads

/-- The printed wrap of a negative word: the select on "the word is below zero, read signed" between the word plus
    the node count and the word itself. -/
theorem select_wrap (x : BitVec 32) :
    Scalar.select (IntOp.cmpi .slt x 0#32) (IntOp.addi x 50000#32) x = Cert.Spec.wrap x := by
  unfold Scalar.select IntOp.cmpi IntOp.addi Cert.Spec.wrap
  by_cases h : x.toInt < 0
  · have hs : x.slt 0#32 = true := by simp [BitVec.slt, h]
    simp [hs, h]
  · have hs : x.slt 0#32 = false := by simp [BitVec.slt, h]
    simp [hs, h]

section AtIdeal
variable {s : Shape} {φ : FTy}

/-- The host's inverse square root read at an index, over the extended reals. -/
theorem hostRsqrt_apply (x : FVec Ideal s φ) (i : s.Idx) : Host.rsqrt x i = Ideal.rsqrt (x i) := rfl
/-- The host's quotient read at an index, over the extended reals. -/
theorem hostDivf_apply (x y : FVec Ideal s φ) (i : s.Idx) : Host.divf x y i = Ideal.div (x i) (y i) := rfl
/-- The host's accumulating scatter over the extended reals is the ideal instance's. -/
theorem hostScatterAdd_ideal {si u : Shape} {w : Nat} (d : ScatterDims s si u) (x : FVec Ideal s φ) (idx : IVec si w)
    (upd : FVec Ideal u φ) : Host.scatterAdd d x idx upd = Ideal.hostScatterAdd d x idx upd := rfl

end AtIdeal

section Rows
variable {α : Type}

/-- An `[n, 1]` column broadcast over `m` columns reads, at `(g, j)`, the column at `g`. -/
theorem bcast_rows_apply {n m : Nat} (h : (⟨2, ![n, 1]⟩ : Shape).BroadcastsInDim ⟨2, ![n, m]⟩ ![0, 1])
    (x : (⟨2, ![n, 1]⟩ : Shape).Idx → α) (g : Fin n) (j : Fin m) :
    broadcastInDim ⟨2, ![n, m]⟩ ![0, 1] h x (ix2 g j) = x (ix2 g (0 : Fin 1)) := by
  refine broadcastInDim_apply _ h x _ (ix2 g (0 : Fin 1)) fun a => ?_
  match a with
  | ⟨0, _⟩ =>
    show g.val = if n = 1 then 0 else g.val
    split
    · have := g.isLt; omega
    · rfl
  | ⟨1, _⟩ => rfl

end Rows

/-- THE AGGREGATION STRETCH at an index. The source words are wrapped (a negative word plus the node count), spread
    to a column and the rows of `x` gathered at them (each word read signed and clamped into the node range: the row
    `Spec.row`); the gathered rows are scatter-added at the destination words into zeros. Entry `(n, j)` is zero plus
    the sum, over the edges whose destination word is `n`, of `x` at the edge's gathered row, column `j`. -/
theorem agg_apply (ei : Cert.Spec.Edges) (src dst : S800000.Idx → BitVec 32)
    (hs : ∀ e : Fin 800000, src (ix1 e) = Cert.Spec.srcW ei e) (hd : ∀ e : Fin 800000, dst (ix1 e) = Cert.Spec.dstW ei e)
    (x : S50000x64.Idx → EReal) (n : Fin 50000) (j : Fin 64) :
    (Host.scatterAdd (F := Ideal) (φ := .f32) scatter_S50000x64_S800000x1_S800000x64_1_0_0_1
        (broadcastInDim S50000x64 ![] bcast_S_S50000x64 (constant (F := Ideal) S_ .f32 0x00000000#32))
        (broadcastInDim S800000x1 ![0] bcast_S800000_S800000x1_0 dst)
        (Host.gather gather_S50000x64_S800000x1_S800000x64_1_0_n_n_0_1_164 x
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src))))
      (ix2 n j) = Cert.Spec.gatherSum ei (fun n j => x (ix2 n j)) n j := by
  rw [hostScatterAdd_ideal, Cert.LibScatter.hostScatterAdd_rows_col_apply _ rfl rfl rfl rfl]
  unfold Cert.Spec.gatherSum
  refine congrArg₂ (· + ·) (bcast_scalar_apply _ _ _) ?_
  refine Finset.sum_congr (Finset.filter_congr fun e _ => ?_) (fun e _ => ?_)
  · exact iff_of_eq (congrArg (fun b : BitVec 32 => b.toInt = ((n.val : ℕ) : ℤ)) ((bcast_col_apply _ _ e 0).trans (hd e)))
  · refine (Cert.LibGather.gather_rows_apply (by decide) _ rfl rfl rfl rfl rfl rfl rfl x _ e j).trans ?_
    refine congrArg (fun r : Fin 50000 => x (ix2 r j)) (Fin.ext ?_)
    show min (BitVec.toInt _).toNat (50000 - 1) = min (Cert.Spec.wrap (Cert.Spec.srcW ei e)).toInt.toNat 49999
    rw [bcast_col_apply, select_apply]
    have h0 : broadcastInDim S800000 ![] bcast_S_S800000 (constantI S_ 32 0#32) (ix1 e) = 0#32 :=
      bcast_scalar_apply _ _ _
    have h5 : broadcastInDim S800000 ![] bcast_S_S800000 (constantI S_ 32 50000#32) (ix1 e) = 50000#32 :=
      bcast_scalar_apply _ _ _
    show min (Scalar.select (IntOp.cmpi .slt (src (ix1 e))
        (broadcastInDim S800000 ![] bcast_S_S800000 (constantI S_ 32 0#32) (ix1 e)))
      (IntOp.addi (src (ix1 e)) (broadcastInDim S800000 ![] bcast_S_S800000 (constantI S_ 32 50000#32) (ix1 e)))
      (src (ix1 e))).toInt.toNat (50000 - 1) = _
    rw [h0, h5, select_wrap, hs e]

/-- A `[c]` vector cast to a `[1, c]` row reads, at `(0, j)`, the vector at `j`. -/
theorem row_apply {c : Nat} (x : (⟨1, ![c]⟩ : Shape).Idx → EReal) (h : (⟨1, ![c]⟩ : Shape).ShapeCasts ⟨2, ![1, c]⟩) (j : Fin c) :
    shapeCast ⟨2, ![1, c]⟩ x h (ix2 (0 : Fin 1) j) = x (ix1 j) := shapeCast_a_1a_apply x h 0 j

end Cert.KernelIdeal.Gen

end
-- ==== Proof.KHost0.lean ====
/-
  The first stretch of host operations, read at an index over the extended reals. The edge list's two rows are cut
  out and flattened into the source and the destination words; the scatter-add of ones at the destination words
  into zeros counts the edges landing at each node, one is added and the inverse square root taken (Spec.dis), cast
  to a column; the batch words are cast to a column.
-/
import proofs.«416533_j8950711845031_2_alg».proof.Proof.Gen.KernelIdeal.Launch
import proofs.«416533_j8950711845031_2_alg».proof.Proof.Spec
import proofs.«416533_j8950711845031_2_alg».proof.Proof.LibScatter
import proofs.«416533_j8950711845031_2_alg».proof.Proof.LibGather
import proofs.«416533_j8950711845031_2_alg».proof.Proof.KHostLib
import Idealize.ShloMosaic.Lib.ValueLayout
import Idealize.ShloMosaic.Lib.StableHlo.Run

noncomputable section

namespace Cert.KernelIdeal.Gen

open Idealize.ShloMosaic Idealize.ShloMosaic.TcCoe Idealize.ShloMosaic.ValueIdx

variable (w : Valuation τ sig (Elt Ideal))

/-- Row `r` of the `[2, 800000]` edge list, cut out as a `[1, 800000]` slice and flattened, reads the list at `(r, e)`:
    here the source row … -/
theorem edge_row0_apply (x : S2x800000.Idx → BitVec 32) (e : Fin 800000) :
    shapeCast S800000 (extractStridedSlice S1x800000 ![0, 0] x slices_S2x800000_S1x800000_0_0)
      shapeCasts_S1x800000_S800000 (ix1 e) = x (ix2 (0 : Fin 2) e) :=
  (shapeCast_1a_a_apply _ _ e).trans (slice2_axis0_apply 0 _ _ (0 : Fin 1) e (0 : Fin 2) rfl)

/-- … and the destination row. -/
theorem edge_row1_apply (x : S2x800000.Idx → BitVec 32) (e : Fin 800000) :
    shapeCast S800000 (extractStridedSlice S1x800000 ![1, 0] x slices_S2x800000_S1x800000_1_0)
      shapeCasts_S1x800000_S800000 (ix1 e) = x (ix2 (1 : Fin 2) e) :=
  (shapeCast_1a_a_apply _ _ e).trans (slice2_axis0_apply 1 _ _ (0 : Fin 1) e (1 : Fin 2) rfl)

theorem host0_src (e : Fin 800000) : (StableHlo.after hostOps0 w (Proc.devRef .tc main_v1) : S800000.Idx → BitVec 32) (ix1 e) = Cert.Spec.srcW (w (Proc.devRef .tc main_arg1)) e := by
  after_results
  exact edge_row0_apply (w (Proc.devRef .tc main_arg1)) e

theorem host0_dst (e : Fin 800000) : (StableHlo.after hostOps0 w (Proc.devRef .tc main_v3) : S800000.Idx → BitVec 32) (ix1 e) = Cert.Spec.dstW (w (Proc.devRef .tc main_arg1)) e := by
  after_results
  exact edge_row1_apply (w (Proc.devRef .tc main_arg1)) e

theorem host0_batch (n : Fin 50000) : (StableHlo.after hostOps0 w (Proc.devRef .tc main_v12) : S50000x1.Idx → BitVec 32) (ix2 n (0 : Fin 1)) = (w (Proc.devRef .tc main_arg2) : S50000.Idx → BitVec 32) (ix1 n) := by
  after_results
  exact shapeCast_a_a1_apply (w (Proc.devRef .tc main_arg2) : S50000.Idx → BitVec 32) shapeCasts_S50000_S50000x1 n 0

/-- The degree's inverse square root, computed by the host: the scatter-add of ones at the destination words into
    zeros counts the edges landing at the node; one is added and the inverse square root taken. -/
theorem host0_dis (n : Fin 50000) : (StableHlo.after hostOps0 w (Proc.devRef .tc main_v11) : S50000x1.Idx → EReal) (ix2 n (0 : Fin 1)) = Cert.Spec.dis (w (Proc.devRef .tc main_arg1)) n := by
  after_results
  show shapeCast S50000x1 (Host.rsqrt (addf (Host.scatterAdd scatter_S50000_S800000x1_S800000_n_0_0_1
      (broadcastInDim S50000 ![] bcast_S_S50000 (constant (F := Ideal) S_ .f32 0x00000000#32))
      (broadcastInDim S800000x1 ![0] bcast_S800000_S800000x1_0 (shapeCast S800000 (extractStridedSlice S1x800000 ![1, 0]
        (w (Proc.devRef .tc main_arg1) : S2x800000.Idx → BitVec 32) slices_S2x800000_S1x800000_1_0) shapeCasts_S1x800000_S800000))
      (broadcastInDim S800000 ![] bcast_S_S800000 (constant (F := Ideal) S_ .f32 0x3F800000#32)))
      (broadcastInDim S50000 ![] bcast_S_S50000 (constant (F := Ideal) S_ .f32 0x3F800000#32))))
      shapeCasts_S50000_S50000x1 (ix2 n (0 : Fin 1)) = _
  refine (shapeCast_a_a1_apply _ _ n 0).trans ?_
  rw [hostRsqrt_apply, addf_apply, hostScatterAdd_ideal,
    Cert.LibScatter.hostScatterAdd_col_apply _ rfl rfl rfl rfl]
  unfold Cert.Spec.dis Cert.Spec.deg
  refine congrArg Ideal.rsqrt (congrArg₂ (· + ·) ?_ (bcast_scalar_apply _ _ _))
  refine congrArg₂ (· + ·) (bcast_scalar_apply _ _ _) ?_
  refine Finset.sum_congr (Finset.filter_congr fun e _ => ?_) (fun e _ => bcast_scalar_apply _ _ _)
  exact iff_of_eq (congrArg (fun b : BitVec 32 => b.toInt = ((n.val : ℕ) : ℤ))
    ((bcast_col_apply _ _ e 0).trans (edge_row1_apply _ e)))

end Cert.KernelIdeal.Gen

end
-- ==== Proof.KHost1.lean ====
/-
  The first aggregation stretch of host operations, read at an index over the extended reals: the source words are
  wrapped, the rows of main_v13 gathered at them and scatter-added at the destination words into zeros (main_v23:
  Spec.gatherSum of main_v13), and five [64] vectors are cast to [1, 64] rows (main_v24 from main_arg4, main_v25 from main_arg9, main_v26 from main_arg10, main_v27 from main_arg11, main_v28 from main_arg12).
-/
import proofs.«416533_j8950711845031_2_alg».proof.Proof.Gen.KernelIdeal.Launch
import proofs.«416533_j8950711845031_2_alg».proof.Proof.Spec
import proofs.«416533_j8950711845031_2_alg».proof.Proof.LibScatter
import proofs.«416533_j8950711845031_2_alg».proof.Proof.LibGather
import proofs.«416533_j8950711845031_2_alg».proof.Proof.KHostLib
import Idealize.ShloMosaic.Lib.ValueLayout
import Idealize.ShloMosaic.Lib.StableHlo.Run

noncomputable section

namespace Cert.KernelIdeal.Gen

open Idealize.ShloMosaic Idealize.ShloMosaic.TcCoe Idealize.ShloMosaic.ValueIdx

variable (w : Valuation τ sig (Elt Ideal))

set_option maxHeartbeats 2000000 in
theorem host1_agg (ei : Cert.Spec.Edges) (hs : ∀ e : Fin 800000, (w (Proc.devRef .tc main_v1) : S800000.Idx → BitVec 32) (ix1 e) = Cert.Spec.srcW ei e) (hd : ∀ e : Fin 800000, (w (Proc.devRef .tc main_v3) : S800000.Idx → BitVec 32) (ix1 e) = Cert.Spec.dstW ei e) (n : Fin 50000) (j : Fin 64) :
    (StableHlo.after hostOps1 w (Proc.devRef .tc main_v23) : S50000x64.Idx → EReal) (ix2 n j) = Cert.Spec.gatherSum ei (fun n j => (w (Proc.devRef .tc main_v13) : S50000x64.Idx → EReal) (ix2 n j)) n j := by
  after_results
  exact agg_apply ei (w (Proc.devRef .tc main_v1)) (w (Proc.devRef .tc main_v3)) hs hd (w (Proc.devRef .tc main_v13)) n j

theorem host1_row24 (j : Fin 64) : (StableHlo.after hostOps1 w (Proc.devRef .tc main_v24) : S1x64.Idx → EReal) (ix2 (0 : Fin 1) j) = (w (Proc.devRef .tc main_arg4) : S64.Idx → EReal) (ix1 j) := by
  after_results
  exact row_apply (w (Proc.devRef .tc main_arg4) : S64.Idx → EReal) shapeCasts_S64_S1x64 j
theorem host1_row25 (j : Fin 64) : (StableHlo.after hostOps1 w (Proc.devRef .tc main_v25) : S1x64.Idx → EReal) (ix2 (0 : Fin 1) j) = (w (Proc.devRef .tc main_arg9) : S64.Idx → EReal) (ix1 j) := by
  after_results
  exact row_apply (w (Proc.devRef .tc main_arg9) : S64.Idx → EReal) shapeCasts_S64_S1x64 j
theorem host1_row26 (j : Fin 64) : (StableHlo.after hostOps1 w (Proc.devRef .tc main_v26) : S1x64.Idx → EReal) (ix2 (0 : Fin 1) j) = (w (Proc.devRef .tc main_arg10) : S64.Idx → EReal) (ix1 j) := by
  after_results
  exact row_apply (w (Proc.devRef .tc main_arg10) : S64.Idx → EReal) shapeCasts_S64_S1x64 j
theorem host1_row27 (j : Fin 64) : (StableHlo.after hostOps1 w (Proc.devRef .tc main_v27) : S1x64.Idx → EReal) (ix2 (0 : Fin 1) j) = (w (Proc.devRef .tc main_arg11) : S64.Idx → EReal) (ix1 j) := by
  after_results
  exact row_apply (w (Proc.devRef .tc main_arg11) : S64.Idx → EReal) shapeCasts_S64_S1x64 j
theorem host1_row28 (j : Fin 64) : (StableHlo.after hostOps1 w (Proc.devRef .tc main_v28) : S1x64.Idx → EReal) (ix2 (0 : Fin 1) j) = (w (Proc.devRef .tc main_arg12) : S64.Idx → EReal) (ix1 j) := by
  after_results
  exact row_apply (w (Proc.devRef .tc main_arg12) : S64.Idx → EReal) shapeCasts_S64_S1x64 j

end Cert.KernelIdeal.Gen

end
-- ==== Proof.KHost2.lean ====
/-
  The second aggregation stretch of host operations, read at an index over the extended reals: the source words are
  wrapped, the rows of main_v29 gathered at them and scatter-added at the destination words into zeros (main_v39:
  Spec.gatherSum of main_v29), and five [64] vectors are cast to [1, 64] rows (main_v40 from main_arg6, main_v41 from main_arg13, main_v42 from main_arg14, main_v43 from main_arg15, main_v44 from main_arg16).
-/
import proofs.«416533_j8950711845031_2_alg».proof.Proof.Gen.KernelIdeal.Launch
import proofs.«416533_j8950711845031_2_alg».proof.Proof.Spec
import proofs.«416533_j8950711845031_2_alg».proof.Proof.LibScatter
import proofs.«416533_j8950711845031_2_alg».proof.Proof.LibGather
import proofs.«416533_j8950711845031_2_alg».proof.Proof.KHostLib
import Idealize.ShloMosaic.Lib.ValueLayout
import Idealize.ShloMosaic.Lib.StableHlo.Run

noncomputable section

namespace Cert.KernelIdeal.Gen

open Idealize.ShloMosaic Idealize.ShloMosaic.TcCoe Idealize.ShloMosaic.ValueIdx

variable (w : Valuation τ sig (Elt Ideal))

set_option maxHeartbeats 2000000 in
theorem host2_agg (ei : Cert.Spec.Edges) (hs : ∀ e : Fin 800000, (w (Proc.devRef .tc main_v1) : S800000.Idx → BitVec 32) (ix1 e) = Cert.Spec.srcW ei e) (hd : ∀ e : Fin 800000, (w (Proc.devRef .tc main_v3) : S800000.Idx → BitVec 32) (ix1 e) = Cert.Spec.dstW ei e) (n : Fin 50000) (j : Fin 64) :
    (StableHlo.after hostOps2 w (Proc.devRef .tc main_v39) : S50000x64.Idx → EReal) (ix2 n j) = Cert.Spec.gatherSum ei (fun n j => (w (Proc.devRef .tc main_v29) : S50000x64.Idx → EReal) (ix2 n j)) n j := by
  after_results
  exact agg_apply ei (w (Proc.devRef .tc main_v1)) (w (Proc.devRef .tc main_v3)) hs hd (w (Proc.devRef .tc main_v29)) n j

theorem host2_row40 (j : Fin 64) : (StableHlo.after hostOps2 w (Proc.devRef .tc main_v40) : S1x64.Idx → EReal) (ix2 (0 : Fin 1) j) = (w (Proc.devRef .tc main_arg6) : S64.Idx → EReal) (ix1 j) := by
  after_results
  exact row_apply (w (Proc.devRef .tc main_arg6) : S64.Idx → EReal) shapeCasts_S64_S1x64 j
theorem host2_row41 (j : Fin 64) : (StableHlo.after hostOps2 w (Proc.devRef .tc main_v41) : S1x64.Idx → EReal) (ix2 (0 : Fin 1) j) = (w (Proc.devRef .tc main_arg13) : S64.Idx → EReal) (ix1 j) := by
  after_results
  exact row_apply (w (Proc.devRef .tc main_arg13) : S64.Idx → EReal) shapeCasts_S64_S1x64 j
theorem host2_row42 (j : Fin 64) : (StableHlo.after hostOps2 w (Proc.devRef .tc main_v42) : S1x64.Idx → EReal) (ix2 (0 : Fin 1) j) = (w (Proc.devRef .tc main_arg14) : S64.Idx → EReal) (ix1 j) := by
  after_results
  exact row_apply (w (Proc.devRef .tc main_arg14) : S64.Idx → EReal) shapeCasts_S64_S1x64 j
theorem host2_row43 (j : Fin 64) : (StableHlo.after hostOps2 w (Proc.devRef .tc main_v43) : S1x64.Idx → EReal) (ix2 (0 : Fin 1) j) = (w (Proc.devRef .tc main_arg15) : S64.Idx → EReal) (ix1 j) := by
  after_results
  exact row_apply (w (Proc.devRef .tc main_arg15) : S64.Idx → EReal) shapeCasts_S64_S1x64 j
theorem host2_row44 (j : Fin 64) : (StableHlo.after hostOps2 w (Proc.devRef .tc main_v44) : S1x64.Idx → EReal) (ix2 (0 : Fin 1) j) = (w (Proc.devRef .tc main_arg16) : S64.Idx → EReal) (ix1 j) := by
  after_results
  exact row_apply (w (Proc.devRef .tc main_arg16) : S64.Idx → EReal) shapeCasts_S64_S1x64 j

end Cert.KernelIdeal.Gen

end
-- ==== Proof.KHost3.lean ====
/-
  The third aggregation stretch of host operations, read at an index over the extended reals: the source words are
  wrapped, the rows of main_v45 gathered at them and scatter-added at the destination words into zeros (main_v55:
  Spec.gatherSum of main_v45), and five [64] vectors are cast to [1, 64] rows (main_v56 from main_arg8, main_v57 from main_arg17, main_v58 from main_arg18, main_v59 from main_arg19, main_v60 from main_arg20).
-/
import proofs.«416533_j8950711845031_2_alg».proof.Proof.Gen.KernelIdeal.Launch
import proofs.«416533_j8950711845031_2_alg».proof.Proof.Spec
import proofs.«416533_j8950711845031_2_alg».proof.Proof.LibScatter
import proofs.«416533_j8950711845031_2_alg».proof.Proof.LibGather
import proofs.«416533_j8950711845031_2_alg».proof.Proof.KHostLib
import Idealize.ShloMosaic.Lib.ValueLayout
import Idealize.ShloMosaic.Lib.StableHlo.Run

noncomputable section

namespace Cert.KernelIdeal.Gen

open Idealize.ShloMosaic Idealize.ShloMosaic.TcCoe Idealize.ShloMosaic.ValueIdx

variable (w : Valuation τ sig (Elt Ideal))

set_option maxHeartbeats 2000000 in
theorem host3_agg (ei : Cert.Spec.Edges) (hs : ∀ e : Fin 800000, (w (Proc.devRef .tc main_v1) : S800000.Idx → BitVec 32) (ix1 e) = Cert.Spec.srcW ei e) (hd : ∀ e : Fin 800000, (w (Proc.devRef .tc main_v3) : S800000.Idx → BitVec 32) (ix1 e) = Cert.Spec.dstW ei e) (n : Fin 50000) (j : Fin 64) :
    (StableHlo.after hostOps3 w (Proc.devRef .tc main_v55) : S50000x64.Idx → EReal) (ix2 n j) = Cert.Spec.gatherSum ei (fun n j => (w (Proc.devRef .tc main_v45) : S50000x64.Idx → EReal) (ix2 n j)) n j := by
  after_results
  exact agg_apply ei (w (Proc.devRef .tc main_v1)) (w (Proc.devRef .tc main_v3)) hs hd (w (Proc.devRef .tc main_v45)) n j

theorem host3_row56 (j : Fin 64) : (StableHlo.after hostOps3 w (Proc.devRef .tc main_v56) : S1x64.Idx → EReal) (ix2 (0 : Fin 1) j) = (w (Proc.devRef .tc main_arg8) : S64.Idx → EReal) (ix1 j) := by
  after_results
  exact row_apply (w (Proc.devRef .tc main_arg8) : S64.Idx → EReal) shapeCasts_S64_S1x64 j
theorem host3_row57 (j : Fin 64) : (StableHlo.after hostOps3 w (Proc.devRef .tc main_v57) : S1x64.Idx → EReal) (ix2 (0 : Fin 1) j) = (w (Proc.devRef .tc main_arg17) : S64.Idx → EReal) (ix1 j) := by
  after_results
  exact row_apply (w (Proc.devRef .tc main_arg17) : S64.Idx → EReal) shapeCasts_S64_S1x64 j
theorem host3_row58 (j : Fin 64) : (StableHlo.after hostOps3 w (Proc.devRef .tc main_v58) : S1x64.Idx → EReal) (ix2 (0 : Fin 1) j) = (w (Proc.devRef .tc main_arg18) : S64.Idx → EReal) (ix1 j) := by
  after_results
  exact row_apply (w (Proc.devRef .tc main_arg18) : S64.Idx → EReal) shapeCasts_S64_S1x64 j
theorem host3_row59 (j : Fin 64) : (StableHlo.after hostOps3 w (Proc.devRef .tc main_v59) : S1x64.Idx → EReal) (ix2 (0 : Fin 1) j) = (w (Proc.devRef .tc main_arg19) : S64.Idx → EReal) (ix1 j) := by
  after_results
  exact row_apply (w (Proc.devRef .tc main_arg19) : S64.Idx → EReal) shapeCasts_S64_S1x64 j
theorem host3_row60 (j : Fin 64) : (StableHlo.after hostOps3 w (Proc.devRef .tc main_v60) : S1x64.Idx → EReal) (ix2 (0 : Fin 1) j) = (w (Proc.devRef .tc main_arg20) : S64.Idx → EReal) (ix1 j) := by
  after_results
  exact row_apply (w (Proc.devRef .tc main_arg20) : S64.Idx → EReal) shapeCasts_S64_S1x64 j

end Cert.KernelIdeal.Gen

end
-- ==== Proof.KHost4.lean ====
/-
  The last stretch of host operations, read at an index over the extended reals. The scatter-add of ones at the batch
  words into zeros counts each graph's nodes; the larger of the count and one is spread to a column and along the
  rows, and the pooled sums main_v61 are divided by it (main_v70: Spec.gemb). Six vectors are cast to one-row
  matrices.
-/
import proofs.«416533_j8950711845031_2_alg».proof.Proof.Gen.KernelIdeal.Launch
import proofs.«416533_j8950711845031_2_alg».proof.Proof.Spec
import proofs.«416533_j8950711845031_2_alg».proof.Proof.LibScatter
import proofs.«416533_j8950711845031_2_alg».proof.Proof.LibGather
import proofs.«416533_j8950711845031_2_alg».proof.Proof.KHostLib
import Idealize.ShloMosaic.Lib.ValueLayout
import Idealize.ShloMosaic.Lib.StableHlo.Run

noncomputable section

namespace Cert.KernelIdeal.Gen

open Idealize.ShloMosaic Idealize.ShloMosaic.TcCoe Idealize.ShloMosaic.ValueIdx

variable (w : Valuation τ sig (Elt Ideal))

/-- THE POOLING QUOTIENT at an index: the scatter-add of ones at the batch words into zeros counts each graph's
    nodes; the larger of the count and one is spread along the row, and the pooled sums are divided by it. -/
theorem gemb_apply (bw : S50000.Idx → BitVec 32) (ps : S64x64.Idx → EReal) (g j : Fin 64) :
    (Host.divf (F := Ideal) (φ := .f32) ps
      (broadcastInDim S64x64 ![0, 1] bcast_S64x1_S64x64_0_1 (broadcastInDim S64x1 ![0] bcast_S64_S64x1_0
        (maximumf (Host.scatterAdd scatter_S64_S50000x1_S50000_n_0_0_1
            (broadcastInDim S64 ![] bcast_S_S64 (constant (F := Ideal) S_ .f32 0x00000000#32))
            (broadcastInDim S50000x1 ![0] bcast_S50000_S50000x1_0 bw)
            (broadcastInDim S50000 ![] bcast_S_S50000 (constant (F := Ideal) S_ .f32 0x3F800000#32)))
          (broadcastInDim S64 ![] bcast_S_S64 (constant (F := Ideal) S_ .f32 0x3F800000#32))))))
      (ix2 g j) = Cert.Spec.gemb (fun n => bw (ix1 n)) (fun g j => ps (ix2 g j)) g j := by
  rw [hostDivf_apply, bcast_rows_apply, bcast_col_apply, maximumf_apply, hostScatterAdd_ideal,
    Cert.LibScatter.hostScatterAdd_col_apply _ rfl rfl rfl rfl]
  unfold Cert.Spec.gemb Cert.Spec.cnt
  refine congrArg (Ideal.div (ps (ix2 g j))) (congrArg₂ max ?_ (bcast_scalar_apply _ _ _))
  refine congrArg₂ (· + ·) (bcast_scalar_apply _ _ _) ?_
  refine Finset.sum_congr (Finset.filter_congr fun n _ => ?_) (fun n _ => bcast_scalar_apply _ _ _)
  exact iff_of_eq (congrArg (fun b : BitVec 32 => b.toInt = ((g.val : ℕ) : ℤ)) (bcast_col_apply _ _ n 0))

theorem host4_gemb (g j : Fin 64) : (StableHlo.after hostOps4 w (Proc.devRef .tc main_v70) : S64x64.Idx → EReal) (ix2 g j) = Cert.Spec.gemb (fun n => (w (Proc.devRef .tc main_arg2) : S50000.Idx → BitVec 32) (ix1 n)) (fun g j => (w (Proc.devRef .tc main_v61) : S64x64.Idx → EReal) (ix2 g j)) g j := by
  after_results
  exact gemb_apply (w (Proc.devRef .tc main_arg2)) (w (Proc.devRef .tc main_v61)) g j

theorem host4_row71 (j : Fin 32) : (StableHlo.after hostOps4 w (Proc.devRef .tc main_v71) : S1x32.Idx → EReal) (ix2 (0 : Fin 1) j) = (w (Proc.devRef .tc main_arg22) : S32.Idx → EReal) (ix1 j) := by
  after_results
  exact row_apply (w (Proc.devRef .tc main_arg22) : S32.Idx → EReal) shapeCasts_S32_S1x32 j
theorem host4_row72 (j : Fin 6) : (StableHlo.after hostOps4 w (Proc.devRef .tc main_v72) : S1x6.Idx → EReal) (ix2 (0 : Fin 1) j) = (w (Proc.devRef .tc main_arg24) : S6.Idx → EReal) (ix1 j) := by
  after_results
  exact row_apply (w (Proc.devRef .tc main_arg24) : S6.Idx → EReal) shapeCasts_S6_S1x6 j
theorem host4_row73 (j : Fin 32) : (StableHlo.after hostOps4 w (Proc.devRef .tc main_v73) : S1x32.Idx → EReal) (ix2 (0 : Fin 1) j) = (w (Proc.devRef .tc main_arg26) : S32.Idx → EReal) (ix1 j) := by
  after_results
  exact row_apply (w (Proc.devRef .tc main_arg26) : S32.Idx → EReal) shapeCasts_S32_S1x32 j
theorem host4_row74 (j : Fin 2) : (StableHlo.after hostOps4 w (Proc.devRef .tc main_v74) : S1x2.Idx → EReal) (ix2 (0 : Fin 1) j) = (w (Proc.devRef .tc main_arg28) : S2.Idx → EReal) (ix1 j) := by
  after_results
  exact row_apply (w (Proc.devRef .tc main_arg28) : S2.Idx → EReal) shapeCasts_S2_S1x2 j
theorem host4_row75 (j : Fin 16) : (StableHlo.after hostOps4 w (Proc.devRef .tc main_v75) : S1x16.Idx → EReal) (ix2 (0 : Fin 1) j) = (w (Proc.devRef .tc main_arg30) : S16.Idx → EReal) (ix1 j) := by
  after_results
  exact row_apply (w (Proc.devRef .tc main_arg30) : S16.Idx → EReal) shapeCasts_S16_S1x16 j
theorem host4_row76 (j : Fin 1) : (StableHlo.after hostOps4 w (Proc.devRef .tc main_v76) : S1x1.Idx → EReal) (ix2 (0 : Fin 1) j) = (w (Proc.devRef .tc main_arg32) : S1.Idx → EReal) (ix1 j) := by
  after_results
  exact row_apply (w (Proc.devRef .tc main_arg32) : S1.Idx → EReal) shapeCasts_S1_S1x1 j

end Cert.KernelIdeal.Gen

end
-- ==== Proof.KRegOps.lean ====
/-
  Three facts about the operations the three node-feature regions share, read at one entry at the ideal values:
  a column [a,1] spread along b columns reads the column's entry of the row; a [2000,3] by [3,64] product into zeros
  and a [2000,64] by [64,64] product into zeros are, at an entry (p, q), the sum over the contracted coordinate of
  row p of the left operand against column q of the right one.
-/
import proofs.«416533_j8950711845031_2_alg».proof.Proof.Gen.KernelIdeal
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx

/-- Every access rectangle of the three bodies starts at the origin of its buffer. -/
theorem origin2 : (![0, 0] : Fin 2 → Nat) = fun _ => 0 := funext fun a => by fin_cases a <;> rfl

/-- A column [a,1] spread along b columns reads, at (p, c), the column's entry of row p. -/
theorem spread_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The [2000,3] by [3,64] product -/

/-- The left operand's row is the output's row … -/
theorem mxu3_lhs_0 (j : S2000x64.Idx) (k : dot_S2000x3_S3x64_S2000x64_1_0_0_1_n_n.contr.Idx) :
    (dot_S2000x3_S3x64_S2000x64_1_0_0_1_n_n.lhsIdx j k 0).val = (j 0).val := by
  simp [DotDims.lhsIdx, dot_S2000x3_S3x64_S2000x64_1_0_0_1_n_n]; rfl

/-- … and its column the contracted coordinate. -/
theorem mxu3_lhs_1 (j : S2000x64.Idx) (k : dot_S2000x3_S3x64_S2000x64_1_0_0_1_n_n.contr.Idx) :
    (dot_S2000x3_S3x64_S2000x64_1_0_0_1_n_n.lhsIdx j k 1).val = (k ⟨0, by decide⟩).val :=
  dot_S2000x3_S3x64_S2000x64_1_0_0_1_n_n.lhsIdx_val_of_single rfl j k

/-- The right operand's row is the contracted coordinate … -/
theorem mxu3_rhs_0 (j : S2000x64.Idx) (k : dot_S2000x3_S3x64_S2000x64_1_0_0_1_n_n.contr.Idx) :
    (dot_S2000x3_S3x64_S2000x64_1_0_0_1_n_n.rhsIdx j k 0).val = (k ⟨0, by decide⟩).val :=
  dot_S2000x3_S3x64_S2000x64_1_0_0_1_n_n.rhsIdx_val_of_single rfl j k

/-- … and its column the output's column. -/
theorem mxu3_rhs_1 (j : S2000x64.Idx) (k : dot_S2000x3_S3x64_S2000x64_1_0_0_1_n_n.contr.Idx) :
    (dot_S2000x3_S3x64_S2000x64_1_0_0_1_n_n.rhsIdx j k 1).val = (j 1).val := by
  simp [DotDims.rhsIdx, dot_S2000x3_S3x64_S2000x64_1_0_0_1_n_n]; rfl

/-- The product into zeros, read at an entry (p, q): the sum over the 3 contracted coordinates of row p of the left
    operand against column q of the right one. -/
theorem mxu3_apply (A : FVec Ideal S2000x3 .bf16) (B : FVec Ideal S3x64 .bf16) (p : Fin 2000) (q : Fin 64) :
    matmul dot_S2000x3_S3x64_S2000x64_1_0_0_1_n_n none A B (constant (F := Ideal) S2000x64 .f32 0x00000000#32) (ix2 p q)
      = ∑ i : Fin 3, A (ix2 p i) * B (ix2 i q) := by
  show FloatOps.matmul _ none A B _ (ix2 p q) = _
  rw [Ideal.matmul_constant_zero_apply,
    ← Equiv.sum_comp (contrEquiv1 dot_S2000x3_S3x64_S2000x64_1_0_0_1_n_n 3 rfl rfl).symm]
  refine Finset.sum_congr rfl fun i _ => ?_
  have ci := contrEquiv1_symm_val dot_S2000x3_S3x64_S2000x64_1_0_0_1_n_n 3 rfl rfl i
  have hl : dot_S2000x3_S3x64_S2000x64_1_0_0_1_n_n.lhsIdx (ix2 p q) ((contrEquiv1 _ 3 rfl rfl).symm i) = ix2 p i := by
    funext ax; apply Fin.ext
    match ax with
    | ⟨0, _⟩ => exact mxu3_lhs_0 _ _
    | ⟨1, _⟩ => exact (mxu3_lhs_1 _ _).trans ci
  have hr : dot_S2000x3_S3x64_S2000x64_1_0_0_1_n_n.rhsIdx (ix2 p q) ((contrEquiv1 _ 3 rfl rfl).symm i) = ix2 i q := by
    funext ax; apply Fin.ext
    match ax with
    | ⟨0, _⟩ => exact (mxu3_rhs_0 _ _).trans ci
    | ⟨1, _⟩ => exact mxu3_rhs_1 _ _
  rw [hl, hr]

/-! ## The [2000,64] by [64,64] product -/

/-- The left operand's row is the output's row … -/
theorem mxu64_lhs_0 (j : S2000x64.Idx) (k : dot_S2000x64_S64x64_S2000x64_1_0_0_1_n_n.contr.Idx) :
    (dot_S2000x64_S64x64_S2000x64_1_0_0_1_n_n.lhsIdx j k 0).val = (j 0).val := by
  simp [DotDims.lhsIdx, dot_S2000x64_S64x64_S2000x64_1_0_0_1_n_n]; rfl

/-- … and its column the contracted coordinate. -/
theorem mxu64_lhs_1 (j : S2000x64.Idx) (k : dot_S2000x64_S64x64_S2000x64_1_0_0_1_n_n.contr.Idx) :
    (dot_S2000x64_S64x64_S2000x64_1_0_0_1_n_n.lhsIdx j k 1).val = (k ⟨0, by decide⟩).val :=
  dot_S2000x64_S64x64_S2000x64_1_0_0_1_n_n.lhsIdx_val_of_single rfl j k

/-- The right operand's row is the contracted coordinate … -/
theorem mxu64_rhs_0 (j : S2000x64.Idx) (k : dot_S2000x64_S64x64_S2000x64_1_0_0_1_n_n.contr.Idx) :
    (dot_S2000x64_S64x64_S2000x64_1_0_0_1_n_n.rhsIdx j k 0).val = (k ⟨0, by decide⟩).val :=
  dot_S2000x64_S64x64_S2000x64_1_0_0_1_n_n.rhsIdx_val_of_single rfl j k

/-- … and its column the output's column. -/
theorem mxu64_rhs_1 (j : S2000x64.Idx) (k : dot_S2000x64_S64x64_S2000x64_1_0_0_1_n_n.contr.Idx) :
    (dot_S2000x64_S64x64_S2000x64_1_0_0_1_n_n.rhsIdx j k 1).val = (j 1).val := by
  simp [DotDims.rhsIdx, dot_S2000x64_S64x64_S2000x64_1_0_0_1_n_n]; rfl

/-- The product into zeros, read at an entry (p, q): the sum over the 64 contracted coordinates of row p of the left
    operand against column q of the right one. -/
theorem mxu64_apply (A : FVec Ideal S2000x64 .bf16) (B : FVec Ideal S64x64 .bf16) (p : Fin 2000) (q : Fin 64) :
    matmul dot_S2000x64_S64x64_S2000x64_1_0_0_1_n_n none A B (constant (F := Ideal) S2000x64 .f32 0x00000000#32) (ix2 p q)
      = ∑ i : Fin 64, A (ix2 p i) * B (ix2 i q) := by
  show FloatOps.matmul _ none A B _ (ix2 p q) = _
  rw [Ideal.matmul_constant_zero_apply,
    ← Equiv.sum_comp (contrEquiv1 dot_S2000x64_S64x64_S2000x64_1_0_0_1_n_n 64 rfl rfl).symm]
  refine Finset.sum_congr rfl fun i _ => ?_
  have ci := contrEquiv1_symm_val dot_S2000x64_S64x64_S2000x64_1_0_0_1_n_n 64 rfl rfl i
  have hl : dot_S2000x64_S64x64_S2000x64_1_0_0_1_n_n.lhsIdx (ix2 p q) ((contrEquiv1 _ 64 rfl rfl).symm i) = ix2 p i := by
    funext ax; apply Fin.ext
    match ax with
    | ⟨0, _⟩ => exact mxu64_lhs_0 _ _
    | ⟨1, _⟩ => exact (mxu64_lhs_1 _ _).trans ci
  have hr : dot_S2000x64_S64x64_S2000x64_1_0_0_1_n_n.rhsIdx (ix2 p q) ((contrEquiv1 _ 64 rfl rfl).symm i) = ix2 i q := by
    funext ax; apply Fin.ext
    match ax with
    | ⟨0, _⟩ => exact (mxu64_rhs_0 _ _).trans ci
    | ⟨1, _⟩ => exact mxu64_rhs_1 _ _
  rw [hl, hr]

end Cert.KernelIdeal.Gen
-- ==== Proof.KReg0.lean ====
/-
  REGION 0, the first product: each block of 2000 rows of the node features times the [3,64] weights, each row then
  multiplied by the row's factor (a column broadcast along the 64 columns). The 25 grid points write the 25 block
  rows of the output, so the array the region leaves is, entry by entry, the product of the features with the weights
  scaled row by row.
-/
import proofs.«416533_j8950711845031_2_alg».proof.Proof.Gen.KernelIdeal.Frame
import proofs.«416533_j8950711845031_2_alg».proof.Proof.Spec
import proofs.«416533_j8950711845031_2_alg».proof.Proof.KRegOps
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)

/-! ## The body's arithmetic at an entry -/

/-- Row r of the x-block against column q of the weights, times the row's factor. -/
theorem k0_pay1_apply (x0 : Vec Ideal S2000x3 .f32) (x1 : Vec Ideal S3x64 .f32) (x2 : Vec Ideal S2000x1 .f32)
    (p : Fin 2000) (q : Fin 64) :
    k0_pay1 x0 x1 x2 (ix2 p q) = (∑ i : Fin 3, x0 (ix2 p i) * x1 (ix2 i q)) * x2 (ix2 p (0 : Fin 1)) := by
  unfold k0_pay1
  show (matmul dot_S2000x3_S3x64_S2000x64_1_0_0_1_n_n none (truncf .bf16 x0 bitsLt_bf16_f32) (truncf .bf16 x1 bitsLt_bf16_f32)
        (constant (F := Ideal) S2000x64 .f32 0x00000000#32) (ix2 p q))
      * (broadcastTo S2000x64 (shapeCast S2000x1 x2 shapeCasts_S2000x1_S2000x1) broadcasts_S2000x1_S2000x64 (ix2 p q)) = _
  rw [mxu3_apply, spread_col_apply, shapeCast_self]
  rfl

variable (V : (c : Dev nD) → (b : Ref sig .tc) → Buf (Elt Ideal) ((c : Thread nD τ).loc b))

/-! ## One grid point: the block it writes, entry by entry -/

/-- At the point of block row t, with the x-block, the weights and the factor column being the rows 2000 t … 2000 t + 1999
    of their arrays (the weights whole), the body's arithmetic at an entry (r, q) of the block is the scaled product at
    row 2000 t + r. -/
theorem reg0_point (x0 : Vec Ideal S2000x3 .f32) (x1 : Vec Ideal S3x64 .f32) (x2 : Vec Ideal S2000x1 .f32)
    (X : S50000x3.Idx → EReal) (Wt : S3x64.Idx → EReal) (D : S50000x1.Idx → EReal) (t : Nat) (ht : t < 25)
    (h0 : ∀ (r : Fin 2000) (i : Fin 3), x0 (ix2 r i) = X (ix2 (⟨2000 * t + r.val, by omega⟩ : Fin 50000) i))
    (h1 : ∀ (i : Fin 3) (q : Fin 64), x1 (ix2 i q) = Wt (ix2 i q))
    (h2 : ∀ r : Fin 2000, x2 (ix2 r (0 : Fin 1)) = D (ix2 (⟨2000 * t + r.val, by omega⟩ : Fin 50000) (0 : Fin 1)))
    (r : Fin 2000) (q : Fin 64) :
    k0_pay1 x0 x1 x2 (ix2 r q)
      = Cert.Spec.scaled (fun n => D (ix2 n (0 : Fin 1))) (Cert.Spec.mm (fun n i => X (ix2 n i)) Wt)
          (⟨2000 * t + r.val, by omega⟩ : Fin 50000) q := by
  rw [k0_pay1_apply, h2]
  unfold Cert.Spec.scaled Cert.Spec.mm
  congr 1
  exact Finset.sum_congr rfl fun i _ => by rw [h0, h1]

/-! ## From the blocks to the array -/

/-- The printed index maps over the 25 grid points: the x-block, the factor column and the output move down one block
    row per point; the weights' one block never moves. -/
theorem reg0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The whole array the region leaves in the output window: the product of the features with the weights, each row
    times the row's factor. -/
abbrev reg0_whole (c : Dev nD) : S50000x64.Idx → EReal := fun i =>
  Cert.Spec.scaled (fun n => (V c main_v11 : S50000x1.Idx → EReal) (ix2 n (0 : Fin 1)))
    (Cert.Spec.mm (fun n i => (V c main_arg0 : S50000x3.Idx → EReal) (ix2 n i)) (V c main_arg3 : S3x64.Idx → EReal)) (i 0) (i 1)

/-- What the point of block row t writes back is block row t of that array. -/
theorem reg0_flushed (c : Dev nD) (t : Fin cfg0.N) :
    (dat0 (F := Ideal) V c).flushed 3 t = ((cfg0.win 3).blk t).view.read (Elt Ideal) (reg0_whole V c) := by
  show (cfg0.win 3).cut (grid0.coords t) ((dat0 (F := Ideal) V c).after 3 t) = _
  rw [after0_3]
  unfold out0_3
  rw [View.canon_unit_zero origin2]
  simp only [View.ld_unit_zero (S := S2000x3) origin2, View.ld_unit_zero (S := S3x64) origin2,
    View.ld_unit_zero (S := S2000x1) origin2]
  obtain ⟨e00, e01, e10, e11, e20, e21, e30, e31⟩ := reg0_index t
  have ht : t.val < 25 := Nat.lt_of_lt_of_eq t.isLt N_0
  funext j
  obtain ⟨r, q, rfl⟩ : ∃ (r : Fin 2000) (q : Fin 64), j = ix2 r q := ⟨j 0, j 1, eq_ix2 j⟩
  refine (reg0_point (iblk0 V c 0 t) (iblk0 V c 1 t) (iblk0 V c 2 t) (V c main_arg0) (V c main_arg3) (V c main_v11)
    t.val ht ?_ ?_ ?_ r q).trans ?_
  · intro r i
    show V c main_arg0 (((cfg0.win 0).blk t).view.emb (ix2 r i)) = _
    refine congrArg (V c main_arg0) (funext fun a => Fin.ext ?_)
    match a with
    | ⟨0, _⟩ => show win0_0.index t (0 : Fin 2) * 2000 + 1 * r.val = 2000 * t.val + r.val; omega
    | ⟨1, _⟩ => show win0_0.index t (1 : Fin 2) * 3 + 1 * i.val = i.val; omega
  · intro i q
    show V c main_arg3 (((cfg0.win 1).blk t).view.emb (ix2 i q)) = _
    refine congrArg (V c main_arg3) (funext fun a => Fin.ext ?_)
    match a with
    | ⟨0, _⟩ => show win0_1.index t (0 : Fin 2) * 3 + 1 * i.val = i.val; omega
    | ⟨1, _⟩ => show win0_1.index t (1 : Fin 2) * 64 + 1 * q.val = q.val; omega
  · intro r
    show V c main_v11 (((cfg0.win 2).blk t).view.emb (ix2 r (0 : Fin 1))) = _
    refine congrArg (V c main_v11) (funext fun a => Fin.ext ?_)
    match a with
    | ⟨0, _⟩ => show win0_2.index t (0 : Fin 2) * 2000 + 1 * r.val = 2000 * t.val + r.val; omega
    | ⟨1, _⟩ => show win0_2.index t (1 : Fin 2) * 1 + 1 * 0 = 0; omega
  · have he : ((cfg0.win 3).blk t).view.emb (ix2 r q) = ix2 (⟨2000 * t.val + r.val, by omega⟩ : Fin 50000) q := by
      funext a; apply Fin.ext
      match a with
      | ⟨0, _⟩ => show win0_3.index t (0 : Fin 2) * 2000 + 1 * r.val = 2000 * t.val + r.val; omega
      | ⟨1, _⟩ => show win0_3.index t (1 : Fin 2) * 64 + 1 * q.val = q.val; omega
    show _ = reg0_whole V c (((cfg0.win 3).blk t).view.emb (ix2 r q))
    rw [he]

/-- An index of the array is in the block of point t iff each coordinate is in the block's range on its axis. -/
theorem reg0_mem_blk (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v13).slice (win0_3.rect t)).set ↔ _
  rw [View.set_slice_whole, Rect.mem_set_unit]
  exact Iff.rfl

/-- The 25 block rows fill the array: row n lies in the block of the point n / 2000. -/
theorem reg0_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 2000 :=
    ⟨⟨(i 0).val / 2000, Nat.lt_of_lt_of_eq (by omega) N_0.symm⟩, rfl⟩
  obtain ⟨-, -, -, -, -, -, e30, e31⟩ := reg0_index t
  refine ⟨t, flush0_3 t, ?_⟩
  rw [reg0_mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-- The array after the whole grid. -/
theorem reg0_array (c : Dev nD) : (dat0 (F := Ideal) V c).arrAt 3 cfg0.N = reg0_whole V c :=
  (dat0 (F := Ideal) V c).arrAt_eq_of_cover 3 (reg0_whole V c) (fun t _ => reg0_flushed V c t) reg0_cover

/-- REGION 0, entry by entry: the features times the weights, each row scaled by the row's factor. -/
theorem reg0_value (c : Dev nD) (n : Fin 50000) (j : Fin 64) :
    ((dat0 (F := Ideal) V c).arrAt 3 cfg0.N : S50000x64.Idx → EReal) (ix2 n j)
      = Cert.Spec.scaled (fun n => (V c main_v11 : S50000x1.Idx → EReal) (ix2 n (0 : Fin 1)))
          (Cert.Spec.mm (fun n i => (V c main_arg0 : S50000x3.Idx → EReal) (ix2 n i)) (V c main_arg3 : S3x64.Idx → EReal)) n j :=
  congrFun (reg0_array V c) (ix2 n j)

end Cert.KernelIdeal.Gen
-- ==== Proof.KReg1.lean ====
/-
  REGION 1, a normalised layer followed by a product: on each block of 2000 rows, the row's factor times the sum of
  the gathered sums and the scaled features, plus the bias, normalised (minus the mean, times the inverse square root
  of the variance plus the offset, times the scale, plus the shift), cut below at zero; then that [2000,64] block times
  the [64,64] weights, each row multiplied by the row's factor again. The 25 grid points write the 25 block rows of
  the output, so the array the region leaves is, entry by entry, the layer times the weights scaled row by row.
-/
import proofs.«416533_j8950711845031_2_alg».proof.Proof.Gen.KernelIdeal.Frame
import proofs.«416533_j8950711845031_2_alg».proof.Proof.Spec
import proofs.«416533_j8950711845031_2_alg».proof.Proof.KRegOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)

/-! ## The body's arithmetic at an entry -/

/-- The normalised layer's row r against column q of the weights: each of the 64 features of the row is the factor
    times the sum of the two feature arrays, plus the bias, minus the mean, times the inverse square root of the
    variance plus the offset, times the scale, plus the shift, cut below at zero. -/
theorem k1_pay3_apply (v0 : Vec Ideal S2000x1 .f32) (v2 v4 : Vec Ideal S2000x64 .f32)
    (v9 v13 v17 v24 v28 : Vec Ideal S1x64 .f32) (v35 : Vec Ideal S64x64 .f32) (r : Fin 2000) (q : Fin 64) :
    k1_pay3 v0 v2 v4 v9 v13 v17 v24 v28 v35 (ix2 r q)
      = ∑ i : Fin 64,
          max (((((v0 (ix2 r (0 : Fin 1)) * (v2 (ix2 r i) + v4 (ix2 r i))) + v9 (ix2 (0 : Fin 1) i)) - v13 (ix2 (0 : Fin 1) i))
                * Ideal.rsqrt (v17 (ix2 (0 : Fin 1) i) + Cert.Spec.eps)) * v24 (ix2 (0 : Fin 1) i) + v28 (ix2 (0 : Fin 1) i))
              Cert.Spec.zero
            * v35 (ix2 i q) := by
  unfold k1_pay3 k1_pay2
  refine (mxu64_apply _ _ r q).trans ?_
  refine Finset.sum_congr rfl fun i _ => ?_
  simp only [shapeCast_self]
  show max (((((broadcastTo S2000x64 v0 broadcasts_S2000x1_S2000x64 (ix2 r i) * (v2 (ix2 r i) + v4 (ix2 r i)))
              + broadcastTo S2000x64 v9 broadcasts_S1x64_S2000x64 (ix2 r i))
            - broadcastTo S2000x64 v13 broadcasts_S1x64_S2000x64 (ix2 r i))
          * broadcastTo S2000x64 (rsqrt (addf v17 (broadcast S1x64 (Scalar.ofBits (F := Ideal) .f32 0x3727C5AC#32))))
              broadcasts_S1x64_S2000x64 (ix2 r i))
        * broadcastTo S2000x64 v24 broadcasts_S1x64_S2000x64 (ix2 r i)
        + broadcastTo S2000x64 v28 broadcasts_S1x64_S2000x64 (ix2 r i))
      (Scalar.ofBits (F := Ideal) .f32 0x00000000#32) * v35 (ix2 i q) = _
  rw [spread_col_apply, broadcastTo_1b_ab_apply, broadcastTo_1b_ab_apply, broadcastTo_1b_ab_apply,
    broadcastTo_1b_ab_apply, broadcastTo_1b_ab_apply]
  rfl

/-- The stored block at an entry: that product times the row's factor. -/
theorem k1_pay1_apply (v0 : Vec Ideal S2000x1 .f32) (M : FVec Ideal S2000x64 .f32) (r : Fin 2000) (q : Fin 64) :
    k1_pay1 (k1_pay2 v0) M (ix2 r q) = M (ix2 r q) * v0 (ix2 r (0 : Fin 1)) := by
  unfold k1_pay1 k1_pay2
  show M (ix2 r q) * broadcastTo S2000x64 (shapeCast S2000x1 v0 shapeCasts_S2000x1_S2000x1) broadcasts_S2000x1_S2000x64 (ix2 r q) = _
  rw [spread_col_apply, shapeCast_self]

variable (V : (c : Dev nD) → (b : Ref sig .tc) → Buf (Elt Ideal) ((c : Thread nD τ).loc b))

/-! ## One grid point: the block it writes, entry by entry -/

/-- At the point of block row t, with the two feature blocks and the factor column being the rows 2000 t … 2000 t + 1999
    of their arrays and the five rows and the weights whole, the body's arithmetic at an entry (r, q) of the block is
    the scaled product of the normalised layer with the weights at row 2000 t + r. -/
theorem reg1_point (xa xm : Vec Ideal S2000x64 .f32) (xd : Vec Ideal S2000x1 .f32)
    (xb xg xbe xmu xvar : Vec Ideal S1x64 .f32) (xw : Vec Ideal S64x64 .f32)
    (A M : S50000x64.Idx → EReal) (D : S50000x1.Idx → EReal) (B G Be Mu Var : S1x64.Idx → EReal)
    (Wt : S64x64.Idx → EReal) (t : Nat) (ht : t < 25)
    (ha : ∀ (r : Fin 2000) (i : Fin 64), xa (ix2 r i) = A (ix2 (⟨2000 * t + r.val, by omega⟩ : Fin 50000) i))
    (hm : ∀ (r : Fin 2000) (i : Fin 64), xm (ix2 r i) = M (ix2 (⟨2000 * t + r.val, by omega⟩ : Fin 50000) i))
    (hd : ∀ r : Fin 2000, xd (ix2 r (0 : Fin 1)) = D (ix2 (⟨2000 * t + r.val, by omega⟩ : Fin 50000) (0 : Fin 1)))
    (hb : ∀ i : Fin 64, xb (ix2 (0 : Fin 1) i) = B (ix2 (0 : Fin 1) i))
    (hg : ∀ i : Fin 64, xg (ix2 (0 : Fin 1) i) = G (ix2 (0 : Fin 1) i))
    (hbe : ∀ i : Fin 64, xbe (ix2 (0 : Fin 1) i) = Be (ix2 (0 : Fin 1) i))
    (hmu : ∀ i : Fin 64, xmu (ix2 (0 : Fin 1) i) = Mu (ix2 (0 : Fin 1) i))
    (hvar : ∀ i : Fin 64, xvar (ix2 (0 : Fin 1) i) = Var (ix2 (0 : Fin 1) i))
    (hw : ∀ (i : Fin 64) (q : Fin 64), xw (ix2 i q) = Wt (ix2 i q))
    (r : Fin 2000) (q : Fin 64) :
    k1_pay1 (k1_pay2 xd) (k1_pay3 xd xa xm xb xmu xvar xg xbe xw) (ix2 r q)
      = Cert.Spec.scaled (fun n => D (ix2 n (0 : Fin 1)))
          (Cert.Spec.mm (Cert.Spec.layerK (fun n => D (ix2 n (0 : Fin 1)))
              (fun k => B (ix2 (0 : Fin 1) k)) (fun k => G (ix2 (0 : Fin 1) k)) (fun k => Be (ix2 (0 : Fin 1) k))
              (fun k => Mu (ix2 (0 : Fin 1) k)) (fun k => Var (ix2 (0 : Fin 1) k))
              (fun n k => A (ix2 n k)) (fun n k => M (ix2 n k))) Wt)
          (⟨2000 * t + r.val, by omega⟩ : Fin 50000) q := by
  rw [k1_pay1_apply, k1_pay3_apply, hd]
  unfold Cert.Spec.scaled Cert.Spec.mm Cert.Spec.layerK Cert.Spec.bn
  congr 1
  exact Finset.sum_congr rfl fun i _ => by rw [ha, hm, hb, hg, hbe, hmu, hvar, hw]

/-! ## From the blocks to the array -/

/-! The printed index maps over the 25 grid points: the two feature blocks, the factor column and the output move
    down one block row per point; the five rows' and the weights' one block never moves. -/
theorem reg1_idx0 : ∀ t : Fin cfg1.N, win1_0.index t (0 : Fin 2) = t.val ∧ win1_0.index t (1 : Fin 2) = 0 :=
  (by decide +kernel : ∀ t : Fin grid1.N, _)
theorem reg1_idx1 : ∀ t : Fin cfg1.N, win1_1.index t (0 : Fin 2) = t.val ∧ win1_1.index t (1 : Fin 2) = 0 :=
  (by decide +kernel : ∀ t : Fin grid1.N, _)
theorem reg1_idx2 : ∀ t : Fin cfg1.N, win1_2.index t (0 : Fin 2) = t.val ∧ win1_2.index t (1 : Fin 2) = 0 :=
  (by decide +kernel : ∀ t : Fin grid1.N, _)
theorem reg1_idx3 : ∀ t : Fin cfg1.N, win1_3.index t (0 : Fin 2) = 0 ∧ win1_3.index t (1 : Fin 2) = 0 :=
  (by decide +kernel : ∀ t : Fin grid1.N, _)
theorem reg1_idx4 : ∀ t : Fin cfg1.N, win1_4.index t (0 : Fin 2) = 0 ∧ win1_4.index t (1 : Fin 2) = 0 :=
  (by decide +kernel : ∀ t : Fin grid1.N, _)
theorem reg1_idx5 : ∀ t : Fin cfg1.N, win1_5.index t (0 : Fin 2) = 0 ∧ win1_5.index t (1 : Fin 2) = 0 :=
  (by decide +kernel : ∀ t : Fin grid1.N, _)
theorem reg1_idx6 : ∀ t : Fin cfg1.N, win1_6.index t (0 : Fin 2) = 0 ∧ win1_6.index t (1 : Fin 2) = 0 :=
  (by decide +kernel : ∀ t : Fin grid1.N, _)
theorem reg1_idx7 : ∀ t : Fin cfg1.N, win1_7.index t (0 : Fin 2) = 0 ∧ win1_7.index t (1 : Fin 2) = 0 :=
  (by decide +kernel : ∀ t : Fin grid1.N, _)
theorem reg1_idx8 : ∀ t : Fin cfg1.N, win1_8.index t (0 : Fin 2) = 0 ∧ win1_8.index t (1 : Fin 2) = 0 :=
  (by decide +kernel : ∀ t : Fin grid1.N, _)
theorem reg1_idx9 : ∀ t : Fin cfg1.N, win1_9.index t (0 : Fin 2) = t.val ∧ win1_9.index t (1 : Fin 2) = 0 :=
  (by decide +kernel : ∀ t : Fin grid1.N, _)

/-- A grid point is below 25. -/
theorem reg1_lt (t : Fin cfg1.N) : t.val < 25 := Nat.lt_of_lt_of_eq t.isLt N_1

/-! The blocks the point of block row t reads, entry by entry: rows 2000 t … 2000 t + 1999 of the arrays that move,
    the whole of the others. -/
/-- The gathered sums. -/
theorem reg1_blk0 (c : Dev nD) (t : Fin cfg1.N) (r : Fin 2000) (i : Fin 64) :
    iblk1 V c 0 t (ix2 r i) = V c main_v23 (ix2 (⟨2000 * t.val + r.val, by have := reg1_lt t; omega⟩ : Fin 50000) i) := by
  obtain ⟨e0, e1⟩ := reg1_idx0 t
  show V c main_v23 (((cfg1.win 0).blk t).view.emb (ix2 r i)) = _
  refine congrArg (V c main_v23) (funext fun a => Fin.ext ?_)
  match a with
  | ⟨0, _⟩ => show win1_0.index t (0 : Fin 2) * 2000 + 1 * r.val = 2000 * t.val + r.val; omega
  | ⟨1, _⟩ => show win1_0.index t (1 : Fin 2) * 64 + 1 * i.val = i.val; omega

/-- The scaled features. -/
theorem reg1_blk1 (c : Dev nD) (t : Fin cfg1.N) (r : Fin 2000) (i : Fin 64) :
    iblk1 V c 1 t (ix2 r i) = V c main_v13 (ix2 (⟨2000 * t.val + r.val, by have := reg1_lt t; omega⟩ : Fin 50000) i) := by
  obtain ⟨e0, e1⟩ := reg1_idx1 t
  show V c main_v13 (((cfg1.win 1).blk t).view.emb (ix2 r i)) = _
  refine congrArg (V c main_v13) (funext fun a => Fin.ext ?_)
  match a with
  | ⟨0, _⟩ => show win1_1.index t (0 : Fin 2) * 2000 + 1 * r.val = 2000 * t.val + r.val; omega
  | ⟨1, _⟩ => show win1_1.index t (1 : Fin 2) * 64 + 1 * i.val = i.val; omega

/-- The factor column. -/
theorem reg1_blk2 (c : Dev nD) (t : Fin cfg1.N) (r : Fin 2000) :
    iblk1 V c 2 t (ix2 r (0 : Fin 1)) = V c main_v11 (ix2 (⟨2000 * t.val + r.val, by have := reg1_lt t; omega⟩ : Fin 50000) (0 : Fin 1)) := by
  obtain ⟨e0, e1⟩ := reg1_idx2 t
  show V c main_v11 (((cfg1.win 2).blk t).view.emb (ix2 r (0 : Fin 1))) = _
  refine congrArg (V c main_v11) (funext fun a => Fin.ext ?_)
  match a with
  | ⟨0, _⟩ => show win1_2.index t (0 : Fin 2) * 2000 + 1 * r.val = 2000 * t.val + r.val; omega
  | ⟨1, _⟩ => show win1_2.index t (1 : Fin 2) * 1 + 1 * 0 = 0; omega

/-- The bias row. -/
theorem reg1_blk3 (c : Dev nD) (t : Fin cfg1.N) (i : Fin 64) :
    iblk1 V c 3 t (ix2 (0 : Fin 1) i) = V c main_v24 (ix2 (0 : Fin 1) i) := by
  obtain ⟨e0, e1⟩ := reg1_idx3 t
  show V c main_v24 (((cfg1.win 3).blk t).view.emb (ix2 (0 : Fin 1) i)) = _
  refine congrArg (V c main_v24) (funext fun a => Fin.ext ?_)
  match a with
  | ⟨0, _⟩ => show win1_3.index t (0 : Fin 2) * 1 + 1 * 0 = 0; omega
  | ⟨1, _⟩ => show win1_3.index t (1 : Fin 2) * 64 + 1 * i.val = i.val; omega

/-- The scale row. -/
theorem reg1_blk4 (c : Dev nD) (t : Fin cfg1.N) (i : Fin 64) :
    iblk1 V c 4 t (ix2 (0 : Fin 1) i) = V c main_v25 (ix2 (0 : Fin 1) i) := by
  obtain ⟨e0, e1⟩ := reg1_idx4 t
  show V c main_v25 (((cfg1.win 4).blk t).view.emb (ix2 (0 : Fin 1) i)) = _
  refine congrArg (V c main_v25) (funext fun a => Fin.ext ?_)
  match a with
  | ⟨0, _⟩ => show win1_4.index t (0 : Fin 2) * 1 + 1 * 0 = 0; omega
  | ⟨1, _⟩ => show win1_4.index t (1 : Fin 2) * 64 + 1 * i.val = i.val; omega

/-- The shift row. -/
theorem reg1_blk5 (c : Dev nD) (t : Fin cfg1.N) (i : Fin 64) :
    iblk1 V c 5 t (ix2 (0 : Fin 1) i) = V c main_v26 (ix2 (0 : Fin 1) i) := by
  obtain ⟨e0, e1⟩ := reg1_idx5 t
  show V c main_v26 (((cfg1.win 5).blk t).view.emb (ix2 (0 : Fin 1) i)) = _
  refine congrArg (V c main_v26) (funext fun a => Fin.ext ?_)
  match a with
  | ⟨0, _⟩ => show win1_5.index t (0 : Fin 2) * 1 + 1 * 0 = 0; omega
  | ⟨1, _⟩ => show win1_5.index t (1 : Fin 2) * 64 + 1 * i.val = i.val; omega

/-- The mean row. -/
theorem reg1_blk6 (c : Dev nD) (t : Fin cfg1.N) (i : Fin 64) :
    iblk1 V c 6 t (ix2 (0 : Fin 1) i) = V c main_v27 (ix2 (0 : Fin 1) i) := by
  obtain ⟨e0, e1⟩ := reg1_idx6 t
  show V c main_v27 (((cfg1.win 6).blk t).view.emb (ix2 (0 : Fin 1) i)) = _
  refine congrArg (V c main_v27) (funext fun a => Fin.ext ?_)
  match a with
  | ⟨0, _⟩ => show win1_6.index t (0 : Fin 2) * 1 + 1 * 0 = 0; omega
  | ⟨1, _⟩ => show win1_6.index t (1 : Fin 2) * 64 + 1 * i.val = i.val; omega

/-- The variance row. -/
theorem reg1_blk7 (c : Dev nD) (t : Fin cfg1.N) (i : Fin 64) :
    iblk1 V c 7 t (ix2 (0 : Fin 1) i) = V c main_v28 (ix2 (0 : Fin 1) i) := by
  obtain ⟨e0, e1⟩ := reg1_idx7 t
  show V c main_v28 (((cfg1.win 7).blk t).view.emb (ix2 (0 : Fin 1) i)) = _
  refine congrArg (V c main_v28) (funext fun a => Fin.ext ?_)
  match a with
  | ⟨0, _⟩ => show win1_7.index t (0 : Fin 2) * 1 + 1 * 0 = 0; omega
  | ⟨1, _⟩ => show win1_7.index t (1 : Fin 2) * 64 + 1 * i.val = i.val; omega

/-- The weights. -/
theorem reg1_blk8 (c : Dev nD) (t : Fin cfg1.N) (i : Fin 64) (q : Fin 64) :
    iblk1 V c 8 t (ix2 i q) = V c main_arg5 (ix2 i q) := by
  obtain ⟨e0, e1⟩ := reg1_idx8 t
  show V c main_arg5 (((cfg1.win 8).blk t).view.emb (ix2 i q)) = _
  refine congrArg (V c main_arg5) (funext fun a => Fin.ext ?_)
  match a with
  | ⟨0, _⟩ => show win1_8.index t (0 : Fin 2) * 64 + 1 * i.val = i.val; omega
  | ⟨1, _⟩ => show win1_8.index t (1 : Fin 2) * 64 + 1 * q.val = q.val; omega

/-- An entry (r, q) of the output block of point t sits at row 2000 t + r, column q of the array. -/
theorem reg1_emb_out (t : Fin cfg1.N) (r : Fin 2000) (q : Fin 64) :
    ((cfg1.win 9).blk t).view.emb (ix2 r q)
      = ix2 (⟨2000 * t.val + r.val, by have := reg1_lt t; omega⟩ : Fin 50000) q := by
  obtain ⟨e0, e1⟩ := reg1_idx9 t
  funext a; apply Fin.ext
  match a with
  | ⟨0, _⟩ => show win1_9.index t (0 : Fin 2) * 2000 + 1 * r.val = 2000 * t.val + r.val; omega
  | ⟨1, _⟩ => show win1_9.index t (1 : Fin 2) * 64 + 1 * q.val = q.val; omega

/-- A block of the output window read at an entry is the array at the entry's place in the array. -/
theorem reg1_read_out (t : Fin cfg1.N) (G : S50000x64.Idx → EReal) (r : Fin 2000) (q : Fin 64) :
    ((cfg1.win 9).blk t).view.read (Elt Ideal) G (ix2 r q) = G (((cfg1.win 9).blk t).view.emb (ix2 r q)) := rfl

/-- The whole array the region leaves in the output window: the normalised layer times the weights, each row times
    the row's factor. -/
def reg1_whole (c : Dev nD) : S50000x64.Idx → EReal := fun i =>
  Cert.Spec.scaled (fun n => (V c main_v11 : S50000x1.Idx → EReal) (ix2 n (0 : Fin 1)))
    (Cert.Spec.mm (Cert.Spec.layerK (fun n => (V c main_v11 : S50000x1.Idx → EReal) (ix2 n (0 : Fin 1)))
        (fun k => (V c main_v24 : S1x64.Idx → EReal) (ix2 (0 : Fin 1) k)) (fun k => (V c main_v25 : S1x64.Idx → EReal) (ix2 (0 : Fin 1) k))
        (fun k => (V c main_v26 : S1x64.Idx → EReal) (ix2 (0 : Fin 1) k)) (fun k => (V c main_v27 : S1x64.Idx → EReal) (ix2 (0 : Fin 1) k))
        (fun k => (V c main_v28 : S1x64.Idx → EReal) (ix2 (0 : Fin 1) k))
        (fun n k => (V c main_v23 : S50000x64.Idx → EReal) (ix2 n k)) (fun n k => (V c main_v13 : S50000x64.Idx → EReal) (ix2 n k)))
      (V c main_arg5 : S64x64.Idx → EReal)) (i 0) (i 1)

/-- What the point of block row t writes back is block row t of that array. -/
theorem reg1_flushed (c : Dev nD) (t : Fin cfg1.N) :
    (dat1 (F := Ideal) V c).flushed 9 t = ((cfg1.win 9).blk t).view.read (Elt Ideal) (reg1_whole V c) := by
  show (cfg1.win 9).cut (grid1.coords t) ((dat1 (F := Ideal) V c).after 9 t) = _
  rw [after1_9]
  unfold out1_9
  rw [View.canon_unit_zero origin2]
  simp only [View.ld_unit_zero (S := S2000x1) origin2, View.ld_unit_zero (S := S2000x64) origin2,
    View.ld_unit_zero (S := S1x64) origin2, View.ld_unit_zero (S := S64x64) origin2]
  funext j
  obtain ⟨r, q, rfl⟩ : ∃ (r : Fin 2000) (q : Fin 64), j = ix2 r q := ⟨j 0, j 1, eq_ix2 j⟩
  refine (reg1_point (iblk1 V c 0 t) (iblk1 V c 1 t) (iblk1 V c 2 t) (iblk1 V c 3 t) (iblk1 V c 4 t) (iblk1 V c 5 t)
    (iblk1 V c 6 t) (iblk1 V c 7 t) (iblk1 V c 8 t) (V c main_v23) (V c main_v13) (V c main_v11) (V c main_v24)
    (V c main_v25) (V c main_v26) (V c main_v27) (V c main_v28) (V c main_arg5)
    t.val (reg1_lt t) (reg1_blk0 V c t) (reg1_blk1 V c t) (reg1_blk2 V c t) (reg1_blk3 V c t) (reg1_blk4 V c t)
    (reg1_blk5 V c t) (reg1_blk6 V c t) (reg1_blk7 V c t) (reg1_blk8 V c t) r q).trans ?_
  refine Eq.trans ?_ (reg1_read_out t (reg1_whole V c) r q).symm
  rw [reg1_emb_out]
  rfl

/-- An index of the array is in the block of point t iff each coordinate is in the block's range on its axis. -/
theorem reg1_mem_blk (t : Fin cfg1.N) (i : S50000x64.Idx) :
    i ∈ ((cfg1.win 9).blk t).view.set ↔ ∀ a : Fin 2, win1_9.index t a * S2000x64.size a ≤ (i a).val
      ∧ (i a).val < win1_9.index t a * S2000x64.size a + S2000x64.size a := by
  show i ∈ ((View.whole main_v29).slice (win1_9.rect t)).set ↔ _
  rw [View.set_slice_whole, Rect.mem_set_unit]
  exact Iff.rfl

/-- The 25 block rows fill the array: row n lies in the block of the point n / 2000. -/
theorem reg1_cover (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  obtain ⟨t, ht⟩ : ∃ t : Fin cfg1.N, t.val = (i 0).val / 2000 :=
    ⟨⟨(i 0).val / 2000, Nat.lt_of_lt_of_eq (by omega) N_1.symm⟩, rfl⟩
  obtain ⟨e90, e91⟩ := reg1_idx9 t
  refine ⟨t, flush1_9 t, ?_⟩
  rw [reg1_mem_blk]
  intro a
  match a with
  | ⟨0, _⟩ =>
    show win1_9.index t (0 : Fin 2) * 2000 ≤ (i 0).val ∧ (i 0).val < win1_9.index t (0 : Fin 2) * 2000 + 2000
    omega
  | ⟨1, _⟩ =>
    show win1_9.index t (1 : Fin 2) * 64 ≤ (i 1).val ∧ (i 1).val < win1_9.index t (1 : Fin 2) * 64 + 64
    omega

/-- The array after the whole grid. -/
theorem reg1_array (c : Dev nD) : (dat1 (F := Ideal) V c).arrAt 9 cfg1.N = reg1_whole V c :=
  (dat1 (F := Ideal) V c).arrAt_eq_of_cover 9 (reg1_whole V c) (fun t _ => reg1_flushed V c t) reg1_cover

/-- REGION 1, entry by entry: the normalised layer times the weights, each row scaled by the row's factor. -/
theorem reg1_value (c : Dev nD) (n : Fin 50000) (j : Fin 64) :
    ((dat1 (F := Ideal) V c).arrAt 9 cfg1.N : S50000x64.Idx → EReal) (ix2 n j)
      = Cert.Spec.scaled (fun n => (V c main_v11 : S50000x1.Idx → EReal) (ix2 n (0 : Fin 1)))
          (Cert.Spec.mm (Cert.Spec.layerK (fun n => (V c main_v11 : S50000x1.Idx → EReal) (ix2 n (0 : Fin 1)))
              (fun k => (V c main_v24 : S1x64.Idx → EReal) (ix2 (0 : Fin 1) k)) (fun k => (V c main_v25 : S1x64.Idx → EReal) (ix2 (0 : Fin 1) k))
              (fun k => (V c main_v26 : S1x64.Idx → EReal) (ix2 (0 : Fin 1) k)) (fun k => (V c main_v27 : S1x64.Idx → EReal) (ix2 (0 : Fin 1) k))
              (fun k => (V c main_v28 : S1x64.Idx → EReal) (ix2 (0 : Fin 1) k))
              (fun n k => (V c main_v23 : S50000x64.Idx → EReal) (ix2 n k)) (fun n k => (V c main_v13 : S50000x64.Idx → EReal) (ix2 n k)))
            (V c main_arg5 : S64x64.Idx → EReal)) n j :=
  congrFun (reg1_array V c) (ix2 n j)

end Cert.KernelIdeal.Gen
-- ==== Proof.KReg2.lean ====
/-
  REGION 2, a normalised layer followed by a product: on each block of 2000 rows, the row's factor times the sum of
  the gathered sums and the scaled features, plus the bias, normalised (minus the mean, times the inverse square root
  of the variance plus the offset, times the scale, plus the shift), cut below at zero; then that [2000,64] block times
  the [64,64] weights, each row multiplied by the row's factor again. The 25 grid points write the 25 block rows of
  the output, so the array the region leaves is, entry by entry, the layer times the weights scaled row by row.
-/
import proofs.«416533_j8950711845031_2_alg».proof.Proof.Gen.KernelIdeal.Frame
import proofs.«416533_j8950711845031_2_alg».proof.Proof.Spec
import proofs.«416533_j8950711845031_2_alg».proof.Proof.KRegOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.ShloMosaic.Pipeline (Dat Cfg Window)

/-! ## The body's arithmetic at an entry -/

/-- The normalised layer's row r against column q of the weights: each of the 64 features of the row is the factor
    times the sum of the two feature arrays, plus the bias, minus the mean, times the inverse square root of the
    variance plus the offset, times the scale, plus the shift, cut below at zero. -/
theorem k2_pay3_apply (v0 : Vec Ideal S2000x1 .f32) (v2 v4 : Vec Ideal S2000x64 .f32)
    (v9 v13 v17 v24 v28 : Vec Ideal S1x64 .f32) (v35 : Vec Ideal S64x64 .f32) (r : Fin 2000) (q : Fin 64) :
    k2_pay3 v0 v2 v4 v9 v13 v17 v24 v28 v35 (ix2 r q)
      = ∑ i : Fin 64,
          max (((((v0 (ix2 r (0 : Fin 1)) * (v2 (ix2 r i) + v4 (ix2 r i))) + v9 (ix2 (0 : Fin 1) i)) - v13 (ix2 (0 : Fin 1) i))
                * Ideal.rsqrt (v17 (ix2 (0 : Fin 1) i) + Cert.Spec.eps)) * v24 (ix2 (0 : Fin 1) i) + v28 (ix2 (0 : Fin 1) i))
              Cert.Spec.zero
            * v35 (ix2 i q) := by
  unfold k2_pay3 k2_pay2
  refine (mxu64_apply _ _ r q).trans ?_
  refine Finset.sum_congr rfl fun i _ => ?_
  simp only [shapeCast_self]
  show max (((((broadcastTo S2000x64 v0 broadcasts_S2000x1_S2000x64 (ix2 r i) * (v2 (ix2 r i) + v4 (ix2 r i)))
              + broadcastTo S2000x64 v9 broadcasts_S1x64_S2000x64 (ix2 r i))
            - broadcastTo S2000x64 v13 broadcasts_S1x64_S2000x64 (ix2 r i))
          * broadcastTo S2000x64 (rsqrt (addf v17 (broadcast S1x64 (Scalar.ofBits (F := Ideal) .f32 0x3727C5AC#32))))
              broadcasts_S1x64_S2000x64 (ix2 r i))
        * broadcastTo S2000x64 v24 broadcasts_S1x64_S2000x64 (ix2 r i)
        + broadcastTo S2000x64 v28 broadcasts_S1x64_S2000x64 (ix2 r i))
      (Scalar.ofBits (F := Ideal) .f32 0x00000000#32) * v35 (ix2 i q) = _
  rw [spread_col_apply, broadcastTo_1b_ab_apply, broadcastTo_1b_ab_apply, broadcastTo_1b_ab_apply,
    broadcastTo_1b_ab_apply, broadcastTo_1b_ab_apply]
  rfl

/-- The stored block at an entry: that product times the row's factor. -/
theorem k2_pay1_apply (v0 : Vec Ideal S2000x1 .f32) (M : FVec Ideal S2000x64 .f32) (r : Fin 2000) (q : Fin 64) :
    k2_pay1 (k2_pay2 v0) M (ix2 r q) = M (ix2 r q) * v0 (ix2 r (0 : Fin 1)) := by
  unfold k2_pay1 k2_pay2
  show M (ix2 r q) * broadcastTo S2000x64 (shapeCast S2000x1 v0 shapeCasts_S2000x1_S2000x1) broadcasts_S2000x1_S2000x64 (ix2 r q) = _
  rw [spread_col_apply, shapeCast_self]

variable (V : (c : Dev nD) → (b : Ref sig .tc) → Buf (Elt Ideal) ((c : Thread nD τ).loc b))

/-! ## One grid point: the block it writes, entry by entry -/

/-- At the point of block row t, with the two feature blocks and the factor column being the rows 2000 t … 2000 t + 1999
    of their arrays and the five rows and the weights whole, the body's arithmetic at an entry (r, q) of the block is
    the scaled product of the normalised layer with the weights at row 2000 t + r. -/
theorem reg2_point (xa xm : Vec Ideal S2000x64 .f32) (xd : Vec Ideal S2000x1 .f32)
    (xb xg xbe xmu xvar : Vec Ideal S1x64 .f32) (xw : Vec Ideal S64x64 .f32)
    (A M : S50000x64.Idx → EReal) (D : S50000x1.Idx → EReal) (B G Be Mu Var : S1x64.Idx → EReal)
    (Wt : S64x64.Idx → EReal) (t : Nat) (ht : t < 25)
    (ha : ∀ (r : Fin 2000) (i : Fin 64), xa (ix2 r i) = A (ix2 (⟨2000 * t + r.val, by omega⟩ : Fin 50000) i))
    (hm : ∀ (r : Fin 2000) (i : Fin 64), xm (ix2 r i) = M (ix2 (⟨2000 * t + r.val, by omega⟩ : Fin 50000) i))
    (hd : ∀ r : Fin 2000, xd (ix2 r (0 : Fin 1)) = D (ix2 (⟨2000 * t + r.val, by omega⟩ : Fin 50000) (0 : Fin 1)))
    (hb : ∀ i : Fin 64, xb (ix2 (0 : Fin 1) i) = B (ix2 (0 : Fin 1) i))
    (hg : ∀ i : Fin 64, xg (ix2 (0 : Fin 1) i) = G (ix2 (0 : Fin 1) i))
    (hbe : ∀ i : Fin 64, xbe (ix2 (0 : Fin 1) i) = Be (ix2 (0 : Fin 1) i))
    (hmu : ∀ i : Fin 64, xmu (ix2 (0 : Fin 1) i) = Mu (ix2 (0 : Fin 1) i))
    (hvar : ∀ i : Fin 64, xvar (ix2 (0 : Fin 1) i) = Var (ix2 (0 : Fin 1) i))
    (hw : ∀ (i : Fin 64) (q : Fin 64), xw (ix2 i q) = Wt (ix2 i q))
    (r : Fin 2000) (q : Fin 64) :
    k2_pay1 (k2_pay2 xd) (k2_pay3 xd xa xm xb xmu xvar xg xbe xw) (ix2 r q)
      = Cert.Spec.scaled (fun n => D (ix2 n (0 : Fin 1)))
          (Cert.Spec.mm (Cert.Spec.layerK (fun n => D (ix2 n (0 : Fin 1)))
              (fun k => B (ix2 (0 : Fin 1) k)) (fun k => G (ix2 (0 : Fin 1) k)) (fun k => Be (ix2 (0 : Fin 1) k))
              (fun k => Mu (ix2 (0 : Fin 1) k)) (fun k => Var (ix2 (0 : Fin 1) k))
              (fun n k => A (ix2 n k)) (fun n k => M (ix2 n k))) Wt)
          (⟨2000 * t + r.val, by omega⟩ : Fin 50000) q := by
  rw [k2_pay1_apply, k2_pay3_apply, hd]
  unfold Cert.Spec.scaled Cert.Spec.mm Cert.Spec.layerK Cert.Spec.bn
  congr 1
  exact Finset.sum_congr rfl fun i _ => by rw [ha, hm, hb, hg, hbe, hmu, hvar, hw]

/-! ## From the blocks to the array -/

/-! The printed index maps over the 25 grid points: the two feature blocks, the factor column and the output move
    down one block row per point; the five rows' and the weights' one block never moves. -/
theorem reg2_idx0 : ∀ t : Fin cfg2.N, win2_0.index t (0 : Fin 2) = t.val ∧ win2_0.index t (1 : Fin 2) = 0 :=
  (by decide +kernel : ∀ t : Fin grid2.N, _)
theorem reg2_idx1 : ∀ t : Fin cfg2.N, win2_1.index t (0 : Fin 2) = t.val ∧ win2_1.index t (1 : Fin 2) = 0 :=
  (by decide +kernel : ∀ t : Fin grid2.N, _)
theorem reg2_idx2 : ∀ t : Fin cfg2.N, win2_2.index t (0 : Fin 2) = t.val ∧ win2_2.index t (1 : Fin 2) = 0 :=
  (by decide +kernel : ∀ t : Fin grid2.N, _)
theorem reg2_idx3 : ∀ t : Fin cfg2.N, win2_3.index t (0 : Fin 2) = 0 ∧ win2_3.index t (1 : Fin 2) = 0 :=
  (by decide +kernel : ∀ t : Fin grid2.N, _)
theorem reg2_idx4 : ∀ t : Fin cfg2.N, win2_4.index t (0 : Fin 2) = 0 ∧ win2_4.index t (1 : Fin 2) = 0 :=
  (by decide +kernel : ∀ t : Fin grid2.N, _)
theorem reg2_idx5 : ∀ t : Fin cfg2.N, win2_5.index t (0 : Fin 2) = 0 ∧ win2_5.index t (1 : Fin 2) = 0 :=
  (by decide +kernel : ∀ t : Fin grid2.N, _)
theorem reg2_idx6 : ∀ t : Fin cfg2.N, win2_6.index t (0 : Fin 2) = 0 ∧ win2_6.index t (1 : Fin 2) = 0 :=
  (by decide +kernel : ∀ t : Fin grid2.N, _)
theorem reg2_idx7 : ∀ t : Fin cfg2.N, win2_7.index t (0 : Fin 2) = 0 ∧ win2_7.index t (1 : Fin 2) = 0 :=
  (by decide +kernel : ∀ t : Fin grid2.N, _)
theorem reg2_idx8 : ∀ t : Fin cfg2.N, win2_8.index t (0 : Fin 2) = 0 ∧ win2_8.index t (1 : Fin 2) = 0 :=
  (by decide +kernel : ∀ t : Fin grid2.N, _)
theorem reg2_idx9 : ∀ t : Fin cfg2.N, win2_9.index t (0 : Fin 2) = t.val ∧ win2_9.index t (1 : Fin 2) = 0 :=
  (by decide +kernel : ∀ t : Fin grid2.N, _)

/-- A grid point is below 25. -/
theorem reg2_lt (t : Fin cfg2.N) : t.val < 25 := Nat.lt_of_lt_of_eq t.isLt N_2

/-! The blocks the point of block row t reads, entry by entry: rows 2000 t … 2000 t + 1999 of the arrays that move,
    the whole of the others. -/
/-- The gathered sums. -/
theorem reg2_blk0 (c : Dev nD) (t : Fin cfg2.N) (r : Fin 2000) (i : Fin 64) :
    iblk2 V c 0 t (ix2 r i) = V c main_v39 (ix2 (⟨2000 * t.val + r.val, by have := reg2_lt t; omega⟩ : Fin 50000) i) := by
  obtain ⟨e0, e1⟩ := reg2_idx0 t
  show V c main_v39 (((cfg2.win 0).blk t).view.emb (ix2 r i)) = _
  refine congrArg (V c main_v39) (funext fun a => Fin.ext ?_)
  match a with
  | ⟨0, _⟩ => show win2_0.index t (0 : Fin 2) * 2000 + 1 * r.val = 2000 * t.val + r.val; omega
  | ⟨1, _⟩ => show win2_0.index t (1 : Fin 2) * 64 + 1 * i.val = i.val; omega

/-- The scaled features. -/
theorem reg2_blk1 (c : Dev nD) (t : Fin cfg2.N) (r : Fin 2000) (i : Fin 64) :
    iblk2 V c 1 t (ix2 r i) = V c main_v29 (ix2 (⟨2000 * t.val + r.val, by have := reg2_lt t; omega⟩ : Fin 50000) i) := by
  obtain ⟨e0, e1⟩ := reg2_idx1 t
  show V c main_v29 (((cfg2.win 1).blk t).view.emb (ix2 r i)) = _
  refine congrArg (V c main_v29) (funext fun a => Fin.ext ?_)
  match a with
  | ⟨0, _⟩ => show win2_1.index t (0 : Fin 2) * 2000 + 1 * r.val = 2000 * t.val + r.val; omega
  | ⟨1, _⟩ => show win2_1.index t (1 : Fin 2) * 64 + 1 * i.val = i.val; omega

/-- The factor column. -/
theorem reg2_blk2 (c : Dev nD) (t : Fin cfg2.N) (r : Fin 2000) :
    iblk2 V c 2 t (ix2 r (0 : Fin 1)) = V c main_v11 (ix2 (⟨2000 * t.val + r.val, by have := reg2_lt t; omega⟩ : Fin 50000) (0 : Fin 1)) := by
  obtain ⟨e0, e1⟩ := reg2_idx2 t
  show V c main_v11 (((cfg2.win 2).blk t).view.emb (ix2 r (0 : Fin 1))) = _
  refine congrArg (V c main_v11) (funext fun a => Fin.ext ?_)
  match a with
  | ⟨0, _⟩ => show win2_2.index t (0 : Fin 2) * 2000 + 1 * r.val = 2000 * t.val + r.val; omega
  | ⟨1, _⟩ => show win2_2.index t (1 : Fin 2) * 1 + 1 * 0 = 0; omega

/-- The bias row. -/
theorem reg2_blk3 (c : Dev nD) (t : Fin cfg2.N) (i : Fin 64) :
    iblk2 V c 3 t (ix2 (0 : Fin 1) i) = V c main_v40 (ix2 (0 : Fin 1) i) := by
  obtain ⟨e0, e1⟩ := reg2_idx3 t
  show V c main_v40 (((cfg2.win 3).blk t).view.emb (ix2 (0 : Fin 1) i)) = _
  refine congrArg (V c main_v40) (funext fun a => Fin.ext ?_)
  match a with
  | ⟨0, _⟩ => show win2_3.index t (0 : Fin 2) * 1 + 1 * 0 = 0; omega
  | ⟨1, _⟩ => show win2_3.index t (1 : Fin 2) * 64 + 1 * i.val = i.val; omega

/-- The scale row. -/
theorem reg2_blk4 (c : Dev nD) (t : Fin cfg2.N) (i : Fin 64) :
    iblk2 V c 4 t (ix2 (0 : Fin 1) i) = V c main_v41 (ix2 (0 : Fin 1) i) := by
  obtain ⟨e0, e1⟩ := reg2_idx4 t
  show V c main_v41 (((cfg2.win 4).blk t).view.emb (ix2 (0 : Fin 1) i)) = _
  refine congrArg (V c main_v41) (funext fun a => Fin.ext ?_)
  match a with
  | ⟨0, _⟩ => show win2_4.index t (0 : Fin 2) * 1 + 1 * 0 = 0; omega
  | ⟨1, _⟩ => show win2_4.index t (1 : Fin 2) * 64 + 1 * i.val = i.val; omega

/-- The shift row. -/
theorem reg2_blk5 (c : Dev nD) (t : Fin cfg2.N) (i : Fin 64) :
    iblk2 V c 5 t (ix2 (0 : Fin 1) i) = V c main_v42 (ix2 (0 : Fin 1) i) := by
  obtain ⟨e0, e1⟩ := reg2_idx5 t
  show V c main_v42 (((cfg2.win 5).blk t).view.emb (ix2 (0 : Fin 1) i)) = _
  refine congrArg (V c main_v42) (funext fun a => Fin.ext ?_)
  match a with
  | ⟨0, _⟩ => show win2_5.index t (0 : Fin 2) * 1 + 1 * 0 = 0; omega
  | ⟨1, _⟩ => show win2_5.index t (1 : Fin 2) * 64 + 1 * i.val = i.val; omega

/-- The mean row. -/
theorem reg2_blk6 (c : Dev nD) (t : Fin cfg2.N) (i : Fin 64) :
    iblk2 V c 6 t (ix2 (0 : Fin 1) i) = V c main_v43 (ix2 (0 : Fin 1) i) := by
  obtain ⟨e0, e1⟩ := reg2_idx6 t
  show V c main_v43 (((cfg2.win 6).blk t).view.emb (ix2 (0 : Fin 1) i)) = _
  refine congrArg (V c main_v43) (funext fun a => Fin.ext ?_)
  match a with
  | ⟨0, _⟩ => show win2_6.index t (0 : Fin 2) * 1 + 1 * 0 = 0; omega
  | ⟨1, _⟩ => show win2_6.index t (1 : Fin 2) * 64 + 1 * i.val = i.val; omega

/-- The variance row. -/
theorem reg2_blk7 (c : Dev nD) (t : Fin cfg2.N) (i : Fin 64) :
    iblk2 V c 7 t (ix2 (0 : Fin 1) i) = V c main_v44 (ix2 (0 : Fin 1) i) := by
  obtain ⟨e0, e1⟩ := reg2_idx7 t
  show V c main_v44 (((cfg2.win 7).blk t).view.emb (ix2 (0 : Fin 1) i)) = _
  refine congrArg (V c main_v44) (funext fun a => Fin.ext ?_)
  match a with
  | ⟨0, _⟩ => show win2_7.index t (0 : Fin 2) * 1 + 1 * 0 = 0; omega
  | ⟨1, _⟩ => show win2_7.index t (1 : Fin 2) * 64 + 1 * i.val = i.val; omega

/-- The weights. -/
theorem reg2_blk8 (c : Dev nD) (t : Fin cfg2.N) (i : Fin 64) (q : Fin 64) :
    iblk2 V c 8 t (ix2 i q) = V c main_arg7 (ix2 i q) := by
  obtain ⟨e0, e1⟩ := reg2_idx8 t
  show V c main_arg7 (((cfg2.win 8).blk t).view.emb (ix2 i q)) = _
  refine congrArg (V c main_arg7) (funext fun a => Fin.ext ?_)
  match a with
  | ⟨0, _⟩ => show win2_8.index t (0 : Fin 2) * 64 + 1 * i.val = i.val; omega
  | ⟨1, _⟩ => show win2_8.index t (1 : Fin 2) * 64 + 1 * q.val = q.val; omega

/-- An entry (r, q) of the output block of point t sits at row 2000 t + r, column q of the array. -/
theorem reg2_emb_out (t : Fin cfg2.N) (r : Fin 2000) (q : Fin 64) :
    ((cfg2.win 9).blk t).view.emb (ix2 r q)
      = ix2 (⟨2000 * t.val + r.val, by have := reg2_lt t; omega⟩ : Fin 50000) q := by
  obtain ⟨e0, e1⟩ := reg2_idx9 t
  funext a; apply Fin.ext
  match a with
  | ⟨0, _⟩ => show win2_9.index t (0 : Fin 2) * 2000 + 1 * r.val = 2000 * t.val + r.val; omega
  | ⟨1, _⟩ => show win2_9.index t (1 : Fin 2) * 64 + 1 * q.val = q.val; omega

/-- A block of the output window read at an entry is the array at the entry's place in the array. -/
theorem reg2_read_out (t : Fin cfg2.N) (G : S50000x64.Idx → EReal) (r : Fin 2000) (q : Fin 64) :
    ((cfg2.win 9).blk t).view.read (Elt Ideal) G (ix2 r q) = G (((cfg2.win 9).blk t).view.emb (ix2 r q)) := rfl

/-- The whole array the region leaves in the output window: the normalised layer times the weights, each row times
    the row's factor. -/
def reg2_whole (c : Dev nD) : S50000x64.Idx → EReal := fun i =>
  Cert.Spec.scaled (fun n => (V c main_v11 : S50000x1.Idx → EReal) (ix2 n (0 : Fin 1)))
    (Cert.Spec.mm (Cert.Spec.layerK (fun n => (V c main_v11 : S50000x1.Idx → EReal) (ix2 n (0 : Fin 1)))
        (fun k => (V c main_v40 : S1x64.Idx → EReal) (ix2 (0 : Fin 1) k)) (fun k => (V c main_v41 : S1x64.Idx → EReal) (ix2 (0 : Fin 1) k))
        (fun k => (V c main_v42 : S1x64.Idx → EReal) (ix2 (0 : Fin 1) k)) (fun k => (V c main_v43 : S1x64.Idx → EReal) (ix2 (0 : Fin 1) k))
        (fun k => (V c main_v44 : S1x64.Idx → EReal) (ix2 (0 : Fin 1) k))
        (fun n k => (V c main_v39 : S50000x64.Idx → EReal) (ix2 n k)) (fun n k => (V c main_v29 : S50000x64.Idx → EReal) (ix2 n k)))
      (V c main_arg7 : S64x64.Idx → EReal)) (i 0) (i 1)

/-- What the point of block row t writes back is block row t of that array. -/
theorem reg2_flushed (c : Dev nD) (t : Fin cfg2.N) :
    (dat2 (F := Ideal) V c).flushed 9 t = ((cfg2.win 9).blk t).view.read (Elt Ideal) (reg2_whole V c) := by
  show (cfg2.win 9).cut (grid2.coords t) ((dat2 (F := Ideal) V c).after 9 t) = _
  rw [after2_9]
  unfold out2_9
  rw [View.canon_unit_zero origin2]
  simp only [View.ld_unit_zero (S := S2000x1) origin2, View.ld_unit_zero (S := S2000x64) origin2,
    View.ld_unit_zero (S := S1x64) origin2, View.ld_unit_zero (S := S64x64) origin2]
  funext j
  obtain ⟨r, q, rfl⟩ : ∃ (r : Fin 2000) (q : Fin 64), j = ix2 r q := ⟨j 0, j 1, eq_ix2 j⟩
  refine (reg2_point (iblk2 V c 0 t) (iblk2 V c 1 t) (iblk2 V c 2 t) (iblk2 V c 3 t) (iblk2 V c 4 t) (iblk2 V c 5 t)
    (iblk2 V c 6 t) (iblk2 V c 7 t) (iblk2 V c 8 t) (V c main_v39) (V c main_v29) (V c main_v11) (V c main_v40)
    (V c main_v41) (V c main_v42) (V c main_v43) (V c main_v44) (V c main_arg7)
    t.val (reg2_lt t) (reg2_blk0 V c t) (reg2_blk1 V c t) (reg2_blk2 V c t) (reg2_blk3 V c t) (reg2_blk4 V c t)
    (reg2_blk5 V c t) (reg2_blk6 V c t) (reg2_blk7 V c t) (reg2_blk8 V c t) r q).trans ?_
  refine Eq.trans ?_ (reg2_read_out t (reg2_whole V c) r q).symm
  rw [reg2_emb_out]
  rfl

/-- An index of the array is in the block of point t iff each coordinate is in the block's range on its axis. -/
theorem reg2_mem_blk (t : Fin cfg2.N) (i : S50000x64.Idx) :
    i ∈ ((cfg2.win 9).blk t).view.set ↔ ∀ a : Fin 2, win2_9.index t a * S2000x64.size a ≤ (i a).val
      ∧ (i a).val < win2_9.index t a * S2000x64.size a + S2000x64.size a := by
  show i ∈ ((View.whole main_v45).slice (win2_9.rect t)).set ↔ _
  rw [View.set_slice_whole, Rect.mem_set_unit]
  exact Iff.rfl

/-- The 25 block rows fill the array: row n lies in the block of the point n / 2000. -/
theorem reg2_cover (i : S50000x64.Idx) :
    ∃ t : Fin cfg2.N, (cfg2.win 9).flush t = true ∧ i ∈ ((cfg2.win 9).blk t).view.set := by
  have hi0 : (i 0).val < 50000 := (i 0).isLt
  have hi1 : (i 1).val < 64 := (i 1).isLt
  obtain ⟨t, ht⟩ : ∃ t : Fin cfg2.N, t.val = (i 0).val / 2000 :=
    ⟨⟨(i 0).val / 2000, Nat.lt_of_lt_of_eq (by omega) N_2.symm⟩, rfl⟩
  obtain ⟨e90, e91⟩ := reg2_idx9 t
  refine ⟨t, flush2_9 t, ?_⟩
  rw [reg2_mem_blk]
  intro a
  match a with
  | ⟨0, _⟩ =>
    show win2_9.index t (0 : Fin 2) * 2000 ≤ (i 0).val ∧ (i 0).val < win2_9.index t (0 : Fin 2) * 2000 + 2000
    omega
  | ⟨1, _⟩ =>
    show win2_9.index t (1 : Fin 2) * 64 ≤ (i 1).val ∧ (i 1).val < win2_9.index t (1 : Fin 2) * 64 + 64
    omega

/-- The array after the whole grid. -/
theorem reg2_array (c : Dev nD) : (dat2 (F := Ideal) V c).arrAt 9 cfg2.N = reg2_whole V c :=
  (dat2 (F := Ideal) V c).arrAt_eq_of_cover 9 (reg2_whole V c) (fun t _ => reg2_flushed V c t) reg2_cover

/-- REGION 2, entry by entry: the normalised layer times the weights, each row scaled by the row's factor. -/
theorem reg2_value (c : Dev nD) (n : Fin 50000) (j : Fin 64) :
    ((dat2 (F := Ideal) V c).arrAt 9 cfg2.N : S50000x64.Idx → EReal) (ix2 n j)
      = Cert.Spec.scaled (fun n => (V c main_v11 : S50000x1.Idx → EReal) (ix2 n (0 : Fin 1)))
          (Cert.Spec.mm (Cert.Spec.layerK (fun n => (V c main_v11 : S50000x1.Idx → EReal) (ix2 n (0 : Fin 1)))
              (fun k => (V c main_v40 : S1x64.Idx → EReal) (ix2 (0 : Fin 1) k)) (fun k => (V c main_v41 : S1x64.Idx → EReal) (ix2 (0 : Fin 1) k))
              (fun k => (V c main_v42 : S1x64.Idx → EReal) (ix2 (0 : Fin 1) k)) (fun k => (V c main_v43 : S1x64.Idx → EReal) (ix2 (0 : Fin 1) k))
              (fun k => (V c main_v44 : S1x64.Idx → EReal) (ix2 (0 : Fin 1) k))
              (fun n k => (V c main_v39 : S50000x64.Idx → EReal) (ix2 n k)) (fun n k => (V c main_v29 : S50000x64.Idx → EReal) (ix2 n k)))
            (V c main_arg7 : S64x64.Idx → EReal)) n j :=
  congrFun (reg2_array V c) (ix2 n j)

end Cert.KernelIdeal.Gen
-- ==== Proof.KReg3Pieces.lean ====
/-
  Region 3 (normalisation, positive part and pooling): what one run of the body leaves in the pooled block's buffer,
  read back as a value.  At the first grid point the body stores the zero block and then, like every later point,
  loads the block, adds the point's contribution and stores the sum; so the buffer ends at the accumulation step
  applied to the zero block (first point) or to what the point before left (later points).
-/
import proofs.«416533_j8950711845031_2_alg».proof.Proof.Gen.KernelIdeal.Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.ShloMosaic.Pipeline (Dat Cfg Window)

variable {F : FTy → Type} [FloatOps F]

/-- The zero offsets of a whole-block access, as the constant function. -/
theorem hz2 : (![0, 0] : Fin 2 → Nat) = fun _ => 0 := funext fun a => by fin_cases a <;> rfl

/-- At a later point the body leaves, in the pooled block's buffer holding `xo9`, the one store's payload: the
    accumulation step over the layer's output rows of the point's blocks. -/
theorem out3_B_eq (c : Dev nD) (i : grid3.Coords) (a1 : Memref sig .tc .vmem S2000x64 .f32) (h1 : a1.IsWhole) (a2 : Memref sig .tc .vmem S2000x64 .f32) (h2 : a2.IsWhole) (a3 : Memref sig .tc .vmem S2000x1 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (a8 : Memref sig .tc .vmem S1x64 .f32) (h8 : a8.IsWhole) (a9 : Memref sig .tc .vmem S2000x1 .i32) (h9 : a9.IsWhole) (a10 : Memref sig .tc .vmem S64x64 .f32) (h10 : a10.IsWhole) (hc : ¬cond3_0 i)
    (x0 : Vec F S2000x64 .f32) (x1 : Vec F S2000x64 .f32) (x2 : Vec F S2000x1 .f32) (x3 : Vec F S1x64 .f32) (x4 : Vec F S1x64 .f32) (x5 : Vec F S1x64 .f32) (x6 : Vec F S1x64 .f32) (x7 : Vec F S1x64 .f32) (x8 : Vec F S2000x1 .i32) (xo9 : Vec F S64x64 .f32) :
    out3_B_9 c i a1 h1 a2 h2 a3 h3 a4 h4 a5 h5 a6 h6 a7 h7 a8 h8 a9 h9 a10 h10 hc x0 x1 x2 x3 x4 x5 x6 x7 x8 xo9 = k3_pay1 (k3_pay3 x2 x0 x1 x3 x6 x7 x4 x5) x8 xo9 := by
  unfold out3_B_9
  rw [View.read_writes_eq_canon _ _ _ (cover3_B_9 c i a1 h1 a2 h2 a3 h3 a4 h4 a5 h5 a6 h6 a7 h7 a8 h8 a9 h9 a10 h10 hc x0 x1 x2 x3 x4 x5 x6 x7 x8 xo9)]
  unfold kernelRun3_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S2000x64) hz2, View.ld_unit_zero (S := S2000x1) hz2, View.ld_unit_zero (S := S1x64) hz2, View.ld_unit_zero (S := S64x64) hz2]

/-- At the first point the body stores the zero block, reads it back, and leaves the accumulation step over it. -/
theorem out3_A_eq (c : Dev nD) (i : grid3.Coords) (a1 : Memref sig .tc .vmem S2000x64 .f32) (h1 : a1.IsWhole) (a2 : Memref sig .tc .vmem S2000x64 .f32) (h2 : a2.IsWhole) (a3 : Memref sig .tc .vmem S2000x1 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (a8 : Memref sig .tc .vmem S1x64 .f32) (h8 : a8.IsWhole) (a9 : Memref sig .tc .vmem S2000x1 .i32) (h9 : a9.IsWhole) (a10 : Memref sig .tc .vmem S64x64 .f32) (h10 : a10.IsWhole) (hc : cond3_0 i)
    (x0 : Vec F S2000x64 .f32) (x1 : Vec F S2000x64 .f32) (x2 : Vec F S2000x1 .f32) (x3 : Vec F S1x64 .f32) (x4 : Vec F S1x64 .f32) (x5 : Vec F S1x64 .f32) (x6 : Vec F S1x64 .f32) (x7 : Vec F S1x64 .f32) (x8 : Vec F S2000x1 .i32) :
    out3_A_9 c i a1 h1 a2 h2 a3 h3 a4 h4 a5 h5 a6 h6 a7 h7 a8 h8 a9 h9 a10 h10 hc x0 x1 x2 x3 x4 x5 x6 x7 x8 = k3_pay1 (k3_pay3 x2 x0 x1 x3 x6 x7 x4 x5) x8 (k3_pay2 (F := F)) := by
  unfold out3_A_9
  rw [View.read_writes_eq_canon _ _ _ (cover3_A_9 c i a1 h1 a2 h2 a3 h3 a4 h4 a5 h5 a6 h6 a7 h7 a8 h8 a9 h9 a10 h10 hc x0 x1 x2 x3 x4 x5 x6 x7 x8)]
  unfold kernelRun3_A
  dsimp only
  sl_unfold_words
  rw [View.canon_cons_unit_zero (S := S64x64) hz2, View.readCov_unit_zero (S := S64x64) _ hz2]
  simp only [View.readAt_eq_ld, h1.read_unread, h2.read_unread, h3.read_unread, h4.read_unread, h5.read_unread, h6.read_unread, h7.read_unread, h8.read_unread, h9.read_unread, View.ld_unit_zero (S := S2000x64) hz2, View.ld_unit_zero (S := S2000x1) hz2, View.ld_unit_zero (S := S1x64) hz2, View.ld_unit_zero (S := S64x64) hz2]

end Cert.KernelIdeal.Gen
-- ==== Proof.KReg3Pay.lean ====
/-
  Region 3 (normalisation, positive part and pooling): the body's arithmetic at an entry, over the extended reals.
  The layer's output at row `r`, column `k` of a block is the specification's bias, normalisation and positive part
  of `dis r * (agg r k + ms r k)`; the one-hot entry at row `r`, column `g` is one where the row's batch word reads,
  signed, as `g` (the comparison is against the 32-bit word of `g`, and for `g < 64` the two agree) and zero
  elsewhere; and the accumulation step adds to entry `(g, j)` of the carried block the sum over the block's 2000 rows
  of one-hot times output, the matrix product contracting the rows.
-/
import proofs.«416533_j8950711845031_2_alg».proof.Proof.Gen.KernelIdeal.Skeleton
import proofs.«416533_j8950711845031_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.ShloMosaic.ValueIdx

open scoped BigOperators

section Words

/-- A small natural, as a 32-bit word read signed, is itself. -/
theorem toInt_ofNat_lt64 (g : Fin 64) : (BitVec.ofNat 32 g.val).toInt = (g.val : ℤ) := by
  have hg := g.isLt
  have h1 : (BitVec.ofNat 32 g.val).toNat = g.val := by
    rw [BitVec.toNat_ofNat]; omega
  rw [BitVec.toInt_eq_toNat_of_lt (by rw [h1]; omega), h1]

/-- A word equals the word of a small natural exactly when it reads, signed, as that natural. -/
theorem eq_ofNat_iff_toInt (w : BitVec 32) (g : Fin 64) : w = BitVec.ofNat 32 g.val ↔ w.toInt = (g.val : ℤ) :=
  ⟨fun h => h ▸ toInt_ofNat_lt64 g, fun h => BitVec.eq_of_toInt_eq (h.trans (toInt_ofNat_lt64 g).symm)⟩

/-- The one-hot entry: the comparison bit, widened and converted, is one where the word reads as the column and zero elsewhere. -/
theorem onehot_word (w : BitVec 32) (g : Fin 64) :
    (((((IntOp.cmpi .eq w (BitVec.ofNat 32 g.val)).setWidth 32).toInt : ℤ) : ℝ) : EReal)
      = if w.toInt = (g.val : ℤ) then (1 : EReal) else 0 := by
  by_cases h : w = BitVec.ofNat 32 g.val
  · rw [if_pos ((eq_ofNat_iff_toInt w g).mp h), h]
    simp [IntOp.cmpi]
  · rw [if_neg (fun h' => h ((eq_ofNat_iff_toInt w g).mpr h'))]
    have hb : (w == BitVec.ofNat 32 g.val) = false := by simpa using h
    simp [IntOp.cmpi, hb]

end Words

section Layout
variable {α : Type}

/-- A `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Payloads

theorem rsqrt_at {s : Shape} {φ : FTy} (a : FVec Ideal s φ) (i : s.Idx) : rsqrt a i = Ideal.rsqrt (a i) := rfl

/-- The layer's output at an entry of a block: the scaled sum of the two feature blocks, then bias, normalisation and
    positive part, with the five parameter rows read at the entry's column. -/
theorem k3_pay3_apply (v3 : FVec Ideal S2000x1 .f32) (v5 v7 : FVec Ideal S2000x64 .f32)
    (v12 v16 v20 v27 v31 : FVec Ideal S1x64 .f32) (r : Fin 2000) (k : Fin 64) :
    k3_pay3 (F := Ideal) v3 v5 v7 v12 v16 v20 v27 v31 (ix2 r k)
      = Cert.Spec.bn (fun k => v12 (ix2 (0 : Fin 1) k)) (fun k => v27 (ix2 (0 : Fin 1) k)) (fun k => v31 (ix2 (0 : Fin 1) k))
          (fun k => v16 (ix2 (0 : Fin 1) k)) (fun k => v20 (ix2 (0 : Fin 1) k))
          (v3 (ix2 r (0 : Fin 1)) * (v5 (ix2 r k) + v7 (ix2 r k))) k := by
  unfold k3_pay3 Cert.Spec.bn
  simp only [shapeCast_self, mulf_apply, addf_apply, subf_apply, maximumf_apply, broadcast_apply, rsqrt_at,
    broadcastTo_a1_ab_apply, broadcastTo_1b_ab_apply]
  rfl

/-- The one-hot entry at row `r`, column `g`: one where the row's batch word reads as `g`, zero elsewhere. -/
theorem onehot_entry (bw : IVec S2000x1 32) (hs : S2000x1.ShapeCasts S2000x1) (hb : S2000x1.Broadcasts S2000x64)
    (hi : S2000x64.Iotas .tc 32 [1]) (hlt : 1 < 32) (r : Fin 2000) (g : Fin 64) :
    (sitofp .f32 (extui 32 (cmpi .eq (broadcastTo S2000x64 (shapeCast S2000x1 bw hs) hb) (iota .tc S2000x64 32 [1] hi)) hlt)
        : FVec Ideal S2000x64 .f32) (ix2 r g)
      = if (bw (ix2 r (0 : Fin 1))).toInt = (g.val : ℤ) then (1 : EReal) else 0 := by
  show ((((IntOp.cmpi .eq (broadcastTo S2000x64 (shapeCast S2000x1 bw hs) hb (ix2 r g)) (BitVec.ofNat 32 (0 * 64 + g.val))).setWidth 32).toInt : ℝ) : EReal) = _
  rw [broadcastTo_a1_ab_apply, shapeCast_self, Nat.zero_mul, Nat.zero_add]
  exact onehot_word _ g

theorem lhs_pool_0 (i : S64x64.Idx) (q : dot_S2000x64_S2000x64_S64x64_0_0_1_1_n_n.contr.Idx) :
    (dot_S2000x64_S2000x64_S64x64_0_0_1_1_n_n.lhsIdx i q 0).val = (q ⟨0, by decide⟩).val :=
  dot_S2000x64_S2000x64_S64x64_0_0_1_1_n_n.lhsIdx_val_of_single rfl i q
theorem lhs_pool_1 (i : S64x64.Idx) (q : dot_S2000x64_S2000x64_S64x64_0_0_1_1_n_n.contr.Idx) :
    (dot_S2000x64_S2000x64_S64x64_0_0_1_1_n_n.lhsIdx i q 1).val = (i 0).val := by
  unfold DotDims.lhsIdx
  rw [dif_neg (show ¬(1 : Fin S2000x64.rank) ∈ dot_S2000x64_S2000x64_S64x64_0_0_1_1_n_n.lhsBatch by decide),
    dif_pos (show (1 : Fin S2000x64.rank) ∈ dot_S2000x64_S2000x64_S64x64_0_0_1_1_n_n.lhsNonContracting by decide)]
  rfl
theorem rhs_pool_0 (i : S64x64.Idx) (q : dot_S2000x64_S2000x64_S64x64_0_0_1_1_n_n.contr.Idx) :
    (dot_S2000x64_S2000x64_S64x64_0_0_1_1_n_n.rhsIdx i q 0).val = (q ⟨0, by decide⟩).val :=
  dot_S2000x64_S2000x64_S64x64_0_0_1_1_n_n.rhsIdx_val_of_single rfl i q
theorem rhs_pool_1 (i : S64x64.Idx) (q : dot_S2000x64_S2000x64_S64x64_0_0_1_1_n_n.contr.Idx) :
    (dot_S2000x64_S2000x64_S64x64_0_0_1_1_n_n.rhsIdx i q 1).val = (i 1).val := by
  unfold DotDims.rhsIdx
  rw [dif_neg (show ¬(1 : Fin S2000x64.rank) ∈ dot_S2000x64_S2000x64_S64x64_0_0_1_1_n_n.rhsBatch by decide),
    dif_pos (show (1 : Fin S2000x64.rank) ∈ dot_S2000x64_S2000x64_S64x64_0_0_1_1_n_n.rhsNonContracting by decide)]
  rfl

/-- The product of the transposed first operand with the second, into the zero block, at an entry: the sum over the
    2000 rows of the two operands' entries in that row. -/
theorem pool_matmul_apply (A B : FVec Ideal S2000x64 .bf16) (g j : Fin 64) :
    matmul dot_S2000x64_S2000x64_S64x64_0_0_1_1_n_n none A B (constant (F := Ideal) S64x64 .f32 0x00000000#32) (ix2 g j)
      = ∑ r : Fin 2000, A (ix2 r g) * B (ix2 r j) := by
  refine (Ideal.matmul_constant_zero_apply dot_S2000x64_S2000x64_S64x64_0_0_1_1_n_n none A B (ix2 g j)).trans ?_
  rw [← Equiv.sum_comp (contrEquiv1 dot_S2000x64_S2000x64_S64x64_0_0_1_1_n_n 2000 rfl rfl).symm]
  refine Finset.sum_congr rfl fun k _ => ?_
  have hk := contrEquiv1_symm_val dot_S2000x64_S2000x64_S64x64_0_0_1_1_n_n 2000 rfl rfl k
  have el : dot_S2000x64_S2000x64_S64x64_0_0_1_1_n_n.lhsIdx (ix2 g j) ((contrEquiv1 dot_S2000x64_S2000x64_S64x64_0_0_1_1_n_n 2000 rfl rfl).symm k) = ix2 k g :=
    funext fun a => Fin.ext (by
      match a with
      | ⟨0, _⟩ => exact (lhs_pool_0 _ _).trans hk
      | ⟨1, _⟩ => exact lhs_pool_1 _ _)
  have er : dot_S2000x64_S2000x64_S64x64_0_0_1_1_n_n.rhsIdx (ix2 g j) ((contrEquiv1 dot_S2000x64_S2000x64_S64x64_0_0_1_1_n_n 2000 rfl rfl).symm k) = ix2 k j :=
    funext fun a => Fin.ext (by
      match a with
      | ⟨0, _⟩ => exact (rhs_pool_0 _ _).trans hk
      | ⟨1, _⟩ => exact rhs_pool_1 _ _)
  rw [el, er]

/-- The accumulation step at an entry: what the block held, plus the sum over the block's rows whose batch word reads
    as the entry's row of the layer's output at the entry's column. -/
theorem k3_pay1_apply (h : FVec Ideal S2000x64 .f32) (bw : Vec Ideal S2000x1 .i32) (acc : Vec Ideal S64x64 .f32) (g j : Fin 64) :
    k3_pay1 (F := Ideal) h bw acc (ix2 g j)
      = acc (ix2 g j) + ∑ r : Fin 2000, (if (bw (ix2 r (0 : Fin 1))).toInt = (g.val : ℤ) then (1 : EReal) else 0) * h (ix2 r j) := by
  unfold k3_pay1
  dsimp only
  refine (congrArg₂ (· + ·) (congrFun (shapeCast_self acc _) (ix2 g j)) (pool_matmul_apply _ _ g j)).trans ?_
  refine congrArg (acc (ix2 g j) + ·) (Finset.sum_congr rfl fun r _ => ?_)
  rw [truncf_apply, truncf_apply, onehot_entry]

end Payloads

end Cert.KernelIdeal.Gen
-- ==== Proof.KReg3.lean ====
/-
  Region 3 (normalisation, positive part and pooling): the value of its result array.  The grid's 25 points each take
  a block of 2000 nodes.  Point `t` adds to entry `(g, j)` of the one carried [64, 64] block the sum, over the block's
  rows `r` whose batch word reads as `g`, of the layer's output at node `2000 t + r`, column `j`; the first point
  starts from zero.  By induction on the point the carried block after point `n` is zero plus the contributions of the
  points up to `n`; the 25 contributions together run over every node once, so they are the sum over the graph's
  nodes; and the one write-back, after the last point, puts the block — the whole array — in place.
-/
import proofs.«416533_j8950711845031_2_alg».proof.Proof.Gen.KernelIdeal.Frame
import proofs.«416533_j8950711845031_2_alg».proof.Proof.Spec
import proofs.«416533_j8950711845031_2_alg».proof.Proof.SpecLaws
import proofs.«416533_j8950711845031_2_alg».proof.Proof.KReg3Pieces
import proofs.«416533_j8950711845031_2_alg».proof.Proof.KReg3Pay
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## The region's arrays and blocks, by their literal types -/

abbrev aggA (c : Dev nD) : Vec Ideal S50000x64 .f32 := V c main_v55
abbrev msA (c : Dev nD) : Vec Ideal S50000x64 .f32 := V c main_v45
abbrev disA (c : Dev nD) : Vec Ideal S50000x1 .f32 := V c main_v11
abbrev biasA (c : Dev nD) : Vec Ideal S1x64 .f32 := V c main_v56
abbrev gammaA (c : Dev nD) : Vec Ideal S1x64 .f32 := V c main_v57
abbrev betaA (c : Dev nD) : Vec Ideal S1x64 .f32 := V c main_v58
abbrev meanA (c : Dev nD) : Vec Ideal S1x64 .f32 := V c main_v59
abbrev varA (c : Dev nD) : Vec Ideal S1x64 .f32 := V c main_v60
abbrev batchA (c : Dev nD) : Vec Ideal S50000x1 .i32 := V c main_v12

abbrev aggB (c : Dev nD) (t : Fin cfg3.N) : Vec Ideal S2000x64 .f32 := iblk3 V c 0 t
abbrev msB (c : Dev nD) (t : Fin cfg3.N) : Vec Ideal S2000x64 .f32 := iblk3 V c 1 t
abbrev disB (c : Dev nD) (t : Fin cfg3.N) : Vec Ideal S2000x1 .f32 := iblk3 V c 2 t
abbrev biasB (c : Dev nD) (t : Fin cfg3.N) : Vec Ideal S1x64 .f32 := iblk3 V c 3 t
abbrev gammaB (c : Dev nD) (t : Fin cfg3.N) : Vec Ideal S1x64 .f32 := iblk3 V c 4 t
abbrev betaB (c : Dev nD) (t : Fin cfg3.N) : Vec Ideal S1x64 .f32 := iblk3 V c 5 t
abbrev meanB (c : Dev nD) (t : Fin cfg3.N) : Vec Ideal S1x64 .f32 := iblk3 V c 6 t
abbrev varB (c : Dev nD) (t : Fin cfg3.N) : Vec Ideal S1x64 .f32 := iblk3 V c 7 t
abbrev batchB (c : Dev nD) (t : Fin cfg3.N) : Vec Ideal S2000x1 .i32 := iblk3 V c 8 t

/-- The layer's output over all nodes, and the batch words, as the specification names them. -/
abbrev layerOut (c : Dev nD) : Cert.Spec.Mat 50000 64 :=
  Cert.Spec.layerK (fun n => disA V c (ix2 n (0 : Fin 1)))
    (fun k => biasA V c (ix2 (0 : Fin 1) k)) (fun k => gammaA V c (ix2 (0 : Fin 1) k))
    (fun k => betaA V c (ix2 (0 : Fin 1) k)) (fun k => meanA V c (ix2 (0 : Fin 1) k))
    (fun k => varA V c (ix2 (0 : Fin 1) k))
    (fun n k => aggA V c (ix2 n k)) (fun n k => msA V c (ix2 n k))
abbrev batchW (c : Dev nD) : Fin 50000 → BitVec 32 := fun n => batchA V c (ix2 n (0 : Fin 1))

/-! ## Where a block's entry lies in its array -/

/-- The printed index maps, decided over the 25 points: the three row-blocked windows are at block `(t, 0)`, the
    parameter rows and the pooled block at block `(0, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ win3_9.index t (0 : Fin 2) = 0 ∧ win3_9.index t (1 : Fin 2) = 0 :=
  (by decide +kernel : ∀ t : Fin grid3.N, _)

theorem lt25 (t : Fin cfg3.N) : t.val < 25 := lt_of_lt_of_eq t.isLt (show cfg3.N = 25 from N_3)

/-- Row `r` of block `t` is node `2000 t + r`. -/
abbrev node (t : Fin cfg3.N) (r : Fin 2000) : Fin 50000 := ⟨2000 * t.val + r.val, by have := lt25 t; omega⟩

theorem aggB_apply (c : Dev nD) (t : Fin cfg3.N) (r : Fin 2000) (k : Fin 64) :
    aggB V c t (ix2 r k) = aggA V c (ix2 (node t r) k) := by
  obtain ⟨a0, a1, b0, b1, c0, c1, d0, d1, e0, e1, f0, f1, g0, g1, h0, h1, i0, i1, j0, j1⟩ := idx_facts3 t
  unfold aggB iblk3
  rw [View.read_apply]
  show V c main_v55 _ = V c main_v55 _
  congr 1
  funext a
  apply Fin.ext
  match a with
  | ⟨0, _⟩ => show win3_0.index t 0 * 2000 + 1 * r.val = 2000 * t.val + r.val; rw [a0]; omega
  | ⟨1, _⟩ => show win3_0.index t 1 * 64 + 1 * k.val = k.val; rw [a1]; omega

theorem msB_apply (c : Dev nD) (t : Fin cfg3.N) (r : Fin 2000) (k : Fin 64) :
    msB V c t (ix2 r k) = msA V c (ix2 (node t r) k) := by
  obtain ⟨a0, a1, b0, b1, c0, c1, d0, d1, e0, e1, f0, f1, g0, g1, h0, h1, i0, i1, j0, j1⟩ := idx_facts3 t
  unfold msB iblk3
  rw [View.read_apply]
  show V c main_v45 _ = V c main_v45 _
  congr 1
  funext a
  apply Fin.ext
  match a with
  | ⟨0, _⟩ => show win3_1.index t 0 * 2000 + 1 * r.val = 2000 * t.val + r.val; rw [b0]; omega
  | ⟨1, _⟩ => show win3_1.index t 1 * 64 + 1 * k.val = k.val; rw [b1]; omega

theorem disB_apply (c : Dev nD) (t : Fin cfg3.N) (r : Fin 2000) :
    disB V c t (ix2 r (0 : Fin 1)) = disA V c (ix2 (node t r) (0 : Fin 1)) := by
  obtain ⟨a0, a1, b0, b1, c0, c1, d0, d1, e0, e1, f0, f1, g0, g1, h0, h1, i0, i1, j0, j1⟩ := idx_facts3 t
  unfold disB iblk3
  rw [View.read_apply]
  show V c main_v11 _ = V c main_v11 _
  congr 1
  funext a
  apply Fin.ext
  match a with
  | ⟨0, _⟩ => show win3_2.index t 0 * 2000 + 1 * r.val = 2000 * t.val + r.val; rw [c0]; omega
  | ⟨1, _⟩ => show win3_2.index t 1 * 1 + 1 * 0 = 0; rw [c1]

theorem biasB_apply (c : Dev nD) (t : Fin cfg3.N) (k : Fin 64) :
    biasB V c t (ix2 (0 : Fin 1) k) = biasA V c (ix2 (0 : Fin 1) k) := by
  obtain ⟨a0, a1, b0, b1, c0, c1, d0, d1, e0, e1, f0, f1, g0, g1, h0, h1, i0, i1, j0, j1⟩ := idx_facts3 t
  unfold biasB iblk3
  rw [View.read_apply]
  show V c main_v56 _ = V c main_v56 _
  congr 1
  funext a
  apply Fin.ext
  match a with
  | ⟨0, _⟩ => show win3_3.index t 0 * 1 + 1 * 0 = 0; rw [d0]
  | ⟨1, _⟩ => show win3_3.index t 1 * 64 + 1 * k.val = k.val; rw [d1]; omega

theorem gammaB_apply (c : Dev nD) (t : Fin cfg3.N) (k : Fin 64) :
    gammaB V c t (ix2 (0 : Fin 1) k) = gammaA V c (ix2 (0 : Fin 1) k) := by
  obtain ⟨a0, a1, b0, b1, c0, c1, d0, d1, e0, e1, f0, f1, g0, g1, h0, h1, i0, i1, j0, j1⟩ := idx_facts3 t
  unfold gammaB iblk3
  rw [View.read_apply]
  show V c main_v57 _ = V c main_v57 _
  congr 1
  funext a
  apply Fin.ext
  match a with
  | ⟨0, _⟩ => show win3_4.index t 0 * 1 + 1 * 0 = 0; rw [e0]
  | ⟨1, _⟩ => show win3_4.index t 1 * 64 + 1 * k.val = k.val; rw [e1]; omega

theorem betaB_apply (c : Dev nD) (t : Fin cfg3.N) (k : Fin 64) :
    betaB V c t (ix2 (0 : Fin 1) k) = betaA V c (ix2 (0 : Fin 1) k) := by
  obtain ⟨a0, a1, b0, b1, c0, c1, d0, d1, e0, e1, f0, f1, g0, g1, h0, h1, i0, i1, j0, j1⟩ := idx_facts3 t
  unfold betaB iblk3
  rw [View.read_apply]
  show V c main_v58 _ = V c main_v58 _
  congr 1
  funext a
  apply Fin.ext
  match a with
  | ⟨0, _⟩ => show win3_5.index t 0 * 1 + 1 * 0 = 0; rw [f0]
  | ⟨1, _⟩ => show win3_5.index t 1 * 64 + 1 * k.val = k.val; rw [f1]; omega

theorem meanB_apply (c : Dev nD) (t : Fin cfg3.N) (k : Fin 64) :
    meanB V c t (ix2 (0 : Fin 1) k) = meanA V c (ix2 (0 : Fin 1) k) := by
  obtain ⟨a0, a1, b0, b1, c0, c1, d0, d1, e0, e1, f0, f1, g0, g1, h0, h1, i0, i1, j0, j1⟩ := idx_facts3 t
  unfold meanB iblk3
  rw [View.read_apply]
  show V c main_v59 _ = V c main_v59 _
  congr 1
  funext a
  apply Fin.ext
  match a with
  | ⟨0, _⟩ => show win3_6.index t 0 * 1 + 1 * 0 = 0; rw [g0]
  | ⟨1, _⟩ => show win3_6.index t 1 * 64 + 1 * k.val = k.val; rw [g1]; omega

theorem varB_apply (c : Dev nD) (t : Fin cfg3.N) (k : Fin 64) :
    varB V c t (ix2 (0 : Fin 1) k) = varA V c (ix2 (0 : Fin 1) k) := by
  obtain ⟨a0, a1, b0, b1, c0, c1, d0, d1, e0, e1, f0, f1, g0, g1, h0, h1, i0, i1, j0, j1⟩ := idx_facts3 t
  unfold varB iblk3
  rw [View.read_apply]
  show V c main_v60 _ = V c main_v60 _
  congr 1
  funext a
  apply Fin.ext
  match a with
  | ⟨0, _⟩ => show win3_7.index t 0 * 1 + 1 * 0 = 0; rw [h0]
  | ⟨1, _⟩ => show win3_7.index t 1 * 64 + 1 * k.val = k.val; rw [h1]; omega

theorem batchB_apply (c : Dev nD) (t : Fin cfg3.N) (r : Fin 2000) :
    batchB V c t (ix2 r (0 : Fin 1)) = batchA V c (ix2 (node t r) (0 : Fin 1)) := by
  obtain ⟨a0, a1, b0, b1, c0, c1, d0, d1, e0, e1, f0, f1, g0, g1, h0, h1, i0, i1, j0, j1⟩ := idx_facts3 t
  unfold batchB iblk3
  rw [View.read_apply]
  show V c main_v12 _ = V c main_v12 _
  congr 1
  funext a
  apply Fin.ext
  match a with
  | ⟨0, _⟩ => show win3_8.index t 0 * 2000 + 1 * r.val = 2000 * t.val + r.val; rw [i0]; omega
  | ⟨1, _⟩ => show win3_8.index t 1 * 1 + 1 * 0 = 0; rw [i1]

/-! ## One point's contribution, and the running sum -/

/-- What point `t` adds to entry `(g, j)`: the sum over the block's rows `r` whose batch word reads as `g` of the
    layer's output at node `2000 t + r`, column `j` (zero for `t` past the grid). -/
def blockSum (c : Dev nD) (t : ℕ) (g j : Fin 64) : EReal :=
  if h : t < 25 then
    ∑ r : Fin 2000, (if (batchW V c ⟨2000 * t + r.val, by omega⟩).toInt = (g.val : ℤ) then (1 : EReal) else 0)
      * layerOut V c ⟨2000 * t + r.val, by omega⟩ j
  else 0

/-- The accumulation step over point `t`'s blocks, at an entry: what was carried plus the point's contribution. -/
theorem step_entry (c : Dev nD) (t : Fin cfg3.N) (xo : Vec Ideal S64x64 .f32) (g j : Fin 64) :
    k3_pay1 (F := Ideal) (k3_pay3 (disB V c t) (aggB V c t) (msB V c t) (biasB V c t) (meanB V c t) (varB V c t) (gammaB V c t) (betaB V c t))
        (batchB V c t) xo (ix2 g j)
      = xo (ix2 g j) + blockSum V c t.val g j := by
  rw [k3_pay1_apply]
  unfold blockSum
  rw [dif_pos (lt25 t)]
  refine congrArg (xo (ix2 g j) + ·) (Finset.sum_congr rfl fun r _ => ?_)
  rw [k3_pay3_apply, batchB_apply, aggB_apply, msB_apply, disB_apply]
  simp only [biasB_apply, gammaB_apply, betaB_apply, meanB_apply, varB_apply]
  rfl

/-- At the first point the buffer ends at zero plus the point's contribution. -/
theorem outsAt3_first (c : Dev nD) (t : Fin cfg3.N) (h0 : t.val % 25 = 0) (g j : Fin 64) :
    outsAt3 V c t.val t.isLt (ix2 g j) = Cert.Spec.zero + blockSum V c t.val g j := by
  rw [outsAt3_A V c t h0,
    out3_A_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (iblk3 V c 0 t) (iblk3 V c 1 t) (iblk3 V c 2 t) (iblk3 V c 3 t) (iblk3 V c 4 t) (iblk3 V c 5 t) (iblk3 V c 6 t) (iblk3 V c 7 t) (iblk3 V c 8 t)]
  exact step_entry V c t (k3_pay2 (F := Ideal)) g j

/-- At a later point it ends at what the point before left plus the point's contribution. -/
theorem outsAt3_later (c : Dev nD) (t : Fin cfg3.N) (h0 : ¬t.val % 25 = 0) (g j : Fin 64) :
    outsAt3 V c t.val t.isLt (ix2 g j)
      = outsAt3 V c (t.val - 1) (Nat.lt_of_le_of_lt (Nat.sub_le _ _) t.isLt) (ix2 g j) + blockSum V c t.val g j := by
  rw [outsAt3_B V c t h0,
    out3_B_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (outsAt3 V c (t.val - 1) (Nat.lt_of_le_of_lt (Nat.sub_le _ _) t.isLt))]
  exact step_entry V c t (outsAt3 V c (t.val - 1) (Nat.lt_of_le_of_lt (Nat.sub_le _ _) t.isLt)) g j

/-- After point `n` the carried block holds, at each entry, zero plus the contributions of the points up to `n`:
    by induction on the point. -/
theorem outsAt3_sum (c : Dev nD) : ∀ (n : ℕ) (h : n < cfg3.N) (g j : Fin 64),
    outsAt3 V c n h (ix2 g j) = Cert.Spec.zero + ∑ t ∈ Finset.range (n + 1), blockSum V c t g j
  | 0, h, g, j => by
    rw [Finset.sum_range_one]
    exact outsAt3_first V c ⟨0, h⟩ rfl g j
  | n + 1, h, g, j => by
    have hN : cfg3.N = 25 := N_3
    have hB : ¬(⟨n + 1, h⟩ : Fin cfg3.N).val % 25 = 0 := by dsimp only; omega
    rw [Finset.sum_range_succ, ← add_assoc, ← outsAt3_sum c n (Nat.lt_of_succ_lt h) g j]
    exact outsAt3_later V c ⟨n + 1, h⟩ hB g j

/-! ## The pooled sums -/

/-- The 25 contributions together are the sum over the graph's nodes. -/
theorem total_eq (c : Dev nD) (g j : Fin 64) :
    Cert.Spec.zero + ∑ t ∈ Finset.range 25, blockSum V c t g j = Cert.Spec.pool (batchW V c) (layerOut V c) g j := by
  have e1 := Cert.Spec.sum_onehot (batchW V c) g (fun n => layerOut V c n j)
  have e2 := Cert.Spec.sum_blocks (fun n => (if (batchW V c n).toInt = (g.val : ℤ) then (1 : EReal) else 0) * layerOut V c n j)
  unfold Cert.Spec.pool
  refine congrArg (Cert.Spec.zero + ·) ?_
  refine ((Finset.sum_range _).trans ?_).trans (e2.trans e1)
  refine Finset.sum_congr rfl fun t _ => ?_
  unfold blockSum
  rw [dif_pos t.isLt]

/-- The pooled block, index by index. -/
abbrev pooledV (c : Dev nD) : Vec Ideal S64x64 .f32 := fun i => Cert.Spec.pool (batchW V c) (layerOut V c) (i 0) (i 1)
abbrev pooled (c : Dev nD) : Buf (Elt Ideal) ((c : Thread nD τ).loc main_v61) := pooledV V c

theorem outsAt3_last (c : Dev nD) (h : 24 < cfg3.N) : outsAt3 V c 24 h = pooledV V c := by
  funext i
  obtain ⟨g, j, rfl⟩ : ∃ (g j : Fin 64), i = ix2 g j := ⟨i 0, i 1, eq_ix2 i⟩
  exact (outsAt3_sum V c 24 h g j).trans (total_eq V c g j)

/-! ## The array after the grid -/

/-- The one write-back, after the last point, writes the pooled block: the block at `(0, 0)` of the [64, 64] array is the array. -/
theorem flushed3_eq (c : Dev nD) (t : Fin cfg3.N) (hf : (cfg3.win 9).flush t = true) :
    (dat3 V c).flushed 9 t = ((cfg3.win 9).blk t).view.read (Elt Ideal) (pooled V c) := by
  have h24 : t.val = 24 := by have := (flush3_9 t).mp hf; have := lt25 t; omega
  obtain ⟨n, hn⟩ := t
  dsimp only at h24
  subst h24
  show (cfg3.win 9).cut (grid3.coords ⟨24, hn⟩) ((dat3 V c).after 9 ⟨24, hn⟩) = _
  rw [after3_9, outsAt3_last]
  obtain ⟨a0, a1, b0, b1, c0, c1, d0, d1, e0, e1, f0, f1, g0, g1, h0, h1, i0, i1, j0, j1⟩ := idx_facts3 ⟨24, hn⟩
  have hz' : (fun a => win3_9.index ⟨24, hn⟩ a * main_v61.ty.shape.size a) = fun _ => 0 := funext fun a => by
    match a with
    | ⟨0, _⟩ => show win3_9.index ⟨24, hn⟩ 0 * 64 = 0; rw [j0]
    | ⟨1, _⟩ => show win3_9.index ⟨24, hn⟩ 1 * 64 = 0; rw [j1]
  exact (Memref.read_access_unit_zero (Elt Ideal) main_v61 hz' (fun a => by rw [congrFun hz' a]; simp) (pooled V c)).symm

/-- An index of the array is in point `t`'s block iff each coordinate is in the block's range on its axis. -/
theorem mem_blk9 (t : Fin cfg3.N) (i : S64x64.Idx) :
    i ∈ ((cfg3.win 9).blk t).view.set ↔ ∀ a : Fin 2, win3_9.index t a * S64x64.size a ≤ (i a).val ∧ (i a).val < win3_9.index t a * S64x64.size a + S64x64.size a := by
  show i ∈ ((View.whole main_v61).slice (win3_9.rect t)).set ↔ _
  rw [View.set_slice_whole, Rect.mem_set_unit]
  exact Iff.rfl

theorem lt_N3 : 24 < cfg3.N := by rw [show cfg3.N = 25 from N_3]; decide

/-- So the array ends holding the pooled block (the last point's block covers it). -/
theorem reg3_arr (c : Dev nD) : (dat3 V c).arrAt 9 cfg3.N = pooled V c :=
  (dat3 V c).arrAt_eq_of_cover 9 (pooled V c) (flushed3_eq V c) fun i =>
    ⟨⟨24, lt_N3⟩, (flush3_9 ⟨24, lt_N3⟩).mpr rfl, by
      rw [mem_blk9]
      intro a
      obtain ⟨a0, a1, b0, b1, c0, c1, d0, d1, e0, e1, f0, f1, g0, g1, h0, h1, i0, i1, j0, j1⟩ := idx_facts3 ⟨24, lt_N3⟩
      have l0 : (i 0).val < 64 := idx2_lt0 i
      have l1 : (i 1).val < 64 := idx2_lt1 i
      match a with
      | ⟨0, _⟩ => show win3_9.index ⟨24, lt_N3⟩ 0 * 64 ≤ (i 0).val ∧ (i 0).val < win3_9.index ⟨24, lt_N3⟩ 0 * 64 + 64; rw [j0]; omega
      | ⟨1, _⟩ => show win3_9.index ⟨24, lt_N3⟩ 1 * 64 ≤ (i 1).val ∧ (i 1).val < win3_9.index ⟨24, lt_N3⟩ 1 * 64 + 64; rw [j1]; omega⟩

/-- The pooled sums of region 3: after the grid, entry `(g, j)` of the result array is the specification's pooled sum,
    over the nodes whose batch word reads as `g`, of the layer's output at column `j`. -/
theorem reg3_value (c : Dev nD) (g j : Fin 64) :
    ((dat3 (F := Ideal) V c).arrAt 9 cfg3.N : S64x64.Idx → EReal) (ix2 g j)
      = Cert.Spec.pool (fun n => (V c main_v12 : S50000x1.Idx → BitVec 32) (ix2 n (0 : Fin 1)))
          (Cert.Spec.layerK (fun n => (V c main_v11 : S50000x1.Idx → EReal) (ix2 n (0 : Fin 1)))
              (fun k => (V c main_v56 : S1x64.Idx → EReal) (ix2 (0 : Fin 1) k)) (fun k => (V c main_v57 : S1x64.Idx → EReal) (ix2 (0 : Fin 1) k))
              (fun k => (V c main_v58 : S1x64.Idx → EReal) (ix2 (0 : Fin 1) k)) (fun k => (V c main_v59 : S1x64.Idx → EReal) (ix2 (0 : Fin 1) k))
              (fun k => (V c main_v60 : S1x64.Idx → EReal) (ix2 (0 : Fin 1) k))
              (fun n k => (V c main_v55 : S50000x64.Idx → EReal) (ix2 n k)) (fun n k => (V c main_v45 : S50000x64.Idx → EReal) (ix2 n k))) g j :=
  congrFun (reg3_arr V c) (ix2 g j)

end Cert.KernelIdeal.Gen
-- ==== Proof.KReg4.lean ====
/-
  The three heads' kernel region, read index by index over the extended reals: each head's stored block is the
  two-layer head of the specification (weights, bias, positive part, weights, bias; the second and third through the
  logistic function) of the region's input arrays, and, the grid having one point whose blocks are the whole arrays,
  so is each output array after the region.
-/
import proofs.«416533_j8950711845031_2_alg».proof.Proof.Gen.KernelIdeal.Frame
import proofs.«416533_j8950711845031_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.ShloMosaic.Pipeline (Dat Cfg Window)

/-! ## A matrix product at an index -/

/-! ### Rows of a [64,64] matrix against columns of a [64,32] matrix -/

/-- The left operand is read in the result's row, -/
theorem lrow_64_64_32 (i : S64x32.Idx) (q : dot_S64x64_S64x32_S64x32_1_0_0_1_n_n.contr.Idx) :
    (dot_S64x64_S64x32_S64x32_1_0_0_1_n_n.lhsIdx i q 0).val = (i 0).val := by
  unfold DotDims.lhsIdx
  rw [dif_neg (show ¬(0 : Fin S64x64.rank) ∈ dot_S64x64_S64x32_S64x32_1_0_0_1_n_n.lhsBatch by decide), dif_pos (show (0 : Fin S64x64.rank) ∈ dot_S64x64_S64x32_S64x32_1_0_0_1_n_n.lhsNonContracting by decide)]
  rfl
/-- at the summed position; -/
theorem lsum_64_64_32 (i : S64x32.Idx) (q : dot_S64x64_S64x32_S64x32_1_0_0_1_n_n.contr.Idx) :
    (dot_S64x64_S64x32_S64x32_1_0_0_1_n_n.lhsIdx i q 1).val = (q ⟨0, by decide⟩).val :=
  dot_S64x64_S64x32_S64x32_1_0_0_1_n_n.lhsIdx_val_of_single rfl i q
/-- the right operand at the summed position, -/
theorem rsum_64_64_32 (i : S64x32.Idx) (q : dot_S64x64_S64x32_S64x32_1_0_0_1_n_n.contr.Idx) :
    (dot_S64x64_S64x32_S64x32_1_0_0_1_n_n.rhsIdx i q 0).val = (q ⟨0, by decide⟩).val :=
  dot_S64x64_S64x32_S64x32_1_0_0_1_n_n.rhsIdx_val_of_single rfl i q
/-- in the result's column. -/
theorem rcol_64_64_32 (i : S64x32.Idx) (q : dot_S64x64_S64x32_S64x32_1_0_0_1_n_n.contr.Idx) :
    (dot_S64x64_S64x32_S64x32_1_0_0_1_n_n.rhsIdx i q 1).val = (i 1).val := by
  unfold DotDims.rhsIdx
  rw [dif_neg (show ¬(1 : Fin S64x32.rank) ∈ dot_S64x64_S64x32_S64x32_1_0_0_1_n_n.rhsBatch by decide), dif_pos (show (1 : Fin S64x32.rank) ∈ dot_S64x64_S64x32_S64x32_1_0_0_1_n_n.rhsNonContracting by decide)]
  rfl

/-- So the product into the zero accumulator, at row `r` and column `j`, is the sum over the 64 shared positions. -/
theorem matmul_64_64_32 (x : FVec Ideal S64x64 .bf16) (y : FVec Ideal S64x32 .bf16) (r : Fin 64) (j : Fin 32) :
    matmul dot_S64x64_S64x32_S64x32_1_0_0_1_n_n none x y (constant S64x32 .f32 0x00000000#32) (ix2 r j)
      = ∑ k : Fin 64, x (ix2 r k) * y (ix2 k j) := by
  refine (Ideal.matmul_constant_zero_apply dot_S64x64_S64x32_S64x32_1_0_0_1_n_n none x y (ix2 r j)).trans ?_
  rw [← Equiv.sum_comp (contrEquiv1 dot_S64x64_S64x32_S64x32_1_0_0_1_n_n 64 rfl rfl).symm]
  refine Finset.sum_congr rfl fun k _ => ?_
  have hk := contrEquiv1_symm_val dot_S64x64_S64x32_S64x32_1_0_0_1_n_n 64 rfl rfl k
  have el : dot_S64x64_S64x32_S64x32_1_0_0_1_n_n.lhsIdx (ix2 r j) ((contrEquiv1 dot_S64x64_S64x32_S64x32_1_0_0_1_n_n 64 rfl rfl).symm k) = ix2 r k := funext fun a => Fin.ext (by
    match a with
    | ⟨0, _⟩ => exact lrow_64_64_32 _ _
    | ⟨1, _⟩ => exact (lsum_64_64_32 _ _).trans hk)
  have er : dot_S64x64_S64x32_S64x32_1_0_0_1_n_n.rhsIdx (ix2 r j) ((contrEquiv1 dot_S64x64_S64x32_S64x32_1_0_0_1_n_n 64 rfl rfl).symm k) = ix2 k j := funext fun a => Fin.ext (by
    match a with
    | ⟨0, _⟩ => exact (rsum_64_64_32 _ _).trans hk
    | ⟨1, _⟩ => exact rcol_64_64_32 _ _)
  rw [el, er]

/-! ### Rows of a [64,32] matrix against columns of a [32,6] matrix -/

/-- The left operand is read in the result's row, -/
theorem lrow_64_32_6 (i : S64x6.Idx) (q : dot_S64x32_S32x6_S64x6_1_0_0_1_n_n.contr.Idx) :
    (dot_S64x32_S32x6_S64x6_1_0_0_1_n_n.lhsIdx i q 0).val = (i 0).val := by
  unfold DotDims.lhsIdx
  rw [dif_neg (show ¬(0 : Fin S64x32.rank) ∈ dot_S64x32_S32x6_S64x6_1_0_0_1_n_n.lhsBatch by decide), dif_pos (show (0 : Fin S64x32.rank) ∈ dot_S64x32_S32x6_S64x6_1_0_0_1_n_n.lhsNonContracting by decide)]
  rfl
/-- at the summed position; -/
theorem lsum_64_32_6 (i : S64x6.Idx) (q : dot_S64x32_S32x6_S64x6_1_0_0_1_n_n.contr.Idx) :
    (dot_S64x32_S32x6_S64x6_1_0_0_1_n_n.lhsIdx i q 1).val = (q ⟨0, by decide⟩).val :=
  dot_S64x32_S32x6_S64x6_1_0_0_1_n_n.lhsIdx_val_of_single rfl i q
/-- the right operand at the summed position, -/
theorem rsum_64_32_6 (i : S64x6.Idx) (q : dot_S64x32_S32x6_S64x6_1_0_0_1_n_n.contr.Idx) :
    (dot_S64x32_S32x6_S64x6_1_0_0_1_n_n.rhsIdx i q 0).val = (q ⟨0, by decide⟩).val :=
  dot_S64x32_S32x6_S64x6_1_0_0_1_n_n.rhsIdx_val_of_single rfl i q
/-- in the result's column. -/
theorem rcol_64_32_6 (i : S64x6.Idx) (q : dot_S64x32_S32x6_S64x6_1_0_0_1_n_n.contr.Idx) :
    (dot_S64x32_S32x6_S64x6_1_0_0_1_n_n.rhsIdx i q 1).val = (i 1).val := by
  unfold DotDims.rhsIdx
  rw [dif_neg (show ¬(1 : Fin S32x6.rank) ∈ dot_S64x32_S32x6_S64x6_1_0_0_1_n_n.rhsBatch by decide), dif_pos (show (1 : Fin S32x6.rank) ∈ dot_S64x32_S32x6_S64x6_1_0_0_1_n_n.rhsNonContracting by decide)]
  rfl

/-- So the product into the zero accumulator, at row `r` and column `j`, is the sum over the 32 shared positions. -/
theorem matmul_64_32_6 (x : FVec Ideal S64x32 .bf16) (y : FVec Ideal S32x6 .bf16) (r : Fin 64) (j : Fin 6) :
    matmul dot_S64x32_S32x6_S64x6_1_0_0_1_n_n none x y (constant S64x6 .f32 0x00000000#32) (ix2 r j)
      = ∑ k : Fin 32, x (ix2 r k) * y (ix2 k j) := by
  refine (Ideal.matmul_constant_zero_apply dot_S64x32_S32x6_S64x6_1_0_0_1_n_n none x y (ix2 r j)).trans ?_
  rw [← Equiv.sum_comp (contrEquiv1 dot_S64x32_S32x6_S64x6_1_0_0_1_n_n 32 rfl rfl).symm]
  refine Finset.sum_congr rfl fun k _ => ?_
  have hk := contrEquiv1_symm_val dot_S64x32_S32x6_S64x6_1_0_0_1_n_n 32 rfl rfl k
  have el : dot_S64x32_S32x6_S64x6_1_0_0_1_n_n.lhsIdx (ix2 r j) ((contrEquiv1 dot_S64x32_S32x6_S64x6_1_0_0_1_n_n 32 rfl rfl).symm k) = ix2 r k := funext fun a => Fin.ext (by
    match a with
    | ⟨0, _⟩ => exact lrow_64_32_6 _ _
    | ⟨1, _⟩ => exact (lsum_64_32_6 _ _).trans hk)
  have er : dot_S64x32_S32x6_S64x6_1_0_0_1_n_n.rhsIdx (ix2 r j) ((contrEquiv1 dot_S64x32_S32x6_S64x6_1_0_0_1_n_n 32 rfl rfl).symm k) = ix2 k j := funext fun a => Fin.ext (by
    match a with
    | ⟨0, _⟩ => exact (rsum_64_32_6 _ _).trans hk
    | ⟨1, _⟩ => exact rcol_64_32_6 _ _)
  rw [el, er]

/-! ### Rows of a [64,32] matrix against columns of a [32,2] matrix -/

/-- The left operand is read in the result's row, -/
theorem lrow_64_32_2 (i : S64x2.Idx) (q : dot_S64x32_S32x2_S64x2_1_0_0_1_n_n.contr.Idx) :
    (dot_S64x32_S32x2_S64x2_1_0_0_1_n_n.lhsIdx i q 0).val = (i 0).val := by
  unfold DotDims.lhsIdx
  rw [dif_neg (show ¬(0 : Fin S64x32.rank) ∈ dot_S64x32_S32x2_S64x2_1_0_0_1_n_n.lhsBatch by decide), dif_pos (show (0 : Fin S64x32.rank) ∈ dot_S64x32_S32x2_S64x2_1_0_0_1_n_n.lhsNonContracting by decide)]
  rfl
/-- at the summed position; -/
theorem lsum_64_32_2 (i : S64x2.Idx) (q : dot_S64x32_S32x2_S64x2_1_0_0_1_n_n.contr.Idx) :
    (dot_S64x32_S32x2_S64x2_1_0_0_1_n_n.lhsIdx i q 1).val = (q ⟨0, by decide⟩).val :=
  dot_S64x32_S32x2_S64x2_1_0_0_1_n_n.lhsIdx_val_of_single rfl i q
/-- the right operand at the summed position, -/
theorem rsum_64_32_2 (i : S64x2.Idx) (q : dot_S64x32_S32x2_S64x2_1_0_0_1_n_n.contr.Idx) :
    (dot_S64x32_S32x2_S64x2_1_0_0_1_n_n.rhsIdx i q 0).val = (q ⟨0, by decide⟩).val :=
  dot_S64x32_S32x2_S64x2_1_0_0_1_n_n.rhsIdx_val_of_single rfl i q
/-- in the result's column. -/
theorem rcol_64_32_2 (i : S64x2.Idx) (q : dot_S64x32_S32x2_S64x2_1_0_0_1_n_n.contr.Idx) :
    (dot_S64x32_S32x2_S64x2_1_0_0_1_n_n.rhsIdx i q 1).val = (i 1).val := by
  unfold DotDims.rhsIdx
  rw [dif_neg (show ¬(1 : Fin S32x2.rank) ∈ dot_S64x32_S32x2_S64x2_1_0_0_1_n_n.rhsBatch by decide), dif_pos (show (1 : Fin S32x2.rank) ∈ dot_S64x32_S32x2_S64x2_1_0_0_1_n_n.rhsNonContracting by decide)]
  rfl

/-- So the product into the zero accumulator, at row `r` and column `j`, is the sum over the 32 shared positions. -/
theorem matmul_64_32_2 (x : FVec Ideal S64x32 .bf16) (y : FVec Ideal S32x2 .bf16) (r : Fin 64) (j : Fin 2) :
    matmul dot_S64x32_S32x2_S64x2_1_0_0_1_n_n none x y (constant S64x2 .f32 0x00000000#32) (ix2 r j)
      = ∑ k : Fin 32, x (ix2 r k) * y (ix2 k j) := by
  refine (Ideal.matmul_constant_zero_apply dot_S64x32_S32x2_S64x2_1_0_0_1_n_n none x y (ix2 r j)).trans ?_
  rw [← Equiv.sum_comp (contrEquiv1 dot_S64x32_S32x2_S64x2_1_0_0_1_n_n 32 rfl rfl).symm]
  refine Finset.sum_congr rfl fun k _ => ?_
  have hk := contrEquiv1_symm_val dot_S64x32_S32x2_S64x2_1_0_0_1_n_n 32 rfl rfl k
  have el : dot_S64x32_S32x2_S64x2_1_0_0_1_n_n.lhsIdx (ix2 r j) ((contrEquiv1 dot_S64x32_S32x2_S64x2_1_0_0_1_n_n 32 rfl rfl).symm k) = ix2 r k := funext fun a => Fin.ext (by
    match a with
    | ⟨0, _⟩ => exact lrow_64_32_2 _ _
    | ⟨1, _⟩ => exact (lsum_64_32_2 _ _).trans hk)
  have er : dot_S64x32_S32x2_S64x2_1_0_0_1_n_n.rhsIdx (ix2 r j) ((contrEquiv1 dot_S64x32_S32x2_S64x2_1_0_0_1_n_n 32 rfl rfl).symm k) = ix2 k j := funext fun a => Fin.ext (by
    match a with
    | ⟨0, _⟩ => exact (rsum_64_32_2 _ _).trans hk
    | ⟨1, _⟩ => exact rcol_64_32_2 _ _)
  rw [el, er]

/-! ### Rows of a [64,64] matrix against columns of a [64,16] matrix -/

/-- The left operand is read in the result's row, -/
theorem lrow_64_64_16 (i : S64x16.Idx) (q : dot_S64x64_S64x16_S64x16_1_0_0_1_n_n.contr.Idx) :
    (dot_S64x64_S64x16_S64x16_1_0_0_1_n_n.lhsIdx i q 0).val = (i 0).val := by
  unfold DotDims.lhsIdx
  rw [dif_neg (show ¬(0 : Fin S64x64.rank) ∈ dot_S64x64_S64x16_S64x16_1_0_0_1_n_n.lhsBatch by decide), dif_pos (show (0 : Fin S64x64.rank) ∈ dot_S64x64_S64x16_S64x16_1_0_0_1_n_n.lhsNonContracting by decide)]
  rfl
/-- at the summed position; -/
theorem lsum_64_64_16 (i : S64x16.Idx) (q : dot_S64x64_S64x16_S64x16_1_0_0_1_n_n.contr.Idx) :
    (dot_S64x64_S64x16_S64x16_1_0_0_1_n_n.lhsIdx i q 1).val = (q ⟨0, by decide⟩).val :=
  dot_S64x64_S64x16_S64x16_1_0_0_1_n_n.lhsIdx_val_of_single rfl i q
/-- the right operand at the summed position, -/
theorem rsum_64_64_16 (i : S64x16.Idx) (q : dot_S64x64_S64x16_S64x16_1_0_0_1_n_n.contr.Idx) :
    (dot_S64x64_S64x16_S64x16_1_0_0_1_n_n.rhsIdx i q 0).val = (q ⟨0, by decide⟩).val :=
  dot_S64x64_S64x16_S64x16_1_0_0_1_n_n.rhsIdx_val_of_single rfl i q
/-- in the result's column. -/
theorem rcol_64_64_16 (i : S64x16.Idx) (q : dot_S64x64_S64x16_S64x16_1_0_0_1_n_n.contr.Idx) :
    (dot_S64x64_S64x16_S64x16_1_0_0_1_n_n.rhsIdx i q 1).val = (i 1).val := by
  unfold DotDims.rhsIdx
  rw [dif_neg (show ¬(1 : Fin S64x16.rank) ∈ dot_S64x64_S64x16_S64x16_1_0_0_1_n_n.rhsBatch by decide), dif_pos (show (1 : Fin S64x16.rank) ∈ dot_S64x64_S64x16_S64x16_1_0_0_1_n_n.rhsNonContracting by decide)]
  rfl

/-- So the product into the zero accumulator, at row `r` and column `j`, is the sum over the 64 shared positions. -/
theorem matmul_64_64_16 (x : FVec Ideal S64x64 .bf16) (y : FVec Ideal S64x16 .bf16) (r : Fin 64) (j : Fin 16) :
    matmul dot_S64x64_S64x16_S64x16_1_0_0_1_n_n none x y (constant S64x16 .f32 0x00000000#32) (ix2 r j)
      = ∑ k : Fin 64, x (ix2 r k) * y (ix2 k j) := by
  refine (Ideal.matmul_constant_zero_apply dot_S64x64_S64x16_S64x16_1_0_0_1_n_n none x y (ix2 r j)).trans ?_
  rw [← Equiv.sum_comp (contrEquiv1 dot_S64x64_S64x16_S64x16_1_0_0_1_n_n 64 rfl rfl).symm]
  refine Finset.sum_congr rfl fun k _ => ?_
  have hk := contrEquiv1_symm_val dot_S64x64_S64x16_S64x16_1_0_0_1_n_n 64 rfl rfl k
  have el : dot_S64x64_S64x16_S64x16_1_0_0_1_n_n.lhsIdx (ix2 r j) ((contrEquiv1 dot_S64x64_S64x16_S64x16_1_0_0_1_n_n 64 rfl rfl).symm k) = ix2 r k := funext fun a => Fin.ext (by
    match a with
    | ⟨0, _⟩ => exact lrow_64_64_16 _ _
    | ⟨1, _⟩ => exact (lsum_64_64_16 _ _).trans hk)
  have er : dot_S64x64_S64x16_S64x16_1_0_0_1_n_n.rhsIdx (ix2 r j) ((contrEquiv1 dot_S64x64_S64x16_S64x16_1_0_0_1_n_n 64 rfl rfl).symm k) = ix2 k j := funext fun a => Fin.ext (by
    match a with
    | ⟨0, _⟩ => exact (rsum_64_64_16 _ _).trans hk
    | ⟨1, _⟩ => exact rcol_64_64_16 _ _)
  rw [el, er]

/-! ### Rows of a [64,16] matrix against columns of a [16,1] matrix -/

/-- The left operand is read in the result's row, -/
theorem lrow_64_16_1 (i : S64x1.Idx) (q : dot_S64x16_S16x1_S64x1_1_0_0_1_n_n.contr.Idx) :
    (dot_S64x16_S16x1_S64x1_1_0_0_1_n_n.lhsIdx i q 0).val = (i 0).val := by
  unfold DotDims.lhsIdx
  rw [dif_neg (show ¬(0 : Fin S64x16.rank) ∈ dot_S64x16_S16x1_S64x1_1_0_0_1_n_n.lhsBatch by decide), dif_pos (show (0 : Fin S64x16.rank) ∈ dot_S64x16_S16x1_S64x1_1_0_0_1_n_n.lhsNonContracting by decide)]
  rfl
/-- at the summed position; -/
theorem lsum_64_16_1 (i : S64x1.Idx) (q : dot_S64x16_S16x1_S64x1_1_0_0_1_n_n.contr.Idx) :
    (dot_S64x16_S16x1_S64x1_1_0_0_1_n_n.lhsIdx i q 1).val = (q ⟨0, by decide⟩).val :=
  dot_S64x16_S16x1_S64x1_1_0_0_1_n_n.lhsIdx_val_of_single rfl i q
/-- the right operand at the summed position, -/
theorem rsum_64_16_1 (i : S64x1.Idx) (q : dot_S64x16_S16x1_S64x1_1_0_0_1_n_n.contr.Idx) :
    (dot_S64x16_S16x1_S64x1_1_0_0_1_n_n.rhsIdx i q 0).val = (q ⟨0, by decide⟩).val :=
  dot_S64x16_S16x1_S64x1_1_0_0_1_n_n.rhsIdx_val_of_single rfl i q
/-- in the result's column. -/
theorem rcol_64_16_1 (i : S64x1.Idx) (q : dot_S64x16_S16x1_S64x1_1_0_0_1_n_n.contr.Idx) :
    (dot_S64x16_S16x1_S64x1_1_0_0_1_n_n.rhsIdx i q 1).val = (i 1).val := by
  unfold DotDims.rhsIdx
  rw [dif_neg (show ¬(1 : Fin S16x1.rank) ∈ dot_S64x16_S16x1_S64x1_1_0_0_1_n_n.rhsBatch by decide), dif_pos (show (1 : Fin S16x1.rank) ∈ dot_S64x16_S16x1_S64x1_1_0_0_1_n_n.rhsNonContracting by decide)]
  rfl

/-- So the product into the zero accumulator, at row `r` and column `j`, is the sum over the 16 shared positions. -/
theorem matmul_64_16_1 (x : FVec Ideal S64x16 .bf16) (y : FVec Ideal S16x1 .bf16) (r : Fin 64) (j : Fin 1) :
    matmul dot_S64x16_S16x1_S64x1_1_0_0_1_n_n none x y (constant S64x1 .f32 0x00000000#32) (ix2 r j)
      = ∑ k : Fin 16, x (ix2 r k) * y (ix2 k j) := by
  refine (Ideal.matmul_constant_zero_apply dot_S64x16_S16x1_S64x1_1_0_0_1_n_n none x y (ix2 r j)).trans ?_
  rw [← Equiv.sum_comp (contrEquiv1 dot_S64x16_S16x1_S64x1_1_0_0_1_n_n 16 rfl rfl).symm]
  refine Finset.sum_congr rfl fun k _ => ?_
  have hk := contrEquiv1_symm_val dot_S64x16_S16x1_S64x1_1_0_0_1_n_n 16 rfl rfl k
  have el : dot_S64x16_S16x1_S64x1_1_0_0_1_n_n.lhsIdx (ix2 r j) ((contrEquiv1 dot_S64x16_S16x1_S64x1_1_0_0_1_n_n 16 rfl rfl).symm k) = ix2 r k := funext fun a => Fin.ext (by
    match a with
    | ⟨0, _⟩ => exact lrow_64_16_1 _ _
    | ⟨1, _⟩ => exact (lsum_64_16_1 _ _).trans hk)
  have er : dot_S64x16_S16x1_S64x1_1_0_0_1_n_n.rhsIdx (ix2 r j) ((contrEquiv1 dot_S64x16_S16x1_S64x1_1_0_0_1_n_n 16 rfl rfl).symm k) = ix2 k j := funext fun a => Fin.ext (by
    match a with
    | ⟨0, _⟩ => exact (rsum_64_16_1 _ _).trans hk
    | ⟨1, _⟩ => exact rcol_64_16_1 _ _)
  rw [el, er]

/-! ## The three heads' stored blocks at an index -/

/-- The shared left operand of every head's first product is the pooled embedding itself (a cast to its own shape and a
    change of format, both the identity on extended reals). -/
theorem pooled_operand (x0 : Vec Ideal S64x64 .f32) : k4_pay3 x0 = x0 := by
  unfold k4_pay3
  rw [shapeCast_self]
  rfl

/-- The first head's stored block at row `r`, column `j`. -/
theorem head0_block (x0 : Vec Ideal S64x64 .f32) (x1 : Vec Ideal S64x32 .f32) (x2 : Vec Ideal S1x32 .f32)
    (x3 : Vec Ideal S32x6 .f32) (x4 : Vec Ideal S1x6 .f32) (r : Fin 64) (j : Fin 6) :
    k4_pay4 x0 x1 x2 x3 x4 (ix2 r j)
      = Cert.Spec.head (fun r i => x0 (ix2 r i)) x1 (fun k => x2 (ix2 (0 : Fin 1) k)) x3 (fun k => x4 (ix2 (0 : Fin 1) k)) r j := by
  unfold k4_pay4
  rw [pooled_operand, shapeCast_self, shapeCast_self]
  refine (congrArg₂ (· + ·) (matmul_64_32_6 _ _ r j) (broadcastTo_1b_ab_apply _ _ r j)).trans ?_
  unfold Cert.Spec.head Cert.Spec.mm
  refine congrArg (· + x4 (ix2 (0 : Fin 1) j)) (Finset.sum_congr rfl fun k _ => ?_)
  refine congrArg (· * x3 (ix2 k j)) ?_
  refine (congrArg (max · Cert.Spec.zero) (congrArg₂ (· + ·) (matmul_64_64_32 _ _ r k) (broadcastTo_1b_ab_apply _ _ r k))).trans ?_
  rfl

/-- The second head's product before its last bias, at row `r`, column `j`. -/
theorem head1_product (x0 : Vec Ideal S64x64 .f32) (x5 : Vec Ideal S64x32 .f32) (x6 : Vec Ideal S1x32 .f32)
    (x7 : Vec Ideal S32x2 .f32) (r : Fin 64) (j : Fin 2) :
    k4_pay5 x0 x5 x6 x7 (ix2 r j)
      = ∑ k : Fin 32, max ((∑ i : Fin 64, x0 (ix2 r i) * x5 (ix2 i k)) + x6 (ix2 (0 : Fin 1) k)) Cert.Spec.zero * x7 (ix2 k j) := by
  unfold k4_pay5
  rw [pooled_operand, shapeCast_self]
  refine (matmul_64_32_2 _ _ r j).trans ?_
  refine Finset.sum_congr rfl fun k _ => ?_
  refine congrArg (· * x7 (ix2 k j)) ?_
  refine (congrArg (max · Cert.Spec.zero) (congrArg₂ (· + ·) (matmul_64_64_32 _ _ r k) (broadcastTo_1b_ab_apply _ _ r k))).trans ?_
  rfl

/-- The second head's stored block at row `r`, column `j`. -/
theorem head1_block (x0 : Vec Ideal S64x64 .f32) (x5 : Vec Ideal S64x32 .f32) (x6 : Vec Ideal S1x32 .f32)
    (x7 : Vec Ideal S32x2 .f32) (x8 : Vec Ideal S1x2 .f32) (r : Fin 64) (j : Fin 2) :
    k4_pay1 (k4_pay5 x0 x5 x6 x7) x8 (ix2 r j)
      = Ideal.logistic (Cert.Spec.head (fun r i => x0 (ix2 r i)) x5 (fun k => x6 (ix2 (0 : Fin 1) k)) x7 (fun k => x8 (ix2 (0 : Fin 1) k)) r j) := by
  unfold k4_pay1
  rw [shapeCast_self]
  refine congrArg Ideal.logistic ?_
  refine (congrArg₂ (· + ·) (head1_product x0 x5 x6 x7 r j) (broadcastTo_1b_ab_apply _ _ r j)).trans ?_
  rfl

/-- The third head's stored block at row `r`, column `j`. -/
theorem head2_block (x0 : Vec Ideal S64x64 .f32) (x9 : Vec Ideal S64x16 .f32) (x10 : Vec Ideal S1x16 .f32)
    (x11 : Vec Ideal S16x1 .f32) (x12 : Vec Ideal S1x1 .f32) (r : Fin 64) (j : Fin 1) :
    k4_pay2 (k4_pay3 x0) x9 x10 x11 x12 (ix2 r j)
      = Ideal.logistic (Cert.Spec.head (fun r i => x0 (ix2 r i)) x9 (fun k => x10 (ix2 (0 : Fin 1) k)) x11 (fun k => x12 (ix2 (0 : Fin 1) k)) r j) := by
  unfold k4_pay2
  rw [pooled_operand, shapeCast_self, shapeCast_self]
  refine congrArg Ideal.logistic ?_
  refine (congrArg₂ (· + ·) (matmul_64_16_1 _ _ r j) (broadcastTo_1b_ab_apply _ _ r j)).trans ?_
  unfold Cert.Spec.head Cert.Spec.mm
  refine congrArg (· + x12 (ix2 (0 : Fin 1) j)) (Finset.sum_congr rfl fun k _ => ?_)
  refine congrArg (· * x11 (ix2 k j)) ?_
  refine (congrArg (max · Cert.Spec.zero) (congrArg₂ (· + ·) (matmul_64_64_16 _ _ r k) (broadcastTo_1b_ab_apply _ _ r k))).trans ?_
  rfl

/-! ## From the stored blocks to the arrays -/

theorem hz : (![0, 0] : Fin 2 → Nat) = fun _ => 0 := funext fun a => by fin_cases a <;> rfl

/-- What the body leaves in the first head's output buffer, at row `r`, column `j`: its one store covers the buffer
    and every load reads a whole block. -/
theorem head0_stored (x0 : Vec Ideal S64x64 .f32) (x1 : Vec Ideal S64x32 .f32) (x2 : Vec Ideal S1x32 .f32) (x3 : Vec Ideal S32x6 .f32) (x4 : Vec Ideal S1x6 .f32) (x5 : Vec Ideal S64x32 .f32) (x6 : Vec Ideal S1x32 .f32) (x7 : Vec Ideal S32x2 .f32) (x8 : Vec Ideal S1x2 .f32) (x9 : Vec Ideal S64x16 .f32) (x10 : Vec Ideal S1x16 .f32) (x11 : Vec Ideal S16x1 .f32) (x12 : Vec Ideal S1x1 .f32) (r : Fin 64) (j : Fin 6) :
    out4_13 x0 x1 x2 x3 x4 x5 x6 x7 x8 x9 x10 x11 x12 (ix2 r j)
      = Cert.Spec.head (fun r i => x0 (ix2 r i)) x1 (fun k => x2 (ix2 (0 : Fin 1) k)) x3 (fun k => x4 (ix2 (0 : Fin 1) k)) r j := by
  unfold out4_13
  rw [View.canon_unit_zero hz]
  simp only [View.ld_unit_zero (S := S64x64) hz, View.ld_unit_zero (S := S64x32) hz, View.ld_unit_zero (S := S1x32) hz, View.ld_unit_zero (S := S32x6) hz, View.ld_unit_zero (S := S1x6) hz, View.ld_unit_zero (S := S32x2) hz, View.ld_unit_zero (S := S1x2) hz, View.ld_unit_zero (S := S64x16) hz, View.ld_unit_zero (S := S1x16) hz, View.ld_unit_zero (S := S16x1) hz, View.ld_unit_zero (S := S1x1) hz]
  exact head0_block x0 x1 x2 x3 x4 r j

/-- The same for the second head, -/
theorem head1_stored (x0 : Vec Ideal S64x64 .f32) (x1 : Vec Ideal S64x32 .f32) (x2 : Vec Ideal S1x32 .f32) (x3 : Vec Ideal S32x6 .f32) (x4 : Vec Ideal S1x6 .f32) (x5 : Vec Ideal S64x32 .f32) (x6 : Vec Ideal S1x32 .f32) (x7 : Vec Ideal S32x2 .f32) (x8 : Vec Ideal S1x2 .f32) (x9 : Vec Ideal S64x16 .f32) (x10 : Vec Ideal S1x16 .f32) (x11 : Vec Ideal S16x1 .f32) (x12 : Vec Ideal S1x1 .f32) (r : Fin 64) (j : Fin 2) :
    out4_14 x0 x1 x2 x3 x4 x5 x6 x7 x8 x9 x10 x11 x12 (ix2 r j)
      = Ideal.logistic (Cert.Spec.head (fun r i => x0 (ix2 r i)) x5 (fun k => x6 (ix2 (0 : Fin 1) k)) x7 (fun k => x8 (ix2 (0 : Fin 1) k)) r j) := by
  unfold out4_14
  rw [View.canon_unit_zero hz]
  simp only [View.ld_unit_zero (S := S64x64) hz, View.ld_unit_zero (S := S64x32) hz, View.ld_unit_zero (S := S1x32) hz, View.ld_unit_zero (S := S32x6) hz, View.ld_unit_zero (S := S1x6) hz, View.ld_unit_zero (S := S32x2) hz, View.ld_unit_zero (S := S1x2) hz, View.ld_unit_zero (S := S64x16) hz, View.ld_unit_zero (S := S1x16) hz, View.ld_unit_zero (S := S16x1) hz, View.ld_unit_zero (S := S1x1) hz]
  exact head1_block x0 x5 x6 x7 x8 r j

/-- and for the third. -/
theorem head2_stored (x0 : Vec Ideal S64x64 .f32) (x1 : Vec Ideal S64x32 .f32) (x2 : Vec Ideal S1x32 .f32) (x3 : Vec Ideal S32x6 .f32) (x4 : Vec Ideal S1x6 .f32) (x5 : Vec Ideal S64x32 .f32) (x6 : Vec Ideal S1x32 .f32) (x7 : Vec Ideal S32x2 .f32) (x8 : Vec Ideal S1x2 .f32) (x9 : Vec Ideal S64x16 .f32) (x10 : Vec Ideal S1x16 .f32) (x11 : Vec Ideal S16x1 .f32) (x12 : Vec Ideal S1x1 .f32) (r : Fin 64) (j : Fin 1) :
    out4_15 x0 x1 x2 x3 x4 x5 x6 x7 x8 x9 x10 x11 x12 (ix2 r j)
      = Ideal.logistic (Cert.Spec.head (fun r i => x0 (ix2 r i)) x9 (fun k => x10 (ix2 (0 : Fin 1) k)) x11 (fun k => x12 (ix2 (0 : Fin 1) k)) r j) := by
  unfold out4_15
  rw [View.canon_unit_zero hz]
  simp only [View.ld_unit_zero (S := S64x64) hz, View.ld_unit_zero (S := S64x32) hz, View.ld_unit_zero (S := S1x32) hz, View.ld_unit_zero (S := S32x6) hz, View.ld_unit_zero (S := S1x6) hz, View.ld_unit_zero (S := S32x2) hz, View.ld_unit_zero (S := S1x2) hz, View.ld_unit_zero (S := S64x16) hz, View.ld_unit_zero (S := S1x16) hz, View.ld_unit_zero (S := S16x1) hz, View.ld_unit_zero (S := S1x1) hz]
  exact head2_block x0 x9 x10 x11 x12 r j

variable (V : (c : Dev nD) → (b : Ref sig .tc) → Buf (Elt Ideal) ((c : Thread nD τ).loc b))

/-! The grid has one point, and at it every window's block is its whole array: block (0, 0) of the array's own sizes. -/

theorem whole_block0 (c : Dev nD) (t : Fin cfg4.N) :
    (iblk4 V c 0 t : Vec Ideal S64x64 .f32) = (V c main_v70 : S64x64.Idx → EReal) := by
  obtain rfl : t = t4_0 := fin_N4 t
  have hz' : (fun a => win4_0.index t4_0 a * main_v70.ty.shape.size a) = fun _ => 0 := funext fun a => by fin_cases a <;> decide
  exact Memref.read_access_unit_zero (Elt Ideal) main_v70 hz' (fun a => by rw [congrFun hz' a]; simp) (V c main_v70)

theorem whole_block1 (c : Dev nD) (t : Fin cfg4.N) :
    (iblk4 V c 1 t : Vec Ideal S64x32 .f32) = (V c main_arg21 : S64x32.Idx → EReal) := by
  obtain rfl : t = t4_0 := fin_N4 t
  have hz' : (fun a => win4_1.index t4_0 a * main_arg21.ty.shape.size a) = fun _ => 0 := funext fun a => by fin_cases a <;> decide
  exact Memref.read_access_unit_zero (Elt Ideal) main_arg21 hz' (fun a => by rw [congrFun hz' a]; simp) (V c main_arg21)

theorem whole_block2 (c : Dev nD) (t : Fin cfg4.N) :
    (iblk4 V c 2 t : Vec Ideal S1x32 .f32) = (V c main_v71 : S1x32.Idx → EReal) := by
  obtain rfl : t = t4_0 := fin_N4 t
  have hz' : (fun a => win4_2.index t4_0 a * main_v71.ty.shape.size a) = fun _ => 0 := funext fun a => by fin_cases a <;> decide
  exact Memref.read_access_unit_zero (Elt Ideal) main_v71 hz' (fun a => by rw [congrFun hz' a]; simp) (V c main_v71)

theorem whole_block3 (c : Dev nD) (t : Fin cfg4.N) :
    (iblk4 V c 3 t : Vec Ideal S32x6 .f32) = (V c main_arg23 : S32x6.Idx → EReal) := by
  obtain rfl : t = t4_0 := fin_N4 t
  have hz' : (fun a => win4_3.index t4_0 a * main_arg23.ty.shape.size a) = fun _ => 0 := funext fun a => by fin_cases a <;> decide
  exact Memref.read_access_unit_zero (Elt Ideal) main_arg23 hz' (fun a => by rw [congrFun hz' a]; simp) (V c main_arg23)

theorem whole_block4 (c : Dev nD) (t : Fin cfg4.N) :
    (iblk4 V c 4 t : Vec Ideal S1x6 .f32) = (V c main_v72 : S1x6.Idx → EReal) := by
  obtain rfl : t = t4_0 := fin_N4 t
  have hz' : (fun a => win4_4.index t4_0 a * main_v72.ty.shape.size a) = fun _ => 0 := funext fun a => by fin_cases a <;> decide
  exact Memref.read_access_unit_zero (Elt Ideal) main_v72 hz' (fun a => by rw [congrFun hz' a]; simp) (V c main_v72)

theorem whole_block5 (c : Dev nD) (t : Fin cfg4.N) :
    (iblk4 V c 5 t : Vec Ideal S64x32 .f32) = (V c main_arg25 : S64x32.Idx → EReal) := by
  obtain rfl : t = t4_0 := fin_N4 t
  have hz' : (fun a => win4_5.index t4_0 a * main_arg25.ty.shape.size a) = fun _ => 0 := funext fun a => by fin_cases a <;> decide
  exact Memref.read_access_unit_zero (Elt Ideal) main_arg25 hz' (fun a => by rw [congrFun hz' a]; simp) (V c main_arg25)

theorem whole_block6 (c : Dev nD) (t : Fin cfg4.N) :
    (iblk4 V c 6 t : Vec Ideal S1x32 .f32) = (V c main_v73 : S1x32.Idx → EReal) := by
  obtain rfl : t = t4_0 := fin_N4 t
  have hz' : (fun a => win4_6.index t4_0 a * main_v73.ty.shape.size a) = fun _ => 0 := funext fun a => by fin_cases a <;> decide
  exact Memref.read_access_unit_zero (Elt Ideal) main_v73 hz' (fun a => by rw [congrFun hz' a]; simp) (V c main_v73)

theorem whole_block7 (c : Dev nD) (t : Fin cfg4.N) :
    (iblk4 V c 7 t : Vec Ideal S32x2 .f32) = (V c main_arg27 : S32x2.Idx → EReal) := by
  obtain rfl : t = t4_0 := fin_N4 t
  have hz' : (fun a => win4_7.index t4_0 a * main_arg27.ty.shape.size a) = fun _ => 0 := funext fun a => by fin_cases a <;> decide
  exact Memref.read_access_unit_zero (Elt Ideal) main_arg27 hz' (fun a => by rw [congrFun hz' a]; simp) (V c main_arg27)

theorem whole_block8 (c : Dev nD) (t : Fin cfg4.N) :
    (iblk4 V c 8 t : Vec Ideal S1x2 .f32) = (V c main_v74 : S1x2.Idx → EReal) := by
  obtain rfl : t = t4_0 := fin_N4 t
  have hz' : (fun a => win4_8.index t4_0 a * main_v74.ty.shape.size a) = fun _ => 0 := funext fun a => by fin_cases a <;> decide
  exact Memref.read_access_unit_zero (Elt Ideal) main_v74 hz' (fun a => by rw [congrFun hz' a]; simp) (V c main_v74)

theorem whole_block9 (c : Dev nD) (t : Fin cfg4.N) :
    (iblk4 V c 9 t : Vec Ideal S64x16 .f32) = (V c main_arg29 : S64x16.Idx → EReal) := by
  obtain rfl : t = t4_0 := fin_N4 t
  have hz' : (fun a => win4_9.index t4_0 a * main_arg29.ty.shape.size a) = fun _ => 0 := funext fun a => by fin_cases a <;> decide
  exact Memref.read_access_unit_zero (Elt Ideal) main_arg29 hz' (fun a => by rw [congrFun hz' a]; simp) (V c main_arg29)

theorem whole_block10 (c : Dev nD) (t : Fin cfg4.N) :
    (iblk4 V c 10 t : Vec Ideal S1x16 .f32) = (V c main_v75 : S1x16.Idx → EReal) := by
  obtain rfl : t = t4_0 := fin_N4 t
  have hz' : (fun a => win4_10.index t4_0 a * main_v75.ty.shape.size a) = fun _ => 0 := funext fun a => by fin_cases a <;> decide
  exact Memref.read_access_unit_zero (Elt Ideal) main_v75 hz' (fun a => by rw [congrFun hz' a]; simp) (V c main_v75)

theorem whole_block11 (c : Dev nD) (t : Fin cfg4.N) :
    (iblk4 V c 11 t : Vec Ideal S16x1 .f32) = (V c main_arg31 : S16x1.Idx → EReal) := by
  obtain rfl : t = t4_0 := fin_N4 t
  have hz' : (fun a => win4_11.index t4_0 a * main_arg31.ty.shape.size a) = fun _ => 0 := funext fun a => by fin_cases a <;> decide
  exact Memref.read_access_unit_zero (Elt Ideal) main_arg31 hz' (fun a => by rw [congrFun hz' a]; simp) (V c main_arg31)

theorem whole_block12 (c : Dev nD) (t : Fin cfg4.N) :
    (iblk4 V c 12 t : Vec Ideal S1x1 .f32) = (V c main_v76 : S1x1.Idx → EReal) := by
  obtain rfl : t = t4_0 := fin_N4 t
  have hz' : (fun a => win4_12.index t4_0 a * main_v76.ty.shape.size a) = fun _ => 0 := funext fun a => by fin_cases a <;> decide
  exact Memref.read_access_unit_zero (Elt Ideal) main_v76 hz' (fun a => by rw [congrFun hz' a]; simp) (V c main_v76)

/-! ### The first head's array -/

/-- The one point writes back the body's result through block (0, 0) of the array's own sizes: the result itself. -/
theorem head0_written (c : Dev nD) (t : Fin cfg4.N) (_hf : (cfg4.win 13).flush t = true) :
    (dat4 V c).flushed 13 t = ((cfg4.win 13).blk t).view.read (Elt Ideal) ((dat4 V c).after 13 t4_0) := by
  obtain rfl : t = t4_0 := fin_N4 t
  show (cfg4.win 13).cut (grid4.coords t4_0) ((dat4 V c).after 13 t4_0) = _
  have hz' : (fun a => win4_13.index t4_0 a * main_v77_0.ty.shape.size a) = fun _ => 0 := funext fun a => by fin_cases a <;> decide
  exact (Memref.read_access_unit_zero (Elt Ideal) main_v77_0 hz' (fun a => by rw [congrFun hz' a]; simp) ((dat4 V c).after 13 t4_0)).symm

/-- That block is the whole array, -/
theorem head0_covered (i : S64x6.Idx) :
    ∃ t : Fin cfg4.N, (cfg4.win 13).flush t = true ∧ i ∈ ((cfg4.win 13).blk t).view.set :=
  ⟨t4_0, flush4_13 t4_0, by
    show i ∈ ((View.whole main_v77_0).slice (win4_13.rect t4_0)).set
    rw [View.set_slice_whole, Rect.mem_set_unit]
    intro a
    have h0 : (i 0 : Nat) < 64 := (i 0).isLt
    have h1 : (i 1 : Nat) < 6 := (i 1).isLt
    match a with
    | ⟨0, _⟩ =>
      show win4_13.index t4_0 0 * win4_13.size 0 ≤ (i 0 : Nat) ∧ (i 0 : Nat) < win4_13.index t4_0 0 * win4_13.size 0 + win4_13.xsize (grid4.coords t4_0) 0
      rw [show win4_13.index t4_0 0 * win4_13.size 0 = 0 from by decide +kernel, show win4_13.xsize (grid4.coords t4_0) 0 = 64 from by decide +kernel]; omega
    | ⟨1, _⟩ =>
      show win4_13.index t4_0 1 * win4_13.size 1 ≤ (i 1 : Nat) ∧ (i 1 : Nat) < win4_13.index t4_0 1 * win4_13.size 1 + win4_13.xsize (grid4.coords t4_0) 1
      rw [show win4_13.index t4_0 1 * win4_13.size 1 = 0 from by decide +kernel, show win4_13.xsize (grid4.coords t4_0) 1 = 6 from by decide +kernel]; omega⟩

/-- so the array ends holding the body's result at the one point. -/
theorem head0_array (c : Dev nD) : (dat4 V c).arrAt 13 cfg4.N = (dat4 V c).after 13 t4_0 :=
  (dat4 V c).arrAt_eq_of_cover 13 ((dat4 V c).after 13 t4_0) (head0_written V c) head0_covered

/-- THE FIRST HEAD'S ARRAY after the region, entry by entry: the two-layer head of the region's input arrays. -/
theorem reg4_value0 (c : Dev nD) (r : Fin 64) (j : Fin 6) :
    ((dat4 (F := Ideal) V c).arrAt 13 cfg4.N : S64x6.Idx → EReal) (ix2 r j)
      = Cert.Spec.head (fun r i => (V c main_v70 : S64x64.Idx → EReal) (ix2 r i)) (V c main_arg21 : S64x32.Idx → EReal) (fun k => (V c main_v71 : S1x32.Idx → EReal) (ix2 (0 : Fin 1) k)) (V c main_arg23 : S32x6.Idx → EReal) (fun k => (V c main_v72 : S1x6.Idx → EReal) (ix2 (0 : Fin 1) k)) r j := by
  refine (congrFun (head0_array V c) (ix2 r j)).trans ?_
  rw [after4_13]
  refine (head0_stored (iblk4 V c 0 t4_0) (iblk4 V c 1 t4_0) (iblk4 V c 2 t4_0) (iblk4 V c 3 t4_0) (iblk4 V c 4 t4_0) (iblk4 V c 5 t4_0) (iblk4 V c 6 t4_0) (iblk4 V c 7 t4_0) (iblk4 V c 8 t4_0) (iblk4 V c 9 t4_0) (iblk4 V c 10 t4_0) (iblk4 V c 11 t4_0) (iblk4 V c 12 t4_0) r j).trans ?_
  rw [whole_block0 V c t4_0, whole_block1 V c t4_0, whole_block2 V c t4_0, whole_block3 V c t4_0, whole_block4 V c t4_0]

/-! ### The second head's array -/

/-- The one point writes back the body's result through block (0, 0) of the array's own sizes: the result itself. -/
theorem head1_written (c : Dev nD) (t : Fin cfg4.N) (_hf : (cfg4.win 14).flush t = true) :
    (dat4 V c).flushed 14 t = ((cfg4.win 14).blk t).view.read (Elt Ideal) ((dat4 V c).after 14 t4_0) := by
  obtain rfl : t = t4_0 := fin_N4 t
  show (cfg4.win 14).cut (grid4.coords t4_0) ((dat4 V c).after 14 t4_0) = _
  have hz' : (fun a => win4_14.index t4_0 a * main_v77_1.ty.shape.size a) = fun _ => 0 := funext fun a => by fin_cases a <;> decide
  exact (Memref.read_access_unit_zero (Elt Ideal) main_v77_1 hz' (fun a => by rw [congrFun hz' a]; simp) ((dat4 V c).after 14 t4_0)).symm

/-- That block is the whole array, -/
theorem head1_covered (i : S64x2.Idx) :
    ∃ t : Fin cfg4.N, (cfg4.win 14).flush t = true ∧ i ∈ ((cfg4.win 14).blk t).view.set :=
  ⟨t4_0, flush4_14 t4_0, by
    show i ∈ ((View.whole main_v77_1).slice (win4_14.rect t4_0)).set
    rw [View.set_slice_whole, Rect.mem_set_unit]
    intro a
    have h0 : (i 0 : Nat) < 64 := (i 0).isLt
    have h1 : (i 1 : Nat) < 2 := (i 1).isLt
    match a with
    | ⟨0, _⟩ =>
      show win4_14.index t4_0 0 * win4_14.size 0 ≤ (i 0 : Nat) ∧ (i 0 : Nat) < win4_14.index t4_0 0 * win4_14.size 0 + win4_14.xsize (grid4.coords t4_0) 0
      rw [show win4_14.index t4_0 0 * win4_14.size 0 = 0 from by decide +kernel, show win4_14.xsize (grid4.coords t4_0) 0 = 64 from by decide +kernel]; omega
    | ⟨1, _⟩ =>
      show win4_14.index t4_0 1 * win4_14.size 1 ≤ (i 1 : Nat) ∧ (i 1 : Nat) < win4_14.index t4_0 1 * win4_14.size 1 + win4_14.xsize (grid4.coords t4_0) 1
      rw [show win4_14.index t4_0 1 * win4_14.size 1 = 0 from by decide +kernel, show win4_14.xsize (grid4.coords t4_0) 1 = 2 from by decide +kernel]; omega⟩

/-- so the array ends holding the body's result at the one point. -/
theorem head1_array (c : Dev nD) : (dat4 V c).arrAt 14 cfg4.N = (dat4 V c).after 14 t4_0 :=
  (dat4 V c).arrAt_eq_of_cover 14 ((dat4 V c).after 14 t4_0) (head1_written V c) head1_covered

/-- THE SECOND HEAD'S ARRAY after the region, entry by entry: the logistic function of the two-layer head. -/
theorem reg4_value1 (c : Dev nD) (r : Fin 64) (j : Fin 2) :
    ((dat4 (F := Ideal) V c).arrAt 14 cfg4.N : S64x2.Idx → EReal) (ix2 r j)
      = Ideal.logistic (Cert.Spec.head (fun r i => (V c main_v70 : S64x64.Idx → EReal) (ix2 r i)) (V c main_arg25 : S64x32.Idx → EReal) (fun k => (V c main_v73 : S1x32.Idx → EReal) (ix2 (0 : Fin 1) k)) (V c main_arg27 : S32x2.Idx → EReal) (fun k => (V c main_v74 : S1x2.Idx → EReal) (ix2 (0 : Fin 1) k)) r j) := by
  refine (congrFun (head1_array V c) (ix2 r j)).trans ?_
  rw [after4_14]
  refine (head1_stored (iblk4 V c 0 t4_0) (iblk4 V c 1 t4_0) (iblk4 V c 2 t4_0) (iblk4 V c 3 t4_0) (iblk4 V c 4 t4_0) (iblk4 V c 5 t4_0) (iblk4 V c 6 t4_0) (iblk4 V c 7 t4_0) (iblk4 V c 8 t4_0) (iblk4 V c 9 t4_0) (iblk4 V c 10 t4_0) (iblk4 V c 11 t4_0) (iblk4 V c 12 t4_0) r j).trans ?_
  rw [whole_block0 V c t4_0, whole_block5 V c t4_0, whole_block6 V c t4_0, whole_block7 V c t4_0, whole_block8 V c t4_0]

/-! ### The third head's array -/

/-- The one point writes back the body's result through block (0, 0) of the array's own sizes: the result itself. -/
theorem head2_written (c : Dev nD) (t : Fin cfg4.N) (_hf : (cfg4.win 15).flush t = true) :
    (dat4 V c).flushed 15 t = ((cfg4.win 15).blk t).view.read (Elt Ideal) ((dat4 V c).after 15 t4_0) := by
  obtain rfl : t = t4_0 := fin_N4 t
  show (cfg4.win 15).cut (grid4.coords t4_0) ((dat4 V c).after 15 t4_0) = _
  have hz' : (fun a => win4_15.index t4_0 a * main_v77_2.ty.shape.size a) = fun _ => 0 := funext fun a => by fin_cases a <;> decide
  exact (Memref.read_access_unit_zero (Elt Ideal) main_v77_2 hz' (fun a => by rw [congrFun hz' a]; simp) ((dat4 V c).after 15 t4_0)).symm

/-- That block is the whole array, -/
theorem head2_covered (i : S64x1.Idx) :
    ∃ t : Fin cfg4.N, (cfg4.win 15).flush t = true ∧ i ∈ ((cfg4.win 15).blk t).view.set :=
  ⟨t4_0, flush4_15 t4_0, by
    show i ∈ ((View.whole main_v77_2).slice (win4_15.rect t4_0)).set
    rw [View.set_slice_whole, Rect.mem_set_unit]
    intro a
    have h0 : (i 0 : Nat) < 64 := (i 0).isLt
    have h1 : (i 1 : Nat) < 1 := (i 1).isLt
    match a with
    | ⟨0, _⟩ =>
      show win4_15.index t4_0 0 * win4_15.size 0 ≤ (i 0 : Nat) ∧ (i 0 : Nat) < win4_15.index t4_0 0 * win4_15.size 0 + win4_15.xsize (grid4.coords t4_0) 0
      rw [show win4_15.index t4_0 0 * win4_15.size 0 = 0 from by decide +kernel, show win4_15.xsize (grid4.coords t4_0) 0 = 64 from by decide +kernel]; omega
    | ⟨1, _⟩ =>
      show win4_15.index t4_0 1 * win4_15.size 1 ≤ (i 1 : Nat) ∧ (i 1 : Nat) < win4_15.index t4_0 1 * win4_15.size 1 + win4_15.xsize (grid4.coords t4_0) 1
      rw [show win4_15.index t4_0 1 * win4_15.size 1 = 0 from by decide +kernel, show win4_15.xsize (grid4.coords t4_0) 1 = 1 from by decide +kernel]; omega⟩

/-- so the array ends holding the body's result at the one point. -/
theorem head2_array (c : Dev nD) : (dat4 V c).arrAt 15 cfg4.N = (dat4 V c).after 15 t4_0 :=
  (dat4 V c).arrAt_eq_of_cover 15 ((dat4 V c).after 15 t4_0) (head2_written V c) head2_covered

/-- THE THIRD HEAD'S ARRAY after the region, entry by entry: the logistic function of the two-layer head. -/
theorem reg4_value2 (c : Dev nD) (r : Fin 64) (j : Fin 1) :
    ((dat4 (F := Ideal) V c).arrAt 15 cfg4.N : S64x1.Idx → EReal) (ix2 r j)
      = Ideal.logistic (Cert.Spec.head (fun r i => (V c main_v70 : S64x64.Idx → EReal) (ix2 r i)) (V c main_arg29 : S64x16.Idx → EReal) (fun k => (V c main_v75 : S1x16.Idx → EReal) (ix2 (0 : Fin 1) k)) (V c main_arg31 : S16x1.Idx → EReal) (fun k => (V c main_v76 : S1x1.Idx → EReal) (ix2 (0 : Fin 1) k)) r j) := by
  refine (congrFun (head2_array V c) (ix2 r j)).trans ?_
  rw [after4_15]
  refine (head2_stored (iblk4 V c 0 t4_0) (iblk4 V c 1 t4_0) (iblk4 V c 2 t4_0) (iblk4 V c 3 t4_0) (iblk4 V c 4 t4_0) (iblk4 V c 5 t4_0) (iblk4 V c 6 t4_0) (iblk4 V c 7 t4_0) (iblk4 V c 8 t4_0) (iblk4 V c 9 t4_0) (iblk4 V c 10 t4_0) (iblk4 V c 11 t4_0) (iblk4 V c 12 t4_0) r j).trans ?_
  rw [whole_block0 V c t4_0, whole_block9 V c t4_0, whole_block10 V c t4_0, whole_block11 V c t4_0, whole_block12 V c t4_0]

end Cert.KernelIdeal.Gen

end
-- ==== Proof.KValue.lean ====
/-
  The kernel's program, value by value, from the launch to its three results.  Between the five kernel regions the
  host computes the node factors and the batch column (before the first), the gathered sums and the parameter rows
  of each layer (before the second, third and fourth), and the graph embedding (before the last).  Every array a
  region or a stretch reads was last written at some earlier boundary and is carried unchanged to where it is read;
  with that, each region's and each stretch's result is the next definition of the network.
-/
import proofs.«416533_j8950711845031_2_alg».proof.Proof.Gen.KernelIdeal.Frame
import proofs.«416533_j8950711845031_2_alg».proof.Proof.KTrace
import proofs.«416533_j8950711845031_2_alg».proof.Proof.Net
import proofs.«416533_j8950711845031_2_alg».proof.Proof.KHost0
import proofs.«416533_j8950711845031_2_alg».proof.Proof.KHost1
import proofs.«416533_j8950711845031_2_alg».proof.Proof.KHost2
import proofs.«416533_j8950711845031_2_alg».proof.Proof.KHost3
import proofs.«416533_j8950711845031_2_alg».proof.Proof.KHost4
import proofs.«416533_j8950711845031_2_alg».proof.Proof.KReg0
import proofs.«416533_j8950711845031_2_alg».proof.Proof.KReg1
import proofs.«416533_j8950711845031_2_alg».proof.Proof.KReg2
import proofs.«416533_j8950711845031_2_alg».proof.Proof.KReg3
import proofs.«416533_j8950711845031_2_alg».proof.Proof.KReg4
set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg) (c : Dev nD)

/-- The argument arrays as core `c` finds them at launch. -/
def argsOf : Cert.Net.Args where
  x := m ((c : Thread nD τ).loc main_arg0)
  ei := m ((c : Thread nD τ).loc main_arg1)
  batch := m ((c : Thread nD τ).loc main_arg2)
  W1 := m ((c : Thread nD τ).loc main_arg3)
  b1 := m ((c : Thread nD τ).loc main_arg4)
  W2 := m ((c : Thread nD τ).loc main_arg5)
  b2 := m ((c : Thread nD τ).loc main_arg6)
  W3 := m ((c : Thread nD τ).loc main_arg7)
  b3 := m ((c : Thread nD τ).loc main_arg8)
  g1 := m ((c : Thread nD τ).loc main_arg9)
  be1 := m ((c : Thread nD τ).loc main_arg10)
  mu1 := m ((c : Thread nD τ).loc main_arg11)
  var1 := m ((c : Thread nD τ).loc main_arg12)
  g2 := m ((c : Thread nD τ).loc main_arg13)
  be2 := m ((c : Thread nD τ).loc main_arg14)
  mu2 := m ((c : Thread nD τ).loc main_arg15)
  var2 := m ((c : Thread nD τ).loc main_arg16)
  g3 := m ((c : Thread nD τ).loc main_arg17)
  be3 := m ((c : Thread nD τ).loc main_arg18)
  mu3 := m ((c : Thread nD τ).loc main_arg19)
  var3 := m ((c : Thread nD τ).loc main_arg20)
  thW1 := m ((c : Thread nD τ).loc main_arg21)
  thb1 := m ((c : Thread nD τ).loc main_arg22)
  thW2 := m ((c : Thread nD τ).loc main_arg23)
  thb2 := m ((c : Thread nD τ).loc main_arg24)
  lhW1 := m ((c : Thread nD τ).loc main_arg25)
  lhb1 := m ((c : Thread nD τ).loc main_arg26)
  lhW2 := m ((c : Thread nD τ).loc main_arg27)
  lhb2 := m ((c : Thread nD τ).loc main_arg28)
  shW1 := m ((c : Thread nD τ).loc main_arg29)
  shb1 := m ((c : Thread nD τ).loc main_arg30)
  shW2 := m ((c : Thread nD τ).loc main_arg31)
  shb2 := m ((c : Thread nD τ).loc main_arg32)

/-! ## Before the first region: the node factors, the batch column, the edge words -/

theorem s0_dis (n : Fin 50000) : (V1 m ρ c main_v11 : S50000x1.Idx → EReal) (ix2 n (0 : Fin 1)) = Cert.Net.d (argsOf m c) n :=
  host0_dis (W0 m ρ c) n
theorem s0_bw (n : Fin 50000) : (V1 m ρ c main_v12 : S50000x1.Idx → BitVec 32) (ix2 n (0 : Fin 1)) = Cert.Net.bw (argsOf m c) n :=
  host0_batch (W0 m ρ c) n
theorem s0_src (e : Fin 800000) : (W1 m ρ c (Proc.devRef .tc main_v1) : S800000.Idx → BitVec 32) (ix1 e) = Cert.Spec.srcW (argsOf m c).ei e :=
  host0_src (W0 m ρ c) e
theorem s0_dst (e : Fin 800000) : (W1 m ρ c (Proc.devRef .tc main_v3) : S800000.Idx → BitVec 32) (ix1 e) = Cert.Spec.dstW (argsOf m c).ei e :=
  host0_dst (W0 m ρ c) e

/-! ## Layer 1's scaled features -/

theorem s1_ms (n : Fin 50000) (j : Fin 64) :
    (W2 m ρ c (Proc.devRef .tc main_v13) : S50000x64.Idx → EReal) (ix2 n j) = Cert.Net.ms1 (argsOf m c) n j := by
  have h := reg0_value (V1 m ρ) c n j
  rw [show (fun n => (V1 m ρ c main_v11 : S50000x1.Idx → EReal) (ix2 n (0 : Fin 1))) = Cert.Net.d (argsOf m c) from funext fun n => s0_dis m ρ c n,
    show (fun n i => (V1 m ρ c main_arg0 : S50000x3.Idx → EReal) (ix2 n i)) = Cert.Net.x0 (argsOf m c) from funext fun n => funext fun i => congrFun (keep_W1_main_arg0 m ρ c) (ix2 n i),
    show (V1 m ρ c main_arg3 : S3x64.Idx → EReal) = (argsOf m c).W1 from keep_W1_main_arg3 m ρ c] at h
  exact (congrFun (W2_arr m ρ c 3) (ix2 n j)).trans h

/-! ## Layer 1's gathered sums and parameter rows; layer 2's scaled features -/

theorem s2_src (e : Fin 800000) : (W2 m ρ c (Proc.devRef .tc main_v1) : S800000.Idx → BitVec 32) (ix1 e) = Cert.Spec.srcW (argsOf m c).ei e :=
  (congrFun (keep_W2_main_v1 m ρ c) (ix1 e)).trans (s0_src m ρ c e)
theorem s2_dst (e : Fin 800000) : (W2 m ρ c (Proc.devRef .tc main_v3) : S800000.Idx → BitVec 32) (ix1 e) = Cert.Spec.dstW (argsOf m c).ei e :=
  (congrFun (keep_W2_main_v3 m ρ c) (ix1 e)).trans (s0_dst m ρ c e)
theorem s2_agg (n : Fin 50000) (j : Fin 64) :
    (V3 m ρ c main_v23 : S50000x64.Idx → EReal) (ix2 n j) = Cert.Spec.gatherSum (argsOf m c).ei (Cert.Net.ms1 (argsOf m c)) n j := by
  have h := host1_agg (W2 m ρ c) (argsOf m c).ei (s2_src m ρ c) (s2_dst m ρ c) n j
  rw [show (fun n j => (W2 m ρ c (Proc.devRef .tc main_v13) : S50000x64.Idx → EReal) (ix2 n j)) = Cert.Net.ms1 (argsOf m c) from funext fun n => funext fun j => s1_ms m ρ c n j] at h
  exact h
theorem s2_row24 (k : Fin 64) : (V3 m ρ c main_v24 : S1x64.Idx → EReal) (ix2 (0 : Fin 1) k) = Cert.Net.vec (argsOf m c).b1 k :=
  (host1_row24 (W2 m ρ c) k).trans (congrFun (keep_W2_main_arg4 m ρ c) (ix1 k))
theorem s2_row25 (k : Fin 64) : (V3 m ρ c main_v25 : S1x64.Idx → EReal) (ix2 (0 : Fin 1) k) = Cert.Net.vec (argsOf m c).g1 k :=
  (host1_row25 (W2 m ρ c) k).trans (congrFun (keep_W2_main_arg9 m ρ c) (ix1 k))
theorem s2_row26 (k : Fin 64) : (V3 m ρ c main_v26 : S1x64.Idx → EReal) (ix2 (0 : Fin 1) k) = Cert.Net.vec (argsOf m c).be1 k :=
  (host1_row26 (W2 m ρ c) k).trans (congrFun (keep_W2_main_arg10 m ρ c) (ix1 k))
theorem s2_row27 (k : Fin 64) : (V3 m ρ c main_v27 : S1x64.Idx → EReal) (ix2 (0 : Fin 1) k) = Cert.Net.vec (argsOf m c).mu1 k :=
  (host1_row27 (W2 m ρ c) k).trans (congrFun (keep_W2_main_arg11 m ρ c) (ix1 k))
theorem s2_row28 (k : Fin 64) : (V3 m ρ c main_v28 : S1x64.Idx → EReal) (ix2 (0 : Fin 1) k) = Cert.Net.vec (argsOf m c).var1 k :=
  (host1_row28 (W2 m ρ c) k).trans (congrFun (keep_W2_main_arg12 m ρ c) (ix1 k))

theorem s3_ms (n : Fin 50000) (j : Fin 64) :
    (W4 m ρ c (Proc.devRef .tc main_v29) : S50000x64.Idx → EReal) (ix2 n j) = Cert.Net.ms2 (argsOf m c) n j := by
  have h := reg1_value (V3 m ρ) c n j
  rw [show (fun n => (V3 m ρ c main_v11 : S50000x1.Idx → EReal) (ix2 n (0 : Fin 1))) = Cert.Net.d (argsOf m c) from funext fun n => (congrFun (keep_W3_main_v11 m ρ c) (ix2 n (0 : Fin 1))).trans (s0_dis m ρ c n),
    show (fun k => (V3 m ρ c main_v24 : S1x64.Idx → EReal) (ix2 (0 : Fin 1) k)) = Cert.Net.vec (argsOf m c).b1 from funext fun k => s2_row24 m ρ c k,
    show (fun k => (V3 m ρ c main_v25 : S1x64.Idx → EReal) (ix2 (0 : Fin 1) k)) = Cert.Net.vec (argsOf m c).g1 from funext fun k => s2_row25 m ρ c k,
    show (fun k => (V3 m ρ c main_v26 : S1x64.Idx → EReal) (ix2 (0 : Fin 1) k)) = Cert.Net.vec (argsOf m c).be1 from funext fun k => s2_row26 m ρ c k,
    show (fun k => (V3 m ρ c main_v27 : S1x64.Idx → EReal) (ix2 (0 : Fin 1) k)) = Cert.Net.vec (argsOf m c).mu1 from funext fun k => s2_row27 m ρ c k,
    show (fun k => (V3 m ρ c main_v28 : S1x64.Idx → EReal) (ix2 (0 : Fin 1) k)) = Cert.Net.vec (argsOf m c).var1 from funext fun k => s2_row28 m ρ c k,
    show (fun n k => (V3 m ρ c main_v23 : S50000x64.Idx → EReal) (ix2 n k)) = Cert.Spec.gatherSum (argsOf m c).ei (Cert.Net.ms1 (argsOf m c)) from funext fun n => funext fun k => s2_agg m ρ c n k,
    show (fun n k => (V3 m ρ c main_v13 : S50000x64.Idx → EReal) (ix2 n k)) = Cert.Net.ms1 (argsOf m c) from funext fun n => funext fun k => (congrFun (keep_W3_main_v13 m ρ c) (ix2 n k)).trans (s1_ms m ρ c n k),
    show (V3 m ρ c main_arg5 : S64x64.Idx → EReal) = (argsOf m c).W2 from keep_W3_main_arg5 m ρ c] at h
  exact (congrFun (W4_arr m ρ c 9) (ix2 n j)).trans h

/-! ## Layer 2's gathered sums and rows; layer 3's scaled features -/

theorem s4_src (e : Fin 800000) : (W4 m ρ c (Proc.devRef .tc main_v1) : S800000.Idx → BitVec 32) (ix1 e) = Cert.Spec.srcW (argsOf m c).ei e :=
  (congrFun (keep_W4_main_v1 m ρ c) (ix1 e)).trans (s0_src m ρ c e)
theorem s4_dst (e : Fin 800000) : (W4 m ρ c (Proc.devRef .tc main_v3) : S800000.Idx → BitVec 32) (ix1 e) = Cert.Spec.dstW (argsOf m c).ei e :=
  (congrFun (keep_W4_main_v3 m ρ c) (ix1 e)).trans (s0_dst m ρ c e)
theorem s4_agg (n : Fin 50000) (j : Fin 64) :
    (V5 m ρ c main_v39 : S50000x64.Idx → EReal) (ix2 n j) = Cert.Spec.gatherSum (argsOf m c).ei (Cert.Net.ms2 (argsOf m c)) n j := by
  have h := host2_agg (W4 m ρ c) (argsOf m c).ei (s4_src m ρ c) (s4_dst m ρ c) n j
  rw [show (fun n j => (W4 m ρ c (Proc.devRef .tc main_v29) : S50000x64.Idx → EReal) (ix2 n j)) = Cert.Net.ms2 (argsOf m c) from funext fun n => funext fun j => s3_ms m ρ c n j] at h
  exact h
theorem s4_row40 (k : Fin 64) : (V5 m ρ c main_v40 : S1x64.Idx → EReal) (ix2 (0 : Fin 1) k) = Cert.Net.vec (argsOf m c).b2 k :=
  (host2_row40 (W4 m ρ c) k).trans (congrFun (keep_W4_main_arg6 m ρ c) (ix1 k))
theorem s4_row41 (k : Fin 64) : (V5 m ρ c main_v41 : S1x64.Idx → EReal) (ix2 (0 : Fin 1) k) = Cert.Net.vec (argsOf m c).g2 k :=
  (host2_row41 (W4 m ρ c) k).trans (congrFun (keep_W4_main_arg13 m ρ c) (ix1 k))
theorem s4_row42 (k : Fin 64) : (V5 m ρ c main_v42 : S1x64.Idx → EReal) (ix2 (0 : Fin 1) k) = Cert.Net.vec (argsOf m c).be2 k :=
  (host2_row42 (W4 m ρ c) k).trans (congrFun (keep_W4_main_arg14 m ρ c) (ix1 k))
theorem s4_row43 (k : Fin 64) : (V5 m ρ c main_v43 : S1x64.Idx → EReal) (ix2 (0 : Fin 1) k) = Cert.Net.vec (argsOf m c).mu2 k :=
  (host2_row43 (W4 m ρ c) k).trans (congrFun (keep_W4_main_arg15 m ρ c) (ix1 k))
theorem s4_row44 (k : Fin 64) : (V5 m ρ c main_v44 : S1x64.Idx → EReal) (ix2 (0 : Fin 1) k) = Cert.Net.vec (argsOf m c).var2 k :=
  (host2_row44 (W4 m ρ c) k).trans (congrFun (keep_W4_main_arg16 m ρ c) (ix1 k))

theorem s5_ms (n : Fin 50000) (j : Fin 64) :
    (W6 m ρ c (Proc.devRef .tc main_v45) : S50000x64.Idx → EReal) (ix2 n j) = Cert.Net.ms3 (argsOf m c) n j := by
  have h := reg2_value (V5 m ρ) c n j
  rw [show (fun n => (V5 m ρ c main_v11 : S50000x1.Idx → EReal) (ix2 n (0 : Fin 1))) = Cert.Net.d (argsOf m c) from funext fun n => (congrFun (keep_W5_main_v11 m ρ c) (ix2 n (0 : Fin 1))).trans (s0_dis m ρ c n),
    show (fun k => (V5 m ρ c main_v40 : S1x64.Idx → EReal) (ix2 (0 : Fin 1) k)) = Cert.Net.vec (argsOf m c).b2 from funext fun k => s4_row40 m ρ c k,
    show (fun k => (V5 m ρ c main_v41 : S1x64.Idx → EReal) (ix2 (0 : Fin 1) k)) = Cert.Net.vec (argsOf m c).g2 from funext fun k => s4_row41 m ρ c k,
    show (fun k => (V5 m ρ c main_v42 : S1x64.Idx → EReal) (ix2 (0 : Fin 1) k)) = Cert.Net.vec (argsOf m c).be2 from funext fun k => s4_row42 m ρ c k,
    show (fun k => (V5 m ρ c main_v43 : S1x64.Idx → EReal) (ix2 (0 : Fin 1) k)) = Cert.Net.vec (argsOf m c).mu2 from funext fun k => s4_row43 m ρ c k,
    show (fun k => (V5 m ρ c main_v44 : S1x64.Idx → EReal) (ix2 (0 : Fin 1) k)) = Cert.Net.vec (argsOf m c).var2 from funext fun k => s4_row44 m ρ c k,
    show (fun n k => (V5 m ρ c main_v39 : S50000x64.Idx → EReal) (ix2 n k)) = Cert.Spec.gatherSum (argsOf m c).ei (Cert.Net.ms2 (argsOf m c)) from funext fun n => funext fun k => s4_agg m ρ c n k,
    show (fun n k => (V5 m ρ c main_v29 : S50000x64.Idx → EReal) (ix2 n k)) = Cert.Net.ms2 (argsOf m c) from funext fun n => funext fun k => (congrFun (keep_W5_main_v29 m ρ c) (ix2 n k)).trans (s3_ms m ρ c n k),
    show (V5 m ρ c main_arg7 : S64x64.Idx → EReal) = (argsOf m c).W3 from keep_W5_main_arg7 m ρ c] at h
  exact (congrFun (W6_arr m ρ c 9) (ix2 n j)).trans h

/-! ## Layer 3's gathered sums and rows; the per-graph sums -/

theorem s6_src (e : Fin 800000) : (W6 m ρ c (Proc.devRef .tc main_v1) : S800000.Idx → BitVec 32) (ix1 e) = Cert.Spec.srcW (argsOf m c).ei e :=
  (congrFun (keep_W6_main_v1 m ρ c) (ix1 e)).trans (s0_src m ρ c e)
theorem s6_dst (e : Fin 800000) : (W6 m ρ c (Proc.devRef .tc main_v3) : S800000.Idx → BitVec 32) (ix1 e) = Cert.Spec.dstW (argsOf m c).ei e :=
  (congrFun (keep_W6_main_v3 m ρ c) (ix1 e)).trans (s0_dst m ρ c e)
theorem s6_agg (n : Fin 50000) (j : Fin 64) :
    (V7 m ρ c main_v55 : S50000x64.Idx → EReal) (ix2 n j) = Cert.Spec.gatherSum (argsOf m c).ei (Cert.Net.ms3 (argsOf m c)) n j := by
  have h := host3_agg (W6 m ρ c) (argsOf m c).ei (s6_src m ρ c) (s6_dst m ρ c) n j
  rw [show (fun n j => (W6 m ρ c (Proc.devRef .tc main_v45) : S50000x64.Idx → EReal) (ix2 n j)) = Cert.Net.ms3 (argsOf m c) from funext fun n => funext fun j => s5_ms m ρ c n j] at h
  exact h
theorem s6_row56 (k : Fin 64) : (V7 m ρ c main_v56 : S1x64.Idx → EReal) (ix2 (0 : Fin 1) k) = Cert.Net.vec (argsOf m c).b3 k :=
  (host3_row56 (W6 m ρ c) k).trans (congrFun (keep_W6_main_arg8 m ρ c) (ix1 k))
theorem s6_row57 (k : Fin 64) : (V7 m ρ c main_v57 : S1x64.Idx → EReal) (ix2 (0 : Fin 1) k) = Cert.Net.vec (argsOf m c).g3 k :=
  (host3_row57 (W6 m ρ c) k).trans (congrFun (keep_W6_main_arg17 m ρ c) (ix1 k))
theorem s6_row58 (k : Fin 64) : (V7 m ρ c main_v58 : S1x64.Idx → EReal) (ix2 (0 : Fin 1) k) = Cert.Net.vec (argsOf m c).be3 k :=
  (host3_row58 (W6 m ρ c) k).trans (congrFun (keep_W6_main_arg18 m ρ c) (ix1 k))
theorem s6_row59 (k : Fin 64) : (V7 m ρ c main_v59 : S1x64.Idx → EReal) (ix2 (0 : Fin 1) k) = Cert.Net.vec (argsOf m c).mu3 k :=
  (host3_row59 (W6 m ρ c) k).trans (congrFun (keep_W6_main_arg19 m ρ c) (ix1 k))
theorem s6_row60 (k : Fin 64) : (V7 m ρ c main_v60 : S1x64.Idx → EReal) (ix2 (0 : Fin 1) k) = Cert.Net.vec (argsOf m c).var3 k :=
  (host3_row60 (W6 m ρ c) k).trans (congrFun (keep_W6_main_arg20 m ρ c) (ix1 k))

theorem s7_pool (g j : Fin 64) :
    (W8 m ρ c (Proc.devRef .tc main_v61) : S64x64.Idx → EReal) (ix2 g j) = Cert.Spec.pool (Cert.Net.bw (argsOf m c)) (Cert.Net.h3K (argsOf m c)) g j := by
  have h := reg3_value (V7 m ρ) c g j
  rw [show (fun n => (V7 m ρ c main_v12 : S50000x1.Idx → BitVec 32) (ix2 n (0 : Fin 1))) = Cert.Net.bw (argsOf m c) from funext fun n => (congrFun (keep_W7_main_v12 m ρ c) (ix2 n (0 : Fin 1))).trans (s0_bw m ρ c n),
    show (fun n => (V7 m ρ c main_v11 : S50000x1.Idx → EReal) (ix2 n (0 : Fin 1))) = Cert.Net.d (argsOf m c) from funext fun n => (congrFun (keep_W7_main_v11 m ρ c) (ix2 n (0 : Fin 1))).trans (s0_dis m ρ c n),
    show (fun k => (V7 m ρ c main_v56 : S1x64.Idx → EReal) (ix2 (0 : Fin 1) k)) = Cert.Net.vec (argsOf m c).b3 from funext fun k => s6_row56 m ρ c k,
    show (fun k => (V7 m ρ c main_v57 : S1x64.Idx → EReal) (ix2 (0 : Fin 1) k)) = Cert.Net.vec (argsOf m c).g3 from funext fun k => s6_row57 m ρ c k,
    show (fun k => (V7 m ρ c main_v58 : S1x64.Idx → EReal) (ix2 (0 : Fin 1) k)) = Cert.Net.vec (argsOf m c).be3 from funext fun k => s6_row58 m ρ c k,
    show (fun k => (V7 m ρ c main_v59 : S1x64.Idx → EReal) (ix2 (0 : Fin 1) k)) = Cert.Net.vec (argsOf m c).mu3 from funext fun k => s6_row59 m ρ c k,
    show (fun k => (V7 m ρ c main_v60 : S1x64.Idx → EReal) (ix2 (0 : Fin 1) k)) = Cert.Net.vec (argsOf m c).var3 from funext fun k => s6_row60 m ρ c k,
    show (fun n k => (V7 m ρ c main_v55 : S50000x64.Idx → EReal) (ix2 n k)) = Cert.Spec.gatherSum (argsOf m c).ei (Cert.Net.ms3 (argsOf m c)) from funext fun n => funext fun k => s6_agg m ρ c n k,
    show (fun n k => (V7 m ρ c main_v45 : S50000x64.Idx → EReal) (ix2 n k)) = Cert.Net.ms3 (argsOf m c) from funext fun n => funext fun k => (congrFun (keep_W7_main_v45 m ρ c) (ix2 n k)).trans (s5_ms m ρ c n k)] at h
  exact (congrFun (W8_arr m ρ c 9) (ix2 g j)).trans h

/-! ## The graph embedding, the heads' bias rows, the three results -/

theorem s8_emb (g j : Fin 64) :
    (V9 m ρ c main_v70 : S64x64.Idx → EReal) (ix2 g j) = Cert.Net.emb (argsOf m c) (Cert.Net.h3K (argsOf m c)) g j := by
  have h := host4_gemb (W8 m ρ c) g j
  rw [show (fun n => (W8 m ρ c (Proc.devRef .tc main_arg2) : S50000.Idx → BitVec 32) (ix1 n)) = Cert.Net.bw (argsOf m c) from funext fun n => congrFun (keep_W8_main_arg2 m ρ c) (ix1 n),
    show (fun g j => (W8 m ρ c (Proc.devRef .tc main_v61) : S64x64.Idx → EReal) (ix2 g j)) = Cert.Spec.pool (Cert.Net.bw (argsOf m c)) (Cert.Net.h3K (argsOf m c)) from funext fun g => funext fun j => s7_pool m ρ c g j] at h
  exact h
theorem s8_row71 (k : Fin 32) : (V9 m ρ c main_v71 : S1x32.Idx → EReal) (ix2 (0 : Fin 1) k) = Cert.Net.vec (argsOf m c).thb1 k :=
  (host4_row71 (W8 m ρ c) k).trans (congrFun (keep_W8_main_arg22 m ρ c) (ix1 k))
theorem s8_row72 (k : Fin 6) : (V9 m ρ c main_v72 : S1x6.Idx → EReal) (ix2 (0 : Fin 1) k) = Cert.Net.vec (argsOf m c).thb2 k :=
  (host4_row72 (W8 m ρ c) k).trans (congrFun (keep_W8_main_arg24 m ρ c) (ix1 k))
theorem s8_row73 (k : Fin 32) : (V9 m ρ c main_v73 : S1x32.Idx → EReal) (ix2 (0 : Fin 1) k) = Cert.Net.vec (argsOf m c).lhb1 k :=
  (host4_row73 (W8 m ρ c) k).trans (congrFun (keep_W8_main_arg26 m ρ c) (ix1 k))
theorem s8_row74 (k : Fin 2) : (V9 m ρ c main_v74 : S1x2.Idx → EReal) (ix2 (0 : Fin 1) k) = Cert.Net.vec (argsOf m c).lhb2 k :=
  (host4_row74 (W8 m ρ c) k).trans (congrFun (keep_W8_main_arg28 m ρ c) (ix1 k))
theorem s8_row75 (k : Fin 16) : (V9 m ρ c main_v75 : S1x16.Idx → EReal) (ix2 (0 : Fin 1) k) = Cert.Net.vec (argsOf m c).shb1 k :=
  (host4_row75 (W8 m ρ c) k).trans (congrFun (keep_W8_main_arg30 m ρ c) (ix1 k))
theorem s8_row76 (k : Fin 1) : (V9 m ρ c main_v76 : S1x1.Idx → EReal) (ix2 (0 : Fin 1) k) = Cert.Net.vec (argsOf m c).shb2 k :=
  (host4_row76 (W8 m ρ c) k).trans (congrFun (keep_W8_main_arg32 m ρ c) (ix1 k))

/-- Result 0 of the kernel's program, entry by entry, as the network's function of the launch arguments. -/
theorem kernel_out0 (r : Fin 64) (j : Fin 6) :
    (W10 m ρ c (Proc.devRef .tc main_v77_0) : S64x6.Idx → EReal) (ix2 r j) = Cert.Net.out0 (argsOf m c) (Cert.Net.h3K (argsOf m c)) r j := by
  have h := reg4_value0 (V9 m ρ) c r j
  rw [show (fun r i => (V9 m ρ c main_v70 : S64x64.Idx → EReal) (ix2 r i)) = Cert.Net.emb (argsOf m c) (Cert.Net.h3K (argsOf m c)) from funext fun r => funext fun i => s8_emb m ρ c r i,
    show (V9 m ρ c main_arg21 : S64x32.Idx → EReal) = (argsOf m c).thW1 from keep_W9_main_arg21 m ρ c,
    show (fun k => (V9 m ρ c main_v71 : S1x32.Idx → EReal) (ix2 (0 : Fin 1) k)) = Cert.Net.vec (argsOf m c).thb1 from funext fun k => s8_row71 m ρ c k,
    show (V9 m ρ c main_arg23 : S32x6.Idx → EReal) = (argsOf m c).thW2 from keep_W9_main_arg23 m ρ c,
    show (fun k => (V9 m ρ c main_v72 : S1x6.Idx → EReal) (ix2 (0 : Fin 1) k)) = Cert.Net.vec (argsOf m c).thb2 from funext fun k => s8_row72 m ρ c k] at h
  exact (congrFun (W10_arr m ρ c 13) (ix2 r j)).trans h

/-- Result 1 of the kernel's program, entry by entry, as the network's function of the launch arguments. -/
theorem kernel_out1 (r : Fin 64) (j : Fin 2) :
    (W10 m ρ c (Proc.devRef .tc main_v77_1) : S64x2.Idx → EReal) (ix2 r j) = Cert.Net.out1 (argsOf m c) (Cert.Net.h3K (argsOf m c)) r j := by
  have h := reg4_value1 (V9 m ρ) c r j
  rw [show (fun r i => (V9 m ρ c main_v70 : S64x64.Idx → EReal) (ix2 r i)) = Cert.Net.emb (argsOf m c) (Cert.Net.h3K (argsOf m c)) from funext fun r => funext fun i => s8_emb m ρ c r i,
    show (V9 m ρ c main_arg25 : S64x32.Idx → EReal) = (argsOf m c).lhW1 from keep_W9_main_arg25 m ρ c,
    show (fun k => (V9 m ρ c main_v73 : S1x32.Idx → EReal) (ix2 (0 : Fin 1) k)) = Cert.Net.vec (argsOf m c).lhb1 from funext fun k => s8_row73 m ρ c k,
    show (V9 m ρ c main_arg27 : S32x2.Idx → EReal) = (argsOf m c).lhW2 from keep_W9_main_arg27 m ρ c,
    show (fun k => (V9 m ρ c main_v74 : S1x2.Idx → EReal) (ix2 (0 : Fin 1) k)) = Cert.Net.vec (argsOf m c).lhb2 from funext fun k => s8_row74 m ρ c k] at h
  exact (congrFun (W10_arr m ρ c 14) (ix2 r j)).trans h

/-- Result 2 of the kernel's program, entry by entry, as the network's function of the launch arguments. -/
theorem kernel_out2 (r : Fin 64) (j : Fin 1) :
    (W10 m ρ c (Proc.devRef .tc main_v77_2) : S64x1.Idx → EReal) (ix2 r j) = Cert.Net.out2 (argsOf m c) (Cert.Net.h3K (argsOf m c)) r j := by
  have h := reg4_value2 (V9 m ρ) c r j
  rw [show (fun r i => (V9 m ρ c main_v70 : S64x64.Idx → EReal) (ix2 r i)) = Cert.Net.emb (argsOf m c) (Cert.Net.h3K (argsOf m c)) from funext fun r => funext fun i => s8_emb m ρ c r i,
    show (V9 m ρ c main_arg29 : S64x16.Idx → EReal) = (argsOf m c).shW1 from keep_W9_main_arg29 m ρ c,
    show (fun k => (V9 m ρ c main_v75 : S1x16.Idx → EReal) (ix2 (0 : Fin 1) k)) = Cert.Net.vec (argsOf m c).shb1 from funext fun k => s8_row75 m ρ c k,
    show (V9 m ρ c main_arg31 : S16x1.Idx → EReal) = (argsOf m c).shW2 from keep_W9_main_arg31 m ρ c,
    show (fun k => (V9 m ρ c main_v76 : S1x1.Idx → EReal) (ix2 (0 : Fin 1) k)) = Cert.Net.vec (argsOf m c).shb2 from funext fun k => s8_row76 m ρ c k] at h
  exact (congrFun (W10_arr m ρ c 15) (ix2 r j)).trans h

end Cert.KernelIdeal.Gen

end
-- ==== Proof.RDis.lean ====
/-
  The reference's first stages read at an index over the extended reals: the two rows of the edge list, the columns
  of wrapped source and destination words, the inverse square root of each node's degree (Spec.dis), the edge's
  factor (the inverse square roots at the rows its two words gather) and the node's own factor.
-/
import proofs.«416533_j8950711845031_2_alg».proof.Proof.Gen.ReferenceIdeal.Read
import proofs.«416533_j8950711845031_2_alg».proof.Proof.Spec
import proofs.«416533_j8950711845031_2_alg».proof.Proof.SpecLaws
import proofs.«416533_j8950711845031_2_alg».proof.Proof.LibScatter
import proofs.«416533_j8950711845031_2_alg».proof.Proof.LibGather

noncomputable section

namespace Cert.ReferenceIdeal.RefValue

open Cert.ReferenceIdeal Cert.ReferenceIdeal.Gen Cert.ReferenceIdeal.Read Idealize.ShloMosaic Idealize.ShloMosaic.ValueIdx

/-! ## Two reads every stage below shares -/

/-- An `[n]` array spread to an `[n, 1]` column reads, at `(e, u)`, the array at `e`. -/
theorem bcast_col_apply {α : Type} {n : Nat} (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) := by
  refine broadcastInDim_apply _ h x _ (ix1 e) fun a => ?_
  obtain rfl : a = 0 := Subsingleton.elim _ _
  show e.val = if n = 1 then 0 else e.val
  split
  · have := e.isLt; omega
  · rfl

/-- The printed wrap of a negative word: the select on "the word is below zero, read signed" between the word plus
    the node count and the word itself. -/
theorem select_wrap (x : BitVec 32) :
    Scalar.select (IntOp.cmpi .slt x 0#32) (IntOp.addi x 50000#32) x = Cert.Spec.wrap x := by
  unfold Scalar.select IntOp.cmpi IntOp.addi Cert.Spec.wrap
  by_cases h : x.toInt < 0
  · have hs : x.slt 0#32 = true := by simp [BitVec.slt, h]
    simp [hs, h]
  · have hs : x.slt 0#32 = false := by simp [BitVec.slt, h]
    simp [hs, h]

/-- A column of wrapped words at `(e, 0)`: the compare with a zero array, the sum with an array of node counts and
    the select, spread to a column, read the wrap of the word at `e`. -/
theorem wrapcol_apply (base z c : S800000.Idx → BitVec 32) (hz : ∀ i, z i = 0#32) (hc : ∀ i, c i = 50000#32)
    (e : Fin 800000) :
    broadcastInDim S800000x1 ![0] bcast_S800000_S800000x1_0 (select (cmpi .slt base z) (addi base c) base)
      (ix2 e (0 : Fin 1)) = Cert.Spec.wrap (base (ix1 e)) := by
  refine (bcast_col_apply _ _ e 0).trans ?_
  show Scalar.select (IntOp.cmpi .slt (base (ix1 e)) (z (ix1 e))) (IntOp.addi (base (ix1 e)) (c (ix1 e))) (base (ix1 e)) = _
  rw [hz, hc, select_wrap]

variable (x1 : (⟨S2x800000, .i32⟩ : BufTy).Contents (Elt Ideal))

/-! ## The edge words -/

/-- The flattened source row of the edge list at `e`. -/
theorem src_apply (e : Fin 800000) : val_main_v1 (F := Ideal) x1 (ix1 e) = Cert.Spec.srcW x1 e := by
  rw [val_main_v1_apply, val_main_v0_apply]
  refine congrArg x1 (funext fun a => Fin.ext ?_)
  match a with
  | ⟨0, _⟩ => rfl
  | ⟨1, _⟩ => exact Nat.mod_eq_of_lt e.isLt

/-- The flattened destination row of the edge list at `e`. -/
theorem dst_apply (e : Fin 800000) : val_main_v3 (F := Ideal) x1 (ix1 e) = Cert.Spec.dstW x1 e := by
  rw [val_main_v3_apply, val_main_v2_apply]
  refine congrArg x1 (funext fun a => Fin.ext ?_)
  match a with
  | ⟨0, _⟩ => rfl
  | ⟨1, _⟩ => exact Nat.mod_eq_of_lt e.isLt

/-- The wrapped source column of the degree stage … -/
theorem wsrc16_apply (e : Fin 800000) : val_main_v16 (F := Ideal) x1 (ix2 e (0 : Fin 1)) = Cert.Spec.wrap (Cert.Spec.srcW x1 e) :=
  (wrapcol_apply (val_main_v1 (F := Ideal) x1) (val_main_v11 (F := Ideal)) (val_main_v13 (F := Ideal))
    (fun i => (val_main_v11_apply i).trans rfl) (fun i => (val_main_v13_apply i).trans rfl) e).trans
    (congrArg Cert.Spec.wrap (src_apply x1 e))
/-- … the wrapped destination column of the degree stage … -/
theorem wdst23_apply (e : Fin 800000) : val_main_v23 (F := Ideal) x1 (ix2 e (0 : Fin 1)) = Cert.Spec.wrap (Cert.Spec.dstW x1 e) :=
  (wrapcol_apply (val_main_v3 (F := Ideal) x1) (val_main_v18 (F := Ideal)) (val_main_v20 (F := Ideal))
    (fun i => (val_main_v18_apply i).trans rfl) (fun i => (val_main_v20_apply i).trans rfl) e).trans
    (congrArg Cert.Spec.wrap (dst_apply x1 e))
/-- … and the wrapped source columns of the three layers. -/
theorem wsrc35_apply (e : Fin 800000) : val_main_v35 (F := Ideal) x1 (ix2 e (0 : Fin 1)) = Cert.Spec.wrap (Cert.Spec.srcW x1 e) :=
  (wrapcol_apply (val_main_v1 (F := Ideal) x1) (val_main_v30 (F := Ideal)) (val_main_v32 (F := Ideal))
    (fun i => (val_main_v30_apply i).trans rfl) (fun i => (val_main_v32_apply i).trans rfl) e).trans
    (congrArg Cert.Spec.wrap (src_apply x1 e))
theorem wsrc70_apply (e : Fin 800000) : val_main_v70 (F := Ideal) x1 (ix2 e (0 : Fin 1)) = Cert.Spec.wrap (Cert.Spec.srcW x1 e) :=
  (wrapcol_apply (val_main_v1 (F := Ideal) x1) (val_main_v65 (F := Ideal)) (val_main_v67 (F := Ideal))
    (fun i => (val_main_v65_apply i).trans rfl) (fun i => (val_main_v67_apply i).trans rfl) e).trans
    (congrArg Cert.Spec.wrap (src_apply x1 e))
theorem wsrc105_apply (e : Fin 800000) : val_main_v105 (F := Ideal) x1 (ix2 e (0 : Fin 1)) = Cert.Spec.wrap (Cert.Spec.srcW x1 e) :=
  (wrapcol_apply (val_main_v1 (F := Ideal) x1) (val_main_v100 (F := Ideal)) (val_main_v102 (F := Ideal))
    (fun i => (val_main_v100_apply i).trans rfl) (fun i => (val_main_v102_apply i).trans rfl) e).trans
    (congrArg Cert.Spec.wrap (src_apply x1 e))

/-- The destination column of the degree stage and of the three layers: the destination words, not wrapped. -/
theorem dst6_apply (e : Fin 800000) : val_main_v6 (F := Ideal) x1 (ix2 e (0 : Fin 1)) = Cert.Spec.dstW x1 e :=
  (bcast_col_apply bcast_S800000_S800000x1_0 (val_main_v3 (F := Ideal) x1) e 0).trans (dst_apply x1 e)
theorem dst40_apply (e : Fin 800000) : val_main_v40 (F := Ideal) x1 (ix2 e (0 : Fin 1)) = Cert.Spec.dstW x1 e :=
  (bcast_col_apply bcast_S800000_S800000x1_0 (val_main_v3 (F := Ideal) x1) e 0).trans (dst_apply x1 e)
theorem dst75_apply (e : Fin 800000) : val_main_v75 (F := Ideal) x1 (ix2 e (0 : Fin 1)) = Cert.Spec.dstW x1 e :=
  (bcast_col_apply bcast_S800000_S800000x1_0 (val_main_v3 (F := Ideal) x1) e 0).trans (dst_apply x1 e)
theorem dst110_apply (e : Fin 800000) : val_main_v110 (F := Ideal) x1 (ix2 e (0 : Fin 1)) = Cert.Spec.dstW x1 e :=
  (bcast_col_apply bcast_S800000_S800000x1_0 (val_main_v3 (F := Ideal) x1) e 0).trans (dst_apply x1 e)

/-! ## The degree's inverse square root and the two normalisations -/

/-- The scatter-add of ones at the destination words into zeros counts the edges landing at the node; one is added
    and the inverse square root taken. -/
theorem ref_dis (n : Fin 50000) : val_main_v10 (F := Ideal) x1 (ix1 n) = Cert.Spec.dis x1 n := by
  rw [val_main_v10_apply, val_main_v9_apply, Ideal.hostUnary_rsqrt_def, Ideal.addf_def,
    show val_main_v7 (F := Ideal) x1 = Ideal.hostScatterAdd scatter_S50000_S800000x1_S800000_n_0_0_1
      (val_main_v5 (F := Ideal)) (val_main_v6 (F := Ideal) x1) (val_main_v4 (F := Ideal)) from rfl,
    Cert.LibScatter.hostScatterAdd_col_apply _ rfl rfl rfl rfl]
  unfold Cert.Spec.dis Cert.Spec.deg
  refine congrArg Ideal.rsqrt (congrArg₂ (· + ·) ?_ ((val_main_v8_apply _).trans rfl))
  refine congrArg₂ (· + ·) ((val_main_v5_apply _).trans rfl) ?_
  refine Finset.sum_congr (Finset.filter_congr fun e _ => ?_) (fun e _ => (val_main_v4_apply _).trans rfl)
  exact iff_of_eq (congrArg (fun b : BitVec 32 => b.toInt = ((n.val : ℕ) : ℤ)) (dst6_apply x1 e))

/-- The gather of the inverse square roots at a column of wrapped words reads the one of the word's row. -/
theorem gather_dis_apply (col : S800000x1.Idx → BitVec 32) (wd : BitVec 32) (e : Fin 800000)
    (h : col (ix2 e (0 : Fin 1)) = Cert.Spec.wrap wd) :
    Host.gather gather_S50000_S800000x1_S800000_n_0_n_n_0_1_1 (val_main_v10 (F := Ideal) x1) col (ix1 e)
      = Cert.Spec.dis x1 (Cert.Spec.row wd) := by
  refine (Cert.LibGather.gather_col_apply (by decide) _ rfl rfl rfl rfl rfl rfl rfl _ col e).trans ?_
  refine (congrArg (fun r : Fin 50000 => val_main_v10 (F := Ideal) x1 (ix1 r)) (Fin.ext ?_)).trans
    (ref_dis x1 (Cert.Spec.row wd))
  show min (BitVec.toInt _).toNat (50000 - 1) = min (Cert.Spec.wrap wd).toInt.toNat 49999
  rw [h]

/-- The edge's factor: the inverse square roots at the rows of its source and of its destination word. -/
theorem ref_enorm (e : Fin 800000) : val_main_v26 (F := Ideal) x1 (ix2 e (0 : Fin 1))
    = Cert.Spec.dis x1 (Cert.Spec.row (Cert.Spec.srcW x1 e)) * Cert.Spec.dis x1 (Cert.Spec.row (Cert.Spec.dstW x1 e)) := by
  refine (bcast_col_apply bcast_S800000_S800000x1_0 (val_main_v25 (F := Ideal) x1) e 0).trans ?_
  rw [val_main_v25_apply, Ideal.mulf_def]
  exact congrArg₂ (· * ·) (gather_dis_apply x1 _ _ e (wsrc16_apply x1 e)) (gather_dis_apply x1 _ _ e (wdst23_apply x1 e))

/-- The node's own factor: its inverse square root, squared. -/
theorem ref_snorm (n : Fin 50000) : val_main_v28 (F := Ideal) x1 (ix2 n (0 : Fin 1)) = Cert.Spec.dis x1 n * Cert.Spec.dis x1 n := by
  refine (bcast_col_apply bcast_S50000_S50000x1_0 (val_main_v27 (F := Ideal) x1) n 0).trans ?_
  rw [val_main_v27_apply, Ideal.mulf_def, ref_dis]

end Cert.ReferenceIdeal.RefValue

end
-- ==== Proof.RLayer1.lean ====
/-
  The first message-passing layer of the reference, entry by entry: features times weights, the rows gathered at the
  wrapped source words and scaled by the edge's two factors, their scatter-add at the destination words into zeros,
  the node's own term, then bias, the affine normalisation with the inverse square root of the variance plus the
  offset, and the positive part.
-/
import proofs.«416533_j8950711845031_2_alg».proof.Proof.Gen.ReferenceIdeal.Read
import Idealize.ShloMosaic.Lib.StableHlo.Predicate
import proofs.«416533_j8950711845031_2_alg».proof.Proof.Spec
import proofs.«416533_j8950711845031_2_alg».proof.Proof.LibScatter
import proofs.«416533_j8950711845031_2_alg».proof.Proof.LibGather
import proofs.«416533_j8950711845031_2_alg».proof.Proof.RDis

noncomputable section

namespace Cert.ReferenceIdeal.RefValue

open Cert.ReferenceIdeal Cert.ReferenceIdeal.Gen Cert.ReferenceIdeal.Read Idealize.ShloMosaic Idealize.ShloMosaic.ValueIdx

namespace L1

/-! ## The words of an edge -/

/-- Row 0 of the edge array, flattened: the source word of edge `e`. -/
theorem src_word (x1 : (⟨S2x800000, .i32⟩ : BufTy).Contents (Elt Ideal)) (e : Fin 800000) :
    val_main_v1 (F := Ideal) x1 (ix1 e) = Cert.Spec.srcW x1 e := by
  rw [val_main_v1_apply, val_main_v0_apply]
  unfold Cert.Spec.srcW
  congr 1
  funext a
  apply Fin.ext
  match a with
  | ⟨0, _⟩ => rfl
  | ⟨1, _⟩ => exact Nat.mod_eq_of_lt e.isLt

/-- Row 1 of the edge array, flattened: the destination word of edge `e`. -/
theorem dst_word (x1 : (⟨S2x800000, .i32⟩ : BufTy).Contents (Elt Ideal)) (e : Fin 800000) :
    val_main_v3 (F := Ideal) x1 (ix1 e) = Cert.Spec.dstW x1 e := by
  rw [val_main_v3_apply, val_main_v2_apply]
  unfold Cert.Spec.dstW
  congr 1
  funext a
  apply Fin.ext
  match a with
  | ⟨0, _⟩ => rfl
  | ⟨1, _⟩ => exact Nat.mod_eq_of_lt e.isLt

/-- Compare below zero, add the node count, select: a negative word wrapped once. -/
theorem wrap_word (w : BitVec 32) :
    Scalar.select (IntOp.cmpi .slt w 0#32) (IntOp.addi w 50000#32) w = Cert.Spec.wrap w := by
  unfold Scalar.select IntOp.cmpi IntOp.addi Cert.Spec.wrap
  have h : (BitVec.ofBool (w.slt 0#32) = 1) ↔ w.toInt < 0 := by
    rw [show (1 : BitVec 1) = 1#1 from rfl, StableHlo.Predicate.ofBool_eq_one_iff]
    unfold BitVec.slt
    rw [decide_eq_true_eq, BitVec.toInt_zero]
  by_cases hw : w.toInt < 0
  · rw [if_pos (h.mpr hw), if_pos hw]
  · rw [if_neg (fun hc => hw (h.mp hc)), if_neg hw]

/-- The wrapped source words as a column. -/
theorem src_col (x1 : (⟨S2x800000, .i32⟩ : BufTy).Contents (Elt Ideal)) (e : Fin 800000) :
    val_main_v35 (F := Ideal) x1 (ix2 e (0 : Fin 1)) = Cert.Spec.wrap (Cert.Spec.srcW x1 e) := by
  have hi : idx_main_v35 (ix2 e (0 : Fin 1)) = ix1 e := funext fun a => Fin.ext (by match a with | ⟨0, _⟩ => rfl)
  rw [val_main_v35_apply, hi, val_main_v34_apply, val_main_v31_apply, val_main_v33_apply, val_main_v30_apply,
    val_main_v32_apply, val_main_c_5_apply, val_main_c_6_apply, src_word, wrap_word]

/-- The destination words as a column. -/
theorem dst_col (x1 : (⟨S2x800000, .i32⟩ : BufTy).Contents (Elt Ideal)) (e : Fin 800000) :
    val_main_v40 (F := Ideal) x1 (ix2 e (0 : Fin 1)) = Cert.Spec.dstW x1 e := by
  have hi : idx_main_v40 (ix2 e (0 : Fin 1)) = ix1 e := funext fun a => Fin.ext (by match a with | ⟨0, _⟩ => rfl)
  rw [val_main_v40_apply, hi, dst_word]

/-! ## The scatter-add of rows at explicit coordinates -/

theorem scatter_rows_at {N C R w : Nat}
    (d : ScatterDims ⟨2, ![N, C]⟩ ⟨2, ![R, 1]⟩ ⟨2, ![R, C]⟩)
    (hwin : d.updateWindowDims = [1]) (hins : d.insertedWindowDims = [0])
    (hsd : d.scatterDimsToOperandDims = [0]) (hivd : d.indexVectorDim = 1)
    (x : (⟨2, ![N, C]⟩ : Shape).Idx → EReal) (idx : IVec ⟨2, ![R, 1]⟩ w)
    (upd : (⟨2, ![R, C]⟩ : Shape).Idx → EReal) (n : Fin N) (j : Fin C) :
    Ideal.hostScatterAdd d x idx upd (ix2 n j)
      = x (ix2 n j) + ∑ e ∈ Finset.univ.filter (fun e : Fin R => (idx (ix2 e (0 : Fin 1))).toInt = (n.val : ℤ)),
          upd (ix2 e j) :=
  Cert.LibScatter.hostScatterAdd_rows_col_apply d hwin hins hsd hivd x idx upd (ix2 n j)

/-! ## The first layer's aggregation -/

/-! ## The first layer's aggregation -/

/-- Features times weights, at (n, j). -/
theorem dot1 (x0 : (⟨S50000x3, .f32⟩ : BufTy).Contents (Elt Ideal)) (x3 : (⟨S3x64, .f32⟩ : BufTy).Contents (Elt Ideal))
    (n : Fin 50000) (j : Fin 64) :
    val_main_v29 (F := Ideal) x0 x3 (ix2 n j) = Cert.Spec.mm (fun n i => x0 (ix2 n i)) x3 n j := by
  rw [val_main_v29_apply]
  unfold Cert.Spec.mm
  refine Finset.sum_congr rfl fun k _ => ?_
  have hl : lidx_main_v29 (ix2 n j) k = ix2 n k :=
    funext fun a => Fin.ext (by match a with | ⟨0, _⟩ => rfl | ⟨1, _⟩ => rfl)
  have hr : ridx_main_v29 (ix2 n j) k = ix2 k j :=
    funext fun a => Fin.ext (by match a with | ⟨0, _⟩ => rfl | ⟨1, _⟩ => rfl)
  rw [hl, hr]

/-- The gathered rows: entry (e, j) is the features' entry at the row of the source word of e. -/
theorem gath1 (x0 : (⟨S50000x3, .f32⟩ : BufTy).Contents (Elt Ideal)) (x1 : (⟨S2x800000, .i32⟩ : BufTy).Contents (Elt Ideal))
    (x3 : (⟨S3x64, .f32⟩ : BufTy).Contents (Elt Ideal)) (e : Fin 800000) (j : Fin 64) :
    val_main_v36 (F := Ideal) x0 x1 x3 (ix2 e j)
      = val_main_v29 (F := Ideal) x0 x3 (ix2 (Cert.Spec.row (Cert.Spec.srcW x1 e)) j) := by
  unfold val_main_v36
  generalize val_main_v29 (F := Ideal) x0 x3 = y
  rw [Cert.LibGather.gather_rows_apply (by decide) gather_S50000x64_S800000x1_S800000x64_1_0_n_n_0_1_164
    rfl rfl rfl rfl rfl rfl rfl]
  refine congrArg (fun r => y (ix2 r j)) (Fin.ext ?_)
  show min (val_main_v35 (F := Ideal) x1 (ix2 e (0 : Fin 1))).toInt.toNat (50000 - 1) = (Cert.Spec.row (Cert.Spec.srcW x1 e)).val
  rw [src_col]
  rfl

/-- The edge factor, spread along the row. -/
theorem fac1 (x1 : (⟨S2x800000, .i32⟩ : BufTy).Contents (Elt Ideal)) (e : Fin 800000) (j : Fin 64) :
    val_main_v37 (F := Ideal) x1 (ix2 e j)
      = Cert.Spec.dis x1 (Cert.Spec.row (Cert.Spec.srcW x1 e)) * Cert.Spec.dis x1 (Cert.Spec.row (Cert.Spec.dstW x1 e)) := by
  have hi : idx_main_v37 (ix2 e j) = ix2 e (0 : Fin 1) :=
    funext fun a => Fin.ext (by match a with | ⟨0, _⟩ => rfl | ⟨1, _⟩ => rfl)
  rw [val_main_v37_apply, hi, ref_enorm]

/-- The node's own factor, spread along the row. -/
theorem self1 (x1 : (⟨S2x800000, .i32⟩ : BufTy).Contents (Elt Ideal)) (n : Fin 50000) (j : Fin 64) :
    val_main_v42 (F := Ideal) x1 (ix2 n j) = Cert.Spec.dis x1 n * Cert.Spec.dis x1 n := by
  have hi : idx_main_v42 (ix2 n j) = ix2 n (0 : Fin 1) :=
    funext fun a => Fin.ext (by match a with | ⟨0, _⟩ => rfl | ⟨1, _⟩ => rfl)
  rw [val_main_v42_apply, hi, ref_snorm]

/-- The scatter-add at the destination words into zeros: zero plus the scaled gathered rows of the edges landing at n. -/
theorem scat1 (x0 : (⟨S50000x3, .f32⟩ : BufTy).Contents (Elt Ideal)) (x1 : (⟨S2x800000, .i32⟩ : BufTy).Contents (Elt Ideal))
    (x3 : (⟨S3x64, .f32⟩ : BufTy).Contents (Elt Ideal)) (n : Fin 50000) (j : Fin 64) :
    val_main_v41 (F := Ideal) x0 x1 x3 (ix2 n j)
      = Cert.Spec.zero + ∑ e ∈ Cert.Spec.inE x1 n, val_main_v38 (F := Ideal) x0 x1 x3 (ix2 e j) := by
  rw [show val_main_v41 (F := Ideal) x0 x1 x3 = Ideal.hostScatterAdd scatter_S50000x64_S800000x1_S800000x64_1_0_0_1
      (val_main_v39 (F := Ideal)) (val_main_v40 (F := Ideal) x1) (val_main_v38 (F := Ideal) x0 x1 x3) from rfl,
    Cert.LibScatter.hostScatterAdd_rows_col_apply _ rfl rfl rfl rfl]
  generalize val_main_v38 (F := Ideal) x0 x1 x3 = u
  refine congrArg₂ (· + ·) ((val_main_v39_apply _).trans rfl) ?_
  refine Finset.sum_congr (Finset.filter_congr fun e _ => ?_) (fun e _ => rfl)
  exact iff_of_eq (congrArg (fun b : BitVec 32 => b.toInt = ((n.val : ℕ) : ℤ)) (dst_col x1 e))

theorem agg1 (x0 : (⟨S50000x3, .f32⟩ : BufTy).Contents (Elt Ideal)) (x1 : (⟨S2x800000, .i32⟩ : BufTy).Contents (Elt Ideal))
    (x3 : (⟨S3x64, .f32⟩ : BufTy).Contents (Elt Ideal)) (n : Fin 50000) (j : Fin 64) :
    val_main_v44 (F := Ideal) x0 x1 x3 (ix2 n j)
      = Cert.Spec.aggR x1 (Cert.Spec.mm (fun n i => x0 (ix2 n i)) x3) n j := by
  have hs : ∀ e ∈ Cert.Spec.inE x1 n, val_main_v38 (F := Ideal) x0 x1 x3 (ix2 e j)
      = Cert.Spec.mm (fun n i => x0 (ix2 n i)) x3 (Cert.Spec.row (Cert.Spec.srcW x1 e)) j
        * (Cert.Spec.dis x1 (Cert.Spec.row (Cert.Spec.srcW x1 e)) * Cert.Spec.dis x1 (Cert.Spec.row (Cert.Spec.dstW x1 e))) :=
    fun e _ => by rw [val_main_v38_apply, gath1, fac1, dot1, Ideal.mulf_def]
  rw [val_main_v44_apply, val_main_v43_apply, Ideal.addf_def, Ideal.mulf_def, scat1, self1, dot1]
  unfold Cert.Spec.aggR
  exact congrArg₂ (· + ·) (congrArg₂ (· + ·) rfl (Finset.sum_congr rfl hs)) rfl

/-! ## Bias, normalisation, positive part -/

theorem row46 (b : (⟨S64, .f32⟩ : BufTy).Contents (Elt Ideal)) (n : Fin 50000) (j : Fin 64) :
    val_main_v46 (F := Ideal) b (ix2 n j) = b (ix1 j) := by
  have hi : idx_main_v45 (idx_main_v46 (ix2 n j)) = ix1 j := funext fun a => Fin.ext (by match a with | ⟨0, _⟩ => rfl)
  rw [val_main_v46_apply, val_main_v45_apply, hi]

theorem row49 (b : (⟨S64, .f32⟩ : BufTy).Contents (Elt Ideal)) (n : Fin 50000) (j : Fin 64) :
    val_main_v49 (F := Ideal) b (ix2 n j) = b (ix1 j) := by
  have hi : idx_main_v48 (idx_main_v49 (ix2 n j)) = ix1 j := funext fun a => Fin.ext (by match a with | ⟨0, _⟩ => rfl)
  rw [val_main_v49_apply, val_main_v48_apply, hi]

theorem row55 (b : (⟨S64, .f32⟩ : BufTy).Contents (Elt Ideal)) (n : Fin 50000) (j : Fin 64) :
    val_main_v55 (F := Ideal) b (ix2 n j) = Ideal.rsqrt (b (ix1 j) + Cert.Spec.eps) := by
  have hi : idx_main_v54 (idx_main_v55 (ix2 n j)) = ix1 j := funext fun a => Fin.ext (by match a with | ⟨0, _⟩ => rfl)
  rw [val_main_v55_apply, val_main_v54_apply, hi, val_main_v53_apply, val_main_v52_apply, val_main_v51_apply,
    val_main_cst_8_apply, Ideal.hostUnary_rsqrt_def, Ideal.addf_def, Ideal.ofBits_def]

theorem row58 (b : (⟨S64, .f32⟩ : BufTy).Contents (Elt Ideal)) (n : Fin 50000) (j : Fin 64) :
    val_main_v58 (F := Ideal) b (ix2 n j) = b (ix1 j) := by
  have hi : idx_main_v57 (idx_main_v58 (ix2 n j)) = ix1 j := funext fun a => Fin.ext (by match a with | ⟨0, _⟩ => rfl)
  rw [val_main_v58_apply, val_main_v57_apply, hi]

theorem row61 (b : (⟨S64, .f32⟩ : BufTy).Contents (Elt Ideal)) (n : Fin 50000) (j : Fin 64) :
    val_main_v61 (F := Ideal) b (ix2 n j) = b (ix1 j) := by
  have hi : idx_main_v60 (idx_main_v61 (ix2 n j)) = ix1 j := funext fun a => Fin.ext (by match a with | ⟨0, _⟩ => rfl)
  rw [val_main_v61_apply, val_main_v60_apply, hi]

theorem zero63 (i : S50000x64.Idx) : val_main_call0_v0 (F := Ideal) i = Cert.Spec.zero := by
  rw [val_main_call0_v0_apply, val_main_call0_cst_apply, Ideal.ofBits_def]

end L1

theorem ref_h1 (x0 : (⟨S50000x3, .f32⟩ : BufTy).Contents (Elt Ideal)) (x1 : (⟨S2x800000, .i32⟩ : BufTy).Contents (Elt Ideal))
    (x3 : (⟨S3x64, .f32⟩ : BufTy).Contents (Elt Ideal)) (x4 x9 x10 x11 x12 : (⟨S64, .f32⟩ : BufTy).Contents (Elt Ideal))
    (n : Fin 50000) (j : Fin 64) :
    val_main_v63 (F := Ideal) x0 x1 x3 x4 x9 x10 x11 x12 (ix2 n j)
      = Cert.Spec.layerR x1 (fun k => x4 (ix1 k)) (fun k => x9 (ix1 k)) (fun k => x10 (ix1 k)) (fun k => x11 (ix1 k))
          (fun k => x12 (ix1 k)) (Cert.Spec.mm (fun n i => x0 (ix2 n i)) x3) n j := by
  rw [val_main_v63_apply, val_main_v62_apply, val_main_v59_apply, val_main_v56_apply, val_main_v50_apply,
    val_main_v47_apply, L1.agg1, L1.row46, L1.row49, L1.row55, L1.row58, L1.row61, L1.zero63]
  unfold Cert.Spec.layerR Cert.Spec.bn
  generalize Cert.Spec.aggR x1 (Cert.Spec.mm (fun n i => x0 (ix2 n i)) x3) n j = a
  rfl

end Cert.ReferenceIdeal.RefValue
-- ==== Proof.RLayer23.lean ====
/-
  The second and third message-passing layers of the reference, entry by entry. Each takes the features the layer before
  left (kept behind a matrix `h` and the hypothesis that the layer before reads as `h`): features times weights, the
  rows gathered at the wrapped source words and scaled by the edge's two factors, their scatter-add at the destination
  words into zeros, the node's own term, then bias, the affine normalisation with the inverse square root of the
  variance plus the offset, and the positive part.
-/
import proofs.«416533_j8950711845031_2_alg».proof.Proof.Gen.ReferenceIdeal.Read
import proofs.«416533_j8950711845031_2_alg».proof.Proof.Spec
import proofs.«416533_j8950711845031_2_alg».proof.Proof.LibScatter
import proofs.«416533_j8950711845031_2_alg».proof.Proof.LibGather
import proofs.«416533_j8950711845031_2_alg».proof.Proof.RDis

noncomputable section

namespace Cert.ReferenceIdeal.RefValue

open Cert.ReferenceIdeal Cert.ReferenceIdeal.Gen Cert.ReferenceIdeal.Read Idealize.ShloMosaic Idealize.ShloMosaic.ValueIdx

namespace L2

/-! ## Layer 2: the aggregation -/

/-- The layer's input features times its weights, at node `n`, column `j`. -/
theorem feat (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x9 x10 x11 x12 : (⟨S64, .f32⟩ : BufTy).Contents (Elt Ideal)) (h1 : Cert.Spec.Mat 50000 64) (hh : ∀ n j, val_main_v63 (F := Ideal) x0 x1 x3 x4 x9 x10 x11 x12 (ix2 n j) = h1 n j) (n : Fin 50000) (j : Fin 64) :
    val_main_v64 (F := Ideal) x0 x1 x3 x4 x5 x9 x10 x11 x12 (ix2 n j) = Cert.Spec.mm h1 x5 n j := by
  rw [val_main_v64_apply]
  unfold Cert.Spec.mm
  refine Finset.sum_congr rfl fun k _ => ?_
  have el : lidx_main_v64 (ix2 n j) k = ix2 n k := funext fun a => Fin.ext (by match a with | ⟨0, _⟩ => rfl | ⟨1, _⟩ => rfl)
  have er : ridx_main_v64 (ix2 n j) k = ix2 k j := funext fun a => Fin.ext (by match a with | ⟨0, _⟩ => rfl | ⟨1, _⟩ => rfl)
  rw [el, er, hh n k]

/-- The row an edge gathers, column `c`: the product's row at the row of the edge's source word (wrapped, read signed,
    clamped into the node range). -/
theorem gathered (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x9 x10 x11 x12 : (⟨S64, .f32⟩ : BufTy).Contents (Elt Ideal)) (e : Fin 800000) (c : Fin 64) :
    val_main_v71 (F := Ideal) x0 x1 x3 x4 x5 x9 x10 x11 x12 (ix2 e c) = val_main_v64 (F := Ideal) x0 x1 x3 x4 x5 x9 x10 x11 x12 (ix2 (Cert.Spec.row (Cert.Spec.srcW x1 e)) c) := by
  unfold val_main_v71
  generalize val_main_v64 (F := Ideal) x0 x1 x3 x4 x5 x9 x10 x11 x12 = y
  rw [Cert.LibGather.gather_rows_apply (by decide) gather_S50000x64_S800000x1_S800000x64_1_0_n_n_0_1_164
    rfl rfl rfl rfl rfl rfl rfl]
  refine congrArg (fun r => y (ix2 r c)) (Fin.ext ?_)
  show min (val_main_v70 (F := Ideal) x1 (ix2 e (0 : Fin 1))).toInt.toNat (50000 - 1) = (Cert.Spec.row (Cert.Spec.srcW x1 e)).val
  rw [wsrc70_apply]
  rfl

/-- An edge's two factors, spread along its row. -/
theorem factors (x1 : (⟨S2x800000, .i32⟩ : BufTy).Contents (Elt Ideal)) (e : Fin 800000) (c : Fin 64) :
    val_main_v72 (F := Ideal) x1 (ix2 e c)
      = Cert.Spec.dis x1 (Cert.Spec.row (Cert.Spec.srcW x1 e)) * Cert.Spec.dis x1 (Cert.Spec.row (Cert.Spec.dstW x1 e)) := by
  have hi : idx_main_v72 (ix2 e c) = ix2 e (0 : Fin 1) :=
    funext fun a => Fin.ext (by match a with | ⟨0, _⟩ => rfl | ⟨1, _⟩ => rfl)
  rw [val_main_v72_apply, hi, ref_enorm]

/-- A node's own factor twice, spread along its row. -/
theorem own (x1 : (⟨S2x800000, .i32⟩ : BufTy).Contents (Elt Ideal)) (n : Fin 50000) (c : Fin 64) :
    val_main_v77 (F := Ideal) x1 (ix2 n c) = Cert.Spec.dis x1 n * Cert.Spec.dis x1 n := by
  have hi : idx_main_v77 (ix2 n c) = ix2 n (0 : Fin 1) :=
    funext fun a => Fin.ext (by match a with | ⟨0, _⟩ => rfl | ⟨1, _⟩ => rfl)
  rw [val_main_v77_apply, hi, ref_snorm]

/-- The messages added up at node `n`, column `c`: zero plus the messages of the edges whose destination word, read
    signed, is `n` (a word outside the node range lands nowhere). -/
theorem landed (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x9 x10 x11 x12 : (⟨S64, .f32⟩ : BufTy).Contents (Elt Ideal)) (n : Fin 50000) (c : Fin 64) :
    val_main_v76 (F := Ideal) x0 x1 x3 x4 x5 x9 x10 x11 x12 (ix2 n c) = Cert.Spec.zero + ∑ e ∈ Cert.Spec.inE x1 n, val_main_v73 (F := Ideal) x0 x1 x3 x4 x5 x9 x10 x11 x12 (ix2 e c) := by
  rw [show val_main_v76 (F := Ideal) x0 x1 x3 x4 x5 x9 x10 x11 x12 = Ideal.hostScatterAdd scatter_S50000x64_S800000x1_S800000x64_1_0_0_1
      (val_main_v74 (F := Ideal)) (val_main_v75 (F := Ideal) x1) (val_main_v73 (F := Ideal) x0 x1 x3 x4 x5 x9 x10 x11 x12) from rfl,
    Cert.LibScatter.hostScatterAdd_rows_col_apply _ rfl rfl rfl rfl]
  generalize val_main_v73 (F := Ideal) x0 x1 x3 x4 x5 x9 x10 x11 x12 = u
  refine congrArg₂ (· + ·) ((val_main_v74_apply _).trans rfl) ?_
  refine Finset.sum_congr (Finset.filter_congr fun e _ => ?_) (fun e _ => rfl)
  exact iff_of_eq (congrArg (fun b : BitVec 32 => b.toInt = ((n.val : ℕ) : ℤ)) (dst75_apply x1 e))

/-- The aggregation at node `n`, column `c`: the landed messages plus the node's own row times its own factor twice. -/
theorem agg (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x9 x10 x11 x12 : (⟨S64, .f32⟩ : BufTy).Contents (Elt Ideal)) (h1 : Cert.Spec.Mat 50000 64) (hh : ∀ n j, val_main_v63 (F := Ideal) x0 x1 x3 x4 x9 x10 x11 x12 (ix2 n j) = h1 n j) (n : Fin 50000) (c : Fin 64) :
    val_main_v79 (F := Ideal) x0 x1 x3 x4 x5 x9 x10 x11 x12 (ix2 n c) = Cert.Spec.aggR x1 (Cert.Spec.mm h1 x5) n c := by
  have hs : ∀ e ∈ Cert.Spec.inE x1 n, val_main_v73 (F := Ideal) x0 x1 x3 x4 x5 x9 x10 x11 x12 (ix2 e c)
      = Cert.Spec.mm h1 x5 (Cert.Spec.row (Cert.Spec.srcW x1 e)) c
        * (Cert.Spec.dis x1 (Cert.Spec.row (Cert.Spec.srcW x1 e)) * Cert.Spec.dis x1 (Cert.Spec.row (Cert.Spec.dstW x1 e))) :=
    fun e _ => by rw [val_main_v73_apply, gathered, factors, feat x0 x1 x3 x4 x5 x9 x10 x11 x12 h1 hh, Ideal.mulf_def]
  rw [val_main_v79_apply, val_main_v78_apply, Ideal.addf_def, Ideal.mulf_def, landed, own, feat x0 x1 x3 x4 x5 x9 x10 x11 x12 h1 hh]
  unfold Cert.Spec.aggR
  exact congrArg₂ (· + ·) (congrArg₂ (· + ·) rfl (Finset.sum_congr rfl hs)) rfl

/-! ## Layer 2: bias, normalisation, positive part -/

/-- The bias, spread along the nodes: at node `n`, column `c`, its entry `c`. -/
theorem row81 (b : (⟨S64, .f32⟩ : BufTy).Contents (Elt Ideal)) (n : Fin 50000) (c : Fin 64) :
    val_main_v81 (F := Ideal) b (ix2 n c) = b (ix1 c) := by
  have hi : idx_main_v80 (idx_main_v81 (ix2 n c)) = ix1 c := funext fun a => Fin.ext (by match a with | ⟨0, _⟩ => rfl)
  rw [val_main_v81_apply, val_main_v80_apply, hi]

/-- The mean, spread along the nodes: at node `n`, column `c`, its entry `c`. -/
theorem row84 (b : (⟨S64, .f32⟩ : BufTy).Contents (Elt Ideal)) (n : Fin 50000) (c : Fin 64) :
    val_main_v84 (F := Ideal) b (ix2 n c) = b (ix1 c) := by
  have hi : idx_main_v83 (idx_main_v84 (ix2 n c)) = ix1 c := funext fun a => Fin.ext (by match a with | ⟨0, _⟩ => rfl)
  rw [val_main_v84_apply, val_main_v83_apply, hi]

/-- The scale, spread along the nodes: at node `n`, column `c`, its entry `c`. -/
theorem row93 (b : (⟨S64, .f32⟩ : BufTy).Contents (Elt Ideal)) (n : Fin 50000) (c : Fin 64) :
    val_main_v93 (F := Ideal) b (ix2 n c) = b (ix1 c) := by
  have hi : idx_main_v92 (idx_main_v93 (ix2 n c)) = ix1 c := funext fun a => Fin.ext (by match a with | ⟨0, _⟩ => rfl)
  rw [val_main_v93_apply, val_main_v92_apply, hi]

/-- The shift, spread along the nodes: at node `n`, column `c`, its entry `c`. -/
theorem row96 (b : (⟨S64, .f32⟩ : BufTy).Contents (Elt Ideal)) (n : Fin 50000) (c : Fin 64) :
    val_main_v96 (F := Ideal) b (ix2 n c) = b (ix1 c) := by
  have hi : idx_main_v95 (idx_main_v96 (ix2 n c)) = ix1 c := funext fun a => Fin.ext (by match a with | ⟨0, _⟩ => rfl)
  rw [val_main_v96_apply, val_main_v95_apply, hi]

/-- The inverse square root of the variance plus the offset, spread along the nodes. -/
theorem rstd90 (b : (⟨S64, .f32⟩ : BufTy).Contents (Elt Ideal)) (n : Fin 50000) (c : Fin 64) :
    val_main_v90 (F := Ideal) b (ix2 n c) = Ideal.rsqrt (b (ix1 c) + Cert.Spec.eps) := by
  have hi : idx_main_v89 (idx_main_v90 (ix2 n c)) = ix1 c := funext fun a => Fin.ext (by match a with | ⟨0, _⟩ => rfl)
  rw [val_main_v90_apply, val_main_v89_apply, hi, val_main_v88_apply, val_main_v87_apply, val_main_v86_apply,
    val_main_cst_12_apply, Ideal.hostUnary_rsqrt_def, Ideal.addf_def, Ideal.ofBits_def]

/-- The positive part is taken against zero. -/
theorem floor98 (i : S50000x64.Idx) : val_main_call1_v0 (F := Ideal) i = Cert.Spec.zero := by
  rw [val_main_call1_v0_apply, val_main_call1_cst_apply, Ideal.ofBits_def]

end L2

/-- LAYER 2 of the reference at node `n`, column `j`: the layer of the specification on the features the layer
    before left. -/
theorem ref_h2 (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x6 x9 x10 x11 x12 x13 x14 x15 x16 : (⟨S64, .f32⟩ : BufTy).Contents (Elt Ideal)) (h1 : Cert.Spec.Mat 50000 64) (hh : ∀ n j, val_main_v63 (F := Ideal) x0 x1 x3 x4 x9 x10 x11 x12 (ix2 n j) = h1 n j) (n : Fin 50000) (j : Fin 64) :
    val_main_v98 (F := Ideal) x0 x1 x3 x4 x5 x6 x9 x10 x11 x12 x13 x14 x15 x16 (ix2 n j)
      = Cert.Spec.layerR x1 (fun k => x6 (ix1 k)) (fun k => x13 (ix1 k)) (fun k => x14 (ix1 k)) (fun k => x15 (ix1 k)) (fun k => x16 (ix1 k)) (Cert.Spec.mm h1 x5) n j := by
  rw [val_main_v98_apply, val_main_v97_apply, val_main_v94_apply, val_main_v91_apply, val_main_v85_apply, val_main_v82_apply,
    L2.agg x0 x1 x3 x4 x5 x9 x10 x11 x12 h1 hh, L2.row81, L2.row84, L2.rstd90, L2.row93, L2.row96, L2.floor98]
  unfold Cert.Spec.layerR Cert.Spec.bn
  generalize Cert.Spec.aggR x1 (Cert.Spec.mm h1 x5) n j = a
  rfl

namespace L3

/-! ## Layer 3: the aggregation -/

/-- The layer's input features times its weights, at node `n`, column `j`. -/
theorem feat (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x9 x10 x11 x12 x13 x14 x15 x16 : (⟨S64, .f32⟩ : BufTy).Contents (Elt Ideal)) (h2 : Cert.Spec.Mat 50000 64) (hh : ∀ n j, val_main_v98 (F := Ideal) x0 x1 x3 x4 x5 x6 x9 x10 x11 x12 x13 x14 x15 x16 (ix2 n j) = h2 n j) (n : Fin 50000) (j : Fin 64) :
    val_main_v99 (F := Ideal) x0 x1 x3 x4 x5 x6 x7 x9 x10 x11 x12 x13 x14 x15 x16 (ix2 n j) = Cert.Spec.mm h2 x7 n j := by
  rw [val_main_v99_apply]
  unfold Cert.Spec.mm
  refine Finset.sum_congr rfl fun k _ => ?_
  have el : lidx_main_v99 (ix2 n j) k = ix2 n k := funext fun a => Fin.ext (by match a with | ⟨0, _⟩ => rfl | ⟨1, _⟩ => rfl)
  have er : ridx_main_v99 (ix2 n j) k = ix2 k j := funext fun a => Fin.ext (by match a with | ⟨0, _⟩ => rfl | ⟨1, _⟩ => rfl)
  rw [el, er, hh n k]

/-- The row an edge gathers, column `c`: the product's row at the row of the edge's source word (wrapped, read signed,
    clamped into the node range). -/
theorem gathered (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x9 x10 x11 x12 x13 x14 x15 x16 : (⟨S64, .f32⟩ : BufTy).Contents (Elt Ideal)) (e : Fin 800000) (c : Fin 64) :
    val_main_v106 (F := Ideal) x0 x1 x3 x4 x5 x6 x7 x9 x10 x11 x12 x13 x14 x15 x16 (ix2 e c) = val_main_v99 (F := Ideal) x0 x1 x3 x4 x5 x6 x7 x9 x10 x11 x12 x13 x14 x15 x16 (ix2 (Cert.Spec.row (Cert.Spec.srcW x1 e)) c) := by
  unfold val_main_v106
  generalize val_main_v99 (F := Ideal) x0 x1 x3 x4 x5 x6 x7 x9 x10 x11 x12 x13 x14 x15 x16 = y
  rw [Cert.LibGather.gather_rows_apply (by decide) gather_S50000x64_S800000x1_S800000x64_1_0_n_n_0_1_164
    rfl rfl rfl rfl rfl rfl rfl]
  refine congrArg (fun r => y (ix2 r c)) (Fin.ext ?_)
  show min (val_main_v105 (F := Ideal) x1 (ix2 e (0 : Fin 1))).toInt.toNat (50000 - 1) = (Cert.Spec.row (Cert.Spec.srcW x1 e)).val
  rw [wsrc105_apply]
  rfl

/-- An edge's two factors, spread along its row. -/
theorem factors (x1 : (⟨S2x800000, .i32⟩ : BufTy).Contents (Elt Ideal)) (e : Fin 800000) (c : Fin 64) :
    val_main_v107 (F := Ideal) x1 (ix2 e c)
      = Cert.Spec.dis x1 (Cert.Spec.row (Cert.Spec.srcW x1 e)) * Cert.Spec.dis x1 (Cert.Spec.row (Cert.Spec.dstW x1 e)) := by
  have hi : idx_main_v107 (ix2 e c) = ix2 e (0 : Fin 1) :=
    funext fun a => Fin.ext (by match a with | ⟨0, _⟩ => rfl | ⟨1, _⟩ => rfl)
  rw [val_main_v107_apply, hi, ref_enorm]

/-- A node's own factor twice, spread along its row. -/
theorem own (x1 : (⟨S2x800000, .i32⟩ : BufTy).Contents (Elt Ideal)) (n : Fin 50000) (c : Fin 64) :
    val_main_v112 (F := Ideal) x1 (ix2 n c) = Cert.Spec.dis x1 n * Cert.Spec.dis x1 n := by
  have hi : idx_main_v112 (ix2 n c) = ix2 n (0 : Fin 1) :=
    funext fun a => Fin.ext (by match a with | ⟨0, _⟩ => rfl | ⟨1, _⟩ => rfl)
  rw [val_main_v112_apply, hi, ref_snorm]

/-- The messages added up at node `n`, column `c`: zero plus the messages of the edges whose destination word, read
    signed, is `n` (a word outside the node range lands nowhere). -/
theorem landed (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x9 x10 x11 x12 x13 x14 x15 x16 : (⟨S64, .f32⟩ : BufTy).Contents (Elt Ideal)) (n : Fin 50000) (c : Fin 64) :
    val_main_v111 (F := Ideal) x0 x1 x3 x4 x5 x6 x7 x9 x10 x11 x12 x13 x14 x15 x16 (ix2 n c) = Cert.Spec.zero + ∑ e ∈ Cert.Spec.inE x1 n, val_main_v108 (F := Ideal) x0 x1 x3 x4 x5 x6 x7 x9 x10 x11 x12 x13 x14 x15 x16 (ix2 e c) := by
  rw [show val_main_v111 (F := Ideal) x0 x1 x3 x4 x5 x6 x7 x9 x10 x11 x12 x13 x14 x15 x16 = Ideal.hostScatterAdd scatter_S50000x64_S800000x1_S800000x64_1_0_0_1
      (val_main_v109 (F := Ideal)) (val_main_v110 (F := Ideal) x1) (val_main_v108 (F := Ideal) x0 x1 x3 x4 x5 x6 x7 x9 x10 x11 x12 x13 x14 x15 x16) from rfl,
    Cert.LibScatter.hostScatterAdd_rows_col_apply _ rfl rfl rfl rfl]
  generalize val_main_v108 (F := Ideal) x0 x1 x3 x4 x5 x6 x7 x9 x10 x11 x12 x13 x14 x15 x16 = u
  refine congrArg₂ (· + ·) ((val_main_v109_apply _).trans rfl) ?_
  refine Finset.sum_congr (Finset.filter_congr fun e _ => ?_) (fun e _ => rfl)
  exact iff_of_eq (congrArg (fun b : BitVec 32 => b.toInt = ((n.val : ℕ) : ℤ)) (dst110_apply x1 e))

/-- The aggregation at node `n`, column `c`: the landed messages plus the node's own row times its own factor twice. -/
theorem agg (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x9 x10 x11 x12 x13 x14 x15 x16 : (⟨S64, .f32⟩ : BufTy).Contents (Elt Ideal)) (h2 : Cert.Spec.Mat 50000 64) (hh : ∀ n j, val_main_v98 (F := Ideal) x0 x1 x3 x4 x5 x6 x9 x10 x11 x12 x13 x14 x15 x16 (ix2 n j) = h2 n j) (n : Fin 50000) (c : Fin 64) :
    val_main_v114 (F := Ideal) x0 x1 x3 x4 x5 x6 x7 x9 x10 x11 x12 x13 x14 x15 x16 (ix2 n c) = Cert.Spec.aggR x1 (Cert.Spec.mm h2 x7) n c := by
  have hs : ∀ e ∈ Cert.Spec.inE x1 n, val_main_v108 (F := Ideal) x0 x1 x3 x4 x5 x6 x7 x9 x10 x11 x12 x13 x14 x15 x16 (ix2 e c)
      = Cert.Spec.mm h2 x7 (Cert.Spec.row (Cert.Spec.srcW x1 e)) c
        * (Cert.Spec.dis x1 (Cert.Spec.row (Cert.Spec.srcW x1 e)) * Cert.Spec.dis x1 (Cert.Spec.row (Cert.Spec.dstW x1 e))) :=
    fun e _ => by rw [val_main_v108_apply, gathered, factors, feat x0 x1 x3 x4 x5 x6 x7 x9 x10 x11 x12 x13 x14 x15 x16 h2 hh, Ideal.mulf_def]
  rw [val_main_v114_apply, val_main_v113_apply, Ideal.addf_def, Ideal.mulf_def, landed, own, feat x0 x1 x3 x4 x5 x6 x7 x9 x10 x11 x12 x13 x14 x15 x16 h2 hh]
  unfold Cert.Spec.aggR
  exact congrArg₂ (· + ·) (congrArg₂ (· + ·) rfl (Finset.sum_congr rfl hs)) rfl

/-! ## Layer 3: bias, normalisation, positive part -/

/-- The bias, spread along the nodes: at node `n`, column `c`, its entry `c`. -/
theorem row116 (b : (⟨S64, .f32⟩ : BufTy).Contents (Elt Ideal)) (n : Fin 50000) (c : Fin 64) :
    val_main_v116 (F := Ideal) b (ix2 n c) = b (ix1 c) := by
  have hi : idx_main_v115 (idx_main_v116 (ix2 n c)) = ix1 c := funext fun a => Fin.ext (by match a with | ⟨0, _⟩ => rfl)
  rw [val_main_v116_apply, val_main_v115_apply, hi]

/-- The mean, spread along the nodes: at node `n`, column `c`, its entry `c`. -/
theorem row119 (b : (⟨S64, .f32⟩ : BufTy).Contents (Elt Ideal)) (n : Fin 50000) (c : Fin 64) :
    val_main_v119 (F := Ideal) b (ix2 n c) = b (ix1 c) := by
  have hi : idx_main_v118 (idx_main_v119 (ix2 n c)) = ix1 c := funext fun a => Fin.ext (by match a with | ⟨0, _⟩ => rfl)
  rw [val_main_v119_apply, val_main_v118_apply, hi]

/-- The scale, spread along the nodes: at node `n`, column `c`, its entry `c`. -/
theorem row128 (b : (⟨S64, .f32⟩ : BufTy).Contents (Elt Ideal)) (n : Fin 50000) (c : Fin 64) :
    val_main_v128 (F := Ideal) b (ix2 n c) = b (ix1 c) := by
  have hi : idx_main_v127 (idx_main_v128 (ix2 n c)) = ix1 c := funext fun a => Fin.ext (by match a with | ⟨0, _⟩ => rfl)
  rw [val_main_v128_apply, val_main_v127_apply, hi]

/-- The shift, spread along the nodes: at node `n`, column `c`, its entry `c`. -/
theorem row131 (b : (⟨S64, .f32⟩ : BufTy).Contents (Elt Ideal)) (n : Fin 50000) (c : Fin 64) :
    val_main_v131 (F := Ideal) b (ix2 n c) = b (ix1 c) := by
  have hi : idx_main_v130 (idx_main_v131 (ix2 n c)) = ix1 c := funext fun a => Fin.ext (by match a with | ⟨0, _⟩ => rfl)
  rw [val_main_v131_apply, val_main_v130_apply, hi]

/-- The inverse square root of the variance plus the offset, spread along the nodes. -/
theorem rstd125 (b : (⟨S64, .f32⟩ : BufTy).Contents (Elt Ideal)) (n : Fin 50000) (c : Fin 64) :
    val_main_v125 (F := Ideal) b (ix2 n c) = Ideal.rsqrt (b (ix1 c) + Cert.Spec.eps) := by
  have hi : idx_main_v124 (idx_main_v125 (ix2 n c)) = ix1 c := funext fun a => Fin.ext (by match a with | ⟨0, _⟩ => rfl)
  rw [val_main_v125_apply, val_main_v124_apply, hi, val_main_v123_apply, val_main_v122_apply, val_main_v121_apply,
    val_main_cst_16_apply, Ideal.hostUnary_rsqrt_def, Ideal.addf_def, Ideal.ofBits_def]

/-- The positive part is taken against zero. -/
theorem floor133 (i : S50000x64.Idx) : val_main_call2_v0 (F := Ideal) i = Cert.Spec.zero := by
  rw [val_main_call2_v0_apply, val_main_call2_cst_apply, Ideal.ofBits_def]

end L3

/-- LAYER 3 of the reference at node `n`, column `j`: the layer of the specification on the features the layer
    before left. -/
theorem ref_h3 (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 x9 x10 x11 x12 x13 x14 x15 x16 x17 x18 x19 x20 : (⟨S64, .f32⟩ : BufTy).Contents (Elt Ideal)) (h2 : Cert.Spec.Mat 50000 64) (hh : ∀ n j, val_main_v98 (F := Ideal) x0 x1 x3 x4 x5 x6 x9 x10 x11 x12 x13 x14 x15 x16 (ix2 n j) = h2 n j) (n : Fin 50000) (j : Fin 64) :
    val_main_v133 (F := Ideal) x0 x1 x3 x4 x5 x6 x7 x8 x9 x10 x11 x12 x13 x14 x15 x16 x17 x18 x19 x20 (ix2 n j)
      = Cert.Spec.layerR x1 (fun k => x8 (ix1 k)) (fun k => x17 (ix1 k)) (fun k => x18 (ix1 k)) (fun k => x19 (ix1 k)) (fun k => x20 (ix1 k)) (Cert.Spec.mm h2 x7) n j := by
  rw [val_main_v133_apply, val_main_v132_apply, val_main_v129_apply, val_main_v126_apply, val_main_v120_apply, val_main_v117_apply,
    L3.agg x0 x1 x3 x4 x5 x6 x7 x9 x10 x11 x12 x13 x14 x15 x16 h2 hh, L3.row116, L3.row119, L3.rstd125, L3.row128, L3.row131, L3.floor133]
  unfold Cert.Spec.layerR Cert.Spec.bn
  generalize Cert.Spec.aggR x1 (Cert.Spec.mm h2 x7) n j = a
  rfl

end Cert.ReferenceIdeal.RefValue

end
-- ==== Proof.RHeads.lean ====
/-
  The reference's pooling and its three heads, read at an index.

  The node count of a graph is the scatter-add of ones at the batch words into zeros; the per-graph sum of the last
  layer's features is the scatter-add of its rows at the same words. The graph embedding divides the sum by the
  larger of the count and one. Each head multiplies the embedding by its first weights, adds a bias, takes the
  positive part, multiplies by its second weights and adds a bias; the second and third heads end in
  1 / (1 + exp (-x)), which is the logistic function. The last layer's output enters only through its entries.
-/
import proofs.«416533_j8950711845031_2_alg».proof.Proof.Gen.ReferenceIdeal.Read
import proofs.«416533_j8950711845031_2_alg».proof.Proof.Spec
import proofs.«416533_j8950711845031_2_alg».proof.Proof.SpecLaws
import proofs.«416533_j8950711845031_2_alg».proof.Proof.LibScatter

noncomputable section

namespace Cert.ReferenceIdeal.RefValue

open Cert.ReferenceIdeal Cert.ReferenceIdeal.Gen Cert.ReferenceIdeal.Read Idealize.ShloMosaic Idealize.ShloMosaic.ValueIdx

variable (x0 : (⟨S50000x3, .f32⟩ : BufTy).Contents (Elt Ideal))
  (x1 : (⟨S2x800000, .i32⟩ : BufTy).Contents (Elt Ideal))
  (x2 : (⟨S50000, .i32⟩ : BufTy).Contents (Elt Ideal))
  (x3 : (⟨S3x64, .f32⟩ : BufTy).Contents (Elt Ideal))
  (x4 : (⟨S64, .f32⟩ : BufTy).Contents (Elt Ideal))
  (x5 : (⟨S64x64, .f32⟩ : BufTy).Contents (Elt Ideal))
  (x6 : (⟨S64, .f32⟩ : BufTy).Contents (Elt Ideal))
  (x7 : (⟨S64x64, .f32⟩ : BufTy).Contents (Elt Ideal))
  (x8 : (⟨S64, .f32⟩ : BufTy).Contents (Elt Ideal))
  (x9 : (⟨S64, .f32⟩ : BufTy).Contents (Elt Ideal))
  (x10 : (⟨S64, .f32⟩ : BufTy).Contents (Elt Ideal))
  (x11 : (⟨S64, .f32⟩ : BufTy).Contents (Elt Ideal))
  (x12 : (⟨S64, .f32⟩ : BufTy).Contents (Elt Ideal))
  (x13 : (⟨S64, .f32⟩ : BufTy).Contents (Elt Ideal))
  (x14 : (⟨S64, .f32⟩ : BufTy).Contents (Elt Ideal))
  (x15 : (⟨S64, .f32⟩ : BufTy).Contents (Elt Ideal))
  (x16 : (⟨S64, .f32⟩ : BufTy).Contents (Elt Ideal))
  (x17 : (⟨S64, .f32⟩ : BufTy).Contents (Elt Ideal))
  (x18 : (⟨S64, .f32⟩ : BufTy).Contents (Elt Ideal))
  (x19 : (⟨S64, .f32⟩ : BufTy).Contents (Elt Ideal))
  (x20 : (⟨S64, .f32⟩ : BufTy).Contents (Elt Ideal))
  (x21 : (⟨S64x32, .f32⟩ : BufTy).Contents (Elt Ideal))
  (x22 : (⟨S32, .f32⟩ : BufTy).Contents (Elt Ideal))
  (x23 : (⟨S32x6, .f32⟩ : BufTy).Contents (Elt Ideal))
  (x24 : (⟨S6, .f32⟩ : BufTy).Contents (Elt Ideal))
  (x25 : (⟨S64x32, .f32⟩ : BufTy).Contents (Elt Ideal))
  (x26 : (⟨S32, .f32⟩ : BufTy).Contents (Elt Ideal))
  (x27 : (⟨S32x2, .f32⟩ : BufTy).Contents (Elt Ideal))
  (x28 : (⟨S2, .f32⟩ : BufTy).Contents (Elt Ideal))
  (x29 : (⟨S64x16, .f32⟩ : BufTy).Contents (Elt Ideal))
  (x30 : (⟨S16, .f32⟩ : BufTy).Contents (Elt Ideal))
  (x31 : (⟨S16x1, .f32⟩ : BufTy).Contents (Elt Ideal))
  (x32 : (⟨S1, .f32⟩ : BufTy).Contents (Elt Ideal))

/-! ## The node counts and the pooled sums -/

theorem idx_v136_ix (e : Fin 50000) : idx_main_v136 (ix2 e (0 : Fin 1)) = ix1 e :=
  funext fun a => Fin.ext (by match a with | ⟨0, _⟩ => rfl)

theorem idx_v139_ix (e : Fin 50000) : idx_main_v139 (ix2 e (0 : Fin 1)) = ix1 e :=
  funext fun a => Fin.ext (by match a with | ⟨0, _⟩ => rfl)

/-- The scatter-add of ones at the batch words into zeros: the count of the graph's nodes. -/
theorem cnt_apply (g : Fin 64) :
    val_main_v137 (F := Ideal) x2 (ix1 g) = Cert.Spec.cnt (fun n => x2 (ix1 n)) g := by
  unfold val_main_v137
  refine (Cert.LibScatter.hostScatterAdd_col_apply scatter_S64_S50000x1_S50000_n_0_0_1 rfl rfl rfl rfl
    (val_main_v135 (F := Ideal)) (val_main_v136 (F := Ideal) x2) (val_main_v134 (F := Ideal)) (ix1 g)).trans ?_
  unfold Cert.Spec.cnt Cert.Spec.inG
  rw [val_main_v135_apply, val_main_cst_18_apply]
  refine congrArg₂ (· + ·) rfl (Finset.sum_congr (Finset.filter_congr fun e _ => ?_) fun e _ => ?_)
  · rw [val_main_v136_apply, idx_v136_ix]
  · rw [val_main_v134_apply, val_main_cst_17_apply]
    rfl

/-- The scatter-add of the last layer's rows at the batch words into zeros: the per-graph sums. -/
theorem pool_apply (h3 : Cert.Spec.Mat 50000 64)
    (hh : ∀ n j, val_main_v133 (F := Ideal) x0 x1 x3 x4 x5 x6 x7 x8 x9 x10 x11 x12 x13 x14 x15 x16 x17 x18 x19 x20 (ix2 n j) = h3 n j) (g c : Fin 64) :
    val_main_v140 (F := Ideal) x0 x1 x2 x3 x4 x5 x6 x7 x8 x9 x10 x11 x12 x13 x14 x15 x16 x17 x18 x19 x20 (ix2 g c) = Cert.Spec.pool (fun n => x2 (ix1 n)) h3 g c := by
  unfold val_main_v140
  generalize val_main_v133 (F := Ideal) x0 x1 x3 x4 x5 x6 x7 x8 x9 x10 x11 x12 x13 x14 x15 x16 x17 x18 x19 x20 = y at hh ⊢
  refine (Cert.LibScatter.hostScatterAdd_rows_col_apply scatter_S64x64_S50000x1_S50000x64_1_0_0_1 rfl rfl rfl rfl
    (val_main_v138 (F := Ideal)) (val_main_v139 (F := Ideal) x2) y (ix2 g c)).trans ?_
  unfold Cert.Spec.pool Cert.Spec.inG
  rw [val_main_v138_apply, val_main_cst_19_apply]
  refine congrArg₂ (· + ·) rfl (Finset.sum_congr (Finset.filter_congr fun e _ => ?_) fun e _ => hh e c)
  rw [val_main_v139_apply, idx_v139_ix]

theorem idx_v143_v144_ix (g c : Fin 64) : idx_main_v143 (idx_main_v144 (ix2 g c)) = ix1 g :=
  funext fun a => Fin.ext (by match a with | ⟨0, _⟩ => rfl)

/-- The divisor: the larger of the count and one, the same along a row. -/
theorem cntmax_apply (g c : Fin 64) :
    val_main_v144 (F := Ideal) x2 (ix2 g c) = max (Cert.Spec.cnt (fun n => x2 (ix1 n)) g) Cert.Spec.one := by
  rw [val_main_v144_apply, val_main_v143_apply, idx_v143_v144_ix, val_main_v142_apply, cnt_apply, val_main_v141_apply,
    val_main_cst_20_apply]
  rfl

/-- The graph embedding: the per-graph sum divided by the larger of the count and one. -/
theorem gemb_apply (h3 : Cert.Spec.Mat 50000 64)
    (hh : ∀ n j, val_main_v133 (F := Ideal) x0 x1 x3 x4 x5 x6 x7 x8 x9 x10 x11 x12 x13 x14 x15 x16 x17 x18 x19 x20 (ix2 n j) = h3 n j) (g c : Fin 64) :
    val_main_v145 (F := Ideal) x0 x1 x2 x3 x4 x5 x6 x7 x8 x9 x10 x11 x12 x13 x14 x15 x16 x17 x18 x19 x20 (ix2 g c)
      = Cert.Spec.gemb (fun n => x2 (ix1 n)) (Cert.Spec.pool (fun n => x2 (ix1 n)) h3) g c := by
  rw [val_main_v145_apply, pool_apply x0 x1 x2 x3 x4 x5 x6 x7 x8 x9 x10 x11 x12 x13 x14 x15 x16 x17 x18 x19 x20 h3 hh, cntmax_apply]
  rfl

/-! ## Head 0: weights, bias, positive part, weights, bias -/

theorem lidx_v146_ix (r : Fin 64) (k : Fin 32) (i : Fin 64) : lidx_main_v146 (ix2 r k) i = ix2 r i :=
  funext fun a => Fin.ext (by match a with | ⟨0, _⟩ => rfl | ⟨1, _⟩ => rfl)

theorem ridx_v146_ix (r : Fin 64) (k : Fin 32) (i : Fin 64) : ridx_main_v146 (ix2 r k) i = ix2 i k :=
  funext fun a => Fin.ext (by match a with | ⟨0, _⟩ => rfl | ⟨1, _⟩ => rfl)

theorem idx_v147_v148_ix (r : Fin 64) (k : Fin 32) : idx_main_v147 (idx_main_v148 (ix2 r k)) = ix1 k :=
  funext fun a => Fin.ext (by match a with | ⟨0, _⟩ => rfl)

/-- The hidden layer of head 0 over a graph embedding `G`: the positive part of the embedding's row against the
    first weights' column, plus the bias. -/
theorem hidden0_apply (G : Cert.Spec.Mat 64 64)
    (hG : ∀ r i, val_main_v145 (F := Ideal) x0 x1 x2 x3 x4 x5 x6 x7 x8 x9 x10 x11 x12 x13 x14 x15 x16 x17 x18 x19 x20 (ix2 r i) = G r i) (r : Fin 64) (k : Fin 32) :
    val_main_v150 (F := Ideal) x0 x1 x2 x3 x4 x5 x6 x7 x8 x9 x10 x11 x12 x13 x14 x15 x16 x17 x18 x19 x20 x21 x22 (ix2 r k)
      = max (Cert.Spec.mm G x21 r k + x22 (ix1 k)) Cert.Spec.zero := by
  rw [val_main_v150_apply, val_main_v149_apply, val_main_v146_apply, val_main_v148_apply, val_main_v147_apply,
    val_main_call3_v0_apply, val_main_call3_cst_apply]
  simp only [lidx_v146_ix, ridx_v146_ix, idx_v147_v148_ix, hG]
  rfl

theorem lidx_v151_ix (r : Fin 64) (j : Fin 6) (k : Fin 32) : lidx_main_v151 (ix2 r j) k = ix2 r k :=
  funext fun a => Fin.ext (by match a with | ⟨0, _⟩ => rfl | ⟨1, _⟩ => rfl)

theorem ridx_v151_ix (r : Fin 64) (j : Fin 6) (k : Fin 32) : ridx_main_v151 (ix2 r j) k = ix2 k j :=
  funext fun a => Fin.ext (by match a with | ⟨0, _⟩ => rfl | ⟨1, _⟩ => rfl)

theorem idx_v152_v153_ix (r : Fin 64) (j : Fin 6) : idx_main_v152 (idx_main_v153 (ix2 r j)) = ix1 j :=
  funext fun a => Fin.ext (by match a with | ⟨0, _⟩ => rfl)

/-- Head 0 over a graph embedding `G`. -/
theorem head0_apply (G : Cert.Spec.Mat 64 64)
    (hG : ∀ r i, val_main_v145 (F := Ideal) x0 x1 x2 x3 x4 x5 x6 x7 x8 x9 x10 x11 x12 x13 x14 x15 x16 x17 x18 x19 x20 (ix2 r i) = G r i) (r : Fin 64) (j : Fin 6) :
    val_main_v154 (F := Ideal) x0 x1 x2 x3 x4 x5 x6 x7 x8 x9 x10 x11 x12 x13 x14 x15 x16 x17 x18 x19 x20 x21 x22 x23 x24 (ix2 r j)
      = Cert.Spec.head G x21 (fun k => x22 (ix1 k)) x23 (fun k => x24 (ix1 k)) r j := by
  rw [val_main_v154_apply, val_main_v151_apply, val_main_v153_apply, val_main_v152_apply]
  simp only [lidx_v151_ix, ridx_v151_ix, idx_v152_v153_ix, hidden0_apply x0 x1 x2 x3 x4 x5 x6 x7 x8 x9 x10 x11 x12 x13 x14 x15 x16 x17 x18 x19 x20 x21 x22 G hG]
  rfl

/-! ## Head 1: weights, bias, positive part, weights, bias -/

theorem lidx_v155_ix (r : Fin 64) (k : Fin 32) (i : Fin 64) : lidx_main_v155 (ix2 r k) i = ix2 r i :=
  funext fun a => Fin.ext (by match a with | ⟨0, _⟩ => rfl | ⟨1, _⟩ => rfl)

theorem ridx_v155_ix (r : Fin 64) (k : Fin 32) (i : Fin 64) : ridx_main_v155 (ix2 r k) i = ix2 i k :=
  funext fun a => Fin.ext (by match a with | ⟨0, _⟩ => rfl | ⟨1, _⟩ => rfl)

theorem idx_v156_v157_ix (r : Fin 64) (k : Fin 32) : idx_main_v156 (idx_main_v157 (ix2 r k)) = ix1 k :=
  funext fun a => Fin.ext (by match a with | ⟨0, _⟩ => rfl)

/-- The hidden layer of head 1 over a graph embedding `G`: the positive part of the embedding's row against the
    first weights' column, plus the bias. -/
theorem hidden1_apply (G : Cert.Spec.Mat 64 64)
    (hG : ∀ r i, val_main_v145 (F := Ideal) x0 x1 x2 x3 x4 x5 x6 x7 x8 x9 x10 x11 x12 x13 x14 x15 x16 x17 x18 x19 x20 (ix2 r i) = G r i) (r : Fin 64) (k : Fin 32) :
    val_main_v159 (F := Ideal) x0 x1 x2 x3 x4 x5 x6 x7 x8 x9 x10 x11 x12 x13 x14 x15 x16 x17 x18 x19 x20 x25 x26 (ix2 r k)
      = max (Cert.Spec.mm G x25 r k + x26 (ix1 k)) Cert.Spec.zero := by
  rw [val_main_v159_apply, val_main_v158_apply, val_main_v155_apply, val_main_v157_apply, val_main_v156_apply,
    val_main_call4_v0_apply, val_main_call4_cst_apply]
  simp only [lidx_v155_ix, ridx_v155_ix, idx_v156_v157_ix, hG]
  rfl

theorem lidx_v160_ix (r : Fin 64) (j : Fin 2) (k : Fin 32) : lidx_main_v160 (ix2 r j) k = ix2 r k :=
  funext fun a => Fin.ext (by match a with | ⟨0, _⟩ => rfl | ⟨1, _⟩ => rfl)

theorem ridx_v160_ix (r : Fin 64) (j : Fin 2) (k : Fin 32) : ridx_main_v160 (ix2 r j) k = ix2 k j :=
  funext fun a => Fin.ext (by match a with | ⟨0, _⟩ => rfl | ⟨1, _⟩ => rfl)

theorem idx_v161_v162_ix (r : Fin 64) (j : Fin 2) : idx_main_v161 (idx_main_v162 (ix2 r j)) = ix1 j :=
  funext fun a => Fin.ext (by match a with | ⟨0, _⟩ => rfl)

/-- Head 1 over a graph embedding `G`. -/
theorem head1_apply (G : Cert.Spec.Mat 64 64)
    (hG : ∀ r i, val_main_v145 (F := Ideal) x0 x1 x2 x3 x4 x5 x6 x7 x8 x9 x10 x11 x12 x13 x14 x15 x16 x17 x18 x19 x20 (ix2 r i) = G r i) (r : Fin 64) (j : Fin 2) :
    val_main_v163 (F := Ideal) x0 x1 x2 x3 x4 x5 x6 x7 x8 x9 x10 x11 x12 x13 x14 x15 x16 x17 x18 x19 x20 x25 x26 x27 x28 (ix2 r j)
      = Cert.Spec.head G x25 (fun k => x26 (ix1 k)) x27 (fun k => x28 (ix1 k)) r j := by
  rw [val_main_v163_apply, val_main_v160_apply, val_main_v162_apply, val_main_v161_apply]
  simp only [lidx_v160_ix, ridx_v160_ix, idx_v161_v162_ix, hidden1_apply x0 x1 x2 x3 x4 x5 x6 x7 x8 x9 x10 x11 x12 x13 x14 x15 x16 x17 x18 x19 x20 x25 x26 G hG]
  rfl

/-- Head 1 ends in one over one plus the exponential of the negated value: the logistic function. -/
theorem logistic1_apply (G : Cert.Spec.Mat 64 64)
    (hG : ∀ r i, val_main_v145 (F := Ideal) x0 x1 x2 x3 x4 x5 x6 x7 x8 x9 x10 x11 x12 x13 x14 x15 x16 x17 x18 x19 x20 (ix2 r i) = G r i) (r : Fin 64) (j : Fin 2) :
    val_main_v169 (F := Ideal) x0 x1 x2 x3 x4 x5 x6 x7 x8 x9 x10 x11 x12 x13 x14 x15 x16 x17 x18 x19 x20 x25 x26 x27 x28 (ix2 r j)
      = Ideal.logistic (Cert.Spec.head G x25 (fun k => x26 (ix1 k)) x27 (fun k => x28 (ix1 k)) r j) := by
  rw [val_main_v169_apply, val_main_v168_apply, val_main_cst_22_apply, val_main_v167_apply, val_main_v166_apply,
    val_main_cst_21_apply, val_main_v165_apply, val_main_v164_apply, head1_apply x0 x1 x2 x3 x4 x5 x6 x7 x8 x9 x10 x11 x12 x13 x14 x15 x16 x17 x18 x19 x20 x25 x26 x27 x28 G hG]
  show Ideal.div Cert.Spec.one (Cert.Spec.one + Ideal.exp (-_)) = _
  rw [Cert.Spec.one_eq]
  rfl

/-! ## Head 2: weights, bias, positive part, weights, bias -/

theorem lidx_v170_ix (r : Fin 64) (k : Fin 16) (i : Fin 64) : lidx_main_v170 (ix2 r k) i = ix2 r i :=
  funext fun a => Fin.ext (by match a with | ⟨0, _⟩ => rfl | ⟨1, _⟩ => rfl)

theorem ridx_v170_ix (r : Fin 64) (k : Fin 16) (i : Fin 64) : ridx_main_v170 (ix2 r k) i = ix2 i k :=
  funext fun a => Fin.ext (by match a with | ⟨0, _⟩ => rfl | ⟨1, _⟩ => rfl)

theorem idx_v171_v172_ix (r : Fin 64) (k : Fin 16) : idx_main_v171 (idx_main_v172 (ix2 r k)) = ix1 k :=
  funext fun a => Fin.ext (by match a with | ⟨0, _⟩ => rfl)

/-- The hidden layer of head 2 over a graph embedding `G`: the positive part of the embedding's row against the
    first weights' column, plus the bias. -/
theorem hidden2_apply (G : Cert.Spec.Mat 64 64)
    (hG : ∀ r i, val_main_v145 (F := Ideal) x0 x1 x2 x3 x4 x5 x6 x7 x8 x9 x10 x11 x12 x13 x14 x15 x16 x17 x18 x19 x20 (ix2 r i) = G r i) (r : Fin 64) (k : Fin 16) :
    val_main_v174 (F := Ideal) x0 x1 x2 x3 x4 x5 x6 x7 x8 x9 x10 x11 x12 x13 x14 x15 x16 x17 x18 x19 x20 x29 x30 (ix2 r k)
      = max (Cert.Spec.mm G x29 r k + x30 (ix1 k)) Cert.Spec.zero := by
  rw [val_main_v174_apply, val_main_v173_apply, val_main_v170_apply, val_main_v172_apply, val_main_v171_apply,
    val_main_call5_v0_apply, val_main_call5_cst_apply]
  simp only [lidx_v170_ix, ridx_v170_ix, idx_v171_v172_ix, hG]
  rfl

theorem lidx_v175_ix (r : Fin 64) (j : Fin 1) (k : Fin 16) : lidx_main_v175 (ix2 r j) k = ix2 r k :=
  funext fun a => Fin.ext (by match a with | ⟨0, _⟩ => rfl | ⟨1, _⟩ => rfl)

theorem ridx_v175_ix (r : Fin 64) (j : Fin 1) (k : Fin 16) : ridx_main_v175 (ix2 r j) k = ix2 k j :=
  funext fun a => Fin.ext (by match a with | ⟨0, _⟩ => rfl | ⟨1, _⟩ => rfl)

theorem idx_v176_v177_ix (r : Fin 64) (j : Fin 1) : idx_main_v176 (idx_main_v177 (ix2 r j)) = ix1 j :=
  funext fun a => Fin.ext (by match a with | ⟨0, _⟩ => exact (Nat.lt_one_iff.mp j.isLt).symm)

/-- Head 2 over a graph embedding `G`. -/
theorem head2_apply (G : Cert.Spec.Mat 64 64)
    (hG : ∀ r i, val_main_v145 (F := Ideal) x0 x1 x2 x3 x4 x5 x6 x7 x8 x9 x10 x11 x12 x13 x14 x15 x16 x17 x18 x19 x20 (ix2 r i) = G r i) (r : Fin 64) (j : Fin 1) :
    val_main_v178 (F := Ideal) x0 x1 x2 x3 x4 x5 x6 x7 x8 x9 x10 x11 x12 x13 x14 x15 x16 x17 x18 x19 x20 x29 x30 x31 x32 (ix2 r j)
      = Cert.Spec.head G x29 (fun k => x30 (ix1 k)) x31 (fun k => x32 (ix1 k)) r j := by
  rw [val_main_v178_apply, val_main_v175_apply, val_main_v177_apply, val_main_v176_apply]
  simp only [lidx_v175_ix, ridx_v175_ix, idx_v176_v177_ix, hidden2_apply x0 x1 x2 x3 x4 x5 x6 x7 x8 x9 x10 x11 x12 x13 x14 x15 x16 x17 x18 x19 x20 x29 x30 G hG]
  rfl

/-- Head 2 ends in one over one plus the exponential of the negated value: the logistic function. -/
theorem logistic2_apply (G : Cert.Spec.Mat 64 64)
    (hG : ∀ r i, val_main_v145 (F := Ideal) x0 x1 x2 x3 x4 x5 x6 x7 x8 x9 x10 x11 x12 x13 x14 x15 x16 x17 x18 x19 x20 (ix2 r i) = G r i) (r : Fin 64) (j : Fin 1) :
    val_main_v184 (F := Ideal) x0 x1 x2 x3 x4 x5 x6 x7 x8 x9 x10 x11 x12 x13 x14 x15 x16 x17 x18 x19 x20 x29 x30 x31 x32 (ix2 r j)
      = Ideal.logistic (Cert.Spec.head G x29 (fun k => x30 (ix1 k)) x31 (fun k => x32 (ix1 k)) r j) := by
  rw [val_main_v184_apply, val_main_v183_apply, val_main_cst_24_apply, val_main_v182_apply, val_main_v181_apply,
    val_main_cst_23_apply, val_main_v180_apply, val_main_v179_apply, head2_apply x0 x1 x2 x3 x4 x5 x6 x7 x8 x9 x10 x11 x12 x13 x14 x15 x16 x17 x18 x19 x20 x29 x30 x31 x32 G hG]
  show Ideal.div Cert.Spec.one (Cert.Spec.one + Ideal.exp (-_)) = _
  rw [Cert.Spec.one_eq]
  rfl

/-! ## The three results over the last layer's output -/

theorem ref_out0 (h3 : Cert.Spec.Mat 50000 64)
    (hh : ∀ n j, val_main_v133 (F := Ideal) x0 x1 x3 x4 x5 x6 x7 x8 x9 x10 x11 x12 x13 x14 x15 x16 x17 x18 x19 x20 (ix2 n j) = h3 n j) (r : Fin 64) (j : Fin 6) :
    val_main_v154 (F := Ideal) x0 x1 x2 x3 x4 x5 x6 x7 x8 x9 x10 x11 x12 x13 x14 x15 x16 x17 x18 x19 x20 x21 x22 x23 x24 (ix2 r j)
      = Cert.Spec.head (Cert.Spec.gemb (fun n => x2 (ix1 n)) (Cert.Spec.pool (fun n => x2 (ix1 n)) h3)) x21 (fun k => x22 (ix1 k)) x23 (fun k => x24 (ix1 k)) r j :=
  head0_apply x0 x1 x2 x3 x4 x5 x6 x7 x8 x9 x10 x11 x12 x13 x14 x15 x16 x17 x18 x19 x20 x21 x22 x23 x24 _ (gemb_apply x0 x1 x2 x3 x4 x5 x6 x7 x8 x9 x10 x11 x12 x13 x14 x15 x16 x17 x18 x19 x20 h3 hh) r j

theorem ref_out1 (h3 : Cert.Spec.Mat 50000 64)
    (hh : ∀ n j, val_main_v133 (F := Ideal) x0 x1 x3 x4 x5 x6 x7 x8 x9 x10 x11 x12 x13 x14 x15 x16 x17 x18 x19 x20 (ix2 n j) = h3 n j) (r : Fin 64) (j : Fin 2) :
    val_main_v169 (F := Ideal) x0 x1 x2 x3 x4 x5 x6 x7 x8 x9 x10 x11 x12 x13 x14 x15 x16 x17 x18 x19 x20 x25 x26 x27 x28 (ix2 r j)
      = Ideal.logistic (Cert.Spec.head (Cert.Spec.gemb (fun n => x2 (ix1 n)) (Cert.Spec.pool (fun n => x2 (ix1 n)) h3)) x25 (fun k => x26 (ix1 k)) x27 (fun k => x28 (ix1 k)) r j) :=
  logistic1_apply x0 x1 x2 x3 x4 x5 x6 x7 x8 x9 x10 x11 x12 x13 x14 x15 x16 x17 x18 x19 x20 x25 x26 x27 x28 _ (gemb_apply x0 x1 x2 x3 x4 x5 x6 x7 x8 x9 x10 x11 x12 x13 x14 x15 x16 x17 x18 x19 x20 h3 hh) r j

theorem ref_out2 (h3 : Cert.Spec.Mat 50000 64)
    (hh : ∀ n j, val_main_v133 (F := Ideal) x0 x1 x3 x4 x5 x6 x7 x8 x9 x10 x11 x12 x13 x14 x15 x16 x17 x18 x19 x20 (ix2 n j) = h3 n j) (r : Fin 64) (j : Fin 1) :
    val_main_v184 (F := Ideal) x0 x1 x2 x3 x4 x5 x6 x7 x8 x9 x10 x11 x12 x13 x14 x15 x16 x17 x18 x19 x20 x29 x30 x31 x32 (ix2 r j)
      = Ideal.logistic (Cert.Spec.head (Cert.Spec.gemb (fun n => x2 (ix1 n)) (Cert.Spec.pool (fun n => x2 (ix1 n)) h3)) x29 (fun k => x30 (ix1 k)) x31 (fun k => x32 (ix1 k)) r j) :=
  logistic2_apply x0 x1 x2 x3 x4 x5 x6 x7 x8 x9 x10 x11 x12 x13 x14 x15 x16 x17 x18 x19 x20 x29 x30 x31 x32 _ (gemb_apply x0 x1 x2 x3 x4 x5 x6 x7 x8 x9 x10 x11 x12 x13 x14 x15 x16 x17 x18 x19 x20 h3 hh) r j

end Cert.ReferenceIdeal.RefValue

end
-- ==== Proof.RValue.lean ====
/-
  The reference's three results, entry by entry, as the network of its launch arguments: its run's terms are the
  last stages of the program read one operation at a time; the layers feed one another through their outputs only.
-/
import proofs.«416533_j8950711845031_2_alg».proof.Proof.Gen.ReferenceIdeal.Read
import proofs.«416533_j8950711845031_2_alg».proof.Proof.Net
import proofs.«416533_j8950711845031_2_alg».proof.Proof.RLayer1
import proofs.«416533_j8950711845031_2_alg».proof.Proof.RLayer23
import proofs.«416533_j8950711845031_2_alg».proof.Proof.RHeads
set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

variable (m : (ℓ : Loc nD τ sig) → Buf (Elt Ideal) ℓ) (c : Dev nD)

/-- The argument arrays as core `c` finds them at launch. -/
def argsOf : Cert.Net.Args where
  x := m ((c.tc : Thread nD τ).loc main_arg0)
  ei := m ((c.tc : Thread nD τ).loc main_arg1)
  batch := m ((c.tc : Thread nD τ).loc main_arg2)
  W1 := m ((c.tc : Thread nD τ).loc main_arg3)
  b1 := m ((c.tc : Thread nD τ).loc main_arg4)
  W2 := m ((c.tc : Thread nD τ).loc main_arg5)
  b2 := m ((c.tc : Thread nD τ).loc main_arg6)
  W3 := m ((c.tc : Thread nD τ).loc main_arg7)
  b3 := m ((c.tc : Thread nD τ).loc main_arg8)
  g1 := m ((c.tc : Thread nD τ).loc main_arg9)
  be1 := m ((c.tc : Thread nD τ).loc main_arg10)
  mu1 := m ((c.tc : Thread nD τ).loc main_arg11)
  var1 := m ((c.tc : Thread nD τ).loc main_arg12)
  g2 := m ((c.tc : Thread nD τ).loc main_arg13)
  be2 := m ((c.tc : Thread nD τ).loc main_arg14)
  mu2 := m ((c.tc : Thread nD τ).loc main_arg15)
  var2 := m ((c.tc : Thread nD τ).loc main_arg16)
  g3 := m ((c.tc : Thread nD τ).loc main_arg17)
  be3 := m ((c.tc : Thread nD τ).loc main_arg18)
  mu3 := m ((c.tc : Thread nD τ).loc main_arg19)
  var3 := m ((c.tc : Thread nD τ).loc main_arg20)
  thW1 := m ((c.tc : Thread nD τ).loc main_arg21)
  thb1 := m ((c.tc : Thread nD τ).loc main_arg22)
  thW2 := m ((c.tc : Thread nD τ).loc main_arg23)
  thb2 := m ((c.tc : Thread nD τ).loc main_arg24)
  lhW1 := m ((c.tc : Thread nD τ).loc main_arg25)
  lhb1 := m ((c.tc : Thread nD τ).loc main_arg26)
  lhW2 := m ((c.tc : Thread nD τ).loc main_arg27)
  lhb2 := m ((c.tc : Thread nD τ).loc main_arg28)
  shW1 := m ((c.tc : Thread nD τ).loc main_arg29)
  shb1 := m ((c.tc : Thread nD τ).loc main_arg30)
  shW2 := m ((c.tc : Thread nD τ).loc main_arg31)
  shb2 := m ((c.tc : Thread nD τ).loc main_arg32)

/-- Result 0 of the reference, entry by entry, as the network's function of the launch arguments. -/
theorem ref_value0 (r : Fin 64) (j : Fin 6) :
    (Cert.ReferenceIdeal.Value.res_main_v154 (F := Ideal) m c : S64x6.Idx → EReal) (ix2 r j) = Cert.Net.out0 (argsOf m c) (Cert.Net.h3R (argsOf m c)) r j :=
  (congrFun (val_main_v154_eq (F := Ideal) m c) (ix2 r j)).trans
    (ref_out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (Cert.Net.h3R (argsOf m c)) (fun n j => ref_h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (Cert.Net.h2R (argsOf m c)) (fun n j => ref_h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (Cert.Net.h1R (argsOf m c)) (fun n j => ref_h1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) n j) n j) n j) r j)

/-- Result 1 of the reference. -/
theorem ref_value1 (r : Fin 64) (j : Fin 2) :
    (Cert.ReferenceIdeal.Value.res_main_v169 (F := Ideal) m c : S64x2.Idx → EReal) (ix2 r j) = Cert.Net.out1 (argsOf m c) (Cert.Net.h3R (argsOf m c)) r j :=
  (congrFun (val_main_v169_eq (F := Ideal) m c) (ix2 r j)).trans
    (ref_out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg25)) (m ((c.tc : Thread nD τ).loc main_arg26)) (m ((c.tc : Thread nD τ).loc main_arg27)) (m ((c.tc : Thread nD τ).loc main_arg28)) (Cert.Net.h3R (argsOf m c)) (fun n j => ref_h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (Cert.Net.h2R (argsOf m c)) (fun n j => ref_h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (Cert.Net.h1R (argsOf m c)) (fun n j => ref_h1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) n j) n j) n j) r j)

/-- Result 2 of the reference. -/
theorem ref_value2 (r : Fin 64) (j : Fin 1) :
    (Cert.ReferenceIdeal.Value.res_main_v184 (F := Ideal) m c : S64x1.Idx → EReal) (ix2 r j) = Cert.Net.out2 (argsOf m c) (Cert.Net.h3R (argsOf m c)) r j :=
  (congrFun (val_main_v184_eq (F := Ideal) m c) (ix2 r j)).trans
    (ref_out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg29)) (m ((c.tc : Thread nD τ).loc main_arg30)) (m ((c.tc : Thread nD τ).loc main_arg31)) (m ((c.tc : Thread nD τ).loc main_arg32)) (Cert.Net.h3R (argsOf m c)) (fun n j => ref_h3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (Cert.Net.h2R (argsOf m c)) (fun n j => ref_h2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (Cert.Net.h1R (argsOf m c)) (fun n j => ref_h1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12)) n j) n j) n j) r j)

end Cert.ReferenceIdeal.RefValue

end
-- ==== Proof.lean ====
/-
  Three rounds of message passing on a graph of 50000 nodes and 800000 edges, a per-graph mean, and three small
  two-layer heads: the kernel's program against the plain reference.

  Both programs compute the node factor dis = (1 + in-degree)^(-1/2) with the same host operations.  A round of the
  reference multiplies each gathered row of m = h·W by the edge's two factors dis(src)·dis(dst), sums the rows
  landing at a node, and adds m·dis² for the node itself.  The kernel scales first, ms = m·dis, sums the gathered rows
  of ms, and multiplies the node's total (its own row included) by dis afterwards.  The two are one function because
  dis is a nonnegative REAL at every node (the in-degree is a count), so multiplication by it distributes over every
  sum of extended reals, infinite summands included (a zero variance offset may make the normalisation infinite, and
  nothing here needs the inputs finite), and because an edge that lands at node n has dst = n.  The per-graph sum is a
  scatter-add in the reference and, in the kernel, a product with the 0/1 matrix "node n is in graph g" accumulated over
  the 25 row blocks: zero times anything is zero in the extended reals, so the two sums have the same terms.  The heads
  are the same operations; the logistic function is 1/(1 + exp(−x)) on both sides.

  The kernel's side is read off its frame run: the contents every buffer holds at each boundary between host stretches
  and kernel regions, walked from the launch to the three results (Proof/KValue.lean over the regions' and stretches'
  values); the reference's side off its run, one operation at a time (Proof/RValue.lean).  Both meet at the network
  written once over the argument arrays (Proof/Net.lean).
-/
import proofs.«416533_j8950711845031_2_alg».proof.Defs
import proofs.«416533_j8950711845031_2_alg».proof.Proof.Gen.Kernel
import proofs.«416533_j8950711845031_2_alg».proof.Proof.Gen.Kernel.Skeleton
import proofs.«416533_j8950711845031_2_alg».proof.Proof.Gen.Kernel.Launch
import proofs.«416533_j8950711845031_2_alg».proof.Proof.Gen.Kernel.Points
import proofs.«416533_j8950711845031_2_alg».proof.Proof.Gen.Kernel.Frame
import proofs.«416533_j8950711845031_2_alg».proof.Proof.Gen.KernelIdeal
import proofs.«416533_j8950711845031_2_alg».proof.Proof.Gen.KernelIdeal.Skeleton
import proofs.«416533_j8950711845031_2_alg».proof.Proof.Gen.KernelIdeal.Launch
import proofs.«416533_j8950711845031_2_alg».proof.Proof.Gen.KernelIdeal.Points
import proofs.«416533_j8950711845031_2_alg».proof.Proof.Gen.KernelIdeal.Frame
import proofs.«416533_j8950711845031_2_alg».proof.Proof.Gen.ReferenceIdeal
import proofs.«416533_j8950711845031_2_alg».proof.Proof.Gen.ReferenceIdeal.Run
import proofs.«416533_j8950711845031_2_alg».proof.Proof.Gen.ReferenceIdeal.Read
import proofs.«416533_j8950711845031_2_alg».proof.Proof.Gen.Pre_finite_inputs
import proofs.«416533_j8950711845031_2_alg».proof.Proof.Net
import proofs.«416533_j8950711845031_2_alg».proof.Proof.KRun
import proofs.«416533_j8950711845031_2_alg».proof.Proof.KValue
import proofs.«416533_j8950711845031_2_alg».proof.Proof.RValue
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with the same three results: the kernel's are what its last region leaves; the reference's
    are, entry by entry, the same network of the same arguments. -/
theorem algebraic : Cert.algebraic_KernelIdeal_ReferenceIdeal := by
  intro m ρ m' ρ' _ hagree
  have hA : ∀ c, Cert.ReferenceIdeal.RefValue.argsOf m' c = Cert.KernelIdeal.Gen.argsOf m c := fun c => by
    obtain ⟨e0, e1, e2, e3, e4, e5, e6, e7, e8, e9, e10, e11, e12, e13, e14, e15, e16, e17, e18, e19, e20, e21, e22, e23, e24, e25, e26, e27, e28, e29, e30, e31, e32⟩ := hagree c
    unfold Cert.ReferenceIdeal.RefValue.argsOf Cert.KernelIdeal.Gen.argsOf
    rw [Cert.Net.Args.mk.injEq]
    exact ⟨e0, e1, e2, e3, e4, e5, e6, e7, e8, e9, e10, e11, e12, e13, e14, e15, e16, e17, e18, e19, e20, e21, e22, e23, e24, e25, e26, e27, e28, e29, e30, e31, e32⟩
  refine ⟨fun c => Cert.KernelIdeal.Gen.W10 m ρ c (Proc.devRef .tc Cert.KernelIdeal.main_v77_0), fun c => Cert.KernelIdeal.Gen.W10 m ρ c (Proc.devRef .tc Cert.KernelIdeal.main_v77_1),
    fun c => Cert.KernelIdeal.Gen.W10 m ρ c (Proc.devRef .tc Cert.KernelIdeal.main_v77_2), ?_, ?_⟩
  · refine (θ_run Cert.KernelIdeal.defs _ _).mono (fun r h c => ?_) (Cert.KernelIdeal.Gen.run_all m ρ)
    exact ⟨h c _ (Cert.KernelIdeal.Gen.mem_uc Cert.KernelIdeal.main_v77_0 (by decide)), h c _ (Cert.KernelIdeal.Gen.mem_uc Cert.KernelIdeal.main_v77_1 (by decide)),
      h c _ (Cert.KernelIdeal.Gen.mem_uc Cert.KernelIdeal.main_v77_2 (by decide)),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c),
      (h c _ (Cert.KernelIdeal.Gen.mem_uc Cert.KernelIdeal.main_arg14 (by decide))).trans (Cert.KernelIdeal.Gen.W10_main_arg14 m ρ c),
      (h c _ (Cert.KernelIdeal.Gen.mem_uc Cert.KernelIdeal.main_arg15 (by decide))).trans (Cert.KernelIdeal.Gen.W10_main_arg15 m ρ c),
      (h c _ (Cert.KernelIdeal.Gen.mem_uc Cert.KernelIdeal.main_arg16 (by decide))).trans (Cert.KernelIdeal.Gen.W10_main_arg16 m ρ c),
      (h c _ (Cert.KernelIdeal.Gen.mem_uc Cert.KernelIdeal.main_arg17 (by decide))).trans (Cert.KernelIdeal.Gen.W10_main_arg17 m ρ c),
      (h c _ (Cert.KernelIdeal.Gen.mem_uc Cert.KernelIdeal.main_arg18 (by decide))).trans (Cert.KernelIdeal.Gen.W10_main_arg18 m ρ c),
      (h c _ (Cert.KernelIdeal.Gen.mem_uc Cert.KernelIdeal.main_arg19 (by decide))).trans (Cert.KernelIdeal.Gen.W10_main_arg19 m ρ c),
      (h c _ (Cert.KernelIdeal.Gen.mem_uc Cert.KernelIdeal.main_arg20 (by decide))).trans (Cert.KernelIdeal.Gen.W10_main_arg20 m ρ c),
      (h c _ (Cert.KernelIdeal.Gen.mem_uc Cert.KernelIdeal.main_arg21 (by decide))).trans (Cert.KernelIdeal.Gen.W10_main_arg21 m ρ c),
      (h c _ (Cert.KernelIdeal.Gen.mem_uc Cert.KernelIdeal.main_arg22 (by decide))).trans (Cert.KernelIdeal.Gen.W10_main_arg22 m ρ c),
      (h c _ (Cert.KernelIdeal.Gen.mem_uc Cert.KernelIdeal.main_arg23 (by decide))).trans (Cert.KernelIdeal.Gen.W10_main_arg23 m ρ c),
      (h c _ (Cert.KernelIdeal.Gen.mem_uc Cert.KernelIdeal.main_arg24 (by decide))).trans (Cert.KernelIdeal.Gen.W10_main_arg24 m ρ c),
      (h c _ (Cert.KernelIdeal.Gen.mem_uc Cert.KernelIdeal.main_arg25 (by decide))).trans (Cert.KernelIdeal.Gen.W10_main_arg25 m ρ c),
      (h c _ (Cert.KernelIdeal.Gen.mem_uc Cert.KernelIdeal.main_arg26 (by decide))).trans (Cert.KernelIdeal.Gen.W10_main_arg26 m ρ c),
      (h c _ (Cert.KernelIdeal.Gen.mem_uc Cert.KernelIdeal.main_arg27 (by decide))).trans (Cert.KernelIdeal.Gen.W10_main_arg27 m ρ c),
      (h c _ (Cert.KernelIdeal.Gen.mem_uc Cert.KernelIdeal.main_arg28 (by decide))).trans (Cert.KernelIdeal.Gen.W10_main_arg28 m ρ c),
      (h c _ (Cert.KernelIdeal.Gen.mem_uc Cert.KernelIdeal.main_arg29 (by decide))).trans (Cert.KernelIdeal.Gen.W10_main_arg29 m ρ c),
      (h c _ (Cert.KernelIdeal.Gen.mem_uc Cert.KernelIdeal.main_arg30 (by decide))).trans (Cert.KernelIdeal.Gen.W10_main_arg30 m ρ c),
      (h c _ (Cert.KernelIdeal.Gen.mem_uc Cert.KernelIdeal.main_arg31 (by decide))).trans (Cert.KernelIdeal.Gen.W10_main_arg31 m ρ c),
      (h c _ (Cert.KernelIdeal.Gen.mem_uc Cert.KernelIdeal.main_arg32 (by decide))).trans (Cert.KernelIdeal.Gen.W10_main_arg32 m ρ c)⟩
  · refine (θ_run Cert.ReferenceIdeal.defs _ _).mono (fun r h c => ?_) (Cert.ReferenceIdeal.Value.run (F := Ideal) m' ρ')
    obtain ⟨h0, h1, h2, hargs⟩ := h c
    refine ⟨h0.trans ?_, h1.trans ?_, h2.trans ?_, hargs⟩
    · refine funext fun (i : (⟨2, ![64, 6]⟩ : Shape).Idx) => ?_
      obtain ⟨r', j, rfl⟩ : ∃ (r' : Fin 64) (j : Fin 6), i = ix2 r' j := ⟨i 0, i 1, eq_ix2 (n0 := 64) (n1 := 6) i⟩
      have e1 := Cert.ReferenceIdeal.RefValue.ref_value0 m' c r' j
      have e2 := Cert.KernelIdeal.Gen.kernel_out0 m ρ c r' j
      rw [hA c, ← Cert.Net.h3K_eq] at e1
      exact e1.trans e2.symm
    · refine funext fun (i : (⟨2, ![64, 2]⟩ : Shape).Idx) => ?_
      obtain ⟨r', j, rfl⟩ : ∃ (r' : Fin 64) (j : Fin 2), i = ix2 r' j := ⟨i 0, i 1, eq_ix2 (n0 := 64) (n1 := 2) i⟩
      have e1 := Cert.ReferenceIdeal.RefValue.ref_value1 m' c r' j
      have e2 := Cert.KernelIdeal.Gen.kernel_out1 m ρ c r' j
      rw [hA c, ← Cert.Net.h3K_eq] at e1
      exact e1.trans e2.symm
    · refine funext fun (i : (⟨2, ![64, 1]⟩ : Shape).Idx) => ?_
      obtain ⟨r', j, rfl⟩ : ∃ (r' : Fin 64) (j : Fin 1), i = ix2 r' j := ⟨i 0, i 1, eq_ix2 (n0 := 64) (n1 := 1) i⟩
      have e1 := Cert.ReferenceIdeal.RefValue.ref_value2 m' c r' j
      have e2 := Cert.KernelIdeal.Gen.kernel_out2 m ρ c r' j
      rw [hA c, ← Cert.Net.h3K_eq] at e1
      exact e1.trans e2.symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
